-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x128 : Shape := ⟨2, ![800000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S2x800000 : Shape := ⟨2, ![2, 800000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S3x128 .f32) (main_arg8 : FVec F S3x128 .f32) (main_arg9 : FVec F S128x128 .f32) (main_arg10 : FVec F S128 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S3x128x128 .f32) (main_arg5 : FVec F S3x128x128 .f32) (main_arg6 : FVec F S3x128 .f32) (main_arg7 : FVec F S3x128 .f32) (main_arg8 : FVec F S3x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S800000x128 .f32) (main_arg2 : FVec F S128x128 .f32) (main_arg3 : FVec F S128 .f32) (main_arg4 : FVec F S3x128x128 .f32) (main_arg5 : FVec F S3x128x128 .f32) (main_arg6 : FVec F S3x128 .f32) (main_arg7 : FVec F S3x128 .f32) (main_arg8 : FVec F S3x128 .f32) (main_arg9 : FVec F S128x128 .f32) (main_arg10 : FVec F S128 .f32) (main_arg11 : IVec S2x800000 32) (main_arg12 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S800000x128 : Shape := ⟨2, ![800000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S2000x128 : Shape := ⟨2, ![2000, 128]⟩
abbrev S1x128x128 : Shape := ⟨3, ![1, 128, 128]⟩
abbrev S5000x128 : Shape := ⟨2, ![5000, 128]⟩
abbrev S800000x1 : Shape := ⟨2, ![800000, 1]⟩
abbrev S2000 : Shape := ⟨1, ![2000]⟩
abbrev S2000x1 : Shape := ⟨2, ![2000, 1]⟩
abbrev S64x100000 : Shape := ⟨2, ![64, 100000]⟩
abbrev S1x100000 : Shape := ⟨2, ![1, 100000]⟩
abbrev S64x100096 : Shape := ⟨2, ![64, 100096]⟩
abbrev S100096x128 : Shape := ⟨2, ![100096, 128]⟩
abbrev S64x128 : Shape := ⟨2, ![64, 128]⟩
abbrev S64x5888 : Shape := ⟨2, ![64, 5888]⟩
abbrev S5888x128 : Shape := ⟨2, ![5888, 128]⟩
abbrev S64 : Shape := ⟨1, ![64]⟩
abbrev S100000x1 : Shape := ⟨2, ![100000, 1]⟩
abbrev S64x1 : Shape := ⟨2, ![64, 1]⟩

abbrev nBuf : Space → Nat
  | .hbm => 148
  | .vmem => 90
  | .smem => 0
  | _ => 0

abbrev hbmTy0_0 (i : Nat) : BufTy := match i % 128 with
  | 0 => ⟨S100000x128, .f32⟩
  | 1 => ⟨S800000x128, .f32⟩
  | 2 => ⟨S128x128, .f32⟩
  | 3 => ⟨S128, .f32⟩
  | 4 => ⟨S3x128x128, .f32⟩
  | 5 => ⟨S3x128x128, .f32⟩
  | 6 => ⟨S3x128, .f32⟩
  | 7 => ⟨S3x128, .f32⟩
  | 8 => ⟨S3x128, .f32⟩
  | 9 => ⟨S128x128, .f32⟩
  | 10 => ⟨S128, .f32⟩
  | 11 => ⟨S2x800000, .i32⟩
  | 12 => ⟨S100000, .i32⟩
  | 13 => ⟨S1x800000, .i32⟩
  | 14 => ⟨S800000, .i32⟩
  | 15 => ⟨S1x800000, .i32⟩
  | 16 => ⟨S800000, .i32⟩
  | 17 => ⟨S100000x128, .bf16⟩
  | 18 => ⟨S800000x128, .bf16⟩
  | 19 => ⟨S128x128, .bf16⟩
  | 20 => ⟨S128x128, .bf16⟩
  | 21 => ⟨S3x128x128, .bf16⟩
  | 22 => ⟨S3x128x128, .bf16⟩
  | 23 => ⟨S_, .f32⟩
  | 24 => ⟨S1x128, .f32⟩
  | 25 => ⟨S1x128, .f32⟩
  | 26 => ⟨S100000x128, .f32⟩
  | 27 => ⟨S100000x128, .bf16⟩
  | 28 => ⟨S1x128x128, .bf16⟩
  | 29 => ⟨S128x128, .bf16⟩
  | 30 => ⟨S100000x128, .f32⟩
  | 31 => ⟨S1x128x128, .bf16⟩
  | 32 => ⟨S128x128, .bf16⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S_, .f32⟩
  | 45 => ⟨S100000x128, .f32⟩
  | 46 => ⟨S800000x1, .i32⟩
  | 47 => ⟨S100000x128, .f32⟩
  | 48 => ⟨S1x128, .f32⟩
  | 49 => ⟨S128, .f32⟩
  | 50 => ⟨S1x128, .f32⟩
  | 51 => ⟨S1x128, .f32⟩
  | 52 => ⟨S128, .f32⟩
  | 53 => ⟨S1x128, .f32⟩
  | 54 => ⟨S1x128, .f32⟩
  | 55 => ⟨S128, .f32⟩
  | 56 => ⟨S1x128, .f32⟩
  | 57 => ⟨S100000x128, .f32⟩
  | 58 => ⟨S100000x128, .bf16⟩
  | 59 => ⟨S1x128x128, .bf16⟩
  | 60 => ⟨S128x128, .bf16⟩
  | 61 => ⟨S100000x128, .f32⟩
  | 62 => ⟨S1x128x128, .bf16⟩
  | 63 => ⟨S128x128, .bf16⟩
  | 64 => ⟨S800000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x128, .f32⟩
  | 75 => ⟨S_, .f32⟩
  | 76 => ⟨S100000x128, .f32⟩
  | 77 => ⟨S800000x1, .i32⟩
  | 78 => ⟨S100000x128, .f32⟩
  | 79 => ⟨S1x128, .f32⟩
  | 80 => ⟨S128, .f32⟩
  | 81 => ⟨S1x128, .f32⟩
  | 82 => ⟨S1x128, .f32⟩
  | 83 => ⟨S128, .f32⟩
  | 84 => ⟨S1x128, .f32⟩
  | 85 => ⟨S1x128, .f32⟩
  | 86 => ⟨S128, .f32⟩
  | 87 => ⟨S1x128, .f32⟩
  | 88 => ⟨S100000x128, .f32⟩
  | 89 => ⟨S100000x128, .bf16⟩
  | 90 => ⟨S1x128x128, .bf16⟩
  | 91 => ⟨S128x128, .bf16⟩
  | 92 => ⟨S100000x128, .f32⟩
  | 93 => ⟨S1x128x128, .bf16⟩
  | 94 => ⟨S128x128, .bf16⟩
  | 95 => ⟨S800000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x128, .f32⟩
  | 106 => ⟨S_, .f32⟩
  | 107 => ⟨S100000x128, .f32⟩
  | 108 => ⟨S800000x1, .i32⟩
  | 109 => ⟨S100000x128, .f32⟩
  | 110 => ⟨S1x128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S100000x128, .f32⟩
  | 120 => ⟨S100000x128, .bf16⟩
  | 121 => ⟨S1x128, .f32⟩
  | 122 => ⟨S100000x128, .f32⟩
  | 123 => ⟨S64x100000, .i32⟩
  | 124 => ⟨S1x100000, .i32⟩
  | 125 => ⟨S64x100000, .i32⟩
  | 126 => ⟨S64x100000, .i1⟩
  | 127 => ⟨S64x100000, .bf16⟩
  | _ => ⟨S100000x128, .f32⟩

abbrev hbmTy0_1 (i : Nat) : BufTy := match i % 128 with
  | 0 => ⟨S_, .i32⟩
  | 1 => ⟨S_, .bf16⟩
  | 2 => ⟨S64x100096, .bf16⟩
  | 3 => ⟨S100000x128, .bf16⟩
  | 4 => ⟨S_, .i32⟩
  | 5 => ⟨S_, .bf16⟩
  | 6 => ⟨S100096x128, .bf16⟩
  | 7 => ⟨S64x128, .f32⟩
  | 8 => ⟨S_, .f32⟩
  | 9 => ⟨S100000, .f32⟩
  | 10 => ⟨S_, .f32⟩
  | 11 => ⟨S64, .f32⟩
  | 12 => ⟨S100000x1, .i32⟩
  | 13 => ⟨S64, .f32⟩
  | 14 => ⟨S_, .f32⟩
  | 15 => ⟨S64, .f32⟩
  | 16 => ⟨S64, .f32⟩
  | 17 => ⟨S64x1, .f32⟩
  | 18 => ⟨S64x128, .f32⟩
  | 19 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S128x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S128x128, .bf16⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S5000x128, .bf16⟩
  | .local _ .vmem, ⟨15, _⟩ => ⟨S5000x128, .bf16⟩
  | .local _ .vmem, ⟨16, _⟩ => ⟨S128x128, .bf16⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .bf16⟩
  | .local _ .vmem, ⟨31, _⟩ => ⟨S2000x128, .bf16⟩
  | .local _ .vmem, ⟨32, _⟩ => ⟨S128x128, .bf16⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S5000x128, .bf16⟩
  | .local _ .vmem, ⟨38, _⟩ => ⟨S5000x128, .bf16⟩
  | .local _ .vmem, ⟨39, _⟩ => ⟨S128x128, .bf16⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S2000x128, .f32⟩
  | .local _ .vmem, ⟨48, _⟩ => ⟨S2000x128, .f32⟩
  | .local _ .vmem, ⟨49, _⟩ => ⟨S1x128, .f32⟩
  | .local _ .vmem, ⟨50, _⟩ => ⟨S1x128, .f32⟩
  | .local _ .vmem, ⟨51, _⟩ => ⟨S2000x128, .f32⟩
  | .local _ .vmem, ⟨52, _⟩ => ⟨S2000x128, .f32⟩
  | .local _ .vmem, ⟨53, _⟩ => ⟨S2000x128, .bf16⟩
  | .local _ .vmem, ⟨54, _⟩ => ⟨S2000x128, .bf16⟩
  | .local _ .vmem, ⟨55, _⟩ => ⟨S128x128, .bf16⟩
  | .local _ .vmem, ⟨56, _⟩ => ⟨S1x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S5000x128, .bf16⟩
  | .local _ .vmem, ⟨61, _⟩ => ⟨S5000x128, .bf16⟩
  | .local _ .vmem, ⟨62, _⟩ => ⟨S128x128, .bf16⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S2000x128, .f32⟩
  | .local _ .vmem, ⟨68, _⟩ => ⟨S2000x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S1x128, .f32⟩
  | .local _ .vmem, ⟨73, _⟩ => ⟨S1x128, .f32⟩
  | .local _ .vmem, ⟨74, _⟩ => ⟨S2000x128, .f32⟩
  | .local _ .vmem, ⟨75, _⟩ => ⟨S2000x128, .f32⟩
  | .local _ .vmem, ⟨76, _⟩ => ⟨S2000x128, .bf16⟩
  | .local _ .vmem, ⟨77, _⟩ => ⟨S2000x128, .bf16⟩
  | .local _ .vmem, ⟨78, _⟩ => ⟨S128x128, .bf16⟩
  | .local _ .vmem, ⟨79, _⟩ => ⟨S1x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S64x5888, .bf16⟩
  | .local _ .vmem, ⟨84, _⟩ => ⟨S64x5888, .bf16⟩
  | .local _ .vmem, ⟨85, _⟩ => ⟨S5888x128, .bf16⟩
  | .local _ .vmem, ⟨86, _⟩ => ⟨S5888x128, .bf16⟩
  | .local _ .vmem, ⟨87, _⟩ => ⟨S1x128, .f32⟩
  | .local _ .vmem, ⟨88, _⟩ => ⟨S64x128, .f32⟩
  | .local _ .vmem, ⟨89, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_2 : Ref sig .tc := ⟨.hbm, 65, rfl⟩
abbrev main_v48 : Ref sig .tc := ⟨.hbm, 66, rfl⟩
abbrev main_v49 : Ref sig .tc := ⟨.hbm, 67, rfl⟩
abbrev main_c_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_4 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_5 : Ref sig .tc := ⟨.hbm, 96, rfl⟩
abbrev main_v76 : Ref sig .tc := ⟨.hbm, 97, rfl⟩
abbrev main_v77 : Ref sig .tc := ⟨.hbm, 98, rfl⟩
abbrev main_c_6 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_7 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_c_8 : Ref sig .tc := ⟨.hbm, 128, rfl⟩
abbrev main_call0_v0 : Ref sig .tc := ⟨.hbm, 129, rfl⟩
abbrev main_v105 : Ref sig .tc := ⟨.hbm, 130, rfl⟩
abbrev main_v106 : Ref sig .tc := ⟨.hbm, 131, rfl⟩
abbrev main_c_9 : Ref sig .tc := ⟨.hbm, 132, rfl⟩
abbrev main_call1_v0 : Ref sig .tc := ⟨.hbm, 133, rfl⟩
abbrev main_v107 : Ref sig .tc := ⟨.hbm, 134, rfl⟩
abbrev main_v108 : Ref sig .tc := ⟨.hbm, 135, rfl⟩
abbrev main_cst_10 : Ref sig .tc := ⟨.hbm, 136, rfl⟩
abbrev main_v109 : Ref sig .tc := ⟨.hbm, 137, rfl⟩
abbrev main_cst_11 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_12 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg5_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc7_scratch0 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc8_scratch0 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg2_0 : Ref sig .tc := ⟨.vmem, 70, rfl⟩
abbrev cc9_stg2_1 : Ref sig .tc := ⟨.vmem, 71, rfl⟩
abbrev cc9_stg3_0 : Ref sig .tc := ⟨.vmem, 72, rfl⟩
abbrev cc9_stg4_0 : Ref sig .tc := ⟨.vmem, 73, rfl⟩
abbrev cc9_stg5_0 : Ref sig .tc := ⟨.vmem, 74, rfl⟩
abbrev cc9_stg5_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg2_0 : Ref sig .tc := ⟨.vmem, 79, rfl⟩
abbrev cc10_stg3_0 : Ref sig .tc := ⟨.vmem, 80, rfl⟩
abbrev cc10_stg3_1 : Ref sig .tc := ⟨.vmem, 81, rfl⟩
abbrev cc10_scratch0 : Ref sig .tc := ⟨.vmem, 82, rfl⟩
abbrev cc11_stg0_0 : Ref sig .tc := ⟨.vmem, 83, rfl⟩
abbrev cc11_stg0_1 : Ref sig .tc := ⟨.vmem, 84, rfl⟩
abbrev cc11_stg1_0 : Ref sig .tc := ⟨.vmem, 85, rfl⟩
abbrev cc11_stg1_1 : Ref sig .tc := ⟨.vmem, 86, rfl⟩
abbrev cc11_stg2_0 : Ref sig .tc := ⟨.vmem, 87, rfl⟩
abbrev cc11_stg3_0 : Ref sig .tc := ⟨.vmem, 88, rfl⟩
abbrev cc11_scratch0 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc6_sem3_0 : DmaSem sig := 44
abbrev cc6_sem4_0 : DmaSem sig := 45
abbrev cc6_sem5_0 : DmaSem sig := 46
abbrev cc6_sem5_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc9_sem3_0 : DmaSem sig := 65
abbrev cc9_sem4_0 : DmaSem sig := 66
abbrev cc9_sem5_0 : DmaSem sig := 67
abbrev cc9_sem5_1 : DmaSem sig := 68
abbrev cc10_sem0_0 : DmaSem sig := 69
abbrev cc10_sem0_1 : DmaSem sig := 70
abbrev cc10_sem1_0 : DmaSem sig := 71
abbrev cc10_sem2_0 : DmaSem sig := 72
abbrev cc10_sem3_0 : DmaSem sig := 73
abbrev cc10_sem3_1 : DmaSem sig := 74
abbrev cc11_sem0_0 : DmaSem sig := 75
abbrev cc11_sem0_1 : DmaSem sig := 76
abbrev cc11_sem1_0 : DmaSem sig := 77
abbrev cc11_sem1_1 : DmaSem sig := 78
abbrev cc11_sem2_0 : DmaSem sig := 79
abbrev cc11_sem3_0 : DmaSem sig := 80

abbrev nD : Nat := 1
abbrev τ : Topo := Topo.v7x

variable {F : FTy → Type} [FloatOps F]

abbrev grid0 : Pipeline.Grid := ⟨2, ![50, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![50, 1], ![false, false]⟩

def k1_cond2 (i : grid1.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![160, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![50, 1], ![false, false]⟩

def k4_cond2 (i : grid4.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![160, 1], ![false, false]⟩

def k5_cond2 (i : grid5.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S5000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨2, ![50, 1], ![false, false]⟩

def k7_cond2 (i : grid7.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S128x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![160, 1], ![false, false]⟩

def k8_cond2 (i : grid8.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S5000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S128x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨2, ![50, 1], ![false, false]⟩

def k10_cond2 (i : grid10.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2000x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S128x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![1, 17], ![false, false]⟩

def k11_cond2 (i : grid11.Coords) : BitVec 1 :=
  let arg1 : BitVec 32 := BitVec.ofNat 32 (i 1).val
  let c16_i32 : BitVec 32 := 16#32
  let v13 : BitVec 1 := Scalar.cmpi .eq arg1 c16_i32
  let v14 : BitVec 32 := Scalar.extui v13
  let c0_i32_8 : BitVec 32 := 0#32
  let v15 : BitVec 1 := Scalar.cmpi .ne v14 c0_i32_8
  v15

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S64x5888 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S5888x128 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 1 → Memref sig .tc .vmem S64x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S1x128 : S_.BroadcastsInDim S1x128 (![] : Fin 0 → Fin S1x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  reduces_S2000x128_S2000 : S2000x128.Reduces [1] S2000
  shapeCasts_S2000_S2000x1 : S2000.ShapeCasts S2000x1
  broadcasts_S2000x1_S2000x128 : S2000x1.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000_S1x100000_1 : S100000.BroadcastsInDim S1x100000 (![1] : Fin 1 → Fin S1x100000.rank)
  bcast_S1x100000_S64x100000_0_1 : S1x100000.BroadcastsInDim S64x100000 (![0, 1] : Fin 2 → Fin S64x100000.rank)
  pads_S64x100000_S64x100096_000_0960 : S64x100000.Pads (![0, 0] : Fin 2 → Nat) ![0, 96] ![0, 0] S64x100096
  h_S_ : 0 < S_.numel
  pads_S100000x128_S100096x128_0960_000 : S100000x128.Pads (![0, 0] : Fin 2 → Nat) ![96, 0] ![0, 0] S100096x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x5888_S64x5888_0_0 : ∀ a, (![0, 0] : Fin 2 → Nat) a + S64x5888.size a ≤ S64x5888.size a
  h_S64x5888 : 0 < S64x5888.numel
  shapeCasts_S64x5888_S64x5888 : S64x5888.ShapeCasts S64x5888
  inb_S5888x128_S5888x128_0_0 : ∀ a, (![0, 0] : Fin 2 → Nat) a + S5888x128.size a ≤ S5888x128.size a
  h_S5888x128 : 0 < S5888x128.numel
  shapeCasts_S5888x128_S5888x128 : S5888x128.ShapeCasts S5888x128
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S64x5888_S5888x128_S64x128_1_0_0_1_n_n_wf : DotDims.WF S64x5888 S5888x128 S64x128 [1] [0] [0] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .bf16 = 32 ∨ (Rect.block (s := S100000x128) S2000x128.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S800000x128.size a
  hwx2_0 : ∀ i : grid2.Coords, EltTy.bits .bf16 = 32 ∨ (Rect.block (s := S800000x128) S5000x128.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S800000x128.size a
  hwx2_3 : ∀ i : grid2.Coords, EltTy.bits .f32 = 32 ∨ (Rect.block (s := S800000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .bf16 = 32 ∨ (Rect.block (s := S100000x128) S2000x128.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S800000x128.size a
  hwx5_0 : ∀ i : grid5.Coords, EltTy.bits .bf16 = 32 ∨ (Rect.block (s := S800000x128) S5000x128.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S800000x128.size a
  hwx5_3 : ∀ i : grid5.Coords, EltTy.bits .f32 = 32 ∨ (Rect.block (s := S800000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S100000x128.size a
  hwx6_5 : ∀ i : grid6.Coords, EltTy.bits .f32 = 32 ∨ (Rect.block (s := S100000x128) S2000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .bf16 = 32 ∨ (Rect.block (s := S100000x128) S2000x128.size (cc7_transform_0 i) (hinb7_0 i)).WholeWords (EltTy.packing .bf16)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .bf16 = 32 ∨ (Rect.block (s := S128x128) S128x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S100000x128.size a
  hwx7_3 : ∀ i : grid7.Coords, EltTy.bits .f32 = 32 ∨ (Rect.block (s := S100000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S800000x128.size a
  hwx8_0 : ∀ i : grid8.Coords, EltTy.bits .bf16 = 32 ∨ (Rect.block (s := S800000x128) S5000x128.size (cc8_transform_0 i) (hinb8_0 i)).WholeWords (EltTy.packing .bf16)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .bf16 = 32 ∨ (Rect.block (s := S128x128) S128x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S800000x128.size a
  hwx8_3 : ∀ i : grid8.Coords, EltTy.bits .f32 = 32 ∨ (Rect.block (s := S800000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S100000x128.size a
  hwx9_2 : ∀ i : grid9.Coords, EltTy.bits .f32 = 32 ∨ (Rect.block (s := S100000x128) S2000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S100000x128.size a
  hwx9_5 : ∀ i : grid9.Coords, EltTy.bits .f32 = 32 ∨ (Rect.block (s := S100000x128) S2000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .bf16 = 32 ∨ (Rect.block (s := S100000x128) S2000x128.size (cc10_transform_0 i) (hinb10_0 i)).WholeWords (EltTy.packing .bf16)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .bf16 = 32 ∨ (Rect.block (s := S128x128) S128x128.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S100000x128.size a
  hwx10_3 : ∀ i : grid10.Coords, EltTy.bits .f32 = 32 ∨ (Rect.block (s := S100000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S64x5888.size a ≤ S64x100096.size a
  hwx11_0 : ∀ i : grid11.Coords, EltTy.bits .bf16 = 32 ∨ (Rect.block (s := S64x100096) S64x5888.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5888x128.size a ≤ S100096x128.size a
  hwx11_1 : ∀ i : grid11.Coords, EltTy.bits .bf16 = 32 ∨ (Rect.block (s := S100096x128) S5888x128.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S64x128.size a ≤ S64x128.size a
  hwx11_3 : ∀ i : grid11.Coords, EltTy.bits .f32 = 32 ∨ (Rect.block (s := S64x128) S64x128.size (cc11_transform_3 i) (hinb11_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S64x5888_S5888x128_S64x128_1_0_0_1_n_n : DotDims S64x5888 S5888x128 S64x128 where
  lhsContracting := [1]
  rhsContracting := [0]
  lhsNonContracting := [0]
  rhsNonContracting := [1]
  lhsBatch := []
  rhsBatch := []
  wf := dot_S64x5888_S5888x128_S64x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S128x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v30) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v41) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S128x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v5) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S128x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v58) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v40) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v64) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v67) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v68) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v69) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S128x128.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v10) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v72) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v5) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v74) S128x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v10) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v75) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v86) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v89) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v68) S2000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v92) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v95) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v96) S2000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v97) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v7) S128x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v98) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v99) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v105) S64x5888.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v107) S5888x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v10) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v108) S64x128.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S800000x128 : Shape := ⟨2, ![800000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S1x128 : Shape := ⟨2, ![1, 128]⟩
abbrev S1x128x128 : Shape := ⟨3, ![1, 128, 128]⟩
abbrev S_ : Shape := ⟨0, ![]⟩
abbrev S800000x1 : Shape := ⟨2, ![800000, 1]⟩
abbrev S100000x1 : Shape := ⟨2, ![100000, 1]⟩
abbrev S64x128 : Shape := ⟨2, ![64, 128]⟩
abbrev S64 : Shape := ⟨1, ![64]⟩
abbrev S64x1 : Shape := ⟨2, ![64, 1]⟩

abbrev nBuf : Space → Nat
  | .hbm => 226
  | .vmem => 0
  | .smem => 0
  | _ => 0

abbrev hbmTy0_0 (i : Nat) : BufTy := match i % 128 with
  | 0 => ⟨S100000x128, .f32⟩
  | 1 => ⟨S800000x128, .f32⟩
  | 2 => ⟨S128x128, .f32⟩
  | 3 => ⟨S128, .f32⟩
  | 4 => ⟨S3x128x128, .f32⟩
  | 5 => ⟨S3x128x128, .f32⟩
  | 6 => ⟨S3x128, .f32⟩
  | 7 => ⟨S3x128, .f32⟩
  | 8 => ⟨S3x128, .f32⟩
  | 9 => ⟨S128x128, .f32⟩
  | 10 => ⟨S128, .f32⟩
  | 11 => ⟨S2x800000, .i32⟩
  | 12 => ⟨S100000, .i32⟩
  | 13 => ⟨S1x800000, .i32⟩
  | 14 => ⟨S800000, .i32⟩
  | 15 => ⟨S1x800000, .i32⟩
  | 16 => ⟨S800000, .i32⟩
  | 17 => ⟨S100000x128, .f32⟩
  | 18 => ⟨S1x128, .f32⟩
  | 19 => ⟨S100000x128, .f32⟩
  | 20 => ⟨S100000x128, .f32⟩
  | 21 => ⟨S1x128x128, .f32⟩
  | 22 => ⟨S128x128, .f32⟩
  | 23 => ⟨S100000x128, .f32⟩
  | 24 => ⟨S1x128x128, .f32⟩
  | 25 => ⟨S128x128, .f32⟩
  | 26 => ⟨S800000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x128, .f32⟩
  | 37 => ⟨S_, .f32⟩
  | 38 => ⟨S100000x128, .f32⟩
  | 39 => ⟨S800000x1, .i32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S100000, .f32⟩
  | 55 => ⟨S100000x1, .f32⟩
  | 56 => ⟨S_, .f32⟩
  | 57 => ⟨S100000x1, .f32⟩
  | 58 => ⟨S100000x1, .f32⟩
  | 59 => ⟨S100000x128, .f32⟩
  | 60 => ⟨S100000x128, .f32⟩
  | 61 => ⟨S100000x128, .f32⟩
  | 62 => ⟨S_, .f32⟩
  | 63 => ⟨S100000, .f32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S_, .f32⟩
  | 71 => ⟨S100000x1, .f32⟩
  | 72 => ⟨S100000x1, .f32⟩
  | 73 => ⟨S100000x1, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S1x128x128, .f32⟩
  | 86 => ⟨S128x128, .f32⟩
  | 87 => ⟨S800000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x128, .f32⟩
  | 98 => ⟨S_, .f32⟩
  | 99 => ⟨S100000x128, .f32⟩
  | 100 => ⟨S800000x1, .i32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S1x128, .f32⟩
  | 112 => ⟨S128, .f32⟩
  | 113 => ⟨S1x128, .f32⟩
  | 114 => ⟨S128, .f32⟩
  | 115 => ⟨S_, .f32⟩
  | 116 => ⟨S100000, .f32⟩
  | 117 => ⟨S100000x1, .f32⟩
  | 118 => ⟨S_, .f32⟩
  | 119 => ⟨S100000x1, .f32⟩
  | 120 => ⟨S100000x1, .f32⟩
  | 121 => ⟨S100000x128, .f32⟩
  | 122 => ⟨S100000x128, .f32⟩
  | 123 => ⟨S100000x128, .f32⟩
  | 124 => ⟨S_, .f32⟩
  | 125 => ⟨S100000, .f32⟩
  | 126 => ⟨S100000x1, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S_, .f32⟩
  | 5 => ⟨S100000x1, .f32⟩
  | 6 => ⟨S100000x1, .f32⟩
  | 7 => ⟨S100000x1, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S1x128x128, .f32⟩
  | 20 => ⟨S128x128, .f32⟩
  | 21 => ⟨S800000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x128, .f32⟩
  | 32 => ⟨S_, .f32⟩
  | 33 => ⟨S100000x128, .f32⟩
  | 34 => ⟨S800000x1, .i32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S100000x128, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x128, .f32⟩
  | 65 => ⟨S100000x128, .f32⟩
  | 66 => ⟨S_, .f32⟩
  | 67 => ⟨S100000x1, .f32⟩
  | 68 => ⟨S100000x1, .f32⟩
  | 69 => ⟨S100000x1, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S64x128, .f32⟩
  | 84 => ⟨S100000x1, .i32⟩
  | 85 => ⟨S64x128, .f32⟩
  | 86 => ⟨S_, .f32⟩
  | 87 => ⟨S100000, .f32⟩
  | 88 => ⟨S_, .f32⟩
  | 89 => ⟨S64, .f32⟩
  | 90 => ⟨S100000x1, .i32⟩
  | 91 => ⟨S64, .f32⟩
  | 92 => ⟨S_, .f32⟩
  | 93 => ⟨S64, .f32⟩
  | 94 => ⟨S64, .f32⟩
  | 95 => ⟨S64x1, .f32⟩
  | 96 => ⟨S64x128, .f32⟩
  | 97 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_6 : Ref sig .tc := ⟨.hbm, 88, rfl⟩
abbrev main_v65 : Ref sig .tc := ⟨.hbm, 89, rfl⟩
abbrev main_v66 : Ref sig .tc := ⟨.hbm, 90, rfl⟩
abbrev main_c_7 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call1_cst : Ref sig .tc := ⟨.hbm, 107, rfl⟩
abbrev main_call1_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_11 : Ref sig .tc := ⟨.hbm, 124, rfl⟩
abbrev main_v94 : Ref sig .tc := ⟨.hbm, 125, rfl⟩
abbrev main_v95 : Ref sig .tc := ⟨.hbm, 126, rfl⟩
abbrev main_cst_12 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_13 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_14 : Ref sig .tc := ⟨.hbm, 150, rfl⟩
abbrev main_v117 : Ref sig .tc := ⟨.hbm, 151, rfl⟩
abbrev main_v118 : Ref sig .tc := ⟨.hbm, 152, rfl⟩
abbrev main_c_15 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_16 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_call2_cst : Ref sig .tc := ⟨.hbm, 169, rfl⟩
abbrev main_call2_v0 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_17 : Ref sig .tc := ⟨.hbm, 177, rfl⟩
abbrev main_v139 : Ref sig .tc := ⟨.hbm, 178, rfl⟩
abbrev main_v140 : Ref sig .tc := ⟨.hbm, 179, rfl⟩
abbrev main_cst_18 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_19 : Ref sig .tc := ⟨.hbm, 186, rfl⟩
abbrev main_v146 : Ref sig .tc := ⟨.hbm, 187, rfl⟩
abbrev main_v147 : Ref sig .tc := ⟨.hbm, 188, rfl⟩
abbrev main_cst_20 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_21 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_22 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_23 : Ref sig .tc := ⟨.hbm, 214, rfl⟩
abbrev main_v170 : Ref sig .tc := ⟨.hbm, 215, rfl⟩
abbrev main_cst_24 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_25 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S100000x128_S128x128_S100000x128_1_0_0_1_n_n_wf : DotDims.WF S100000x128 S128x128 S100000x128 [1] [0] [0] [1] [] []
  dot_S800000x128_S128x128_S800000x128_1_0_0_1_n_n_wf : DotDims.WF S800000x128 S128x128 S800000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.R0.lean ====
/- Region 0 of the encoder: one block of 2000 rows of the product `a · b + bias` per grid point.
   The grid's second axis has extent 1, so at every point the kernel zeroes its accumulator, adds the block product
   into it, and stores accumulator + bias into the output's staging buffer: nothing is carried from point to point, and
   the class's invariant (the scoped rest at some contents, the generator register at some state) is the region's.
   Stated at a parameter `V`, the TensorCore's buffer contents when the region is entered, and at any `F`. -/
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the matrix product with bias, one block of rows per grid point -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window (0) is fetched at every point, so its staging buffer holds its block there: for any proof
    data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weights' window (1) is fetched at the first point only and its block index never moves: its staging
    buffer holds the one block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- The bias' window (2), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## The body's branch conditions

The grid's second axis has extent 1, so its coordinate is 0 at every point: both conditions hold throughout. -/

/-- The first `scf.if`'s condition (the accumulator is zeroed), from the grid coordinates. -/
abbrev cond0_a (i : grid0.Coords) : Prop :=
  (Scalar.cmpi .ne (Scalar.extui (Scalar.cmpi .eq (BitVec.ofNat 32 (i 1).val) 0#32)) 0#32) = 1#1
theorem hcond0_a : ∀ t : Fin cfg0.N, cond0_a (grid0.coords t) :=
  (by decide +kernel : ∀ t : Fin grid0.N, cond0_a (grid0.coords t))

/-- The second `scf.if`'s condition (the output is stored). -/
abbrev cond0_b (i : grid0.Coords) : Prop := k0_cond2 i = 1#1
theorem hcond0_b : ∀ t : Fin cfg0.N, cond0_b (grid0.coords t) :=
  (by decide +kernel : ∀ t : Fin grid0.N, cond0_b (grid0.coords t))

/-- So the output window is idle at no point. -/
theorem liveAt0_3 : ∀ t : Fin cfg0.N, cfg0.idle 3 (grid0.coords t) = false := by decide +kernel

/-! ## The body's accesses: every buffer whole, through the unit rectangle at zero offsets -/

abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

/-! ## What the body leaves in the output window's buffer -/

/-- The output's staging buffer after the body, from the input windows' blocks: its one store, whose payload is the
    bias added to the accumulator — the accumulator zeroed, then the blocks' product added. -/
def out0 (x0 : Vec F S2000x128 .bf16) (x1 : Vec F S128x128 .bf16) (x2 : Vec F S1x128 .f32) : Vec F S2000x128 .f32 :=
  View.canon [⟨r0_a, k0_pay3 (k0_pay2 (k0_pay1 (F := F)) (View.ld x0 r0_a) (View.ld x1 r0_b)) (View.ld x2 r0_c)⟩]

/-- The loads read the whole blocks and the one store covers the buffer: the payload itself. -/
theorem out0_eq (x0 : Vec F S2000x128 .bf16) (x1 : Vec F S128x128 .bf16) (x2 : Vec F S1x128 .f32) :
    out0 x0 x1 x2 = k0_pay3 (k0_pay2 (k0_pay1 (F := F)) x0 x1) x2 := by
  have hza : (![0, 0] : Fin S2000x128.rank → Nat) = fun _ => 0 := funext fun a => by fin_cases a <;> rfl
  have hzb : (![0, 0] : Fin S128x128.rank → Nat) = fun _ => 0 := funext fun a => by fin_cases a <;> rfl
  have hzc : (![0, 0] : Fin S1x128.rank → Nat) = fun _ => 0 := funext fun a => by fin_cases a <;> rfl
  unfold out0
  rw [View.canon_unit_zero hza, View.ld_unit_zero hza, View.ld_unit_zero hzb, View.ld_unit_zero hzc]

/-- The one store covers the buffer. -/
theorem cover0_3 (p0 : Vec F S2000x128 .f32) (y : S2000x128.Idx) :
    ∃ pc ∈ ([⟨r0_a, p0⟩] : List (View.Piece (Elt F) S2000x128 .f32)), y ∈ pc.1.set :=
  ⟨_, List.mem_singleton_self _, View.mem_set_unit_zero (funext fun a => by fin_cases a <;> rfl) inb_S2000x128_S2000x128_0_0 y⟩

/-! ## The body's triple -/

set_option maxHeartbeats 1000000 in
/-- The kernel body at a point where both conditions hold, on whole memrefs — the inputs' at read contents, the
    output's and the accumulator's at anything — runs to the continuation holding the inputs' as they were, the output's at
    `out0` of the inputs' and the accumulator's at something: the accumulator is zeroed, read back, the product
    added, read back again, and the sum with the bias stored to the output. -/
theorem sound_kernel0 (c : Dev nD) (E : Set ℕ) (i : grid0.Coords) (hca : cond0_a i) (hcb : cond0_b i)
    (arg2 : Memref sig .tc .vmem S2000x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2) ∗ (∃ d, owns (c : Thread nD τ) arg6 fullShare d)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hca | sl_exact hcb)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover0_3 _)]
    unfold out0 sound_kernel0.sl.v16 sound_kernel0.sl.H4_2
    rw [View.readCov_cons_toLoadRect]
    unfold sound_kernel0.sl.v3 sound_kernel0.sl.H4_1
    rw [View.readCov_cons_toLoadRect]
    rfl
  iexists _, _; isplitr
  swap; · iexact H4
  ipureintro; rfl

/-! ## The pipeline's proof data -/

/-- The proof data of pipeline 0 on core `c`: the arrays as the region finds them (`V`); after the body at point `t`
    each input's buffer at its block and the output's at `out0` of the input blocks; the class's invariant (the scoped
    rest — the accumulator among it — at some contents, the generator register at some state: the accumulator is zeroed
    at every point, so nothing is carried); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

/-- The invariant is the class's at every point. -/
theorem Phi0 (c : Dev nD) (t : Fin (cfg0.N + 1)) : (dat0 V c).Φ t = Pipeline.ΦA spec0 c := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- The accumulator: a whole scoped buffer of the call's own, passed beside the windows. -/
abbrev scM0 : Memref sig .tc .vmem S2000x128 .f32 := Memref.whole cc0_scratch0

/-- The class's invariant with the accumulator as a memref owned at some contents, the other scoped buffers unopened. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1000000 in
/-- The body at any point: the inputs' memrefs hold their blocks (`before0_W`) and both conditions hold there, so
    `sound_kernel0` applies; the invariant lends the accumulator at whatever it holds and takes it back at whatever the body
    left; the rest of the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl, Phi0, Phi0]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  rw [show (dat0 V c).leavesExact 3 t = owns (c : Thread nD τ) (st0_3 t) fullShare ((dat0 V c).after 3 t) from by
    unfold Dat.leavesExact; rw [liveAt0_3 t], after0_3]
  rw [PhiA0_eq]
  iintro ⟨⟨⟨HS, Hr⟩, Hg⟩, Ho, ⟨%d0, H0⟩, ⟨%d1, H1⟩, ⟨%d2, H2⟩, ⟨%d3, H3⟩⟩
  iapply (sound_kernel0 c Set.univ (grid0.coords t) (hcond0_a t) (hcond0_b t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr Hg]
  · isplitl [HS Hr]
    · isplitl [HS]; · iexact HS
      iexact Hr
    iexact Hg
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 of @main: custom_call 1, the block matrix product without bias, at the entry contents `V`

The grid is 50 × 1: the second axis has a single point, so both of the body's conditionals on "second coordinate
= 0" hold at every point. At every point the body therefore zeroes its accumulator, adds the product of the
row block (2000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window
    not fetched at a point has the block index of the point before), for any proof data whose array is `V`'s and
    whose body leaves the block in place. Window 0: the row block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1: the weight matrix, fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2: the bias row, fetched at the first point only (this body never reads it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals -/

/-- The second grid axis has one point: its coordinate is zero everywhere. -/
theorem coord1_eq_zero (i : grid1.Coords) : (i 1).val = 0 := by
  have h : (i 1).val < 1 := (i 1).isLt
  omega

/-- The first conditional ("zero the accumulator") is taken at every point. -/
theorem cond1_1 (i : grid1.Coords) :
    Scalar.cmpi .ne (Scalar.extui (Scalar.cmpi .eq (BitVec.ofNat 32 (i 1).val) 0#32)) 0#32 = 1#1 := by
  rw [coord1_eq_zero i]; decide

/-- The second conditional ("store the accumulator to the output") is taken at every point. -/
theorem cond1_2 (i : grid1.Coords) : k1_cond2 i = 1#1 := by
  unfold k1_cond2; exact cond1_1 i

/-- So the output window is live at every point. -/
theorem live1_3 (t : Fin cfg1.N) : cfg1.idle 3 (cfg1.grid.coords t) = false := by
  show (!(k1_cond2 (grid1.coords t) == 1#1)) = false
  rw [cond1_2]; rfl

/-- The offsets of every access of the body: zero on both axes. -/
theorem off1_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out1 (x0 : Vec F S2000x128 .bf16) (x1 : Vec F S128x128 .bf16) : Vec F S2000x128 .f32 :=
  k1_pay2 (k1_pay1 (F := F)) x0 x1

theorem out1_eq (x0 : Vec F S2000x128 .bf16) (x1 : Vec F S128x128 .bf16) :
    out1 x0 x1 = k1_pay2 (k1_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out1 x0 x1` and the accumulator at some contents. Both conditionals are decided (`cond1_1`, `cond1_2`); every
    access is through the whole-buffer rectangle, so each load after a store reads that store's payload. -/
theorem sound_kernel1 (c : Dev nD) (E : Set ℕ) (i : grid1.Coords)
    (arg2 : Memref sig .tc .vmem S2000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1 x0 x1)
            ∗ (∃ d, owns (c : Thread nD τ) arg6 fullShare d)) -∗ K ⟨⟩))
      ⊢ wp frame (wpE (defs₀ (F := F)) Variants.none c none) E
          (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond1_1 i
  have hcb := cond1_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off1_zero inb_S2000x128_S2000x128_0_0 y⟩)]
    rw [View.canon_unit_zero off1_zero]
    unfold sound_kernel1.sl.v16 sound_kernel1.sl.Hs_2
    rw [View.readCov_cons_toLoadRect]
    unfold sound_kernel1.sl.v3 sound_kernel1.sl.Hs_1 out1
    rw [View.readCov_cons_toLoadRect, View.readAt_eq_ld, View.readAt_eq_ld, View.ld_unit_zero off1_zero, View.ld_unit_zero off1_zero]
  iexists _; iexists _; isplitr
  swap; · iexact Hs
  ipureintro; rfl

/-! ## The pipeline's proof data -/

/-- The proof data of pipeline 1 on core `c`: the arrays as the region finds them (`V`); after the body at point
    `t` each input's buffer at its block and the output's at `out1` of the row block and the weight matrix; the
    invariant the scoped rest and the generator register, untouched between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) := by dsimp only [dat1]

/-- The invariant is the same at every point. -/
theorem Phi1 (c : Dev nD) (t : Fin (cfg1.N + 1)) : (dat1 V c).Φ t = Pipeline.ΦA spec1 c := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- The region invariant with the accumulator set apart as a whole memref owned at some contents. -/
theorem PhiA1_eq (c : Dev nD) :
    (Pipeline.ΦA spec1 c : sProp 𝕄)
      = iprop(((∃ d, owns (c : Thread nD τ) (Memref.whole cc1_scratch0) fullShare d)
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [owns_whole]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point: the inputs' memrefs hold their blocks (`before1_W`), the invariant lends the accumulator
    at some contents, so `sound_kernel1` applies; the accumulator goes back into the invariant at what it ends
    with; the rest of the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from by
      unfold Dat.leavesExact; rw [live1_3 t]]
  rw [Phi1, Phi1, show (dat1 V c).owesAt () t.succ = (dat1 V c).owesAt () t.castSucc from rfl,
    after1_0, after1_1, after1_2, after1_3, PhiA1_eq]
  iintro ⟨⟨⟨HS, HR⟩, Hg⟩, Hw, ⟨%d0, Ha⟩, ⟨%d1, Hb⟩, ⟨%d2, Hc⟩, ⟨%d3, Ho⟩⟩
  iapply (sound_kernel1 c Set.univ _ _ _ _ _ _ _ _ _ _ _ (iblk1 V c 0 t) (iblk1 V c 1 t) (iblk1 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: custom_call 2, the block matrix product without bias, at the entry contents `V`

The grid is 160 × 1: the second axis has a single point, so both of the body's conditionals on "second coordinate
= 0" hold at every point. At every point the body therefore zeroes its accumulator, adds the product of the
row block (5000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window
    not fetched at a point has the block index of the point before), for any proof data whose array is `V`'s and
    whose body leaves the block in place. Window 0: the row block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the weight matrix, fetched at the first point only. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the bias row, fetched at the first point only (this body never reads it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The conditionals -/

/-- The second grid axis has one point: its coordinate is zero everywhere. -/
theorem coord2_eq_zero (i : grid2.Coords) : (i 1).val = 0 := by
  have h : (i 1).val < 1 := (i 1).isLt
  omega

/-- The first conditional ("zero the accumulator") is taken at every point. -/
theorem cond2_1 (i : grid2.Coords) :
    Scalar.cmpi .ne (Scalar.extui (Scalar.cmpi .eq (BitVec.ofNat 32 (i 1).val) 0#32)) 0#32 = 1#1 := by
  rw [coord2_eq_zero i]; decide

/-- The second conditional ("store the accumulator to the output") is taken at every point. -/
theorem cond2_2 (i : grid2.Coords) : k2_cond2 i = 1#1 := by
  unfold k2_cond2; exact cond2_1 i

/-- So the output window is live at every point. -/
theorem live2_3 (t : Fin cfg2.N) : cfg2.idle 3 (cfg2.grid.coords t) = false := by
  show (!(k2_cond2 (grid2.coords t) == 1#1)) = false
  rw [cond2_2]; rfl

/-- The offsets of every access of the body: zero on both axes. -/
theorem off2_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out2 (x0 : Vec F S5000x128 .bf16) (x1 : Vec F S128x128 .bf16) : Vec F S5000x128 .f32 :=
  k2_pay2 (k2_pay1 (F := F)) x0 x1

theorem out2_eq (x0 : Vec F S5000x128 .bf16) (x1 : Vec F S128x128 .bf16) :
    out2 x0 x1 = k2_pay2 (k2_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out2 x0 x1` and the accumulator at some contents. Both conditionals are decided (`cond2_1`, `cond2_2`); every
    access is through the whole-buffer rectangle, so each load after a store reads that store's payload. -/
theorem sound_kernel2 (c : Dev nD) (E : Set ℕ) (i : grid2.Coords)
    (arg2 : Memref sig .tc .vmem S5000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S5000x128 .f32) (harg5 : arg5.IsWhole)
    (arg6 : Memref sig .tc .vmem S5000x128 .f32) (harg6 : arg6.IsWhole)
    (x0 : Vec F S5000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out2 x0 x1)
            ∗ (∃ d, owns (c : Thread nD τ) arg6 fullShare d)) -∗ K ⟨⟩))
      ⊢ wp frame (wpE (defs₀ (F := F)) Variants.none c none) E
          (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond2_1 i
  have hcb := cond2_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off2_zero inb_S5000x128_S5000x128_0_0 y⟩)]
    rw [View.canon_unit_zero off2_zero]
    unfold sound_kernel2.sl.v16 sound_kernel2.sl.Hs_2
    rw [View.readCov_cons_toLoadRect]
    unfold sound_kernel2.sl.v3 sound_kernel2.sl.Hs_1 out2
    rw [View.readCov_cons_toLoadRect, View.readAt_eq_ld, View.readAt_eq_ld, View.ld_unit_zero off2_zero, View.ld_unit_zero off2_zero]
  iexists _; iexists _; isplitr
  swap; · iexact Hs
  ipureintro; rfl

/-! ## The pipeline's proof data -/

/-- The proof data of pipeline 2 on core `c`: the arrays as the region finds them (`V`); after the body at point
    `t` each input's buffer at its block and the output's at `out2` of the row block and the weight matrix; the
    invariant the scoped rest and the generator register, untouched between points; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) := by dsimp only [dat2]

/-- The invariant is the same at every point. -/
theorem Phi2 (c : Dev nD) (t : Fin (cfg2.N + 1)) : (dat2 V c).Φ t = Pipeline.ΦA spec2 c := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- The region invariant with the accumulator set apart as a whole memref owned at some contents. -/
theorem PhiA2_eq (c : Dev nD) :
    (Pipeline.ΦA spec2 c : sProp 𝕄)
      = iprop(((∃ d, owns (c : Thread nD τ) (Memref.whole cc2_scratch0) fullShare d)
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [owns_whole]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1000000 in
/-- The body at any point: the inputs' memrefs hold their blocks (`before2_W`), the invariant lends the accumulator
    at some contents, so `sound_kernel2` applies; the accumulator goes back into the invariant at what it ends
    with; the rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).leavesExact 0 t = owns (c : Thread nD τ) (st2_0 t) fullShare ((dat2 V c).after 0 t) from rfl,
    show (dat2 V c).leavesExact 1 t = owns (c : Thread nD τ) (st2_1 t) fullShare ((dat2 V c).after 1 t) from rfl,
    show (dat2 V c).leavesExact 2 t = owns (c : Thread nD τ) (st2_2 t) fullShare ((dat2 V c).after 2 t) from rfl,
    show (dat2 V c).leavesExact 3 t = owns (c : Thread nD τ) (st2_3 t) fullShare ((dat2 V c).after 3 t) from by
      unfold Dat.leavesExact; rw [live2_3 t]]
  rw [Phi2, Phi2, show (dat2 V c).owesAt () t.succ = (dat2 V c).owesAt () t.castSucc from rfl,
    after2_0, after2_1, after2_2, after2_3, PhiA2_eq]
  iintro ⟨⟨⟨HS, HR⟩, Hg⟩, Hw, ⟨%d0, Ha⟩, ⟨%d1, Hb⟩, ⟨%d2, Hc⟩, ⟨%d3, Ho⟩⟩
  iapply (sound_kernel2 c Set.univ _ _ _ _ _ _ _ _ _ _ _ (iblk2 V c 0 t) (iblk2 V c 1 t) (iblk2 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The layer-norm epilogue call number 3: its pipeline proof data and body obligation

The call walks 50 row blocks of 2000 rows. At every block the body reads the aggregate block, the bias row,
the scale row and the shift row (the residual block is staged but never read), and overwrites the WHOLE output block with one store whose value is
a closed function of those reads. So what the body leaves in the output's staging buffer is that function of the
input blocks, and it keeps nothing from block to block: the invariant is the untouched rest of the core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Block `t` of window `w`: its array, as the region finds it, read through the rectangle the window's index map
    names at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body finds in an input's staging buffer

Windows 0 and 2 move to a new block at every point and are fetched there; windows 1, 3 and 4 sit on their one block and
are fetched once, at the first point. Either way the body finds block `t`: an unfetched buffer still holds the previous
point's block, and the block index did not move. Stated for ANY proof data over the region's arrays that leaves the
inputs in place, so that it can be cited before the proof data below is unfolded. -/

section Before
variable {c : Dev nD} (dat : Dat τ (Elt F) Unit ℕ (UR sig nD τ) ℕ cfg3 c)

theorem before3_0_of (hA : dat.A 0 = V c (Pipeline.arrRef spec3 0)) (hafter : ∀ t, dat.after 0 t = iblk3 V c 0 t)
    (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  rw [dat.before_in_eq_fetched 0 rfl (fun _ => rfl) (fun _ _ _ => rfl) hkeep t d]
  unfold Dat.fetched Dat.blockOf iblk3; rw [hA]; try rfl

theorem before3_1_of (hA : dat.A 1 = V c (Pipeline.arrRef spec3 1)) (hafter : ∀ t, dat.after 1 t = iblk3 V c 1 t)
    (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  rw [dat.before_in_eq_fetched 1 rfl (fun _ => rfl) (fun _ _ _ => rfl) hkeep t d]
  unfold Dat.fetched Dat.blockOf iblk3; rw [hA]; try rfl

theorem before3_2_of (hA : dat.A 2 = V c (Pipeline.arrRef spec3 2)) (hafter : ∀ t, dat.after 2 t = iblk3 V c 2 t)
    (t : Fin cfg3.N) (d) : dat.before 2 t d = iblk3 V c 2 t := by
  have hkeep : ∀ t, (cfg3.win 2).cut (cfg3.grid.coords t) (dat.after 2 t) = dat.blockOf 2 t := fun t => by
    rw [hafter]; unfold Dat.blockOf iblk3; rw [hA]; try rfl
  rw [dat.before_in_eq_fetched 2 rfl (fun _ => rfl) (fun _ _ _ => rfl) hkeep t d]
  unfold Dat.fetched Dat.blockOf iblk3; rw [hA]; try rfl

theorem before3_3_of (hA : dat.A 3 = V c (Pipeline.arrRef spec3 3)) (hafter : ∀ t, dat.after 3 t = iblk3 V c 3 t)
    (t : Fin cfg3.N) (d) : dat.before 3 t d = iblk3 V c 3 t := by
  have hkeep : ∀ t, (cfg3.win 3).cut (cfg3.grid.coords t) (dat.after 3 t) = dat.blockOf 3 t := fun t => by
    rw [hafter]; unfold Dat.blockOf iblk3; rw [hA]; try rfl
  rw [dat.before_in_eq_fetched 3 rfl (fun _ => rfl) (fun _ _ _ => rfl) hkeep t d]
  unfold Dat.fetched Dat.blockOf iblk3; rw [hA]; try rfl

theorem before3_4_of (hA : dat.A 4 = V c (Pipeline.arrRef spec3 4)) (hafter : ∀ t, dat.after 4 t = iblk3 V c 4 t)
    (t : Fin cfg3.N) (d) : dat.before 4 t d = iblk3 V c 4 t := by
  have hkeep : ∀ t, (cfg3.win 4).cut (cfg3.grid.coords t) (dat.after 4 t) = dat.blockOf 4 t := fun t => by
    rw [hafter]; unfold Dat.blockOf iblk3; rw [hA]; try rfl
  rw [dat.before_in_eq_fetched 4 rfl (fun _ => rfl) (fun _ _ _ => rfl) hkeep t d]
  unfold Dat.fetched Dat.blockOf iblk3; rw [hA]; try rfl

end Before

/-! ## What the body leaves in the output's staging buffer -/

/-- The whole 2000 x 128 block and the whole 1 x 128 row, as rectangles at offset zero: every load and the one store
    of the body go through these. -/
abbrev r3_blk : Rect S2000x128 := Rect.unit (s := S2000x128) ![0, 0] S2000x128.size inb_S2000x128_S2000x128_0_0
abbrev r3_row : Rect S1x128 := Rect.unit (s := S1x128) ![0, 0] S1x128.size inb_S1x128_S1x128_0_0

theorem r3_blk_zero : (![0, 0] : Fin S2000x128.rank → Nat) = fun _ => 0 := funext fun a => by fin_cases a <;> rfl
theorem r3_row_zero : (![0, 0] : Fin S1x128.rank → Nat) = fun _ => 0 := funext fun a => by fin_cases a <;> rfl

/-- The output block after the body, from the contents `x0` (aggregate block), `x1` (bias row), `x3` (scale row) and
    `x4` (shift row) of the input buffers: the body's one store laid over whatever was there. -/
def out3 (x0 : Vec F S2000x128 .f32) (x1 : Vec F S1x128 .f32) (x3 : Vec F S1x128 .f32) (x4 : Vec F S1x128 .f32) : Vec F S2000x128 .f32 :=
  View.canon [⟨r3_blk, k3_pay1 (View.ld x0 r3_blk) (View.ld x1 r3_row) (View.ld x3 r3_row) (View.ld x4 r3_row)⟩]

/-- The store covers the block and each load reads a whole buffer, so the block left is the store's value at the
    buffers' contents. -/
theorem out3_eq (x0 : Vec F S2000x128 .f32) (x1 : Vec F S1x128 .f32) (x3 : Vec F S1x128 .f32) (x4 : Vec F S1x128 .f32) :
    out3 x0 x1 x3 x4 = k3_pay1 x0 x1 x3 x4 := by
  unfold out3
  rw [View.canon_unit_zero r3_blk_zero, View.ld_unit_zero r3_blk_zero, View.ld_unit_zero r3_row_zero,
    View.ld_unit_zero r3_row_zero, View.ld_unit_zero r3_row_zero]

/-- The one store reaches every index of the block. -/
theorem cover3 (p : Vec F S2000x128 .f32) (y : S2000x128.Idx) :
    ∃ pc ∈ ([⟨r3_blk, p⟩] : List (View.Piece (Elt F) S2000x128 .f32)), y ∈ pc.1.set :=
  ⟨_, List.mem_singleton_self _, View.mem_set_unit_zero r3_blk_zero inb_S2000x128_S2000x128_0_0 y⟩

/-! ## The body's triple -/

set_option maxHeartbeats 1000000 in
/-- The body on whole staging buffers: the five inputs at contents `x0 … x4`, the output at anything. It runs to a
    state in which the inputs are as they were and the output holds `out3` of them. (It also loads the output buffer
    before the store; that value is never used.) -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S2000x128 .f32) (x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3 x0 x1 x3 x4)) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-! ## The pipeline's proof data -/

/-- The proof data of this pipeline on core `c`. The arrays are the region's entry contents. After the body at point
    `t` every input buffer still holds its block and the output buffer holds `out3` of the blocks the body reads.
    Nothing is carried between points and nothing is owed: the invariant is the rest of the core, untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi3 (c : Dev nD) (t : Fin (cfg3.N + 1)) : (dat3 V c).Φ t = Pipeline.ΦA spec3 c := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3 (iblk3 V c 0 t) (iblk3 V c 1 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the pipeline hands the body at point `t`: the invariant, the core's debt, and each window's current staging
    buffer at what it then holds. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body hands back: the same, each buffer at what the body leaves in it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point. The input buffers hold their blocks, so the body's triple applies; the invariant and the
    debt are the same before and after and pass by unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4 of @main: custom_call 4, the block matrix product without bias, at the entry contents `V`

The grid is 50 × 1: the second axis has a single point, so both of the body's conditionals on "second coordinate
= 0" hold at every point. At every point the body therefore zeroes its accumulator, adds the product of the
row block (2000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (a window
    not fetched at a point has the block index of the point before), for any proof data whose array is `V`'s and
    whose body leaves the block in place. Window 0: the row block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1: the weight matrix, fetched at the first point only. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2: the bias row, fetched at the first point only (this body never reads it). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The conditionals -/

/-- The second grid axis has one point: its coordinate is zero everywhere. -/
theorem coord4_eq_zero (i : grid4.Coords) : (i 1).val = 0 := by
  have h : (i 1).val < 1 := (i 1).isLt
  omega

/-- The first conditional ("zero the accumulator") is taken at every point. -/
theorem cond4_1 (i : grid4.Coords) :
    Scalar.cmpi .ne (Scalar.extui (Scalar.cmpi .eq (BitVec.ofNat 32 (i 1).val) 0#32)) 0#32 = 1#1 := by
  rw [coord4_eq_zero i]; decide

/-- The second conditional ("store the accumulator to the output") is taken at every point. -/
theorem cond4_2 (i : grid4.Coords) : k4_cond2 i = 1#1 := by
  unfold k4_cond2; exact cond4_1 i

/-- So the output window is live at every point. -/
theorem live4_3 (t : Fin cfg4.N) : cfg4.idle 3 (cfg4.grid.coords t) = false := by
  show (!(k4_cond2 (grid4.coords t) == 1#1)) = false
  rw [cond4_2]; rfl

/-- The offsets of every access of the body: zero on both axes. -/
theorem off4_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out4 (x0 : Vec F S2000x128 .bf16) (x1 : Vec F S128x128 .bf16) : Vec F S2000x128 .f32 :=
  k4_pay2 (k4_pay1 (F := F)) x0 x1

theorem out4_eq (x0 : Vec F S2000x128 .bf16) (x1 : Vec F S128x128 .bf16) :
    out4 x0 x1 = k4_pay2 (k4_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out4 x0 x1` and the accumulator at some contents. Both conditionals are decided (`cond4_1`, `cond4_2`); every
    access is through the whole-buffer rectangle, so each load after a store reads that store's payload. -/
theorem sound_kernel4 (c : Dev nD) (E : Set ℕ) (i : grid4.Coords)
    (arg2 : Memref sig .tc .vmem S2000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out4 x0 x1)
            ∗ (∃ d, owns (c : Thread nD τ) arg6 fullShare d)) -∗ K ⟨⟩))
      ⊢ wp frame (wpE (defs₀ (F := F)) Variants.none c none) E
          (cc4__matmul_kernel i arg2 harg2 arg3 harg3 arg4 harg4 arg5 harg5 arg6 harg6) K := by
  simp only [cc4__matmul_kernel_eq_skeleton]; unfold cc4__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond4_1 i
  have hcb := cond4_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off4_zero inb_S2000x128_S2000x128_0_0 y⟩)]
    rw [View.canon_unit_zero off4_zero]
    unfold sound_kernel4.sl.v16 sound_kernel4.sl.Hs_2
    rw [View.readCov_cons_toLoadRect]
    unfold sound_kernel4.sl.v3 sound_kernel4.sl.Hs_1 out4
    rw [View.readCov_cons_toLoadRect, View.readAt_eq_ld, View.readAt_eq_ld, View.ld_unit_zero off4_zero, View.ld_unit_zero off4_zero]
  iexists _; iexists _; isplitr
  swap; · iexact Hs
  ipureintro; rfl

/-! ## The pipeline's proof data -/

/-- The proof data of pipeline 4 on core `c`: the arrays as the region finds them (`V`); after the body at point
    `t` each input's buffer at its block and the output's at `out4` of the row block and the weight matrix; the
    invariant the scoped rest and the generator register, untouched between points; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) := by dsimp only [dat4]

/-- The invariant is the same at every point. -/
theorem Phi4 (c : Dev nD) (t : Fin (cfg4.N + 1)) : (dat4 V c).Φ t = Pipeline.ΦA spec4 c := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- The region invariant with the accumulator set apart as a whole memref owned at some contents. -/
theorem PhiA4_eq (c : Dev nD) :
    (Pipeline.ΦA spec4 c : sProp 𝕄)
      = iprop(((∃ d, owns (c : Thread nD τ) (Memref.whole cc4_scratch0) fullShare d)
            ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [owns_whole]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1000000 in
/-- The body at any point: the inputs' memrefs hold their blocks (`before4_W`), the invariant lends the accumulator
    at some contents, so `sound_kernel4` applies; the accumulator goes back into the invariant at what it ends
    with; the rest of the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).leavesExact 0 t = owns (c : Thread nD τ) (st4_0 t) fullShare ((dat4 V c).after 0 t) from rfl,
    show (dat4 V c).leavesExact 1 t = owns (c : Thread nD τ) (st4_1 t) fullShare ((dat4 V c).after 1 t) from rfl,
    show (dat4 V c).leavesExact 2 t = owns (c : Thread nD τ) (st4_2 t) fullShare ((dat4 V c).after 2 t) from rfl,
    show (dat4 V c).leavesExact 3 t = owns (c : Thread nD τ) (st4_3 t) fullShare ((dat4 V c).after 3 t) from by
      unfold Dat.leavesExact; rw [live4_3 t]]
  rw [Phi4, Phi4, show (dat4 V c).owesAt () t.succ = (dat4 V c).owesAt () t.castSucc from rfl,
    after4_0, after4_1, after4_2, after4_3, PhiA4_eq]
  iintro ⟨⟨⟨HS, HR⟩, Hg⟩, Hw, ⟨%d0, Ha⟩, ⟨%d1, Hb⟩, ⟨%d2, Hc⟩, ⟨%d3, Ho⟩⟩
  iapply (sound_kernel4 c Set.univ _ _ _ _ _ _ _ _ _ _ _ (iblk4 V c 0 t) (iblk4 V c 1 t) (iblk4 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5 of @main: custom_call 5, the block matrix product without bias, at the entry contents `V`

The grid is 160 × 1: the second axis has a single point, so both of the body's conditionals on "second coordinate
= 0" hold at every point. At every point the body therefore zeroes its accumulator, adds the product of the
row block (5000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (a window
    not fetched at a point has the block index of the point before), for any proof data whose array is `V`'s and
    whose body leaves the block in place. Window 0: the row block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1: the weight matrix, fetched at the first point only. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2: the bias row, fetched at the first point only (this body never reads it). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The conditionals -/

/-- The second grid axis has one point: its coordinate is zero everywhere. -/
theorem coord5_eq_zero (i : grid5.Coords) : (i 1).val = 0 := by
  have h : (i 1).val < 1 := (i 1).isLt
  omega

/-- The first conditional ("zero the accumulator") is taken at every point. -/
theorem cond5_1 (i : grid5.Coords) :
    Scalar.cmpi .ne (Scalar.extui (Scalar.cmpi .eq (BitVec.ofNat 32 (i 1).val) 0#32)) 0#32 = 1#1 := by
  rw [coord5_eq_zero i]; decide

/-- The second conditional ("store the accumulator to the output") is taken at every point. -/
theorem cond5_2 (i : grid5.Coords) : k5_cond2 i = 1#1 := by
  unfold k5_cond2; exact cond5_1 i

/-- So the output window is live at every point. -/
theorem live5_3 (t : Fin cfg5.N) : cfg5.idle 3 (cfg5.grid.coords t) = false := by
  show (!(k5_cond2 (grid5.coords t) == 1#1)) = false
  rw [cond5_2]; rfl

/-- The offsets of every access of the body: zero on both axes. -/
theorem off5_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out5 (x0 : Vec F S5000x128 .bf16) (x1 : Vec F S128x128 .bf16) : Vec F S5000x128 .f32 :=
  k5_pay2 (k5_pay1 (F := F)) x0 x1

theorem out5_eq (x0 : Vec F S5000x128 .bf16) (x1 : Vec F S128x128 .bf16) :
    out5 x0 x1 = k5_pay2 (k5_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out5 x0 x1` and the accumulator at some contents. Both conditionals are decided (`cond5_1`, `cond5_2`); every
    access is through the whole-buffer rectangle, so each load after a store reads that store's payload. -/
theorem sound_kernel5 (c : Dev nD) (E : Set ℕ) (i : grid5.Coords)
    (arg2 : Memref sig .tc .vmem S5000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S5000x128 .f32) (harg5 : arg5.IsWhole)
    (arg6 : Memref sig .tc .vmem S5000x128 .f32) (harg6 : arg6.IsWhole)
    (x0 : Vec F S5000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out5 x0 x1)
            ∗ (∃ d, owns (c : Thread nD τ) arg6 fullShare d)) -∗ K ⟨⟩))
      ⊢ wp frame (wpE (defs₀ (F := F)) Variants.none c none) E
          (cc5__matmul_kernel i arg2 harg2 arg3 harg3 arg4 harg4 arg5 harg5 arg6 harg6) K := by
  simp only [cc5__matmul_kernel_eq_skeleton]; unfold cc5__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond5_1 i
  have hcb := cond5_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off5_zero inb_S5000x128_S5000x128_0_0 y⟩)]
    rw [View.canon_unit_zero off5_zero]
    unfold sound_kernel5.sl.v16 sound_kernel5.sl.Hs_2
    rw [View.readCov_cons_toLoadRect]
    unfold sound_kernel5.sl.v3 sound_kernel5.sl.Hs_1 out5
    rw [View.readCov_cons_toLoadRect, View.readAt_eq_ld, View.readAt_eq_ld, View.ld_unit_zero off5_zero, View.ld_unit_zero off5_zero]
  iexists _; iexists _; isplitr
  swap; · iexact Hs
  ipureintro; rfl

/-! ## The pipeline's proof data -/

/-- The proof data of pipeline 5 on core `c`: the arrays as the region finds them (`V`); after the body at point
    `t` each input's buffer at its block and the output's at `out5` of the row block and the weight matrix; the
    invariant the scoped rest and the generator register, untouched between points; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) := by dsimp only [dat5]

/-- The invariant is the same at every point. -/
theorem Phi5 (c : Dev nD) (t : Fin (cfg5.N + 1)) : (dat5 V c).Φ t = Pipeline.ΦA spec5 c := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- The region invariant with the accumulator set apart as a whole memref owned at some contents. -/
theorem PhiA5_eq (c : Dev nD) :
    (Pipeline.ΦA spec5 c : sProp 𝕄)
      = iprop(((∃ d, owns (c : Thread nD τ) (Memref.whole cc5_scratch0) fullShare d)
            ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [owns_whole]

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 1000000 in
/-- The body at any point: the inputs' memrefs hold their blocks (`before5_W`), the invariant lends the accumulator
    at some contents, so `sound_kernel5` applies; the accumulator goes back into the invariant at what it ends
    with; the rest of the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).leavesExact 0 t = owns (c : Thread nD τ) (st5_0 t) fullShare ((dat5 V c).after 0 t) from rfl,
    show (dat5 V c).leavesExact 1 t = owns (c : Thread nD τ) (st5_1 t) fullShare ((dat5 V c).after 1 t) from rfl,
    show (dat5 V c).leavesExact 2 t = owns (c : Thread nD τ) (st5_2 t) fullShare ((dat5 V c).after 2 t) from rfl,
    show (dat5 V c).leavesExact 3 t = owns (c : Thread nD τ) (st5_3 t) fullShare ((dat5 V c).after 3 t) from by
      unfold Dat.leavesExact; rw [live5_3 t]]
  rw [Phi5, Phi5, show (dat5 V c).owesAt () t.succ = (dat5 V c).owesAt () t.castSucc from rfl,
    after5_0, after5_1, after5_2, after5_3, PhiA5_eq]
  iintro ⟨⟨⟨HS, HR⟩, Hg⟩, Hw, ⟨%d0, Ha⟩, ⟨%d1, Hb⟩, ⟨%d2, Hc⟩, ⟨%d3, Ho⟩⟩
  iapply (sound_kernel5 c Set.univ _ _ _ _ _ _ _ _ _ _ _ (iblk5 V c 0 t) (iblk5 V c 1 t) (iblk5 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The layer-norm epilogue call number 6: its pipeline proof data and body obligation

The call walks 50 row blocks of 2000 rows. At every block the body reads the aggregate block, the bias row,
the residual block, the scale row and the shift row, and overwrites the WHOLE output block with one store whose value is
a closed function of those reads. So what the body leaves in the output's staging buffer is that function of the
input blocks, and it keeps nothing from block to block: the invariant is the untouched rest of the core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Block `t` of window `w`: its array, as the region finds it, read through the rectangle the window's index map
    names at point `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the body finds in an input's staging buffer

Windows 0 and 2 move to a new block at every point and are fetched there; windows 1, 3 and 4 sit on their one block and
are fetched once, at the first point. Either way the body finds block `t`: an unfetched buffer still holds the previous
point's block, and the block index did not move. Stated for ANY proof data over the region's arrays that leaves the
inputs in place, so that it can be cited before the proof data below is unfolded. -/

section Before
variable {c : Dev nD} (dat : Dat τ (Elt F) Unit ℕ (UR sig nD τ) ℕ cfg6 c)

theorem before6_0_of (hA : dat.A 0 = V c (Pipeline.arrRef spec6 0)) (hafter : ∀ t, dat.after 0 t = iblk6 V c 0 t)
    (t : Fin cfg6.N) (d) : dat.before 0 t d = iblk6 V c 0 t := by
  have hkeep : ∀ t, (cfg6.win 0).cut (cfg6.grid.coords t) (dat.after 0 t) = dat.blockOf 0 t := fun t => by
    rw [hafter]; unfold Dat.blockOf iblk6; rw [hA]; try rfl
  rw [dat.before_in_eq_fetched 0 rfl (fun _ => rfl) (fun _ _ _ => rfl) hkeep t d]
  unfold Dat.fetched Dat.blockOf iblk6; rw [hA]; try rfl

theorem before6_1_of (hA : dat.A 1 = V c (Pipeline.arrRef spec6 1)) (hafter : ∀ t, dat.after 1 t = iblk6 V c 1 t)
    (t : Fin cfg6.N) (d) : dat.before 1 t d = iblk6 V c 1 t := by
  have hkeep : ∀ t, (cfg6.win 1).cut (cfg6.grid.coords t) (dat.after 1 t) = dat.blockOf 1 t := fun t => by
    rw [hafter]; unfold Dat.blockOf iblk6; rw [hA]; try rfl
  rw [dat.before_in_eq_fetched 1 rfl (fun _ => rfl) (fun _ _ _ => rfl) hkeep t d]
  unfold Dat.fetched Dat.blockOf iblk6; rw [hA]; try rfl

theorem before6_2_of (hA : dat.A 2 = V c (Pipeline.arrRef spec6 2)) (hafter : ∀ t, dat.after 2 t = iblk6 V c 2 t)
    (t : Fin cfg6.N) (d) : dat.before 2 t d = iblk6 V c 2 t := by
  have hkeep : ∀ t, (cfg6.win 2).cut (cfg6.grid.coords t) (dat.after 2 t) = dat.blockOf 2 t := fun t => by
    rw [hafter]; unfold Dat.blockOf iblk6; rw [hA]; try rfl
  rw [dat.before_in_eq_fetched 2 rfl (fun _ => rfl) (fun _ _ _ => rfl) hkeep t d]
  unfold Dat.fetched Dat.blockOf iblk6; rw [hA]; try rfl

theorem before6_3_of (hA : dat.A 3 = V c (Pipeline.arrRef spec6 3)) (hafter : ∀ t, dat.after 3 t = iblk6 V c 3 t)
    (t : Fin cfg6.N) (d) : dat.before 3 t d = iblk6 V c 3 t := by
  have hkeep : ∀ t, (cfg6.win 3).cut (cfg6.grid.coords t) (dat.after 3 t) = dat.blockOf 3 t := fun t => by
    rw [hafter]; unfold Dat.blockOf iblk6; rw [hA]; try rfl
  rw [dat.before_in_eq_fetched 3 rfl (fun _ => rfl) (fun _ _ _ => rfl) hkeep t d]
  unfold Dat.fetched Dat.blockOf iblk6; rw [hA]; try rfl

theorem before6_4_of (hA : dat.A 4 = V c (Pipeline.arrRef spec6 4)) (hafter : ∀ t, dat.after 4 t = iblk6 V c 4 t)
    (t : Fin cfg6.N) (d) : dat.before 4 t d = iblk6 V c 4 t := by
  have hkeep : ∀ t, (cfg6.win 4).cut (cfg6.grid.coords t) (dat.after 4 t) = dat.blockOf 4 t := fun t => by
    rw [hafter]; unfold Dat.blockOf iblk6; rw [hA]; try rfl
  rw [dat.before_in_eq_fetched 4 rfl (fun _ => rfl) (fun _ _ _ => rfl) hkeep t d]
  unfold Dat.fetched Dat.blockOf iblk6; rw [hA]; try rfl

end Before

/-! ## What the body leaves in the output's staging buffer -/

/-- The whole 2000 x 128 block and the whole 1 x 128 row, as rectangles at offset zero: every load and the one store
    of the body go through these. -/
abbrev r6_blk : Rect S2000x128 := Rect.unit (s := S2000x128) ![0, 0] S2000x128.size inb_S2000x128_S2000x128_0_0
abbrev r6_row : Rect S1x128 := Rect.unit (s := S1x128) ![0, 0] S1x128.size inb_S1x128_S1x128_0_0

theorem r6_blk_zero : (![0, 0] : Fin S2000x128.rank → Nat) = fun _ => 0 := funext fun a => by fin_cases a <;> rfl
theorem r6_row_zero : (![0, 0] : Fin S1x128.rank → Nat) = fun _ => 0 := funext fun a => by fin_cases a <;> rfl

/-- The output block after the body, from the contents `x0` (aggregate block), `x1` (bias row), `x2` (residual block),
    `x3` (scale row) and `x4` (shift row) of the input buffers: the body's one store laid over whatever was there. -/
def out6 (x0 : Vec F S2000x128 .f32) (x1 : Vec F S1x128 .f32) (x2 : Vec F S2000x128 .f32) (x3 x4 : Vec F S1x128 .f32) : Vec F S2000x128 .f32 :=
  View.canon [⟨r6_blk, k6_pay1 (View.ld x0 r6_blk) (View.ld x1 r6_row) (View.ld x2 r6_blk) (View.ld x3 r6_row) (View.ld x4 r6_row)⟩]

/-- The store covers the block and each load reads a whole buffer, so the block left is the store's value at the
    buffers' contents. -/
theorem out6_eq (x0 : Vec F S2000x128 .f32) (x1 : Vec F S1x128 .f32) (x2 : Vec F S2000x128 .f32) (x3 x4 : Vec F S1x128 .f32) :
    out6 x0 x1 x2 x3 x4 = k6_pay1 x0 x1 x2 x3 x4 := by
  unfold out6
  rw [View.canon_unit_zero r6_blk_zero, View.ld_unit_zero r6_blk_zero, View.ld_unit_zero r6_row_zero,
    View.ld_unit_zero r6_blk_zero, View.ld_unit_zero r6_row_zero, View.ld_unit_zero r6_row_zero]

/-- The one store reaches every index of the block. -/
theorem cover6 (p : Vec F S2000x128 .f32) (y : S2000x128.Idx) :
    ∃ pc ∈ ([⟨r6_blk, p⟩] : List (View.Piece (Elt F) S2000x128 .f32)), y ∈ pc.1.set :=
  ⟨_, List.mem_singleton_self _, View.mem_set_unit_zero r6_blk_zero inb_S2000x128_S2000x128_0_0 y⟩

/-! ## The body's triple -/

set_option maxHeartbeats 1000000 in
/-- The body on whole staging buffers: the five inputs at contents `x0 … x4`, the output at anything. It runs to a
    state in which the inputs are as they were and the output holds `out6` of them. (It also loads the output buffer
    before the store; that value is never used.) -/
theorem sound_kernel6 (c : Dev nD) (E : Set ℕ) (i : grid6.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S2000x128 .f32) (x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6 x0 x1 x2 x3 x4)) -∗ K ⟨⟩))
      ⊢ wp frame (wpE (defs₀ (F := F)) Variants.none c none) E (cc6__post_kernel i arg1 harg1 arg2 harg2 arg3 harg3 arg4 harg4 arg5 harg5 arg6 harg6) K := by
  simp only [cc6__post_kernel_eq_skeleton]; unfold cc6__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-! ## The pipeline's proof data -/

/-- The proof data of this pipeline on core `c`. The arrays are the region's entry contents. After the body at point
    `t` every input buffer still holds its block and the output buffer holds `out6` of the blocks the body reads.
    Nothing is carried between points and nothing is owed: the invariant is the rest of the core, untouched. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem Phi6 (c : Dev nD) (t : Fin (cfg6.N + 1)) : (dat6 V c).Φ t = Pipeline.ΦA spec6 c := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the pipeline hands the body at point `t`: the invariant, the core's debt, and each window's current staging
    buffer at what it then holds. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What the body hands back: the same, each buffer at what the body leaves in it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point. The input buffers hold their blocks, so the body's triple applies; the invariant and the
    debt are the same before and after and pass by unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7 of @main: custom_call 7, the block matrix product without bias, at the entry contents `V`

The grid is 50 × 1: the second axis has a single point, so both of the body's conditionals on "second coordinate
= 0" hold at every point. At every point the body therefore zeroes its accumulator, adds the product of the
row block (2000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window
    not fetched at a point has the block index of the point before), for any proof data whose array is `V`'s and
    whose body leaves the block in place. Window 0: the row block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1: the weight matrix, fetched at the first point only. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2: the bias row, fetched at the first point only (this body never reads it). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The conditionals -/

/-- The second grid axis has one point: its coordinate is zero everywhere. -/
theorem coord7_eq_zero (i : grid7.Coords) : (i 1).val = 0 := by
  have h : (i 1).val < 1 := (i 1).isLt
  omega

/-- The first conditional ("zero the accumulator") is taken at every point. -/
theorem cond7_1 (i : grid7.Coords) :
    Scalar.cmpi .ne (Scalar.extui (Scalar.cmpi .eq (BitVec.ofNat 32 (i 1).val) 0#32)) 0#32 = 1#1 := by
  rw [coord7_eq_zero i]; decide

/-- The second conditional ("store the accumulator to the output") is taken at every point. -/
theorem cond7_2 (i : grid7.Coords) : k7_cond2 i = 1#1 := by
  unfold k7_cond2; exact cond7_1 i

/-- So the output window is live at every point. -/
theorem live7_3 (t : Fin cfg7.N) : cfg7.idle 3 (cfg7.grid.coords t) = false := by
  show (!(k7_cond2 (grid7.coords t) == 1#1)) = false
  rw [cond7_2]; rfl

/-- The offsets of every access of the body: zero on both axes. -/
theorem off7_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out7 (x0 : Vec F S2000x128 .bf16) (x1 : Vec F S128x128 .bf16) : Vec F S2000x128 .f32 :=
  k7_pay2 (k7_pay1 (F := F)) x0 x1

theorem out7_eq (x0 : Vec F S2000x128 .bf16) (x1 : Vec F S128x128 .bf16) :
    out7 x0 x1 = k7_pay2 (k7_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out7 x0 x1` and the accumulator at some contents. Both conditionals are decided (`cond7_1`, `cond7_2`); every
    access is through the whole-buffer rectangle, so each load after a store reads that store's payload. -/
theorem sound_kernel7 (c : Dev nD) (E : Set ℕ) (i : grid7.Coords)
    (arg2 : Memref sig .tc .vmem S2000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out7 x0 x1)
            ∗ (∃ d, owns (c : Thread nD τ) arg6 fullShare d)) -∗ K ⟨⟩))
      ⊢ wp frame (wpE (defs₀ (F := F)) Variants.none c none) E
          (cc7__matmul_kernel i arg2 harg2 arg3 harg3 arg4 harg4 arg5 harg5 arg6 harg6) K := by
  simp only [cc7__matmul_kernel_eq_skeleton]; unfold cc7__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond7_1 i
  have hcb := cond7_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off7_zero inb_S2000x128_S2000x128_0_0 y⟩)]
    rw [View.canon_unit_zero off7_zero]
    unfold sound_kernel7.sl.v16 sound_kernel7.sl.Hs_2
    rw [View.readCov_cons_toLoadRect]
    unfold sound_kernel7.sl.v3 sound_kernel7.sl.Hs_1 out7
    rw [View.readCov_cons_toLoadRect, View.readAt_eq_ld, View.readAt_eq_ld, View.ld_unit_zero off7_zero, View.ld_unit_zero off7_zero]
  iexists _; iexists _; isplitr
  swap; · iexact Hs
  ipureintro; rfl

/-! ## The pipeline's proof data -/

/-- The proof data of pipeline 7 on core `c`: the arrays as the region finds them (`V`); after the body at point
    `t` each input's buffer at its block and the output's at `out7` of the row block and the weight matrix; the
    invariant the scoped rest and the generator register, untouched between points; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 (iblk7 V c 0 t) (iblk7 V c 1 t) := by dsimp only [dat7]

/-- The invariant is the same at every point. -/
theorem Phi7 (c : Dev nD) (t : Fin (cfg7.N + 1)) : (dat7 V c).Φ t = Pipeline.ΦA spec7 c := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- The region invariant with the accumulator set apart as a whole memref owned at some contents. -/
theorem PhiA7_eq (c : Dev nD) :
    (Pipeline.ΦA spec7 c : sProp 𝕄)
      = iprop(((∃ d, owns (c : Thread nD τ) (Memref.whole cc7_scratch0) fullShare d)
            ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [owns_whole]

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 1000000 in
/-- The body at any point: the inputs' memrefs hold their blocks (`before7_W`), the invariant lends the accumulator
    at some contents, so `sound_kernel7` applies; the accumulator goes back into the invariant at what it ends
    with; the rest of the invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).leavesExact 0 t = owns (c : Thread nD τ) (st7_0 t) fullShare ((dat7 V c).after 0 t) from rfl,
    show (dat7 V c).leavesExact 1 t = owns (c : Thread nD τ) (st7_1 t) fullShare ((dat7 V c).after 1 t) from rfl,
    show (dat7 V c).leavesExact 2 t = owns (c : Thread nD τ) (st7_2 t) fullShare ((dat7 V c).after 2 t) from rfl,
    show (dat7 V c).leavesExact 3 t = owns (c : Thread nD τ) (st7_3 t) fullShare ((dat7 V c).after 3 t) from by
      unfold Dat.leavesExact; rw [live7_3 t]]
  rw [Phi7, Phi7, show (dat7 V c).owesAt () t.succ = (dat7 V c).owesAt () t.castSucc from rfl,
    after7_0, after7_1, after7_2, after7_3, PhiA7_eq]
  iintro ⟨⟨⟨HS, HR⟩, Hg⟩, Hw, ⟨%d0, Ha⟩, ⟨%d1, Hb⟩, ⟨%d2, Hc⟩, ⟨%d3, Ho⟩⟩
  iapply (sound_kernel7 c Set.univ _ _ _ _ _ _ _ _ _ _ _ (iblk7 V c 0 t) (iblk7 V c 1 t) (iblk7 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8 of @main: custom_call 8, the block matrix product without bias, at the entry contents `V`

The grid is 160 × 1: the second axis has a single point, so both of the body's conditionals on "second coordinate
= 0" hold at every point. At every point the body therefore zeroes its accumulator, adds the product of the
row block (5000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (a window
    not fetched at a point has the block index of the point before), for any proof data whose array is `V`'s and
    whose body leaves the block in place. Window 0: the row block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1: the weight matrix, fetched at the first point only. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2: the bias row, fetched at the first point only (this body never reads it). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The conditionals -/

/-- The second grid axis has one point: its coordinate is zero everywhere. -/
theorem coord8_eq_zero (i : grid8.Coords) : (i 1).val = 0 := by
  have h : (i 1).val < 1 := (i 1).isLt
  omega

/-- The first conditional ("zero the accumulator") is taken at every point. -/
theorem cond8_1 (i : grid8.Coords) :
    Scalar.cmpi .ne (Scalar.extui (Scalar.cmpi .eq (BitVec.ofNat 32 (i 1).val) 0#32)) 0#32 = 1#1 := by
  rw [coord8_eq_zero i]; decide

/-- The second conditional ("store the accumulator to the output") is taken at every point. -/
theorem cond8_2 (i : grid8.Coords) : k8_cond2 i = 1#1 := by
  unfold k8_cond2; exact cond8_1 i

/-- So the output window is live at every point. -/
theorem live8_3 (t : Fin cfg8.N) : cfg8.idle 3 (cfg8.grid.coords t) = false := by
  show (!(k8_cond2 (grid8.coords t) == 1#1)) = false
  rw [cond8_2]; rfl

/-- The offsets of every access of the body: zero on both axes. -/
theorem off8_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out8 (x0 : Vec F S5000x128 .bf16) (x1 : Vec F S128x128 .bf16) : Vec F S5000x128 .f32 :=
  k8_pay2 (k8_pay1 (F := F)) x0 x1

theorem out8_eq (x0 : Vec F S5000x128 .bf16) (x1 : Vec F S128x128 .bf16) :
    out8 x0 x1 = k8_pay2 (k8_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out8 x0 x1` and the accumulator at some contents. Both conditionals are decided (`cond8_1`, `cond8_2`); every
    access is through the whole-buffer rectangle, so each load after a store reads that store's payload. -/
theorem sound_kernel8 (c : Dev nD) (E : Set ℕ) (i : grid8.Coords)
    (arg2 : Memref sig .tc .vmem S5000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S5000x128 .f32) (harg5 : arg5.IsWhole)
    (arg6 : Memref sig .tc .vmem S5000x128 .f32) (harg6 : arg6.IsWhole)
    (x0 : Vec F S5000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out8 x0 x1)
            ∗ (∃ d, owns (c : Thread nD τ) arg6 fullShare d)) -∗ K ⟨⟩))
      ⊢ wp frame (wpE (defs₀ (F := F)) Variants.none c none) E
          (cc8__matmul_kernel i arg2 harg2 arg3 harg3 arg4 harg4 arg5 harg5 arg6 harg6) K := by
  simp only [cc8__matmul_kernel_eq_skeleton]; unfold cc8__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond8_1 i
  have hcb := cond8_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off8_zero inb_S5000x128_S5000x128_0_0 y⟩)]
    rw [View.canon_unit_zero off8_zero]
    unfold sound_kernel8.sl.v16 sound_kernel8.sl.Hs_2
    rw [View.readCov_cons_toLoadRect]
    unfold sound_kernel8.sl.v3 sound_kernel8.sl.Hs_1 out8
    rw [View.readCov_cons_toLoadRect, View.readAt_eq_ld, View.readAt_eq_ld, View.ld_unit_zero off8_zero, View.ld_unit_zero off8_zero]
  iexists _; iexists _; isplitr
  swap; · iexact Hs
  ipureintro; rfl

/-! ## The pipeline's proof data -/

/-- The proof data of pipeline 8 on core `c`: the arrays as the region finds them (`V`); after the body at point
    `t` each input's buffer at its block and the output's at `out8` of the row block and the weight matrix; the
    invariant the scoped rest and the generator register, untouched between points; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8 (iblk8 V c 0 t) (iblk8 V c 1 t) := by dsimp only [dat8]

/-- The invariant is the same at every point. -/
theorem Phi8 (c : Dev nD) (t : Fin (cfg8.N + 1)) : (dat8 V c).Φ t = Pipeline.ΦA spec8 c := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- The region invariant with the accumulator set apart as a whole memref owned at some contents. -/
theorem PhiA8_eq (c : Dev nD) :
    (Pipeline.ΦA spec8 c : sProp 𝕄)
      = iprop(((∃ d, owns (c : Thread nD τ) (Memref.whole cc8_scratch0) fullShare d)
            ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [owns_whole]

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 1000000 in
/-- The body at any point: the inputs' memrefs hold their blocks (`before8_W`), the invariant lends the accumulator
    at some contents, so `sound_kernel8` applies; the accumulator goes back into the invariant at what it ends
    with; the rest of the invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).leavesExact 0 t = owns (c : Thread nD τ) (st8_0 t) fullShare ((dat8 V c).after 0 t) from rfl,
    show (dat8 V c).leavesExact 1 t = owns (c : Thread nD τ) (st8_1 t) fullShare ((dat8 V c).after 1 t) from rfl,
    show (dat8 V c).leavesExact 2 t = owns (c : Thread nD τ) (st8_2 t) fullShare ((dat8 V c).after 2 t) from rfl,
    show (dat8 V c).leavesExact 3 t = owns (c : Thread nD τ) (st8_3 t) fullShare ((dat8 V c).after 3 t) from by
      unfold Dat.leavesExact; rw [live8_3 t]]
  rw [Phi8, Phi8, show (dat8 V c).owesAt () t.succ = (dat8 V c).owesAt () t.castSucc from rfl,
    after8_0, after8_1, after8_2, after8_3, PhiA8_eq]
  iintro ⟨⟨⟨HS, HR⟩, Hg⟩, Hw, ⟨%d0, Ha⟩, ⟨%d1, Hb⟩, ⟨%d2, Hc⟩, ⟨%d3, Ho⟩⟩
  iapply (sound_kernel8 c Set.univ _ _ _ _ _ _ _ _ _ _ _ (iblk8 V c 0 t) (iblk8 V c 1 t) (iblk8 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The layer-norm epilogue call number 9: its pipeline proof data and body obligation

The call walks 50 row blocks of 2000 rows. At every block the body reads the aggregate block, the bias row,
the residual block, the scale row and the shift row, and overwrites the WHOLE output block with one store whose value is
a closed function of those reads. So what the body leaves in the output's staging buffer is that function of the
input blocks, and it keeps nothing from block to block: the invariant is the untouched rest of the core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Block `t` of window `w`: its array, as the region finds it, read through the rectangle the window's index map
    names at point `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## What the body finds in an input's staging buffer

Windows 0 and 2 move to a new block at every point and are fetched there; windows 1, 3 and 4 sit on their one block and
are fetched once, at the first point. Either way the body finds block `t`: an unfetched buffer still holds the previous
point's block, and the block index did not move. Stated for ANY proof data over the region's arrays that leaves the
inputs in place, so that it can be cited before the proof data below is unfolded. -/

section Before
variable {c : Dev nD} (dat : Dat τ (Elt F) Unit ℕ (UR sig nD τ) ℕ cfg9 c)

theorem before9_0_of (hA : dat.A 0 = V c (Pipeline.arrRef spec9 0)) (hafter : ∀ t, dat.after 0 t = iblk9 V c 0 t)
    (t : Fin cfg9.N) (d) : dat.before 0 t d = iblk9 V c 0 t := by
  have hkeep : ∀ t, (cfg9.win 0).cut (cfg9.grid.coords t) (dat.after 0 t) = dat.blockOf 0 t := fun t => by
    rw [hafter]; unfold Dat.blockOf iblk9; rw [hA]; try rfl
  rw [dat.before_in_eq_fetched 0 rfl (fun _ => rfl) (fun _ _ _ => rfl) hkeep t d]
  unfold Dat.fetched Dat.blockOf iblk9; rw [hA]; try rfl

theorem before9_1_of (hA : dat.A 1 = V c (Pipeline.arrRef spec9 1)) (hafter : ∀ t, dat.after 1 t = iblk9 V c 1 t)
    (t : Fin cfg9.N) (d) : dat.before 1 t d = iblk9 V c 1 t := by
  have hkeep : ∀ t, (cfg9.win 1).cut (cfg9.grid.coords t) (dat.after 1 t) = dat.blockOf 1 t := fun t => by
    rw [hafter]; unfold Dat.blockOf iblk9; rw [hA]; try rfl
  rw [dat.before_in_eq_fetched 1 rfl (fun _ => rfl) (fun _ _ _ => rfl) hkeep t d]
  unfold Dat.fetched Dat.blockOf iblk9; rw [hA]; try rfl

theorem before9_2_of (hA : dat.A 2 = V c (Pipeline.arrRef spec9 2)) (hafter : ∀ t, dat.after 2 t = iblk9 V c 2 t)
    (t : Fin cfg9.N) (d) : dat.before 2 t d = iblk9 V c 2 t := by
  have hkeep : ∀ t, (cfg9.win 2).cut (cfg9.grid.coords t) (dat.after 2 t) = dat.blockOf 2 t := fun t => by
    rw [hafter]; unfold Dat.blockOf iblk9; rw [hA]; try rfl
  rw [dat.before_in_eq_fetched 2 rfl (fun _ => rfl) (fun _ _ _ => rfl) hkeep t d]
  unfold Dat.fetched Dat.blockOf iblk9; rw [hA]; try rfl

theorem before9_3_of (hA : dat.A 3 = V c (Pipeline.arrRef spec9 3)) (hafter : ∀ t, dat.after 3 t = iblk9 V c 3 t)
    (t : Fin cfg9.N) (d) : dat.before 3 t d = iblk9 V c 3 t := by
  have hkeep : ∀ t, (cfg9.win 3).cut (cfg9.grid.coords t) (dat.after 3 t) = dat.blockOf 3 t := fun t => by
    rw [hafter]; unfold Dat.blockOf iblk9; rw [hA]; try rfl
  rw [dat.before_in_eq_fetched 3 rfl (fun _ => rfl) (fun _ _ _ => rfl) hkeep t d]
  unfold Dat.fetched Dat.blockOf iblk9; rw [hA]; try rfl

theorem before9_4_of (hA : dat.A 4 = V c (Pipeline.arrRef spec9 4)) (hafter : ∀ t, dat.after 4 t = iblk9 V c 4 t)
    (t : Fin cfg9.N) (d) : dat.before 4 t d = iblk9 V c 4 t := by
  have hkeep : ∀ t, (cfg9.win 4).cut (cfg9.grid.coords t) (dat.after 4 t) = dat.blockOf 4 t := fun t => by
    rw [hafter]; unfold Dat.blockOf iblk9; rw [hA]; try rfl
  rw [dat.before_in_eq_fetched 4 rfl (fun _ => rfl) (fun _ _ _ => rfl) hkeep t d]
  unfold Dat.fetched Dat.blockOf iblk9; rw [hA]; try rfl

end Before

/-! ## What the body leaves in the output's staging buffer -/

/-- The whole 2000 x 128 block and the whole 1 x 128 row, as rectangles at offset zero: every load and the one store
    of the body go through these. -/
abbrev r9_blk : Rect S2000x128 := Rect.unit (s := S2000x128) ![0, 0] S2000x128.size inb_S2000x128_S2000x128_0_0
abbrev r9_row : Rect S1x128 := Rect.unit (s := S1x128) ![0, 0] S1x128.size inb_S1x128_S1x128_0_0

theorem r9_blk_zero : (![0, 0] : Fin S2000x128.rank → Nat) = fun _ => 0 := funext fun a => by fin_cases a <;> rfl
theorem r9_row_zero : (![0, 0] : Fin S1x128.rank → Nat) = fun _ => 0 := funext fun a => by fin_cases a <;> rfl

/-- The output block after the body, from the contents `x0` (aggregate block), `x1` (bias row), `x2` (residual block),
    `x3` (scale row) and `x4` (shift row) of the input buffers: the body's one store laid over whatever was there. -/
def out9 (x0 : Vec F S2000x128 .f32) (x1 : Vec F S1x128 .f32) (x2 : Vec F S2000x128 .f32) (x3 x4 : Vec F S1x128 .f32) : Vec F S2000x128 .f32 :=
  View.canon [⟨r9_blk, k9_pay1 (View.ld x0 r9_blk) (View.ld x1 r9_row) (View.ld x2 r9_blk) (View.ld x3 r9_row) (View.ld x4 r9_row)⟩]

/-- The store covers the block and each load reads a whole buffer, so the block left is the store's value at the
    buffers' contents. -/
theorem out9_eq (x0 : Vec F S2000x128 .f32) (x1 : Vec F S1x128 .f32) (x2 : Vec F S2000x128 .f32) (x3 x4 : Vec F S1x128 .f32) :
    out9 x0 x1 x2 x3 x4 = k9_pay1 x0 x1 x2 x3 x4 := by
  unfold out9
  rw [View.canon_unit_zero r9_blk_zero, View.ld_unit_zero r9_blk_zero, View.ld_unit_zero r9_row_zero,
    View.ld_unit_zero r9_blk_zero, View.ld_unit_zero r9_row_zero, View.ld_unit_zero r9_row_zero]

/-- The one store reaches every index of the block. -/
theorem cover9 (p : Vec F S2000x128 .f32) (y : S2000x128.Idx) :
    ∃ pc ∈ ([⟨r9_blk, p⟩] : List (View.Piece (Elt F) S2000x128 .f32)), y ∈ pc.1.set :=
  ⟨_, List.mem_singleton_self _, View.mem_set_unit_zero r9_blk_zero inb_S2000x128_S2000x128_0_0 y⟩

/-! ## The body's triple -/

set_option maxHeartbeats 1000000 in
/-- The body on whole staging buffers: the five inputs at contents `x0 … x4`, the output at anything. It runs to a
    state in which the inputs are as they were and the output holds `out9` of them. (It also loads the output buffer
    before the store; that value is never used.) -/
theorem sound_kernel9 (c : Dev nD) (E : Set ℕ) (i : grid9.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S2000x128 .f32) (x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9 x0 x1 x2 x3 x4)) -∗ K ⟨⟩))
      ⊢ wp frame (wpE (defs₀ (F := F)) Variants.none c none) E (cc9__post_kernel i arg1 harg1 arg2 harg2 arg3 harg3 arg4 harg4 arg5 harg5 arg6 harg6) K := by
  simp only [cc9__post_kernel_eq_skeleton]; unfold cc9__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9 _)

/-! ## The pipeline's proof data -/

/-- The proof data of this pipeline on core `c`. The arrays are the region's entry contents. After the body at point
    `t` every input buffer still holds its block and the output buffer holds `out9` of the blocks the body reads.
    Nothing is carried between points and nothing is owed: the invariant is the rest of the core, untouched. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem Phi9 (c : Dev nD) (t : Fin (cfg9.N + 1)) : (dat9 V c).Φ t = Pipeline.ΦA spec9 c := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation -/

/-- What the pipeline hands the body at point `t`: the invariant, the core's debt, and each window's current staging
    buffer at what it then holds. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- What the body hands back: the same, each buffer at what the body leaves in it. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point. The input buffers hold their blocks, so the body's triple applies; the invariant and the
    debt are the same before and after and pass by unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
/- Region 10 of the encoder: one block of 2000 rows of the product `a · b + bias` per grid point.
   The grid's second axis has extent 1, so at every point the kernel zeroes its accumulator, adds the block product
   into it, and stores accumulator + bias into the output's staging buffer: nothing is carried from point to point, and
   the class's invariant (the scoped rest at some contents, the generator register at some state) is the region's.
   Stated at a parameter `V`, the TensorCore's buffer contents when the region is entered, and at any `F`. -/
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 10: the matrix product with bias, one block of rows per grid point -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The rows' window (0) is fetched at every point, so its staging buffer holds its block there: for any proof
    data over the entry contents whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl)
    (fun t => by rw [hafter]; unfold Dat.blockOf iblk10; rw [hA]; try rfl) t d).trans
    (by unfold Dat.fetched Dat.blockOf iblk10; rw [hA]; try rfl)

/-- The weights' window (1) is fetched at the first point only and its block index never moves: its staging
    buffer holds the one block at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl)
    (fun t => by rw [hafter]; unfold Dat.blockOf iblk10; rw [hA]; try rfl) t d).trans
    (by unfold Dat.fetched Dat.blockOf iblk10; rw [hA]; try rfl)

/-- The bias' window (2), likewise. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl)
    (fun t => by rw [hafter]; unfold Dat.blockOf iblk10; rw [hA]; try rfl) t d).trans
    (by unfold Dat.fetched Dat.blockOf iblk10; rw [hA]; try rfl)

/-! ## The body's branch conditions

The grid's second axis has extent 1, so its coordinate is 0 at every point: both conditions hold throughout. -/

/-- The first `scf.if`'s condition (the accumulator is zeroed), from the grid coordinates. -/
abbrev cond10_a (i : grid10.Coords) : Prop :=
  (Scalar.cmpi .ne (Scalar.extui (Scalar.cmpi .eq (BitVec.ofNat 32 (i 1).val) 0#32)) 0#32) = 1#1
theorem hcond10_a : ∀ t : Fin cfg10.N, cond10_a (grid10.coords t) :=
  (by decide +kernel : ∀ t : Fin grid10.N, cond10_a (grid10.coords t))

/-- The second `scf.if`'s condition (the output is stored). -/
abbrev cond10_b (i : grid10.Coords) : Prop := k10_cond2 i = 1#1
theorem hcond10_b : ∀ t : Fin cfg10.N, cond10_b (grid10.coords t) :=
  (by decide +kernel : ∀ t : Fin grid10.N, cond10_b (grid10.coords t))

/-- So the output window is idle at no point. -/
theorem liveAt10_3 : ∀ t : Fin cfg10.N, cfg10.idle 3 (grid10.coords t) = false := by decide +kernel

/-! ## The body's accesses: every buffer whole, through the unit rectangle at zero offsets -/

abbrev r10_a : Rect S2000x128 := Rect.unit (s := S2000x128) ![0, 0] S2000x128.size inb_S2000x128_S2000x128_0_0
abbrev r10_b : Rect S128x128 := Rect.unit (s := S128x128) ![0, 0] S128x128.size inb_S128x128_S128x128_0_0
abbrev r10_c : Rect S1x128 := Rect.unit (s := S1x128) ![0, 0] S1x128.size inb_S1x128_S1x128_0_0

/-! ## What the body leaves in the output window's buffer -/

/-- The output's staging buffer after the body, from the input windows' blocks: its one store, whose payload is the
    bias added to the accumulator — the accumulator zeroed, then the blocks' product added. -/
def out10 (x0 : Vec F S2000x128 .bf16) (x1 : Vec F S128x128 .bf16) (x2 : Vec F S1x128 .f32) : Vec F S2000x128 .f32 :=
  View.canon [⟨r10_a, k10_pay3 (k10_pay2 (k10_pay1 (F := F)) (View.ld x0 r10_a) (View.ld x1 r10_b)) (View.ld x2 r10_c)⟩]

/-- The loads read the whole blocks and the one store covers the buffer: the payload itself. -/
theorem out10_eq (x0 : Vec F S2000x128 .bf16) (x1 : Vec F S128x128 .bf16) (x2 : Vec F S1x128 .f32) :
    out10 x0 x1 x2 = k10_pay3 (k10_pay2 (k10_pay1 (F := F)) x0 x1) x2 := by
  have hza : (![0, 0] : Fin S2000x128.rank → Nat) = fun _ => 0 := funext fun a => by fin_cases a <;> rfl
  have hzb : (![0, 0] : Fin S128x128.rank → Nat) = fun _ => 0 := funext fun a => by fin_cases a <;> rfl
  have hzc : (![0, 0] : Fin S1x128.rank → Nat) = fun _ => 0 := funext fun a => by fin_cases a <;> rfl
  unfold out10
  rw [View.canon_unit_zero hza, View.ld_unit_zero hza, View.ld_unit_zero hzb, View.ld_unit_zero hzc]

/-- The one store covers the buffer. -/
theorem cover10_3 (p0 : Vec F S2000x128 .f32) (y : S2000x128.Idx) :
    ∃ pc ∈ ([⟨r10_a, p0⟩] : List (View.Piece (Elt F) S2000x128 .f32)), y ∈ pc.1.set :=
  ⟨_, List.mem_singleton_self _, View.mem_set_unit_zero (funext fun a => by fin_cases a <;> rfl) inb_S2000x128_S2000x128_0_0 y⟩

/-! ## The body's triple -/

set_option maxHeartbeats 1000000 in
/-- The kernel body at a point where both conditions hold, on whole memrefs — the inputs' at read contents, the
    output's and the accumulator's at anything — runs to the continuation holding the inputs' as they were, the output's at
    `out10` of the inputs' and the accumulator's at something: the accumulator is zeroed, read back, the product
    added, read back again, and the sum with the bias stored to the output. -/
theorem sound_kernel10 (c : Dev nD) (E : Set ℕ) (i : grid10.Coords) (hca : cond10_a i) (hcb : cond10_b i)
    (arg2 : Memref sig .tc .vmem S2000x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out10 x0 x1 x2) ∗ (∃ d, owns (c : Thread nD τ) arg6 fullShare d)) -∗ K ⟨⟩))
      ⊢ wp frame (wpE (defs₀ (F := F)) Variants.none c none) E (cc10__matmul_kernel i arg2 harg2 arg3 harg3 arg4 harg4 arg5 harg5 arg6 harg6) K := by
  simp only [cc10__matmul_kernel_eq_skeleton]; unfold cc10__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hca | sl_exact hcb)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover10_3 _)]
    unfold out10 sound_kernel10.sl.v16 sound_kernel10.sl.H4_2
    rw [View.readCov_cons_toLoadRect]
    unfold sound_kernel10.sl.v3 sound_kernel10.sl.H4_1
    rw [View.readCov_cons_toLoadRect]
    rfl
  iexists _, _; isplitr
  swap; · iexact H4
  ipureintro; rfl

/-! ## The pipeline's proof data -/

/-- The proof data of pipeline 10 on core `c`: the arrays as the region finds them (`V`); after the body at point `t`
    each input's buffer at its block and the output's at `out10` of the input blocks; the class's invariant (the scoped
    rest — the accumulator among it — at some contents, the generator register at some state: the accumulator is zeroed
    at every point, so nothing is carried); nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 (iblk10 V c 0 t) (iblk10 V c 1 t) (iblk10 V c 2 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10 (iblk10 V c 0 t) (iblk10 V c 1 t) (iblk10 V c 2 t) := by dsimp only [dat10]

/-- The invariant is the class's at every point. -/
theorem Phi10 (c : Dev nD) (t : Fin (cfg10.N + 1)) : (dat10 V c).Φ t = Pipeline.ΦA spec10 c := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- The accumulator: a whole scoped buffer of the call's own, passed beside the windows. -/
abbrev scM10 : Memref sig .tc .vmem S2000x128 .f32 := Memref.whole cc10_scratch0

/-- The class's invariant with the accumulator as a memref owned at some contents, the other scoped buffers unopened. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 1000000 in
/-- The body at any point: the inputs' memrefs hold their blocks (`before10_W`) and both conditions hold there, so
    `sound_kernel10` applies; the invariant lends the accumulator at whatever it holds and takes it back at whatever the body
    left; the rest of the invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl, Phi10, Phi10]
  rw [show (dat10 V c).leavesExact 0 t = owns (c : Thread nD τ) (st10_0 t) fullShare ((dat10 V c).after 0 t) from rfl, after10_0]
  rw [show (dat10 V c).leavesExact 1 t = owns (c : Thread nD τ) (st10_1 t) fullShare ((dat10 V c).after 1 t) from rfl, after10_1]
  rw [show (dat10 V c).leavesExact 2 t = owns (c : Thread nD τ) (st10_2 t) fullShare ((dat10 V c).after 2 t) from rfl, after10_2]
  rw [show (dat10 V c).leavesExact 3 t = owns (c : Thread nD τ) (st10_3 t) fullShare ((dat10 V c).after 3 t) from by
    unfold Dat.leavesExact; rw [liveAt10_3 t], after10_3]
  rw [PhiA10_eq]
  iintro ⟨⟨⟨HS, Hr⟩, Hg⟩, Ho, ⟨%d0, H0⟩, ⟨%d1, H1⟩, ⟨%d2, H2⟩, ⟨%d3, H3⟩⟩
  iapply (sound_kernel10 c Set.univ (grid10.coords t) (hcond10_a t) (hcond10_b t) _ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr Hg]
  · isplitl [HS Hr]
    · isplitl [HS]; · iexact HS
      iexact Hr
    iexact Hg
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 11: the pooling matmul, a scratch accumulator carried across the 17 points of the reduction axis -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not, for any proof data
    whose array is `V`'s and whose body leaves the block in place: the window is uncut and never idle, and an
    unfetched point has the block index of the point before. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's two conditionals, decided over the grid -/

/-- The first conditional (the accumulator is zeroed): the reduction coordinate is zero. -/
abbrev cond11_0 (i : grid11.Coords) : Prop :=
  (Scalar.cmpi .ne (Scalar.extui (Scalar.cmpi .eq (BitVec.ofNat 32 (i 1).val) 0#32)) 0#32) = 1#1
/-- It holds at the first point only. -/
theorem hcond11_0 : ∀ t : Fin cfg11.N, cond11_0 (grid11.coords t) ↔ t.val = 0 :=
  (by decide +kernel : ∀ t : Fin grid11.N, cond11_0 (grid11.coords t) ↔ t.val = 0)
/-- The second conditional (the accumulator is stored to the output) holds at the last point only. -/
theorem hcond11_1 : ∀ t : Fin cfg11.N, k11_cond2 (grid11.coords t) = 1#1 ↔ t.val = 16 :=
  (by decide +kernel : ∀ t : Fin grid11.N, k11_cond2 (grid11.coords t) = 1#1 ↔ t.val = 16)

/-- The input windows are never idle. -/
theorem liveAt11_0 : ∀ t : Fin cfg11.N, cfg11.idle 0 (grid11.coords t) = false := fun _ => rfl
theorem liveAt11_1 : ∀ t : Fin cfg11.N, cfg11.idle 1 (grid11.coords t) = false := fun _ => rfl
theorem liveAt11_2 : ∀ t : Fin cfg11.N, cfg11.idle 2 (grid11.coords t) = false := fun _ => rfl
/-- The output window is idle exactly where the body does not store it, -/
theorem idleAt11_3 : ∀ t : Fin cfg11.N, ¬k11_cond2 (grid11.coords t) = 1#1 → cfg11.idle 3 (grid11.coords t) = true := by decide +kernel
theorem liveAt11_3 : ∀ t : Fin cfg11.N, k11_cond2 (grid11.coords t) = 1#1 → cfg11.idle 3 (grid11.coords t) = false := by decide +kernel
/-- and is not written back there. -/
theorem noFlush11_3 : ∀ t : Fin cfg11.N, ¬k11_cond2 (grid11.coords t) = 1#1 → (cfg11.win 3).flush t = false := by decide +kernel

/-! ## The body's triple, in each of the three cases the grid meets -/

theorem hz11 : (![0, 0] : Fin 2 → ℕ) = fun _ => 0 := funext fun a => by fin_cases a <;> rfl

/-- The whole 64x128 rectangle, through which the body reads and writes the accumulator and the output block. -/
abbrev rW11 : Rect S64x128 := Rect.unit (s := S64x128) ![0, 0] S64x128.size inb_S64x128_S64x128_0_0

/-- One store through the whole rectangle covers the buffer. -/
theorem cover11 (p : Vec F S64x128 .f32) (L : List (View.Piece (Elt F) S64x128 .f32)) (y : S64x128.Idx) :
    ∃ pc ∈ ((⟨rW11, p⟩ : View.Piece (Elt F) S64x128 .f32) :: L), y ∈ pc.1.set :=
  ⟨_, List.mem_cons_self, View.mem_set_unit_zero hz11 inb_S64x128_S64x128_0_0 y⟩

set_option maxHeartbeats 1000000 in
/-- A MIDDLE point (neither conditional taken): the accumulator, at `xs`, takes the block product on top. -/
theorem run11_B (c : Dev nD) (E : Set ℕ) (i : grid11.Coords)
    (arg2 : Memref sig .tc .vmem S64x5888 .bf16) (harg2 : arg2.IsWhole) (arg3 : Memref sig .tc .vmem S5888x128 .bf16) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (hc0 : ¬cond11_0 i) (hc1 : ¬k11_cond2 i = 1#1)
    (x0 : Vec F S64x5888 .bf16) (x1 : Vec F S5888x128 .bf16) (xs : Vec F S64x128 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k11_pay2 xs x0 x1)) -∗ K ⟨⟩))
      ⊢ wp frame (wpE (defs₀ (F := F)) Variants.none c none) E (cc11__matmul_kernel i arg2 harg2 arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover11 _ _), View.canon_unit_zero hz11]
  simp only [View.readAt_eq_ld, View.ld_unit_zero (S := S64x128) hz11, View.ld_unit_zero (S := S64x5888) hz11, View.ld_unit_zero (S := S5888x128) hz11]

set_option maxHeartbeats 1000000 in
/-- The FIRST point (the first conditional taken): the accumulator, at anything, is zeroed and takes the block product. -/
theorem run11_A (c : Dev nD) (E : Set ℕ) (i : grid11.Coords)
    (arg2 : Memref sig .tc .vmem S64x5888 .bf16) (harg2 : arg2.IsWhole) (arg3 : Memref sig .tc .vmem S5888x128 .bf16) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (hc0 : cond11_0 i) (hc1 : ¬k11_cond2 i = 1#1)
    (x0 : Vec F S64x5888 .bf16) (x1 : Vec F S5888x128 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k11_pay2 (k11_pay1 (F := F)) x0 x1)) -∗ K ⟨⟩))
      ⊢ wp frame (wpE (defs₀ (F := F)) Variants.none c none) E (cc11__matmul_kernel i arg2 harg2 arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover11 _ _), View.canon_cons_unit_zero (S := S64x128) hz11, View.readCov_unit_zero (S := S64x128) _ hz11]
  simp only [View.readAt_eq_ld, View.ld_unit_zero (S := S64x5888) hz11, View.ld_unit_zero (S := S5888x128) hz11]

set_option maxHeartbeats 1000000 in
/-- The LAST point (the second conditional taken): the accumulator, at `xs`, takes the block product and is stored to the
    output block, which the body finds at anything. -/
theorem run11_C (c : Dev nD) (E : Set ℕ) (i : grid11.Coords)
    (arg2 : Memref sig .tc .vmem S64x5888 .bf16) (harg2 : arg2.IsWhole) (arg3 : Memref sig .tc .vmem S5888x128 .bf16) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (hc0 : ¬cond11_0 i) (hc1 : k11_cond2 i = 1#1)
    (x0 : Vec F S64x5888 .bf16) (x1 : Vec F S5888x128 .bf16) (xs : Vec F S64x128 .f32) (K : PUnit → sProp 𝕄) :
    iprop(owns (c : Thread nD τ) arg2 fullShare x0 ∗ owns (c : Thread nD τ) arg3 fullShare x1 ∗ owns (c : Thread nD τ) arg6 fullShare xs
        ∗ (∃ d, owns (c : Thread nD τ) arg5 fullShare d)
        ∗ (iprop(owns (c : Thread nD τ) arg2 fullShare x0 ∗ owns (c : Thread nD τ) arg3 fullShare x1
            ∗ owns (c : Thread nD τ) arg6 fullShare (k11_pay2 xs x0 x1) ∗ owns (c : Thread nD τ) arg5 fullShare (k11_pay2 xs x0 x1)) -∗ K ⟨⟩))
      ⊢ wp frame (wpE (defs₀ (F := F)) Variants.none c none) E (cc11__matmul_kernel i arg2 harg2 arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%fs, %hfs, HS⟩, ⟨%do5, %f5, -, H5⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS]
  · iexists _; isplitr
    swap; · iexact HS
    ipureintro
    sl_unfold_words
    rw [View.read_writes_eq_canon _ _ _ (cover11 _ _), View.canon_unit_zero hz11]
    simp only [View.readAt_eq_ld, View.ld_unit_zero (S := S64x128) hz11, View.ld_unit_zero (S := S64x5888) hz11, View.ld_unit_zero (S := S5888x128) hz11]
  iexists _; isplitr
  swap; · iexact H5
  ipureintro
  sl_unfold_words
  rw [View.read_writes_eq_canon _ _ _ (cover11 _ _), View.canon_unit_zero hz11, View.readCov_unit_zero (S := S64x128) _ hz11]
  simp only [View.readAt_eq_ld, View.ld_unit_zero (S := S64x128) hz11, View.ld_unit_zero (S := S64x5888) hz11, View.ld_unit_zero (S := S5888x128) hz11]

/-! ## The accumulator, point by point -/

/-- THE ACCUMULATION. What the scratch holds after the body at point `n`: at the first point the zero block with the
    first block product added, afterwards what the point before left with this point's block product added. -/
def acc11 (c : Dev nD) : (n : ℕ) → n < cfg11.N → Vec F S64x128 .f32
  | 0, hn => k11_pay2 (k11_pay1 (F := F)) (iblk11 V c 0 ⟨0, hn⟩) (iblk11 V c 1 ⟨0, hn⟩)
  | n + 1, hn => k11_pay2 (acc11 c n (Nat.lt_of_succ_lt hn)) (iblk11 V c 0 ⟨n + 1, hn⟩) (iblk11 V c 1 ⟨n + 1, hn⟩)

theorem acc11_zero (c : Dev nD) (hn : 0 < cfg11.N) :
    acc11 V c 0 hn = k11_pay2 (k11_pay1 (F := F)) (iblk11 V c 0 ⟨0, hn⟩) (iblk11 V c 1 ⟨0, hn⟩) := rfl

theorem acc11_succ (c : Dev nD) (n : ℕ) (hn : n + 1 < cfg11.N) :
    acc11 V c (n + 1) hn = k11_pay2 (acc11 V c n (Nat.lt_of_succ_lt hn)) (iblk11 V c 0 ⟨n + 1, hn⟩) (iblk11 V c 1 ⟨n + 1, hn⟩) := rfl

/-- The accumulator at the first point, stated at a point of the grid. -/
theorem acc11_of_zero (c : Dev nD) (t : Fin cfg11.N) (h0 : t.val = 0) :
    acc11 V c t.val t.isLt = k11_pay2 (k11_pay1 (F := F)) (iblk11 V c 0 t) (iblk11 V c 1 t) := by
  obtain ⟨n, hn⟩ := t
  cases n with
  | zero => rfl
  | succ n => exact absurd h0 (Nat.succ_ne_zero n)

/-- The accumulator at a later point, over what the point before left. -/
theorem acc11_of_pos (c : Dev nD) (t : Fin cfg11.N) (h0 : t.val ≠ 0) :
    acc11 V c t.val t.isLt
      = k11_pay2 (acc11 V c (t.val - 1) (Nat.lt_of_le_of_lt (Nat.sub_le _ _) t.isLt)) (iblk11 V c 0 t) (iblk11 V c 1 t) := by
  obtain ⟨n, hn⟩ := t
  cases n with
  | zero => exact absurd rfl h0
  | succ n => rfl

/-! ## The region invariant -/

/-- The scratch operand: a whole scoped buffer of the kernel's own, passed beside the windows. -/
abbrev scM11 : Memref sig .tc .vmem S64x128 .f32 := Memref.whole cc11_scratch0

/-- The class's invariant with the scratch split off as a memref owned at some contents, the other scoped buffers unopened. -/
theorem PhiA11_eq (c : Dev nD) :
    (Pipeline.ΦA spec11 c : sProp 𝕄)
      = iprop(iprop((∃ d, owns (c : Thread nD τ) scM11 fullShare d)
          ∗ Pipeline.scopedRestBut (Ix := Unit) (Name := ℕ) (U := UR sig nD τ) (Lvl := ℕ) (Val := Elt F) spec11 c [cc11_scratch0])
        ∗ (∃ r, prngReg c r)) := by
  unfold Pipeline.ΦA; rw [scopedRest11_split]; simp only [scM11, owns_whole]; try rfl

/-- The invariant before position `n`: before the first point the class's (every scoped buffer that is no staging buffer
    at anything, the generator register at some state); afterwards the same with the scratch at what the point before left in it. -/
def Phi11 (c : Dev nD) : (n : ℕ) → n ≤ cfg11.N → sProp 𝕄
  | 0, _ => Pipeline.ΦA spec11 c
  | n + 1, hn => iprop(iprop(owns (c : Thread nD τ) scM11 fullShare (acc11 V c n hn)
          ∗ Pipeline.scopedRestBut (Ix := Unit) (Name := ℕ) (U := UR sig nD τ) (Lvl := ℕ) (Val := Elt F) spec11 c [cc11_scratch0])
        ∗ (∃ r, prngReg c r))

theorem Phi11_at_zero (c : Dev nD) (n : ℕ) (h : n ≤ cfg11.N) (hz : n = 0) : Phi11 V c n h = Pipeline.ΦA spec11 c := by
  subst hz; rfl

theorem Phi11_succ (c : Dev nD) (n : ℕ) (hn : n < cfg11.N) :
    Phi11 V c (n + 1) hn = iprop(iprop(owns (c : Thread nD τ) scM11 fullShare (acc11 V c n hn)
          ∗ Pipeline.scopedRestBut (Ix := Unit) (Name := ℕ) (U := UR sig nD τ) (Lvl := ℕ) (Val := Elt F) spec11 c [cc11_scratch0])
        ∗ (∃ r, prngReg c r)) := rfl

theorem Phi11_pos (c : Dev nD) (n : ℕ) (h : n ≤ cfg11.N) (hz : n ≠ 0) :
    Phi11 V c n h = iprop(iprop(owns (c : Thread nD τ) scM11 fullShare (acc11 V c (n - 1) (by omega))
          ∗ Pipeline.scopedRestBut (Ix := Unit) (Name := ℕ) (U := UR sig nD τ) (Lvl := ℕ) (Val := Elt F) spec11 c [cc11_scratch0])
        ∗ (∃ r, prngReg c r)) := by
  cases n with
  | zero => exact absurd rfl hz
  | succ n => rfl

/-! ## The pipeline's proof data -/

/-- The proof data of pipeline 11 on core `c`: the arrays as the region finds them (`V`); after the body each input's
    buffer at its block and the output's at the accumulator (consulted at the last point only: at the others the window
    is idle); the invariant `Phi11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => acc11 V c t.val t.isLt
  Φ t := Phi11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = acc11 V c t.val t.isLt := by dsimp only [dat11]

theorem lt16_11 : 16 < cfg11.N := by rw [show cfg11.N = 17 from N_11]; omega

/-- The output's buffer after the last point holds the whole accumulation. -/
theorem after11_3_last (c : Dev nD) : (dat11 V c).after 3 ⟨16, lt16_11⟩ = acc11 V c 16 lt16_11 := by dsimp only [dat11]

theorem Phi11_castSucc (c : Dev nD) (t : Fin cfg11.N) :
    (dat11 V c).Φ t.castSucc = Phi11 V c t.val (Nat.le_of_lt t.isLt) := by
  dsimp only [dat11]; simp only [Fin.coe_castSucc]

theorem Phi11_zero (c : Dev nD) : (dat11 V c).Φ 0 = Pipeline.ΦA spec11 c := rfl

/-- After the last point the invariant gives the class's back: the scratch's named contents are forgotten. -/
theorem Phi11_last (c : Dev nD) : (dat11 V c).Φ (Fin.last cfg11.N) ⊢ (Pipeline.ΦA spec11 c : sProp 𝕄) := by
  rw [show (dat11 V c).Φ (Fin.last cfg11.N) = Phi11 V c (Fin.last cfg11.N).val (Nat.le_of_lt_succ (Fin.last cfg11.N).isLt) from rfl,
    Phi11_pos V c _ _ (by rw [Fin.val_last]; have : cfg11.N = 17 := N_11; omega), PhiA11_eq]
  iintro ⟨⟨HS, Hr⟩, Hg⟩
  isplitl [HS Hr]
  · isplitl [HS]
    · iexists _; iexact HS
    iexact Hr
  iexact Hg

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point. The inputs' buffers hold their blocks; the bias window passes through unread. At the first
    point the invariant hands over the scratch at anything and the body zeroes it; at a later point the scratch holds what
    the point before left. The body adds the block product and the invariant takes the scratch back at the new sum. The
    output window is idle (handed back as found) except at the last point, where the body stores the sum into it. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = Phi11 V c (t.val + 1) t.isLt from rfl, Phi11_succ]
  rw [show (dat11 V c).leavesExact 0 t = owns (c : Thread nD τ) (st11_0 t) fullShare ((dat11 V c).after 0 t) from by
      unfold Dat.leavesExact; rw [liveAt11_0 t], after11_0]
  rw [show (dat11 V c).leavesExact 1 t = owns (c : Thread nD τ) (st11_1 t) fullShare ((dat11 V c).after 1 t) from by
      unfold Dat.leavesExact; rw [liveAt11_1 t], after11_1]
  rw [show (dat11 V c).leavesExact 2 t = owns (c : Thread nD τ) (st11_2 t) fullShare ((dat11 V c).after 2 t) from by
      unfold Dat.leavesExact; rw [liveAt11_2 t], after11_2]
  have hN : t.val < 17 := lt_of_lt_of_eq t.isLt (show cfg11.N = 17 from N_11)
  by_cases h0 : t.val = 0
  · -- the first point: zero, add
    have h1 : ¬k11_cond2 (grid11.coords t) = 1#1 := fun h => by have := (hcond11_1 t).mp h; omega
    rw [Dat.leavesExact_idle (dat11 V c) 3 t (idleAt11_3 t h1) (noFlush11_3 t h1)]
    rw [Phi11_castSucc V c t, Phi11_at_zero V c _ _ h0, PhiA11_eq, acc11_of_zero V c t h0]
    iintro ⟨⟨⟨HS, Hr⟩, Hg⟩, Ho, ⟨%d0, H0⟩, ⟨%d1, H1⟩, ⟨%d2, H2⟩, H3⟩
    iapply (run11_A c Set.univ (grid11.coords t) _ _ _ _ _ _ _ _ _ _ ((hcond11_0 t).mpr h0) h1 (iblk11 V c 0 t) (iblk11 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hc0 : ¬cond11_0 (grid11.coords t) := fun h => h0 ((hcond11_0 t).mp h)
    rw [Phi11_castSucc V c t, Phi11_pos V c _ _ h0, acc11_of_pos V c t h0]
    by_cases h16 : t.val = 16
    · -- the last point: add, store
      have h1 : k11_cond2 (grid11.coords t) = 1#1 := (hcond11_1 t).mpr h16
      rw [show (dat11 V c).leavesExact 3 t = owns (c : Thread nD τ) (st11_3 t) fullShare ((dat11 V c).after 3 t) from by
          unfold Dat.leavesExact; rw [liveAt11_3 t h1], after11_3, acc11_of_pos V c t h0]
      iintro ⟨⟨⟨HS, Hr⟩, Hg⟩, Ho, ⟨%d0, H0⟩, ⟨%d1, H1⟩, ⟨%d2, H2⟩, ⟨%d3, H3⟩⟩
      iapply (run11_C c Set.univ (grid11.coords t) _ _ _ _ _ _ _ _ _ _ hc0 h1 (iblk11 V c 0 t) (iblk11 V c 1 t) _ _)
      isplitl [H0]; · iexact H0
      isplitl [H1]; · iexact H1
      isplitl [HS]; · iexact HS
      isplitl [H3]; · iexists _; iexact H3
      iintro ⟨H0, H1, HS, H3⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · -- a middle point: add
      have h1 : ¬k11_cond2 (grid11.coords t) = 1#1 := fun h => h16 ((hcond11_1 t).mp h)
      rw [Dat.leavesExact_idle (dat11 V c) 3 t (idleAt11_3 t h1) (noFlush11_3 t h1)]
      iintro ⟨⟨⟨HS, Hr⟩, Hg⟩, Ho, ⟨%d0, H0⟩, ⟨%d1, H1⟩, ⟨%d2, H2⟩, H3⟩
      iapply (run11_B c Set.univ (grid11.coords t) _ _ _ _ _ _ _ _ _ _ hc0 h1 (iblk11 V c 0 t) (iblk11 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The output array after the region -/

/-- The one write-back, at the last point, writes the output's whole block: read through that block the array after the
    region holds the whole accumulation. -/
theorem arrAt11_out (c : Dev nD) :
    ((cfg11.win 3).blk ⟨16, lt16_11⟩).view.read (Elt F) ((dat11 V c).arrAt 3 cfg11.N) = acc11 V c 16 lt16_11 := by
  have h := (dat11 V c).read_blk_arrAt_eq_flushed 3
    (fun t t' ht ht' hne => by
      exfalso
      have hN : t.val < 17 := lt_of_lt_of_eq t.isLt (show cfg11.N = 17 from N_11)
      have hN' : t'.val < 17 := lt_of_lt_of_eq t'.isLt (show cfg11.N = 17 from N_11)
      have e := (flush11_3 t).mp ht
      have e' := (flush11_3 t').mp ht'
      exact hne (Fin.ext (by omega)))
    cfg11.N ⟨16, lt16_11⟩ lt16_11 ((flush11_3 ⟨16, lt16_11⟩).mpr rfl)
  rw [h]
  exact after11_3_last V c

/-- The output's block is the whole array (one block, at index zero), so the array itself ends at the accumulation. -/
theorem arrAt11_out_whole (c : Dev nD) : (dat11 V c).arrAt 3 cfg11.N = acc11 V c 16 lt16_11 := by
  have hz : (fun a => (win11_3.index ⟨16, lt16_11⟩) a * main_v108.ty.shape.size a) = fun _ => 0 :=
    funext fun a => by fin_cases a <;> decide
  have h := arrAt11_out V c
  rw [show ((cfg11.win 3).blk ⟨16, lt16_11⟩).view.read (Elt F) ((dat11 V c).arrAt 3 cfg11.N) = (dat11 V c).arrAt 3 cfg11.N from
    Memref.read_access_unit_zero (Elt F) main_v108 hz _ _] at h
  exact h

end Cert.Kernel.Hand

end
-- ==== Proof.K.Outs.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.R0
import proofs.«402750_j37864431681686_1_alg».proof.Proof.K.R1
import proofs.«402750_j37864431681686_1_alg».proof.Proof.K.R2
import proofs.«402750_j37864431681686_1_alg».proof.Proof.K.R3
import proofs.«402750_j37864431681686_1_alg».proof.Proof.K.R4
import proofs.«402750_j37864431681686_1_alg».proof.Proof.K.R5
import proofs.«402750_j37864431681686_1_alg».proof.Proof.K.R6
import proofs.«402750_j37864431681686_1_alg».proof.Proof.K.R7
import proofs.«402750_j37864431681686_1_alg».proof.Proof.K.R8
import proofs.«402750_j37864431681686_1_alg».proof.Proof.K.R9
import proofs.«402750_j37864431681686_1_alg».proof.Proof.K.R10
import proofs.«402750_j37864431681686_1_alg».proof.Proof.K.R11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between @main's items, stated outright

The conditional frame writes the contents between two items over UNKNOWNS `outs`: what each kernel region leaves in the
one array it may change. Here they are named without self-reference: from the launch memory, a host stretch acts by
`StableHlo.after`, and a kernel region replaces its output array by the write-backs of all its grid points folded over
the array as the region found it (`Dat.arrAt … N` of the region's proof data AT THE CONTENTS BEFORE IT). The unknowns are
then read off this chain, and the conditional frame's valuations at them are the chain's. -/

/-- A valuation of a core's buffers read at the TensorCore's references: what a region's proof data take. -/
abbrev atTc (W : Dev nD → Valuation τ sig (Elt F)) : (c : Dev nD) → (b : Ref sig .tc) → Buf (Elt F) ((c : Thread nD τ).loc b) :=
  fun c b => W c b

/-- Before region 0: the launch contents after the first host stretch. -/
abbrev U1 (c : Dev nD) : Valuation τ sig (Elt F) := V1 m c
/-- What region 0 leaves in its output array. -/
def o2 (c : Dev nD) : Buf (Elt F) ((c : Thread nD τ).loc main_v12) := (dat0 (atTc (U1 m)) c).arrAt 3 cfg0.N
/-- After region 0. -/
def U2 (c : Dev nD) : Valuation τ sig (Elt F) := Function.update (U1 m c) main_v12 (o2 m c)
/-- Before region 1. -/
def U3 (c : Dev nD) : Valuation τ sig (Elt F) := StableHlo.after hostOps1 (U2 m c)
/-- What region 1 leaves in its output array. -/
def o4 (c : Dev nD) : Buf (Elt F) ((c : Thread nD τ).loc main_v16) := (dat1 (atTc (U3 m)) c).arrAt 3 cfg1.N
/-- After region 1. -/
def U4 (c : Dev nD) : Valuation τ sig (Elt F) := Function.update (U3 m c) main_v16 (o4 m c)
/-- Before region 2. -/
def U5 (c : Dev nD) : Valuation τ sig (Elt F) := StableHlo.after hostOps2 (U4 m c)
/-- What region 2 leaves in its output array. -/
def o6 (c : Dev nD) : Buf (Elt F) ((c : Thread nD τ).loc main_v19) := (dat2 (atTc (U5 m)) c).arrAt 3 cfg2.N
/-- After region 2. -/
def U6 (c : Dev nD) : Valuation τ sig (Elt F) := Function.update (U5 m c) main_v19 (o6 m c)
/-- Before region 3. -/
def U7 (c : Dev nD) : Valuation τ sig (Elt F) := StableHlo.after hostOps3 (U6 m c)
/-- What region 3 leaves in its output array. -/
def o8 (c : Dev nD) : Buf (Elt F) ((c : Thread nD τ).loc main_v40) := (dat3 (atTc (U7 m)) c).arrAt 5 cfg3.N
/-- After region 3. -/
def U8 (c : Dev nD) : Valuation τ sig (Elt F) := Function.update (U7 m c) main_v40 (o8 m c)
/-- Before region 4. -/
def U9 (c : Dev nD) : Valuation τ sig (Elt F) := StableHlo.after hostOps4 (U8 m c)
/-- What region 4 leaves in its output array. -/
def o10 (c : Dev nD) : Buf (Elt F) ((c : Thread nD τ).loc main_v44) := (dat4 (atTc (U9 m)) c).arrAt 3 cfg4.N
/-- After region 4. -/
def U10 (c : Dev nD) : Valuation τ sig (Elt F) := Function.update (U9 m c) main_v44 (o10 m c)
/-- Before region 5. -/
def U11 (c : Dev nD) : Valuation τ sig (Elt F) := StableHlo.after hostOps5 (U10 m c)
/-- What region 5 leaves in its output array. -/
def o12 (c : Dev nD) : Buf (Elt F) ((c : Thread nD τ).loc main_v47) := (dat5 (atTc (U11 m)) c).arrAt 3 cfg5.N
/-- After region 5. -/
def U12 (c : Dev nD) : Valuation τ sig (Elt F) := Function.update (U11 m c) main_v47 (o12 m c)
/-- Before region 6. -/
def U13 (c : Dev nD) : Valuation τ sig (Elt F) := StableHlo.after hostOps6 (U12 m c)
/-- What region 6 leaves in its output array. -/
def o14 (c : Dev nD) : Buf (Elt F) ((c : Thread nD τ).loc main_v68) := (dat6 (atTc (U13 m)) c).arrAt 5 cfg6.N
/-- After region 6. -/
def U14 (c : Dev nD) : Valuation τ sig (Elt F) := Function.update (U13 m c) main_v68 (o14 m c)
/-- Before region 7. -/
def U15 (c : Dev nD) : Valuation τ sig (Elt F) := StableHlo.after hostOps7 (U14 m c)
/-- What region 7 leaves in its output array. -/
def o16 (c : Dev nD) : Buf (Elt F) ((c : Thread nD τ).loc main_v72) := (dat7 (atTc (U15 m)) c).arrAt 3 cfg7.N
/-- After region 7. -/
def U16 (c : Dev nD) : Valuation τ sig (Elt F) := Function.update (U15 m c) main_v72 (o16 m c)
/-- Before region 8. -/
def U17 (c : Dev nD) : Valuation τ sig (Elt F) := StableHlo.after hostOps8 (U16 m c)
/-- What region 8 leaves in its output array. -/
def o18 (c : Dev nD) : Buf (Elt F) ((c : Thread nD τ).loc main_v75) := (dat8 (atTc (U17 m)) c).arrAt 3 cfg8.N
/-- After region 8. -/
def U18 (c : Dev nD) : Valuation τ sig (Elt F) := Function.update (U17 m c) main_v75 (o18 m c)
/-- Before region 9. -/
def U19 (c : Dev nD) : Valuation τ sig (Elt F) := StableHlo.after hostOps9 (U18 m c)
/-- What region 9 leaves in its output array. -/
def o20 (c : Dev nD) : Buf (Elt F) ((c : Thread nD τ).loc main_v96) := (dat9 (atTc (U19 m)) c).arrAt 5 cfg9.N
/-- After region 9. -/
def U20 (c : Dev nD) : Valuation τ sig (Elt F) := Function.update (U19 m c) main_v96 (o20 m c)
/-- Before region 10. -/
def U21 (c : Dev nD) : Valuation τ sig (Elt F) := StableHlo.after hostOps10 (U20 m c)
/-- What region 10 leaves in its output array. -/
def o22 (c : Dev nD) : Buf (Elt F) ((c : Thread nD τ).loc main_v99) := (dat10 (atTc (U21 m)) c).arrAt 3 cfg10.N
/-- After region 10. -/
def U22 (c : Dev nD) : Valuation τ sig (Elt F) := Function.update (U21 m c) main_v99 (o22 m c)
/-- After each of the four host stretches between regions 10 and 11; the last is what region 11 is entered from. -/
def U23 (c : Dev nD) : Valuation τ sig (Elt F) := StableHlo.after hostOps11 (U22 m c)
def U24 (c : Dev nD) : Valuation τ sig (Elt F) := StableHlo.after hostOps11_1 (U23 m c)
def U25 (c : Dev nD) : Valuation τ sig (Elt F) := StableHlo.after hostOps11_2 (U24 m c)
def U26 (c : Dev nD) : Valuation τ sig (Elt F) := StableHlo.after hostOps11_3 (U25 m c)
/-- What region 11 leaves in its output array. -/
def o27 (c : Dev nD) : Buf (Elt F) ((c : Thread nD τ).loc main_v108) := (dat11 (atTc (U26 m)) c).arrAt 3 cfg11.N
/-- After region 11. -/
def U27 (c : Dev nD) : Valuation τ sig (Elt F) := Function.update (U26 m c) main_v108 (o27 m c)
/-- At the end, after the last host stretch. -/
def U28 (c : Dev nD) : Valuation τ sig (Elt F) := StableHlo.after hostOps12 (U27 m c)

/-! ## The unknowns, read off the chain -/

/-- `outs J r c`, the contents of `r` on core `c` after item J − 1: the chain's valuation there (read by the conditional
    frame only after a kernel region, at the region's output array). -/
def outs : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 27 => U27 m c r
  | _ => U1 m c r

theorem outs_2 (c : Dev nD) : outs m 2 main_v12 c = o2 m c := by
  show Function.update (U1 m c) main_v12 (o2 m c) main_v12 = o2 m c
  exact Function.update_self _ _ _
theorem outs_4 (c : Dev nD) : outs m 4 main_v16 c = o4 m c := by
  show Function.update (U3 m c) main_v16 (o4 m c) main_v16 = o4 m c
  exact Function.update_self _ _ _
theorem outs_6 (c : Dev nD) : outs m 6 main_v19 c = o6 m c := by
  show Function.update (U5 m c) main_v19 (o6 m c) main_v19 = o6 m c
  exact Function.update_self _ _ _
theorem outs_8 (c : Dev nD) : outs m 8 main_v40 c = o8 m c := by
  show Function.update (U7 m c) main_v40 (o8 m c) main_v40 = o8 m c
  exact Function.update_self _ _ _
theorem outs_10 (c : Dev nD) : outs m 10 main_v44 c = o10 m c := by
  show Function.update (U9 m c) main_v44 (o10 m c) main_v44 = o10 m c
  exact Function.update_self _ _ _
theorem outs_12 (c : Dev nD) : outs m 12 main_v47 c = o12 m c := by
  show Function.update (U11 m c) main_v47 (o12 m c) main_v47 = o12 m c
  exact Function.update_self _ _ _
theorem outs_14 (c : Dev nD) : outs m 14 main_v68 c = o14 m c := by
  show Function.update (U13 m c) main_v68 (o14 m c) main_v68 = o14 m c
  exact Function.update_self _ _ _
theorem outs_16 (c : Dev nD) : outs m 16 main_v72 c = o16 m c := by
  show Function.update (U15 m c) main_v72 (o16 m c) main_v72 = o16 m c
  exact Function.update_self _ _ _
theorem outs_18 (c : Dev nD) : outs m 18 main_v75 c = o18 m c := by
  show Function.update (U17 m c) main_v75 (o18 m c) main_v75 = o18 m c
  exact Function.update_self _ _ _
theorem outs_20 (c : Dev nD) : outs m 20 main_v96 c = o20 m c := by
  show Function.update (U19 m c) main_v96 (o20 m c) main_v96 = o20 m c
  exact Function.update_self _ _ _
theorem outs_22 (c : Dev nD) : outs m 22 main_v99 c = o22 m c := by
  show Function.update (U21 m c) main_v99 (o22 m c) main_v99 = o22 m c
  exact Function.update_self _ _ _
theorem outs_27 (c : Dev nD) : outs m 27 main_v108 c = o27 m c := by
  show Function.update (U26 m c) main_v108 (o27 m c) main_v108 = o27 m c
  exact Function.update_self _ _ _

/-! ## The conditional frame's valuations at these unknowns are the chain's -/

theorem V_eq_1 (c : Dev nD) : V1 m c = U1 m c := rfl
theorem V_eq_2 (c : Dev nD) : V2 m (outs m) c = U2 m c := congrArg (Function.update (V1 m c) main_v12) (outs_2 m c)
theorem V_eq_3 (c : Dev nD) : V3 m (outs m) c = U3 m c := congrArg (StableHlo.after hostOps1) (V_eq_2 m c)
theorem V_eq_4 (c : Dev nD) : V4 m (outs m) c = U4 m c := by
  show Function.update (V3 m (outs m) c) main_v16 (outs m 4 main_v16 c) = Function.update (U3 m c) main_v16 (o4 m c)
  rw [V_eq_3, outs_4]
theorem V_eq_5 (c : Dev nD) : V5 m (outs m) c = U5 m c := congrArg (StableHlo.after hostOps2) (V_eq_4 m c)
theorem V_eq_6 (c : Dev nD) : V6 m (outs m) c = U6 m c := by
  show Function.update (V5 m (outs m) c) main_v19 (outs m 6 main_v19 c) = Function.update (U5 m c) main_v19 (o6 m c)
  rw [V_eq_5, outs_6]
theorem V_eq_7 (c : Dev nD) : V7 m (outs m) c = U7 m c := congrArg (StableHlo.after hostOps3) (V_eq_6 m c)
theorem V_eq_8 (c : Dev nD) : V8 m (outs m) c = U8 m c := by
  show Function.update (V7 m (outs m) c) main_v40 (outs m 8 main_v40 c) = Function.update (U7 m c) main_v40 (o8 m c)
  rw [V_eq_7, outs_8]
theorem V_eq_9 (c : Dev nD) : V9 m (outs m) c = U9 m c := congrArg (StableHlo.after hostOps4) (V_eq_8 m c)
theorem V_eq_10 (c : Dev nD) : V10 m (outs m) c = U10 m c := by
  show Function.update (V9 m (outs m) c) main_v44 (outs m 10 main_v44 c) = Function.update (U9 m c) main_v44 (o10 m c)
  rw [V_eq_9, outs_10]
theorem V_eq_11 (c : Dev nD) : V11 m (outs m) c = U11 m c := congrArg (StableHlo.after hostOps5) (V_eq_10 m c)
theorem V_eq_12 (c : Dev nD) : V12 m (outs m) c = U12 m c := by
  show Function.update (V11 m (outs m) c) main_v47 (outs m 12 main_v47 c) = Function.update (U11 m c) main_v47 (o12 m c)
  rw [V_eq_11, outs_12]
theorem V_eq_13 (c : Dev nD) : V13 m (outs m) c = U13 m c := congrArg (StableHlo.after hostOps6) (V_eq_12 m c)
theorem V_eq_14 (c : Dev nD) : V14 m (outs m) c = U14 m c := by
  show Function.update (V13 m (outs m) c) main_v68 (outs m 14 main_v68 c) = Function.update (U13 m c) main_v68 (o14 m c)
  rw [V_eq_13, outs_14]
theorem V_eq_15 (c : Dev nD) : V15 m (outs m) c = U15 m c := congrArg (StableHlo.after hostOps7) (V_eq_14 m c)
theorem V_eq_16 (c : Dev nD) : V16 m (outs m) c = U16 m c := by
  show Function.update (V15 m (outs m) c) main_v72 (outs m 16 main_v72 c) = Function.update (U15 m c) main_v72 (o16 m c)
  rw [V_eq_15, outs_16]
theorem V_eq_17 (c : Dev nD) : V17 m (outs m) c = U17 m c := congrArg (StableHlo.after hostOps8) (V_eq_16 m c)
theorem V_eq_18 (c : Dev nD) : V18 m (outs m) c = U18 m c := by
  show Function.update (V17 m (outs m) c) main_v75 (outs m 18 main_v75 c) = Function.update (U17 m c) main_v75 (o18 m c)
  rw [V_eq_17, outs_18]
theorem V_eq_19 (c : Dev nD) : V19 m (outs m) c = U19 m c := congrArg (StableHlo.after hostOps9) (V_eq_18 m c)
theorem V_eq_20 (c : Dev nD) : V20 m (outs m) c = U20 m c := by
  show Function.update (V19 m (outs m) c) main_v96 (outs m 20 main_v96 c) = Function.update (U19 m c) main_v96 (o20 m c)
  rw [V_eq_19, outs_20]
theorem V_eq_21 (c : Dev nD) : V21 m (outs m) c = U21 m c := congrArg (StableHlo.after hostOps10) (V_eq_20 m c)
theorem V_eq_22 (c : Dev nD) : V22 m (outs m) c = U22 m c := by
  show Function.update (V21 m (outs m) c) main_v99 (outs m 22 main_v99 c) = Function.update (U21 m c) main_v99 (o22 m c)
  rw [V_eq_21, outs_22]
theorem V_eq_23 (c : Dev nD) : V23 m (outs m) c = U23 m c := congrArg (StableHlo.after hostOps11) (V_eq_22 m c)
theorem V_eq_24 (c : Dev nD) : V24 m (outs m) c = U24 m c := congrArg (StableHlo.after hostOps11_1) (V_eq_23 m c)
theorem V_eq_25 (c : Dev nD) : V25 m (outs m) c = U25 m c := congrArg (StableHlo.after hostOps11_2) (V_eq_24 m c)
theorem V_eq_26 (c : Dev nD) : V26 m (outs m) c = U26 m c := congrArg (StableHlo.after hostOps11_3) (V_eq_25 m c)
theorem V_eq_27 (c : Dev nD) : V27 m (outs m) c = U27 m c := by
  show Function.update (V26 m (outs m) c) main_v108 (outs m 27 main_v108 c) = Function.update (U26 m c) main_v108 (o27 m c)
  rw [V_eq_26, outs_27]
theorem V_eq_28 (c : Dev nD) : V28 m (outs m) c = U28 m c := congrArg (StableHlo.after hostOps12) (V_eq_27 m c)

/-! ## The proof data family -/

/-- Every pipeline's proof data, each at the contents its region is entered from: a literal match on the pipeline, so
    that the family at a numeral reduces to that region's data. -/
def pdats : (p : Fin 12) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c
  | ⟨10, _⟩ => fun c => dat10 (atTc (U21 m)) c
  | ⟨11, _⟩ => fun c => dat11 (atTc (U26 m)) c

/-! ## A region's exit contents: its output array replaced, every other buffer as entered -/

theorem U2_out (c : Dev nD) : U2 m c main_v12 = o2 m c := by unfold U2; exact Function.update_self _ _ _
theorem U2_of_ne (c : Dev nD) (b : Ref sig .tc) (h : b ≠ main_v12) : U2 m c b = U1 m c b := by
  unfold U2; exact Function.update_of_ne (StableHlo.devRef_ne_of_ne h) _ _
theorem U4_out (c : Dev nD) : U4 m c main_v16 = o4 m c := by unfold U4; exact Function.update_self _ _ _
theorem U4_of_ne (c : Dev nD) (b : Ref sig .tc) (h : b ≠ main_v16) : U4 m c b = U3 m c b := by
  unfold U4; exact Function.update_of_ne (StableHlo.devRef_ne_of_ne h) _ _
theorem U6_out (c : Dev nD) : U6 m c main_v19 = o6 m c := by unfold U6; exact Function.update_self _ _ _
theorem U6_of_ne (c : Dev nD) (b : Ref sig .tc) (h : b ≠ main_v19) : U6 m c b = U5 m c b := by
  unfold U6; exact Function.update_of_ne (StableHlo.devRef_ne_of_ne h) _ _
theorem U8_out (c : Dev nD) : U8 m c main_v40 = o8 m c := by unfold U8; exact Function.update_self _ _ _
theorem U8_of_ne (c : Dev nD) (b : Ref sig .tc) (h : b ≠ main_v40) : U8 m c b = U7 m c b := by
  unfold U8; exact Function.update_of_ne (StableHlo.devRef_ne_of_ne h) _ _
theorem U10_out (c : Dev nD) : U10 m c main_v44 = o10 m c := by unfold U10; exact Function.update_self _ _ _
theorem U10_of_ne (c : Dev nD) (b : Ref sig .tc) (h : b ≠ main_v44) : U10 m c b = U9 m c b := by
  unfold U10; exact Function.update_of_ne (StableHlo.devRef_ne_of_ne h) _ _
theorem U12_out (c : Dev nD) : U12 m c main_v47 = o12 m c := by unfold U12; exact Function.update_self _ _ _
theorem U12_of_ne (c : Dev nD) (b : Ref sig .tc) (h : b ≠ main_v47) : U12 m c b = U11 m c b := by
  unfold U12; exact Function.update_of_ne (StableHlo.devRef_ne_of_ne h) _ _
theorem U14_out (c : Dev nD) : U14 m c main_v68 = o14 m c := by unfold U14; exact Function.update_self _ _ _
theorem U14_of_ne (c : Dev nD) (b : Ref sig .tc) (h : b ≠ main_v68) : U14 m c b = U13 m c b := by
  unfold U14; exact Function.update_of_ne (StableHlo.devRef_ne_of_ne h) _ _
theorem U16_out (c : Dev nD) : U16 m c main_v72 = o16 m c := by unfold U16; exact Function.update_self _ _ _
theorem U16_of_ne (c : Dev nD) (b : Ref sig .tc) (h : b ≠ main_v72) : U16 m c b = U15 m c b := by
  unfold U16; exact Function.update_of_ne (StableHlo.devRef_ne_of_ne h) _ _
theorem U18_out (c : Dev nD) : U18 m c main_v75 = o18 m c := by unfold U18; exact Function.update_self _ _ _
theorem U18_of_ne (c : Dev nD) (b : Ref sig .tc) (h : b ≠ main_v75) : U18 m c b = U17 m c b := by
  unfold U18; exact Function.update_of_ne (StableHlo.devRef_ne_of_ne h) _ _
theorem U20_out (c : Dev nD) : U20 m c main_v96 = o20 m c := by unfold U20; exact Function.update_self _ _ _
theorem U20_of_ne (c : Dev nD) (b : Ref sig .tc) (h : b ≠ main_v96) : U20 m c b = U19 m c b := by
  unfold U20; exact Function.update_of_ne (StableHlo.devRef_ne_of_ne h) _ _
theorem U22_out (c : Dev nD) : U22 m c main_v99 = o22 m c := by unfold U22; exact Function.update_self _ _ _
theorem U22_of_ne (c : Dev nD) (b : Ref sig .tc) (h : b ≠ main_v99) : U22 m c b = U21 m c b := by
  unfold U22; exact Function.update_of_ne (StableHlo.devRef_ne_of_ne h) _ _
theorem U27_out (c : Dev nD) : U27 m c main_v108 = o27 m c := by unfold U27; exact Function.update_self _ _ _
theorem U27_of_ne (c : Dev nD) (b : Ref sig .tc) (h : b ≠ main_v108) : U27 m c b = U26 m c b := by
  unfold U27; exact Function.update_of_ne (StableHlo.devRef_ne_of_ne h) _ _

/-! ## What rides beside the buffers -/

/-- Beside the unscoped buffers, through every item of @main: the core's generator register at some state (a region's
    invariant takes it in and gives it back) and the core owing nothing. -/
abbrev Rst (c : Dev nD) : sProp 𝕄 :=
  iprop((∃ r, prngReg c r) ∗ ∃ W, owes (c : Thread nD τ) (0 : CellTallies nD τ sig Unit) W)

end Cert.Kernel.Hand

end
-- ==== Proof.K.Cond.lean ====
import proofs.«402750_j37864431681686_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. Under the hypotheses of the conditional frame (one segment record per kernel region, entered
    from the thread state before it and left at the one after it), every weakly fair execution of @main from memory `m`
    with zero counters terminates, and every final memory holds EVERY unscoped buffer of every core at the last
    valuation `V28`: the whole end state, of which the frame claim reads only the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 12) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 13 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE12 : ∀ c : Dev nD, E 12 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V26 m outs c) ∗ E 11 c) ⊢ R11.pre c)
    (hpost11 : ∀ c : Dev nD, R11.post c ⊢ iprop(StableHlo.held (c : Thread nD τ) (Pipeline.ucRefs τ sig) (V27 m outs c) ∗ E 12 c)) :
    θ_run defs (onTc (τ := τ) (main (F := F))) ⟨m, fun _ => 0, ρ⟩ (fun r => ∀ c : Dev nD, ∀ b ∈ Pipeline.ucRefs τ sig,
      r.2.mem ((c : Thread nD τ).1, b) = V28 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11)
    (fun c Q => by
      rewrite [main_chain c, Seg.run_eq_chain,
        show (segs m outs 𝒱₀ L lv E ι pdats R0 R1 R2 R3 R4 R5 R6 R7 R8 R9 R10 R11 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          StableHlo.seq hostOps11_1,
          StableHlo.seq hostOps11_2,
          StableHlo.seq hostOps11_3,
          Prog.lift (.customCall (Pipeline.entry 11) ()),
          StableHlo.seq hostOps12 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V28 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, .rfl, .rfl, .rfl, hpre11 c, hpost11 c, sep_mono .rfl (hE12 c)⟩)
    (hinit := ?_)
    (QY := fun c s => ∀ b ∈ Pipeline.ucRefs τ sig, s.mem ((c : Thread nD τ).1, b) = V28 m outs c b)
    (hfin := fun c s' => ?_) (hQ := fun _ h => h)
  · -- the launch: each core's unscoped buffers are held at the launch contents; what else the launch deals makes the
    -- first rest on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer is read off the last valuation against the final state
    unfold StableHlo.held
    iintro ⟨Hh, HSI⟩
    ihave Hr := (pointsTo_read_all (Pipeline.ucRefs τ sig) (fun b => ((c : Thread nD τ).1, b)) (V28 m outs c) s') $$ [Hh HSI]
    · isplitl [Hh] <;> iassumption
    icases Hr with ⟨%h, HSI⟩
    imodintro
    isplitr
    · ipureintro
      exact h
    · iexact HSI

end Cert.Kernel.Hand

end
-- ==== Proof.K.Reg0.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 0 of @main as a segment of the run

Entered from the contents `U1`, left at `U2`: the output array `main_v12` (window 3) at what the write-backs of all the
grid's points leave, every other buffer as entered. -/

/-- Every window but the last is an input. -/
theorem hin0 : ∀ w : Fin cfg0.W, w ≠ 3 → (cfg0.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF0 (c : Dev nD) (w : Fin cfg0.W) : (pdats m 0 c).arrAt w cfg0.N = atTc (U2 m) c (Pipeline.arrRef spec0 w) := by
  by_cases hw : w = 3
  · subst hw; exact (U2_out m c).symm
  · exact ((pdats m 0 c).arrAt_in w (hin0 w hw) _).trans ((A_eq0 (atTc (U1 m)) c w).trans
      (U2_of_ne m c _ fun e => hw (winFacts0.arr_inj (e.trans (show main_v12 = Pipeline.arrRef spec0 3 from rfl)))).symm)

/-- Off the region's arrays the exit contents are the entry's. -/
theorem hrest0 (c : Dev nD) : ∀ b, b ∉ Finset.univ.image (Pipeline.arrRef spec0) → atTc (U2 m) c b = atTc (U1 m) c b :=
  fun b hb => U2_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 0 over the thread state "every unscoped buffer at the boundary's contents, the generator register at some
    state, nothing owed". Entry: the region's arrays are split out of the unscoped buffers at `U1`, the rest bypasses
    the region; the register enters the invariant beside the scoped buffers no window stages (the kernel's scratch
    among them). Exit: the arrays come back at what the pipeline leaves and, with the bypassed rest, are the unscoped
    buffers at `U2`; the register comes back out of the invariant; nothing is owed at either end. The kernel has no
    semaphore of its own. -/
def reg0 : Pipeline.RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ (fun _ => ∅) (fun _ _ => 0) 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) (A_eq0 (atTc (U1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (atTc (U1 m)) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (atTc (U1 m)) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 1 of @main as a segment of the run

Entered from the contents `U3`, left at `U4`: the output array `main_v16` (window 3) at what the write-backs of all the
grid's points leave, every other buffer as entered. -/

/-- Every window but the last is an input. -/
theorem hin1 : ∀ w : Fin cfg1.W, w ≠ 3 → (cfg1.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF1 (c : Dev nD) (w : Fin cfg1.W) : (pdats m 1 c).arrAt w cfg1.N = atTc (U4 m) c (Pipeline.arrRef spec1 w) := by
  by_cases hw : w = 3
  · subst hw; exact (U4_out m c).symm
  · exact ((pdats m 1 c).arrAt_in w (hin1 w hw) _).trans ((A_eq1 (atTc (U3 m)) c w).trans
      (U4_of_ne m c _ fun e => hw (winFacts1.arr_inj (e.trans (show main_v16 = Pipeline.arrRef spec1 3 from rfl)))).symm)

/-- Off the region's arrays the exit contents are the entry's. -/
theorem hrest1 (c : Dev nD) : ∀ b, b ∉ Finset.univ.image (Pipeline.arrRef spec1) → atTc (U4 m) c b = atTc (U3 m) c b :=
  fun b hb => U4_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 1 over the thread state "every unscoped buffer at the boundary's contents, the generator register at some
    state, nothing owed". Entry: the region's arrays are split out of the unscoped buffers at `U3`, the rest bypasses
    the region; the register enters the invariant beside the scoped buffers no window stages (the kernel's scratch
    among them). Exit: the arrays come back at what the pipeline leaves and, with the bypassed rest, are the unscoped
    buffers at `U4`; the register comes back out of the invariant; nothing is owed at either end. The kernel has no
    semaphore of its own. -/
def reg1 : Pipeline.RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ (fun _ => ∅) (fun _ _ => 0) 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) (A_eq1 (atTc (U3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (atTc (U3 m)) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (atTc (U3 m)) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 2 of @main as a segment of the run

Entered from the contents `U5`, left at `U6`: the output array `main_v19` (window 3) at what the write-backs of all the
grid's points leave, every other buffer as entered. -/

/-- Every window but the last is an input. -/
theorem hin2 : ∀ w : Fin cfg2.W, w ≠ 3 → (cfg2.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF2 (c : Dev nD) (w : Fin cfg2.W) : (pdats m 2 c).arrAt w cfg2.N = atTc (U6 m) c (Pipeline.arrRef spec2 w) := by
  by_cases hw : w = 3
  · subst hw; exact (U6_out m c).symm
  · exact ((pdats m 2 c).arrAt_in w (hin2 w hw) _).trans ((A_eq2 (atTc (U5 m)) c w).trans
      (U6_of_ne m c _ fun e => hw (winFacts2.arr_inj (e.trans (show main_v19 = Pipeline.arrRef spec2 3 from rfl)))).symm)

/-- Off the region's arrays the exit contents are the entry's. -/
theorem hrest2 (c : Dev nD) : ∀ b, b ∉ Finset.univ.image (Pipeline.arrRef spec2) → atTc (U6 m) c b = atTc (U5 m) c b :=
  fun b hb => U6_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 2 over the thread state "every unscoped buffer at the boundary's contents, the generator register at some
    state, nothing owed". Entry: the region's arrays are split out of the unscoped buffers at `U5`, the rest bypasses
    the region; the register enters the invariant beside the scoped buffers no window stages (the kernel's scratch
    among them). Exit: the arrays come back at what the pipeline leaves and, with the bypassed rest, are the unscoped
    buffers at `U6`; the register comes back out of the invariant; nothing is owed at either end. The kernel has no
    semaphore of its own. -/
def reg2 : Pipeline.RegionSeg (pcfgs (F := F)) adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (atTc (U5 m)) c).loose
  hwaits := Pipeline.hwaits_of_owed_zero _ _ _ _ (fun _ => ∅) (fun _ _ => 0) 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U5 m) c) (A_eq2 (atTc (U5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2 (atTc (U5 m)) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Phi2 (atTc (U5 m)) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U5 m) c) (atTc (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 3 of @main as a segment of the run

Entered from the contents `U7`, left at `U8`: the output array `main_v40` (window 5) at what the write-backs of all the
grid's points leave, every other buffer as entered. -/

/-- Every window but the last is an input. -/
theorem hin3 : ∀ w : Fin cfg3.W, w ≠ 5 → (cfg3.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF3 (c : Dev nD) (w : Fin cfg3.W) : (pdats m 3 c).arrAt w cfg3.N = atTc (U8 m) c (Pipeline.arrRef spec3 w) := by
  by_cases hw : w = 5
  · subst hw; exact (U8_out m c).symm
  · exact ((pdats m 3 c).arrAt_in w (hin3 w hw) _).trans ((A_eq3 (atTc (U7 m)) c w).trans
      (U8_of_ne m c _ fun e => hw (winFacts3.arr_inj (e.trans (show main_v40 = Pipeline.arrRef spec3 5 from rfl)))).symm)

/-- Off the region's arrays the exit contents are the entry's. -/
theorem hrest3 (c : Dev nD) : ∀ b, b ∉ Finset.univ.image (Pipeline.arrRef spec3) → atTc (U8 m) c b = atTc (U7 m) c b :=
  fun b hb => U8_of_ne m c b fun e => hb (Finset.mem_image.mpr ⟨5, Finset.mem_univ _, e.symm⟩)

-- a library lemma stated over the pinned configuration unifies with the printed one only when unification may unfold
-- plain definitions in a metavariable's type
set_option backward.isDefEq.respectTransparency.types false in
/-- REGION 3 over the thread state "every unscoped buffer at the boundary's contents, the generator register at some
    state, nothing owed". Entry: the region's arrays are split out of the unscoped buffers at `U7`, the rest bypasses
    the region; the register enters the invariant beside the scoped buffers no window stages (the kernel's scratch
    among them). Exit: the arrays come back at what the pipeline leaves and, with the bypassed rest, are the unscoped
    buffers at `U8`; the register comes back out of the invariant; nothing is owed at either end. The kernel has no
    semaphore of its own. -/
def reg3 : Pipeline.RegionSeg (pcfgs (F := F)) adm (pdats m) () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := (body_obligation3 (atTc (U7 m)) c).loose
  hwaits := Pipeline.hwaits_of_owed_zero _ _ _ _ (fun _ => ∅) (fun _ _ => 0) 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U7 m) c) (A_eq3 (atTc (U7 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3 (atTc (U7 m)) c 0]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Phi3 (atTc (U7 m)) c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U7 m) c) (atTc (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 4 of @main as a segment of the run

Entered from the contents `U9`, left at `U10`: the output array `main_v44` (window 3) at what the write-backs of all the
grid's points leave, every other buffer as entered. -/

/-- Every window but the last is an input. -/
theorem hin4 : ∀ w : Fin cfg4.W, w ≠ 3 → (cfg4.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF4 (c : Dev nD) (w : Fin cfg4.W) : (pdats m 4 c).arrAt w cfg4.N = atTc (U10 m) c (Pipeline.arrRef spec4 w) := by
  by_cases hw : w = 3
  · subst hw; exact (U10_out m c).symm
  · exact ((pdats m 4 c).arrAt_in w (hin4 w hw) _).trans ((A_eq4 (atTc (U9 m)) c w).trans
      (U10_of_ne m c _ fun e => hw (winFacts4.arr_inj (e.trans (show main_v44 = Pipeline.arrRef spec4 3 from rfl)))).symm)

/-- Off the region's arrays the exit contents are the entry's. -/
theorem hrest4 (c : Dev nD) : ∀ b, b ∉ Finset.univ.image (Pipeline.arrRef spec4) → atTc (U10 m) c b = atTc (U9 m) c b :=
  fun b hb => U10_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 4 over the thread state "every unscoped buffer at the boundary's contents, the generator register at some
    state, nothing owed". Entry: the region's arrays are split out of the unscoped buffers at `U9`, the rest bypasses
    the region; the register enters the invariant beside the scoped buffers no window stages (the kernel's scratch
    among them). Exit: the arrays come back at what the pipeline leaves and, with the bypassed rest, are the unscoped
    buffers at `U10`; the register comes back out of the invariant; nothing is owed at either end. The kernel has no
    semaphore of its own. -/
def reg4 : Pipeline.RegionSeg (pcfgs (F := F)) adm (pdats m) () defs₀ Variants.none (fun _ => ∅) (fun _ _ => 0) 4 where
  win := launch4.win.to₀
  block_pos := launch4.block_pos
  stage_whole := launch4.stage_whole
  K := PEmpty
  osem k := k.elim
  ho := Pipeline.OwnSemFacts.none _
  hbody c := (body_obligation4 (atTc (U9 m)) c).loose
  hwaits := Pipeline.hwaits_of_owed_zero _ _ _ _ (fun _ => ∅) (fun _ _ => 0) 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U9 m) c) (A_eq4 (atTc (U9 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi4 (atTc (U9 m)) c 0]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from Phi4 (atTc (U9 m)) c _]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U9 m) c) (atTc (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 5 of @main as a segment of the run

Entered from the contents `U11`, left at `U12`: the output array `main_v47` (window 3) at what the write-backs of all the
grid's points leave, every other buffer as entered. -/

/-- Every window but the last is an input. -/
theorem hin5 : ∀ w : Fin cfg5.W, w ≠ 3 → (cfg5.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF5 (c : Dev nD) (w : Fin cfg5.W) : (pdats m 5 c).arrAt w cfg5.N = atTc (U12 m) c (Pipeline.arrRef spec5 w) := by
  by_cases hw : w = 3
  · subst hw; exact (U12_out m c).symm
  · exact ((pdats m 5 c).arrAt_in w (hin5 w hw) _).trans ((A_eq5 (atTc (U11 m)) c w).trans
      (U12_of_ne m c _ fun e => hw (winFacts5.arr_inj (e.trans (show main_v47 = Pipeline.arrRef spec5 3 from rfl)))).symm)

/-- Off the region's arrays the exit contents are the entry's. -/
theorem hrest5 (c : Dev nD) : ∀ b, b ∉ Finset.univ.image (Pipeline.arrRef spec5) → atTc (U12 m) c b = atTc (U11 m) c b :=
  fun b hb => U12_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 5 over the thread state "every unscoped buffer at the boundary's contents, the generator register at some
    state, nothing owed". Entry: the region's arrays are split out of the unscoped buffers at `U11`, the rest bypasses
    the region; the register enters the invariant beside the scoped buffers no window stages (the kernel's scratch
    among them). Exit: the arrays come back at what the pipeline leaves and, with the bypassed rest, are the unscoped
    buffers at `U12`; the register comes back out of the invariant; nothing is owed at either end. The kernel has no
    semaphore of its own. -/
def reg5 : Pipeline.RegionSeg (pcfgs (F := F)) adm (pdats m) () defs₀ Variants.none (fun _ => ∅) (fun _ _ => 0) 5 where
  win := launch5.win.to₀
  block_pos := launch5.block_pos
  stage_whole := launch5.stage_whole
  K := PEmpty
  osem k := k.elim
  ho := Pipeline.OwnSemFacts.none _
  hbody c := (body_obligation5 (atTc (U11 m)) c).loose
  hwaits := Pipeline.hwaits_of_owed_zero _ _ _ _ (fun _ => ∅) (fun _ _ => 0) 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (U11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (U11 m) c) (A_eq5 (atTc (U11 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi5 (atTc (U11 m)) c 0]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from Phi5 (atTc (U11 m)) c _]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (U11 m) c) (atTc (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 6 of @main as a segment of the run

Entered from the contents `U13`, left at `U14`: the output array `main_v68` (window 5) at what the write-backs of all the
grid's points leave, every other buffer as entered. -/

/-- Every window but the last is an input. -/
theorem hin6 : ∀ w : Fin cfg6.W, w ≠ 5 → (cfg6.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF6 (c : Dev nD) (w : Fin cfg6.W) : (pdats m 6 c).arrAt w cfg6.N = atTc (U14 m) c (Pipeline.arrRef spec6 w) := by
  by_cases hw : w = 5
  · subst hw; exact (U14_out m c).symm
  · exact ((pdats m 6 c).arrAt_in w (hin6 w hw) _).trans ((A_eq6 (atTc (U13 m)) c w).trans
      (U14_of_ne m c _ fun e => hw (winFacts6.arr_inj (e.trans (show main_v68 = Pipeline.arrRef spec6 5 from rfl)))).symm)

/-- Off the region's arrays the exit contents are the entry's. -/
theorem hrest6 (c : Dev nD) : ∀ b, b ∉ Finset.univ.image (Pipeline.arrRef spec6) → atTc (U14 m) c b = atTc (U13 m) c b :=
  fun b hb => U14_of_ne m c b fun e => hb (Finset.mem_image.mpr ⟨5, Finset.mem_univ _, e.symm⟩)

-- a library lemma stated over the pinned configuration unifies with the printed one only when unification may unfold
-- plain definitions in a metavariable's type
set_option backward.isDefEq.respectTransparency.types false in
/-- REGION 6 over the thread state "every unscoped buffer at the boundary's contents, the generator register at some
    state, nothing owed". Entry: the region's arrays are split out of the unscoped buffers at `U13`, the rest bypasses
    the region; the register enters the invariant beside the scoped buffers no window stages (the kernel's scratch
    among them). Exit: the arrays come back at what the pipeline leaves and, with the bypassed rest, are the unscoped
    buffers at `U14`; the register comes back out of the invariant; nothing is owed at either end. The kernel has no
    semaphore of its own. -/
def reg6 : Pipeline.RegionSeg (pcfgs (F := F)) adm (pdats m) () defs₀ Variants.none (fun _ => ∅) (fun _ _ => 0) 6 where
  win := launch6.win.to₀
  block_pos := launch6.block_pos
  stage_whole := launch6.stage_whole
  K := PEmpty
  osem k := k.elim
  ho := Pipeline.OwnSemFacts.none _
  hbody c := (body_obligation6 (atTc (U13 m)) c).loose
  hwaits := Pipeline.hwaits_of_owed_zero _ _ _ _ (fun _ => ∅) (fun _ _ => 0) 6 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (U13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (U13 m) c) (A_eq6 (atTc (U13 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi6 (atTc (U13 m)) c 0]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from Phi6 (atTc (U13 m)) c _]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (U13 m) c) (atTc (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 7 of @main as a segment of the run

Entered from the contents `U15`, left at `U16`: the output array `main_v72` (window 3) at what the write-backs of all the
grid's points leave, every other buffer as entered. -/

/-- Every window but the last is an input. -/
theorem hin7 : ∀ w : Fin cfg7.W, w ≠ 3 → (cfg7.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF7 (c : Dev nD) (w : Fin cfg7.W) : (pdats m 7 c).arrAt w cfg7.N = atTc (U16 m) c (Pipeline.arrRef spec7 w) := by
  by_cases hw : w = 3
  · subst hw; exact (U16_out m c).symm
  · exact ((pdats m 7 c).arrAt_in w (hin7 w hw) _).trans ((A_eq7 (atTc (U15 m)) c w).trans
      (U16_of_ne m c _ fun e => hw (winFacts7.arr_inj (e.trans (show main_v72 = Pipeline.arrRef spec7 3 from rfl)))).symm)

/-- Off the region's arrays the exit contents are the entry's. -/
theorem hrest7 (c : Dev nD) : ∀ b, b ∉ Finset.univ.image (Pipeline.arrRef spec7) → atTc (U16 m) c b = atTc (U15 m) c b :=
  fun b hb => U16_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 7 over the thread state "every unscoped buffer at the boundary's contents, the generator register at some
    state, nothing owed". Entry: the region's arrays are split out of the unscoped buffers at `U15`, the rest bypasses
    the region; the register enters the invariant beside the scoped buffers no window stages (the kernel's scratch
    among them). Exit: the arrays come back at what the pipeline leaves and, with the bypassed rest, are the unscoped
    buffers at `U16`; the register comes back out of the invariant; nothing is owed at either end. The kernel has no
    semaphore of its own. -/
def reg7 : Pipeline.RegionSeg (pcfgs (F := F)) adm (pdats m) () defs₀ Variants.none (fun _ => ∅) (fun _ _ => 0) 7 where
  win := launch7.win.to₀
  block_pos := launch7.block_pos
  stage_whole := launch7.stage_whole
  K := PEmpty
  osem k := k.elim
  ho := Pipeline.OwnSemFacts.none _
  hbody c := (body_obligation7 (atTc (U15 m)) c).loose
  hwaits := Pipeline.hwaits_of_owed_zero _ _ _ _ (fun _ => ∅) (fun _ _ => 0) 7 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := UR sig nD τ) (Lvl := ℕ) spec7 c (atTc (U15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (U15 m) c) (A_eq7 (atTc (U15 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi7 (atTc (U15 m)) c 0]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from Phi7 (atTc (U15 m)) c _]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (U15 m) c) (atTc (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 8 of @main as a segment of the run

Entered from the contents `U17`, left at `U18`: the output array `main_v75` (window 3) at what the write-backs of all the
grid's points leave, every other buffer as entered. -/

/-- Every window but the last is an input. -/
theorem hin8 : ∀ w : Fin cfg8.W, w ≠ 3 → (cfg8.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF8 (c : Dev nD) (w : Fin cfg8.W) : (pdats m 8 c).arrAt w cfg8.N = atTc (U18 m) c (Pipeline.arrRef spec8 w) := by
  by_cases hw : w = 3
  · subst hw; exact (U18_out m c).symm
  · exact ((pdats m 8 c).arrAt_in w (hin8 w hw) _).trans ((A_eq8 (atTc (U17 m)) c w).trans
      (U18_of_ne m c _ fun e => hw (winFacts8.arr_inj (e.trans (show main_v75 = Pipeline.arrRef spec8 3 from rfl)))).symm)

/-- Off the region's arrays the exit contents are the entry's. -/
theorem hrest8 (c : Dev nD) : ∀ b, b ∉ Finset.univ.image (Pipeline.arrRef spec8) → atTc (U18 m) c b = atTc (U17 m) c b :=
  fun b hb => U18_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 8 over the thread state "every unscoped buffer at the boundary's contents, the generator register at some
    state, nothing owed". Entry: the region's arrays are split out of the unscoped buffers at `U17`, the rest bypasses
    the region; the register enters the invariant beside the scoped buffers no window stages (the kernel's scratch
    among them). Exit: the arrays come back at what the pipeline leaves and, with the bypassed rest, are the unscoped
    buffers at `U18`; the register comes back out of the invariant; nothing is owed at either end. The kernel has no
    semaphore of its own. -/
def reg8 : Pipeline.RegionSeg (pcfgs (F := F)) adm (pdats m) () defs₀ Variants.none (fun _ => ∅) (fun _ _ => 0) 8 where
  win := launch8.win.to₀
  block_pos := launch8.block_pos
  stage_whole := launch8.stage_whole
  K := PEmpty
  osem k := k.elim
  ho := Pipeline.OwnSemFacts.none _
  hbody c := (body_obligation8 (atTc (U17 m)) c).loose
  hwaits := Pipeline.hwaits_of_owed_zero _ _ _ _ (fun _ => ∅) (fun _ _ => 0) 8 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := UR sig nD τ) (Lvl := ℕ) spec8 c (atTc (U17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (U17 m) c) (A_eq8 (atTc (U17 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi8 (atTc (U17 m)) c 0]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from Phi8 (atTc (U17 m)) c _]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (U17 m) c) (atTc (U18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 9 of @main as a segment of the run

Entered from the contents `U19`, left at `U20`: the output array `main_v96` (window 5) at what the write-backs of all the
grid's points leave, every other buffer as entered. -/

/-- Every window but the last is an input. -/
theorem hin9 : ∀ w : Fin cfg9.W, w ≠ 5 → (cfg9.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF9 (c : Dev nD) (w : Fin cfg9.W) : (pdats m 9 c).arrAt w cfg9.N = atTc (U20 m) c (Pipeline.arrRef spec9 w) := by
  by_cases hw : w = 5
  · subst hw; exact (U20_out m c).symm
  · exact ((pdats m 9 c).arrAt_in w (hin9 w hw) _).trans ((A_eq9 (atTc (U19 m)) c w).trans
      (U20_of_ne m c _ fun e => hw (winFacts9.arr_inj (e.trans (show main_v96 = Pipeline.arrRef spec9 5 from rfl)))).symm)

/-- Off the region's arrays the exit contents are the entry's. -/
theorem hrest9 (c : Dev nD) : ∀ b, b ∉ Finset.univ.image (Pipeline.arrRef spec9) → atTc (U20 m) c b = atTc (U19 m) c b :=
  fun b hb => U20_of_ne m c b fun e => hb (Finset.mem_image.mpr ⟨5, Finset.mem_univ _, e.symm⟩)

-- a library lemma stated over the pinned configuration unifies with the printed one only when unification may unfold
-- plain definitions in a metavariable's type
set_option backward.isDefEq.respectTransparency.types false in
/-- REGION 9 over the thread state "every unscoped buffer at the boundary's contents, the generator register at some
    state, nothing owed". Entry: the region's arrays are split out of the unscoped buffers at `U19`, the rest bypasses
    the region; the register enters the invariant beside the scoped buffers no window stages (the kernel's scratch
    among them). Exit: the arrays come back at what the pipeline leaves and, with the bypassed rest, are the unscoped
    buffers at `U20`; the register comes back out of the invariant; nothing is owed at either end. The kernel has no
    semaphore of its own. -/
def reg9 : Pipeline.RegionSeg (pcfgs (F := F)) adm (pdats m) () defs₀ Variants.none (fun _ => ∅) (fun _ _ => 0) 9 where
  win := launch9.win.to₀
  block_pos := launch9.block_pos
  stage_whole := launch9.stage_whole
  K := PEmpty
  osem k := k.elim
  ho := Pipeline.OwnSemFacts.none _
  hbody c := (body_obligation9 (atTc (U19 m)) c).loose
  hwaits := Pipeline.hwaits_of_owed_zero _ _ _ _ (fun _ => ∅) (fun _ _ => 0) 9 fun _ _ => rfl
  pre c := iprop(StableHlo.held (c : Thread nD τ) (Pipeline.ucRefs τ sig) (U19 m c) ∗ Rst c)
  post c := iprop(StableHlo.held (c : Thread nD τ) (Pipeline.ucRefs τ sig) (U20 m c) ∗ Rst c)
  X c := iprop(∃ r, prngReg c r)
  Y c := iprop(∃ r, prngReg c r)
  Z c := Pipeline.unscopedRest (Ix := Unit) (Name := ℕ) (U := UR sig nD τ) (Lvl := ℕ) spec9 c (atTc (U19 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (U19 m) c) (A_eq9 (atTc (U19 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi9 (atTc (U19 m)) c 0]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from Phi9 (atTc (U19 m)) c _]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (U19 m) c) (atTc (U20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg10.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 10 of @main as a segment of the run

Entered from the contents `U21`, left at `U22`: the output array `main_v99` (window 3) at what the write-backs of all the
grid's points leave, every other buffer as entered. -/

/-- Every window but the last is an input. -/
theorem hin10 : ∀ w : Fin cfg10.W, w ≠ 3 → (cfg10.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF10 (c : Dev nD) (w : Fin cfg10.W) : (pdats m 10 c).arrAt w cfg10.N = atTc (U22 m) c (Pipeline.arrRef spec10 w) := by
  by_cases hw : w = 3
  · subst hw; exact (U22_out m c).symm
  · exact ((pdats m 10 c).arrAt_in w (hin10 w hw) _).trans ((A_eq10 (atTc (U21 m)) c w).trans
      (U22_of_ne m c _ fun e => hw (winFacts10.arr_inj (e.trans (show main_v99 = Pipeline.arrRef spec10 3 from rfl)))).symm)

/-- Off the region's arrays the exit contents are the entry's. -/
theorem hrest10 (c : Dev nD) : ∀ b, b ∉ Finset.univ.image (Pipeline.arrRef spec10) → atTc (U22 m) c b = atTc (U21 m) c b :=
  fun b hb => U22_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 10 over the thread state "every unscoped buffer at the boundary's contents, the generator register at some
    state, nothing owed". Entry: the region's arrays are split out of the unscoped buffers at `U21`, the rest bypasses
    the region; the register enters the invariant beside the scoped buffers no window stages (the kernel's scratch
    among them). Exit: the arrays come back at what the pipeline leaves and, with the bypassed rest, are the unscoped
    buffers at `U22`; the register comes back out of the invariant; nothing is owed at either end. The kernel has no
    semaphore of its own. -/
def reg10 : Pipeline.RegionSeg (pcfgs (F := F)) adm (pdats m) () defs₀ Variants.none (fun _ => ∅) (fun _ _ => 0) 10 where
  win := launch10.win.to₀
  block_pos := launch10.block_pos
  stage_whole := launch10.stage_whole
  K := PEmpty
  osem k := k.elim
  ho := Pipeline.OwnSemFacts.none _
  hbody c := (body_obligation10 (atTc (U21 m)) c).loose
  hwaits := Pipeline.hwaits_of_owed_zero _ _ _ _ (fun _ => ∅) (fun _ _ => 0) 10 fun _ _ => rfl
  pre c := iprop(StableHlo.held (c : Thread nD τ) (Pipeline.ucRefs τ sig) (U21 m c) ∗ Rst c)
  post c := iprop(StableHlo.held (c : Thread nD τ) (Pipeline.ucRefs τ sig) (U22 m c) ∗ Rst c)
  X c := iprop(∃ r, prngReg c r)
  Y c := iprop(∃ r, prngReg c r)
  Z c := Pipeline.unscopedRest (Ix := Unit) (Name := ℕ) (U := UR sig nD τ) (Lvl := ℕ) spec10 c (atTc (U21 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atTc (U21 m) c) (A_eq10 (atTc (U21 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi10 (atTc (U21 m)) c 0]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from Phi10 (atTc (U21 m)) c _]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atTc (U21 m) c) (atTc (U22 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg11.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 11 of @main as a segment of the run

Entered from the contents `U26`, left at `U27`: the output array `main_v108` (window 3) at what the write-backs of all the
grid's points leave, every other buffer as entered. -/

/-- Every window but the last is an input. -/
theorem hin11 : ∀ w : Fin cfg11.W, w ≠ 3 → (cfg11.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF11 (c : Dev nD) (w : Fin cfg11.W) : (pdats m 11 c).arrAt w cfg11.N = atTc (U27 m) c (Pipeline.arrRef spec11 w) := by
  by_cases hw : w = 3
  · subst hw; exact (U27_out m c).symm
  · exact ((pdats m 11 c).arrAt_in w (hin11 w hw) _).trans ((A_eq11 (atTc (U26 m)) c w).trans
      (U27_of_ne m c _ fun e => hw (winFacts11.arr_inj (e.trans (show main_v108 = Pipeline.arrRef spec11 3 from rfl)))).symm)

/-- Off the region's arrays the exit contents are the entry's. -/
theorem hrest11 (c : Dev nD) : ∀ b, b ∉ Finset.univ.image (Pipeline.arrRef spec11) → atTc (U27 m) c b = atTc (U26 m) c b :=
  fun b hb => U27_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 11 over the thread state "every unscoped buffer at the boundary's contents, the generator register at some
    state, nothing owed". Entry: the region's arrays are split out of the unscoped buffers at `U26`, the rest bypasses
    the region; the register enters the invariant beside the scoped buffers no window stages (the kernel's scratch
    among them). Exit: the arrays come back at what the pipeline leaves and, with the bypassed rest, are the unscoped
    buffers at `U27`; the register comes back out of the invariant; nothing is owed at either end. The kernel has no
    semaphore of its own. -/
def reg11 : Pipeline.RegionSeg (pcfgs (F := F)) adm (pdats m) () defs₀ Variants.none (fun _ => ∅) (fun _ _ => 0) 11 where
  win := launch11.win.to₀
  block_pos := launch11.block_pos
  stage_whole := launch11.stage_whole
  K := PEmpty
  osem k := k.elim
  ho := Pipeline.OwnSemFacts.none _
  hbody c := (body_obligation11 (atTc (U26 m)) c).loose
  hwaits := Pipeline.hwaits_of_owed_zero _ _ _ _ (fun _ => ∅) (fun _ _ => 0) 11 fun _ _ => rfl
  pre c := iprop(StableHlo.held (c : Thread nD τ) (Pipeline.ucRefs τ sig) (U26 m c) ∗ Rst c)
  post c := iprop(StableHlo.held (c : Thread nD τ) (Pipeline.ucRefs τ sig) (U27 m c) ∗ Rst c)
  X c := iprop(∃ r, prngReg c r)
  Y c := iprop(∃ r, prngReg c r)
  Z c := Pipeline.unscopedRest (Ix := Unit) (Name := ℕ) (U := UR sig nD τ) (Lvl := ℕ) spec11 c (atTc (U26 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (atTc (U26 m) c) (A_eq11 (atTc (U26 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from Phi11_zero (atTc (U26 m)) c]; unfold Pipeline.ΦA
    iintro ⟨Hp, -, Hr⟩
    isplitl [Hr]; · iexact Hr
    iexact Hp
  hout c := by
    rw [Pipeline.ownSems0_none]; refine (Phi11_last (atTc (U26 m)) c).trans ?_; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (atTc (U26 m) c) (atTc (U27 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«402750_j37864431681686_1_alg».proof.Proof.Gen.Kernel.Launch
import proofs.«402750_j37864431681686_1_alg».proof.Proof.Gen.Kernel.Skeleton
import proofs.«402750_j37864431681686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.Kernel.Regions
import proofs.«402750_j37864431681686_1_alg».proof.Proof.K.Outs
import proofs.«402750_j37864431681686_1_alg».proof.Proof.K.Cond
import proofs.«402750_j37864431681686_1_alg».proof.Proof.K.Reg0
import proofs.«402750_j37864431681686_1_alg».proof.Proof.K.Reg1
import proofs.«402750_j37864431681686_1_alg».proof.Proof.K.Reg2
import proofs.«402750_j37864431681686_1_alg».proof.Proof.K.Reg3
import proofs.«402750_j37864431681686_1_alg».proof.Proof.K.Reg4
import proofs.«402750_j37864431681686_1_alg».proof.Proof.K.Reg5
import proofs.«402750_j37864431681686_1_alg».proof.Proof.K.Reg6
import proofs.«402750_j37864431681686_1_alg».proof.Proof.K.Reg7
import proofs.«402750_j37864431681686_1_alg».proof.Proof.K.Reg8
import proofs.«402750_j37864431681686_1_alg».proof.Proof.K.Reg9
import proofs.«402750_j37864431681686_1_alg».proof.Proof.K.Reg10
import proofs.«402750_j37864431681686_1_alg».proof.Proof.K.Reg11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: the conditional run at the twelve regions' records -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the conditional run's implicit arguments are found by unifying hypotheses stated over the pinned configurations with
-- the records', which takes unfolding plain definitions in a metavariable's type
set_option backward.isDefEq.respectTransparency.types false in
/-- THE RUN. From any memory `m` with zero counters, every weakly fair execution of @main on the TensorCores terminates,
    and every final memory holds every unscoped buffer of every core at the last contents `U28`: the conditional run at
    the unknowns read off the chain (`outs`), the proof data family `pdats` and the twelve records; no level is assigned,
    nothing is owed at launch, no ghost resource is dealt, and beside the buffers ride the generator register and the
    core owing nothing (`Rst`), which the launch makes on each core by itself. -/
theorem run : θ_run defs (onTc (τ := τ) (main (F := F))) ⟨m, fun _ => 0, ρ⟩
    (fun r => ∀ c : Dev nD, ∀ b ∈ Pipeline.ucRefs τ sig, r.2.mem ((c : Thread nD τ).1, b) = U28 m c b) := by
  have h := run_cond m (Ix := Unit) (U := UR sig nD τ) (Lvl := ℕ) emb₁ () Variants.none (fun _ => ∅) (fun _ _ => 0)
    (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rst)
    (by
      refine Pipeline.initEach (fun _ => ∅) (fun _ _ => 0) fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V_eq_2]; exact .rfl)
    (reg1 m) (fun c => by rw [V_eq_3]; exact .rfl) (fun c => by rw [V_eq_4]; exact .rfl)
    (reg2 m) (fun c => by rw [V_eq_5]; exact .rfl) (fun c => by rw [V_eq_6]; exact .rfl)
    (reg3 m) (fun c => by rw [V_eq_7]; exact .rfl) (fun c => by rw [V_eq_8]; exact .rfl)
    (reg4 m) (fun c => by rw [V_eq_9]; exact .rfl) (fun c => by rw [V_eq_10]; exact .rfl)
    (reg5 m) (fun c => by rw [V_eq_11]; exact .rfl) (fun c => by rw [V_eq_12]; exact .rfl)
    (reg6 m) (fun c => by rw [V_eq_13]; exact .rfl) (fun c => by rw [V_eq_14]; exact .rfl)
    (reg7 m) (fun c => by rw [V_eq_15]; exact .rfl) (fun c => by rw [V_eq_16]; exact .rfl)
    (reg8 m) (fun c => by rw [V_eq_17]; exact .rfl) (fun c => by rw [V_eq_18]; exact .rfl)
    (reg9 m) (fun c => by rw [V_eq_19]; exact .rfl) (fun c => by rw [V_eq_20]; exact .rfl)
    (reg10 m) (fun c => by rw [V_eq_21]; exact .rfl) (fun c => by rw [V_eq_22]; exact .rfl)
    (reg11 m) (fun c => by rw [V_eq_26]; exact .rfl) (fun c => by rw [V_eq_27]; exact .rfl)
  exact (θ_run defs _ _).mono (fun r hr c b hb => (hr c b hb).trans (congrFun (V_eq_28 m c) b)) h

/-! ## What the frame claim and the value claim read off the last contents -/

/-- A memory holding the last contents holds an unscoped buffer at the conditional frame's last valuation (at the
    unknowns read off the chain). -/
theorem read_end {s : MemSt nD τ sig (Elt F)}
    (hs : ∀ c : Dev nD, ∀ b ∈ Pipeline.ucRefs τ sig, s.mem ((c : Thread nD τ).1, b) = U28 m c b)
    (c : Dev nD) (b : Ref sig .tc) (hb : ¬ (Proc.devRef .tc b : DevRef τ sig).isScoped) :
    s.mem ((c.tc : Thread nD τ).loc b) = V28 m (outs m) c b :=
  (hs c _ (mem_uc b hb)).trans (congrFun (V_eq_28 m c).symm _)

/-- THE FRAME: from any memory with zero counters every weakly fair execution of @main terminates and every final
    memory holds each argument array as launched: no host stretch writes an argument and no region may change one, so
    the last contents at an argument walk back to the launch memory. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (Q := fun r => ∀ c : Dev nD, ∀ b ∈ Pipeline.ucRefs τ sig, r.2.mem ((c : Thread nD τ).1, b) = U28 m c b)
    (fun r hr c =>
      ⟨(read_end m hr c main_arg0 (by decide)).trans (V28_main_arg0 m (outs m) c),
       (read_end m hr c main_arg1 (by decide)).trans (V28_main_arg1 m (outs m) c),
       (read_end m hr c main_arg2 (by decide)).trans (V28_main_arg2 m (outs m) c),
       (read_end m hr c main_arg3 (by decide)).trans (V28_main_arg3 m (outs m) c),
       (read_end m hr c main_arg4 (by decide)).trans (V28_main_arg4 m (outs m) c),
       (read_end m hr c main_arg5 (by decide)).trans (V28_main_arg5 m (outs m) c),
       (read_end m hr c main_arg6 (by decide)).trans (V28_main_arg6 m (outs m) c),
       (read_end m hr c main_arg7 (by decide)).trans (V28_main_arg7 m (outs m) c),
       (read_end m hr c main_arg8 (by decide)).trans (V28_main_arg8 m (outs m) c),
       (read_end m hr c main_arg9 (by decide)).trans (V28_main_arg9 m (outs m) c),
       (read_end m hr c main_arg10 (by decide)).trans (V28_main_arg10 m (outs m) c),
       (read_end m hr c main_arg11 (by decide)).trans (V28_main_arg11 m (outs m) c),
       (read_end m hr c main_arg12 (by decide)).trans (V28_main_arg12 m (outs m) c)⟩)
    (run m ρ)

/-- THE RUN AT THE RESULT: as the frame, and every final memory holds the result array `main_v117` at the last
    contents. -/
theorem run_value :
    θ_run defs (onTc (τ := τ) (main (F := F))) ⟨m, fun _ => 0, ρ⟩ (fun r => ∀ c : Dev nD,
      r.2.mem ((c.tc : Thread nD τ).loc main_v117) = U28 m c main_v117
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (Q := fun r => ∀ c : Dev nD, ∀ b ∈ Pipeline.ucRefs τ sig, r.2.mem ((c : Thread nD τ).1, b) = U28 m c b)
    (fun r hr c =>
      ⟨hr c _ (mem_uc main_v117 (by decide)),
       (read_end m hr c main_arg0 (by decide)).trans (V28_main_arg0 m (outs m) c),
       (read_end m hr c main_arg1 (by decide)).trans (V28_main_arg1 m (outs m) c),
       (read_end m hr c main_arg2 (by decide)).trans (V28_main_arg2 m (outs m) c),
       (read_end m hr c main_arg3 (by decide)).trans (V28_main_arg3 m (outs m) c),
       (read_end m hr c main_arg4 (by decide)).trans (V28_main_arg4 m (outs m) c),
       (read_end m hr c main_arg5 (by decide)).trans (V28_main_arg5 m (outs m) c),
       (read_end m hr c main_arg6 (by decide)).trans (V28_main_arg6 m (outs m) c),
       (read_end m hr c main_arg7 (by decide)).trans (V28_main_arg7 m (outs m) c),
       (read_end m hr c main_arg8 (by decide)).trans (V28_main_arg8 m (outs m) c),
       (read_end m hr c main_arg9 (by decide)).trans (V28_main_arg9 m (outs m) c),
       (read_end m hr c main_arg10 (by decide)).trans (V28_main_arg10 m (outs m) c),
       (read_end m hr c main_arg11 (by decide)).trans (V28_main_arg11 m (outs m) c),
       (read_end m hr c main_arg12 (by decide)).trans (V28_main_arg12 m (outs m) c)⟩)
    (run m ρ)

end Cert.Kernel.Hand

end
-- ==== Proof.KI.R0.lean ====
/- Region 0 of the encoder: one block of 2000 rows of the product `a · b + bias` per grid point.
   The grid's second axis has extent 1, so at every point the kernel zeroes its accumulator, adds the block product
   into it, and stores accumulator + bias into the output's staging buffer: nothing is carried from point to point, and
   the class's invariant (the scoped rest at some contents, the generator register at some state) is the region's.
   Stated at a parameter `V`, the TensorCore's buffer contents when the region is entered, and at any `F`. -/
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the matrix product with bias, one block of rows per grid point -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window (0) is fetched at every point, so its staging buffer holds its block there: for any proof
    data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weights' window (1) is fetched at the first point only and its block index never moves: its staging
    buffer holds the one block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- The bias' window (2), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## The body's branch conditions

The grid's second axis has extent 1, so its coordinate is 0 at every point: both conditions hold throughout. -/

/-- The first `scf.if`'s condition (the accumulator is zeroed), from the grid coordinates. -/
abbrev cond0_a (i : grid0.Coords) : Prop :=
  (Scalar.cmpi .ne (Scalar.extui (Scalar.cmpi .eq (BitVec.ofNat 32 (i 1).val) 0#32)) 0#32) = 1#1
theorem hcond0_a : ∀ t : Fin cfg0.N, cond0_a (grid0.coords t) :=
  (by decide +kernel : ∀ t : Fin grid0.N, cond0_a (grid0.coords t))

/-- The second `scf.if`'s condition (the output is stored). -/
abbrev cond0_b (i : grid0.Coords) : Prop := k0_cond2 i = 1#1
theorem hcond0_b : ∀ t : Fin cfg0.N, cond0_b (grid0.coords t) :=
  (by decide +kernel : ∀ t : Fin grid0.N, cond0_b (grid0.coords t))

/-- So the output window is idle at no point. -/
theorem liveAt0_3 : ∀ t : Fin cfg0.N, cfg0.idle 3 (grid0.coords t) = false := by decide +kernel

/-! ## The body's accesses: every buffer whole, through the unit rectangle at zero offsets -/

abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

/-! ## What the body leaves in the output window's buffer -/

/-- The output's staging buffer after the body, from the input windows' blocks: its one store, whose payload is the
    bias added to the accumulator — the accumulator zeroed, then the blocks' product added. -/
def out0 (x0 : Vec F S2000x128 .bf16) (x1 : Vec F S128x128 .bf16) (x2 : Vec F S1x128 .f32) : Vec F S2000x128 .f32 :=
  View.canon [⟨r0_a, k0_pay3 (k0_pay2 (k0_pay1 (F := F)) (View.ld x0 r0_a) (View.ld x1 r0_b)) (View.ld x2 r0_c)⟩]

/-- The loads read the whole blocks and the one store covers the buffer: the payload itself. -/
theorem out0_eq (x0 : Vec F S2000x128 .bf16) (x1 : Vec F S128x128 .bf16) (x2 : Vec F S1x128 .f32) :
    out0 x0 x1 x2 = k0_pay3 (k0_pay2 (k0_pay1 (F := F)) x0 x1) x2 := by
  have hza : (![0, 0] : Fin S2000x128.rank → Nat) = fun _ => 0 := funext fun a => by fin_cases a <;> rfl
  have hzb : (![0, 0] : Fin S128x128.rank → Nat) = fun _ => 0 := funext fun a => by fin_cases a <;> rfl
  have hzc : (![0, 0] : Fin S1x128.rank → Nat) = fun _ => 0 := funext fun a => by fin_cases a <;> rfl
  unfold out0
  rw [View.canon_unit_zero hza, View.ld_unit_zero hza, View.ld_unit_zero hzb, View.ld_unit_zero hzc]

/-- The one store covers the buffer. -/
theorem cover0_3 (p0 : Vec F S2000x128 .f32) (y : S2000x128.Idx) :
    ∃ pc ∈ ([⟨r0_a, p0⟩] : List (View.Piece (Elt F) S2000x128 .f32)), y ∈ pc.1.set :=
  ⟨_, List.mem_singleton_self _, View.mem_set_unit_zero (funext fun a => by fin_cases a <;> rfl) inb_S2000x128_S2000x128_0_0 y⟩

/-! ## The body's triple -/

set_option maxHeartbeats 1000000 in
/-- The kernel body at a point where both conditions hold, on whole memrefs — the inputs' at read contents, the
    output's and the accumulator's at anything — runs to the continuation holding the inputs' as they were, the output's at
    `out0` of the inputs' and the accumulator's at something: the accumulator is zeroed, read back, the product
    added, read back again, and the sum with the bias stored to the output. -/
theorem sound_kernel0 (c : Dev nD) (E : Set ℕ) (i : grid0.Coords) (hca : cond0_a i) (hcb : cond0_b i)
    (arg2 : Memref sig .tc .vmem S2000x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2) ∗ (∃ d, owns (c : Thread nD τ) arg6 fullShare d)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hca | sl_exact hcb)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover0_3 _)]
    unfold out0 sound_kernel0.sl.v16 sound_kernel0.sl.H4_2
    rw [View.readCov_cons_toLoadRect]
    unfold sound_kernel0.sl.v3 sound_kernel0.sl.H4_1
    rw [View.readCov_cons_toLoadRect]
    rfl
  iexists _, _; isplitr
  swap; · iexact H4
  ipureintro; rfl

/-! ## The pipeline's proof data -/

/-- The proof data of pipeline 0 on core `c`: the arrays as the region finds them (`V`); after the body at point `t`
    each input's buffer at its block and the output's at `out0` of the input blocks; the class's invariant (the scoped
    rest — the accumulator among it — at some contents, the generator register at some state: the accumulator is zeroed
    at every point, so nothing is carried); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

/-- The invariant is the class's at every point. -/
theorem Phi0 (c : Dev nD) (t : Fin (cfg0.N + 1)) : (dat0 V c).Φ t = Pipeline.ΦA spec0 c := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- The accumulator: a whole scoped buffer of the call's own, passed beside the windows. -/
abbrev scM0 : Memref sig .tc .vmem S2000x128 .f32 := Memref.whole cc0_scratch0

/-- The class's invariant with the accumulator as a memref owned at some contents, the other scoped buffers unopened. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1000000 in
/-- The body at any point: the inputs' memrefs hold their blocks (`before0_W`) and both conditions hold there, so
    `sound_kernel0` applies; the invariant lends the accumulator at whatever it holds and takes it back at whatever the body
    left; the rest of the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl, Phi0, Phi0]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  rw [show (dat0 V c).leavesExact 3 t = owns (c : Thread nD τ) (st0_3 t) fullShare ((dat0 V c).after 3 t) from by
    unfold Dat.leavesExact; rw [liveAt0_3 t], after0_3]
  rw [PhiA0_eq]
  iintro ⟨⟨⟨HS, Hr⟩, Hg⟩, Ho, ⟨%d0, H0⟩, ⟨%d1, H1⟩, ⟨%d2, H2⟩, ⟨%d3, H3⟩⟩
  iapply (sound_kernel0 c Set.univ (grid0.coords t) (hcond0_a t) (hcond0_b t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr Hg]
  · isplitl [HS Hr]
    · isplitl [HS]; · iexact HS
      iexact Hr
    iexact Hg
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 of @main: custom_call 1, the block matrix product without bias, at the entry contents `V`

The grid is 50 × 1: the second axis has a single point, so both of the body's conditionals on "second coordinate
= 0" hold at every point. At every point the body therefore zeroes its accumulator, adds the product of the
row block (2000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window
    not fetched at a point has the block index of the point before), for any proof data whose array is `V`'s and
    whose body leaves the block in place. Window 0: the row block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1: the weight matrix, fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2: the bias row, fetched at the first point only (this body never reads it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals -/

/-- The second grid axis has one point: its coordinate is zero everywhere. -/
theorem coord1_eq_zero (i : grid1.Coords) : (i 1).val = 0 := by
  have h : (i 1).val < 1 := (i 1).isLt
  omega

/-- The first conditional ("zero the accumulator") is taken at every point. -/
theorem cond1_1 (i : grid1.Coords) :
    Scalar.cmpi .ne (Scalar.extui (Scalar.cmpi .eq (BitVec.ofNat 32 (i 1).val) 0#32)) 0#32 = 1#1 := by
  rw [coord1_eq_zero i]; decide

/-- The second conditional ("store the accumulator to the output") is taken at every point. -/
theorem cond1_2 (i : grid1.Coords) : k1_cond2 i = 1#1 := by
  unfold k1_cond2; exact cond1_1 i

/-- So the output window is live at every point. -/
theorem live1_3 (t : Fin cfg1.N) : cfg1.idle 3 (cfg1.grid.coords t) = false := by
  show (!(k1_cond2 (grid1.coords t) == 1#1)) = false
  rw [cond1_2]; rfl

/-- The offsets of every access of the body: zero on both axes. -/
theorem off1_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out1 (x0 : Vec F S2000x128 .bf16) (x1 : Vec F S128x128 .bf16) : Vec F S2000x128 .f32 :=
  k1_pay2 (k1_pay1 (F := F)) x0 x1

theorem out1_eq (x0 : Vec F S2000x128 .bf16) (x1 : Vec F S128x128 .bf16) :
    out1 x0 x1 = k1_pay2 (k1_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out1 x0 x1` and the accumulator at some contents. Both conditionals are decided (`cond1_1`, `cond1_2`); every
    access is through the whole-buffer rectangle, so each load after a store reads that store's payload. -/
theorem sound_kernel1 (c : Dev nD) (E : Set ℕ) (i : grid1.Coords)
    (arg2 : Memref sig .tc .vmem S2000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1 x0 x1)
            ∗ (∃ d, owns (c : Thread nD τ) arg6 fullShare d)) -∗ K ⟨⟩))
      ⊢ wp frame (wpE (defs₀ (F := F)) Variants.none c none) E
          (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond1_1 i
  have hcb := cond1_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off1_zero inb_S2000x128_S2000x128_0_0 y⟩)]
    rw [View.canon_unit_zero off1_zero]
    unfold sound_kernel1.sl.v16 sound_kernel1.sl.Hs_2
    rw [View.readCov_cons_toLoadRect]
    unfold sound_kernel1.sl.v3 sound_kernel1.sl.Hs_1 out1
    rw [View.readCov_cons_toLoadRect, View.readAt_eq_ld, View.readAt_eq_ld, View.ld_unit_zero off1_zero, View.ld_unit_zero off1_zero]
  iexists _; iexists _; isplitr
  swap; · iexact Hs
  ipureintro; rfl

/-! ## The pipeline's proof data -/

/-- The proof data of pipeline 1 on core `c`: the arrays as the region finds them (`V`); after the body at point
    `t` each input's buffer at its block and the output's at `out1` of the row block and the weight matrix; the
    invariant the scoped rest and the generator register, untouched between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) := by dsimp only [dat1]

/-- The invariant is the same at every point. -/
theorem Phi1 (c : Dev nD) (t : Fin (cfg1.N + 1)) : (dat1 V c).Φ t = Pipeline.ΦA spec1 c := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- The region invariant with the accumulator set apart as a whole memref owned at some contents. -/
theorem PhiA1_eq (c : Dev nD) :
    (Pipeline.ΦA spec1 c : sProp 𝕄)
      = iprop(((∃ d, owns (c : Thread nD τ) (Memref.whole cc1_scratch0) fullShare d)
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [owns_whole]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point: the inputs' memrefs hold their blocks (`before1_W`), the invariant lends the accumulator
    at some contents, so `sound_kernel1` applies; the accumulator goes back into the invariant at what it ends
    with; the rest of the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from by
      unfold Dat.leavesExact; rw [live1_3 t]]
  rw [Phi1, Phi1, show (dat1 V c).owesAt () t.succ = (dat1 V c).owesAt () t.castSucc from rfl,
    after1_0, after1_1, after1_2, after1_3, PhiA1_eq]
  iintro ⟨⟨⟨HS, HR⟩, Hg⟩, Hw, ⟨%d0, Ha⟩, ⟨%d1, Hb⟩, ⟨%d2, Hc⟩, ⟨%d3, Ho⟩⟩
  iapply (sound_kernel1 c Set.univ _ _ _ _ _ _ _ _ _ _ _ (iblk1 V c 0 t) (iblk1 V c 1 t) (iblk1 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: custom_call 2, the block matrix product without bias, at the entry contents `V`

The grid is 160 × 1: the second axis has a single point, so both of the body's conditionals on "second coordinate
= 0" hold at every point. At every point the body therefore zeroes its accumulator, adds the product of the
row block (5000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window
    not fetched at a point has the block index of the point before), for any proof data whose array is `V`'s and
    whose body leaves the block in place. Window 0: the row block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the weight matrix, fetched at the first point only. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the bias row, fetched at the first point only (this body never reads it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The conditionals -/

/-- The second grid axis has one point: its coordinate is zero everywhere. -/
theorem coord2_eq_zero (i : grid2.Coords) : (i 1).val = 0 := by
  have h : (i 1).val < 1 := (i 1).isLt
  omega

/-- The first conditional ("zero the accumulator") is taken at every point. -/
theorem cond2_1 (i : grid2.Coords) :
    Scalar.cmpi .ne (Scalar.extui (Scalar.cmpi .eq (BitVec.ofNat 32 (i 1).val) 0#32)) 0#32 = 1#1 := by
  rw [coord2_eq_zero i]; decide

/-- The second conditional ("store the accumulator to the output") is taken at every point. -/
theorem cond2_2 (i : grid2.Coords) : k2_cond2 i = 1#1 := by
  unfold k2_cond2; exact cond2_1 i

/-- So the output window is live at every point. -/
theorem live2_3 (t : Fin cfg2.N) : cfg2.idle 3 (cfg2.grid.coords t) = false := by
  show (!(k2_cond2 (grid2.coords t) == 1#1)) = false
  rw [cond2_2]; rfl

/-- The offsets of every access of the body: zero on both axes. -/
theorem off2_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out2 (x0 : Vec F S5000x128 .bf16) (x1 : Vec F S128x128 .bf16) : Vec F S5000x128 .f32 :=
  k2_pay2 (k2_pay1 (F := F)) x0 x1

theorem out2_eq (x0 : Vec F S5000x128 .bf16) (x1 : Vec F S128x128 .bf16) :
    out2 x0 x1 = k2_pay2 (k2_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out2 x0 x1` and the accumulator at some contents. Both conditionals are decided (`cond2_1`, `cond2_2`); every
    access is through the whole-buffer rectangle, so each load after a store reads that store's payload. -/
theorem sound_kernel2 (c : Dev nD) (E : Set ℕ) (i : grid2.Coords)
    (arg2 : Memref sig .tc .vmem S5000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S5000x128 .f32) (harg5 : arg5.IsWhole)
    (arg6 : Memref sig .tc .vmem S5000x128 .f32) (harg6 : arg6.IsWhole)
    (x0 : Vec F S5000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out2 x0 x1)
            ∗ (∃ d, owns (c : Thread nD τ) arg6 fullShare d)) -∗ K ⟨⟩))
      ⊢ wp frame (wpE (defs₀ (F := F)) Variants.none c none) E
          (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond2_1 i
  have hcb := cond2_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off2_zero inb_S5000x128_S5000x128_0_0 y⟩)]
    rw [View.canon_unit_zero off2_zero]
    unfold sound_kernel2.sl.v16 sound_kernel2.sl.Hs_2
    rw [View.readCov_cons_toLoadRect]
    unfold sound_kernel2.sl.v3 sound_kernel2.sl.Hs_1 out2
    rw [View.readCov_cons_toLoadRect, View.readAt_eq_ld, View.readAt_eq_ld, View.ld_unit_zero off2_zero, View.ld_unit_zero off2_zero]
  iexists _; iexists _; isplitr
  swap; · iexact Hs
  ipureintro; rfl

/-! ## The pipeline's proof data -/

/-- The proof data of pipeline 2 on core `c`: the arrays as the region finds them (`V`); after the body at point
    `t` each input's buffer at its block and the output's at `out2` of the row block and the weight matrix; the
    invariant the scoped rest and the generator register, untouched between points; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) := by dsimp only [dat2]

/-- The invariant is the same at every point. -/
theorem Phi2 (c : Dev nD) (t : Fin (cfg2.N + 1)) : (dat2 V c).Φ t = Pipeline.ΦA spec2 c := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- The region invariant with the accumulator set apart as a whole memref owned at some contents. -/
theorem PhiA2_eq (c : Dev nD) :
    (Pipeline.ΦA spec2 c : sProp 𝕄)
      = iprop(((∃ d, owns (c : Thread nD τ) (Memref.whole cc2_scratch0) fullShare d)
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [owns_whole]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1000000 in
/-- The body at any point: the inputs' memrefs hold their blocks (`before2_W`), the invariant lends the accumulator
    at some contents, so `sound_kernel2` applies; the accumulator goes back into the invariant at what it ends
    with; the rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).leavesExact 0 t = owns (c : Thread nD τ) (st2_0 t) fullShare ((dat2 V c).after 0 t) from rfl,
    show (dat2 V c).leavesExact 1 t = owns (c : Thread nD τ) (st2_1 t) fullShare ((dat2 V c).after 1 t) from rfl,
    show (dat2 V c).leavesExact 2 t = owns (c : Thread nD τ) (st2_2 t) fullShare ((dat2 V c).after 2 t) from rfl,
    show (dat2 V c).leavesExact 3 t = owns (c : Thread nD τ) (st2_3 t) fullShare ((dat2 V c).after 3 t) from by
      unfold Dat.leavesExact; rw [live2_3 t]]
  rw [Phi2, Phi2, show (dat2 V c).owesAt () t.succ = (dat2 V c).owesAt () t.castSucc from rfl,
    after2_0, after2_1, after2_2, after2_3, PhiA2_eq]
  iintro ⟨⟨⟨HS, HR⟩, Hg⟩, Hw, ⟨%d0, Ha⟩, ⟨%d1, Hb⟩, ⟨%d2, Hc⟩, ⟨%d3, Ho⟩⟩
  iapply (sound_kernel2 c Set.univ _ _ _ _ _ _ _ _ _ _ _ (iblk2 V c 0 t) (iblk2 V c 1 t) (iblk2 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The layer-norm epilogue call number 3: its pipeline proof data and body obligation

The call walks 50 row blocks of 2000 rows. At every block the body reads the aggregate block, the bias row,
the scale row and the shift row (the residual block is staged but never read), and overwrites the WHOLE output block with one store whose value is
a closed function of those reads. So what the body leaves in the output's staging buffer is that function of the
input blocks, and it keeps nothing from block to block: the invariant is the untouched rest of the core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Block `t` of window `w`: its array, as the region finds it, read through the rectangle the window's index map
    names at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body finds in an input's staging buffer

Windows 0 and 2 move to a new block at every point and are fetched there; windows 1, 3 and 4 sit on their one block and
are fetched once, at the first point. Either way the body finds block `t`: an unfetched buffer still holds the previous
point's block, and the block index did not move. Stated for ANY proof data over the region's arrays that leaves the
inputs in place, so that it can be cited before the proof data below is unfolded. -/

section Before
variable {c : Dev nD} (dat : Dat τ (Elt F) Unit ℕ (UR sig nD τ) ℕ cfg3 c)

theorem before3_0_of (hA : dat.A 0 = V c (Pipeline.arrRef spec3 0)) (hafter : ∀ t, dat.after 0 t = iblk3 V c 0 t)
    (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  rw [dat.before_in_eq_fetched 0 rfl (fun _ => rfl) (fun _ _ _ => rfl) hkeep t d]
  unfold Dat.fetched Dat.blockOf iblk3; rw [hA]; try rfl

theorem before3_1_of (hA : dat.A 1 = V c (Pipeline.arrRef spec3 1)) (hafter : ∀ t, dat.after 1 t = iblk3 V c 1 t)
    (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  rw [dat.before_in_eq_fetched 1 rfl (fun _ => rfl) (fun _ _ _ => rfl) hkeep t d]
  unfold Dat.fetched Dat.blockOf iblk3; rw [hA]; try rfl

theorem before3_2_of (hA : dat.A 2 = V c (Pipeline.arrRef spec3 2)) (hafter : ∀ t, dat.after 2 t = iblk3 V c 2 t)
    (t : Fin cfg3.N) (d) : dat.before 2 t d = iblk3 V c 2 t := by
  have hkeep : ∀ t, (cfg3.win 2).cut (cfg3.grid.coords t) (dat.after 2 t) = dat.blockOf 2 t := fun t => by
    rw [hafter]; unfold Dat.blockOf iblk3; rw [hA]; try rfl
  rw [dat.before_in_eq_fetched 2 rfl (fun _ => rfl) (fun _ _ _ => rfl) hkeep t d]
  unfold Dat.fetched Dat.blockOf iblk3; rw [hA]; try rfl

theorem before3_3_of (hA : dat.A 3 = V c (Pipeline.arrRef spec3 3)) (hafter : ∀ t, dat.after 3 t = iblk3 V c 3 t)
    (t : Fin cfg3.N) (d) : dat.before 3 t d = iblk3 V c 3 t := by
  have hkeep : ∀ t, (cfg3.win 3).cut (cfg3.grid.coords t) (dat.after 3 t) = dat.blockOf 3 t := fun t => by
    rw [hafter]; unfold Dat.blockOf iblk3; rw [hA]; try rfl
  rw [dat.before_in_eq_fetched 3 rfl (fun _ => rfl) (fun _ _ _ => rfl) hkeep t d]
  unfold Dat.fetched Dat.blockOf iblk3; rw [hA]; try rfl

theorem before3_4_of (hA : dat.A 4 = V c (Pipeline.arrRef spec3 4)) (hafter : ∀ t, dat.after 4 t = iblk3 V c 4 t)
    (t : Fin cfg3.N) (d) : dat.before 4 t d = iblk3 V c 4 t := by
  have hkeep : ∀ t, (cfg3.win 4).cut (cfg3.grid.coords t) (dat.after 4 t) = dat.blockOf 4 t := fun t => by
    rw [hafter]; unfold Dat.blockOf iblk3; rw [hA]; try rfl
  rw [dat.before_in_eq_fetched 4 rfl (fun _ => rfl) (fun _ _ _ => rfl) hkeep t d]
  unfold Dat.fetched Dat.blockOf iblk3; rw [hA]; try rfl

end Before

/-! ## What the body leaves in the output's staging buffer -/

/-- The whole 2000 x 128 block and the whole 1 x 128 row, as rectangles at offset zero: every load and the one store
    of the body go through these. -/
abbrev r3_blk : Rect S2000x128 := Rect.unit (s := S2000x128) ![0, 0] S2000x128.size inb_S2000x128_S2000x128_0_0
abbrev r3_row : Rect S1x128 := Rect.unit (s := S1x128) ![0, 0] S1x128.size inb_S1x128_S1x128_0_0

theorem r3_blk_zero : (![0, 0] : Fin S2000x128.rank → Nat) = fun _ => 0 := funext fun a => by fin_cases a <;> rfl
theorem r3_row_zero : (![0, 0] : Fin S1x128.rank → Nat) = fun _ => 0 := funext fun a => by fin_cases a <;> rfl

/-- The output block after the body, from the contents `x0` (aggregate block), `x1` (bias row), `x3` (scale row) and
    `x4` (shift row) of the input buffers: the body's one store laid over whatever was there. -/
def out3 (x0 : Vec F S2000x128 .f32) (x1 : Vec F S1x128 .f32) (x3 : Vec F S1x128 .f32) (x4 : Vec F S1x128 .f32) : Vec F S2000x128 .f32 :=
  View.canon [⟨r3_blk, k3_pay1 (View.ld x0 r3_blk) (View.ld x1 r3_row) (View.ld x3 r3_row) (View.ld x4 r3_row)⟩]

/-- The store covers the block and each load reads a whole buffer, so the block left is the store's value at the
    buffers' contents. -/
theorem out3_eq (x0 : Vec F S2000x128 .f32) (x1 : Vec F S1x128 .f32) (x3 : Vec F S1x128 .f32) (x4 : Vec F S1x128 .f32) :
    out3 x0 x1 x3 x4 = k3_pay1 x0 x1 x3 x4 := by
  unfold out3
  rw [View.canon_unit_zero r3_blk_zero, View.ld_unit_zero r3_blk_zero, View.ld_unit_zero r3_row_zero,
    View.ld_unit_zero r3_row_zero, View.ld_unit_zero r3_row_zero]

/-- The one store reaches every index of the block. -/
theorem cover3 (p : Vec F S2000x128 .f32) (y : S2000x128.Idx) :
    ∃ pc ∈ ([⟨r3_blk, p⟩] : List (View.Piece (Elt F) S2000x128 .f32)), y ∈ pc.1.set :=
  ⟨_, List.mem_singleton_self _, View.mem_set_unit_zero r3_blk_zero inb_S2000x128_S2000x128_0_0 y⟩

/-! ## The body's triple -/

set_option maxHeartbeats 1000000 in
/-- The body on whole staging buffers: the five inputs at contents `x0 … x4`, the output at anything. It runs to a
    state in which the inputs are as they were and the output holds `out3` of them. (It also loads the output buffer
    before the store; that value is never used.) -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S2000x128 .f32) (x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3 x0 x1 x3 x4)) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-! ## The pipeline's proof data -/

/-- The proof data of this pipeline on core `c`. The arrays are the region's entry contents. After the body at point
    `t` every input buffer still holds its block and the output buffer holds `out3` of the blocks the body reads.
    Nothing is carried between points and nothing is owed: the invariant is the rest of the core, untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi3 (c : Dev nD) (t : Fin (cfg3.N + 1)) : (dat3 V c).Φ t = Pipeline.ΦA spec3 c := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3 (iblk3 V c 0 t) (iblk3 V c 1 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the pipeline hands the body at point `t`: the invariant, the core's debt, and each window's current staging
    buffer at what it then holds. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body hands back: the same, each buffer at what the body leaves in it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point. The input buffers hold their blocks, so the body's triple applies; the invariant and the
    debt are the same before and after and pass by unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4 of @main: custom_call 4, the block matrix product without bias, at the entry contents `V`

The grid is 50 × 1: the second axis has a single point, so both of the body's conditionals on "second coordinate
= 0" hold at every point. At every point the body therefore zeroes its accumulator, adds the product of the
row block (2000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (a window
    not fetched at a point has the block index of the point before), for any proof data whose array is `V`'s and
    whose body leaves the block in place. Window 0: the row block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1: the weight matrix, fetched at the first point only. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2: the bias row, fetched at the first point only (this body never reads it). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The conditionals -/

/-- The second grid axis has one point: its coordinate is zero everywhere. -/
theorem coord4_eq_zero (i : grid4.Coords) : (i 1).val = 0 := by
  have h : (i 1).val < 1 := (i 1).isLt
  omega

/-- The first conditional ("zero the accumulator") is taken at every point. -/
theorem cond4_1 (i : grid4.Coords) :
    Scalar.cmpi .ne (Scalar.extui (Scalar.cmpi .eq (BitVec.ofNat 32 (i 1).val) 0#32)) 0#32 = 1#1 := by
  rw [coord4_eq_zero i]; decide

/-- The second conditional ("store the accumulator to the output") is taken at every point. -/
theorem cond4_2 (i : grid4.Coords) : k4_cond2 i = 1#1 := by
  unfold k4_cond2; exact cond4_1 i

/-- So the output window is live at every point. -/
theorem live4_3 (t : Fin cfg4.N) : cfg4.idle 3 (cfg4.grid.coords t) = false := by
  show (!(k4_cond2 (grid4.coords t) == 1#1)) = false
  rw [cond4_2]; rfl

/-- The offsets of every access of the body: zero on both axes. -/
theorem off4_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out4 (x0 : Vec F S2000x128 .bf16) (x1 : Vec F S128x128 .bf16) : Vec F S2000x128 .f32 :=
  k4_pay2 (k4_pay1 (F := F)) x0 x1

theorem out4_eq (x0 : Vec F S2000x128 .bf16) (x1 : Vec F S128x128 .bf16) :
    out4 x0 x1 = k4_pay2 (k4_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out4 x0 x1` and the accumulator at some contents. Both conditionals are decided (`cond4_1`, `cond4_2`); every
    access is through the whole-buffer rectangle, so each load after a store reads that store's payload. -/
theorem sound_kernel4 (c : Dev nD) (E : Set ℕ) (i : grid4.Coords)
    (arg2 : Memref sig .tc .vmem S2000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out4 x0 x1)
            ∗ (∃ d, owns (c : Thread nD τ) arg6 fullShare d)) -∗ K ⟨⟩))
      ⊢ wp frame (wpE (defs₀ (F := F)) Variants.none c none) E
          (cc4__matmul_kernel i arg2 harg2 arg3 harg3 arg4 harg4 arg5 harg5 arg6 harg6) K := by
  simp only [cc4__matmul_kernel_eq_skeleton]; unfold cc4__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond4_1 i
  have hcb := cond4_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off4_zero inb_S2000x128_S2000x128_0_0 y⟩)]
    rw [View.canon_unit_zero off4_zero]
    unfold sound_kernel4.sl.v16 sound_kernel4.sl.Hs_2
    rw [View.readCov_cons_toLoadRect]
    unfold sound_kernel4.sl.v3 sound_kernel4.sl.Hs_1 out4
    rw [View.readCov_cons_toLoadRect, View.readAt_eq_ld, View.readAt_eq_ld, View.ld_unit_zero off4_zero, View.ld_unit_zero off4_zero]
  iexists _; iexists _; isplitr
  swap; · iexact Hs
  ipureintro; rfl

/-! ## The pipeline's proof data -/

/-- The proof data of pipeline 4 on core `c`: the arrays as the region finds them (`V`); after the body at point
    `t` each input's buffer at its block and the output's at `out4` of the row block and the weight matrix; the
    invariant the scoped rest and the generator register, untouched between points; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) := by dsimp only [dat4]

/-- The invariant is the same at every point. -/
theorem Phi4 (c : Dev nD) (t : Fin (cfg4.N + 1)) : (dat4 V c).Φ t = Pipeline.ΦA spec4 c := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- The region invariant with the accumulator set apart as a whole memref owned at some contents. -/
theorem PhiA4_eq (c : Dev nD) :
    (Pipeline.ΦA spec4 c : sProp 𝕄)
      = iprop(((∃ d, owns (c : Thread nD τ) (Memref.whole cc4_scratch0) fullShare d)
            ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [owns_whole]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1000000 in
/-- The body at any point: the inputs' memrefs hold their blocks (`before4_W`), the invariant lends the accumulator
    at some contents, so `sound_kernel4` applies; the accumulator goes back into the invariant at what it ends
    with; the rest of the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).leavesExact 0 t = owns (c : Thread nD τ) (st4_0 t) fullShare ((dat4 V c).after 0 t) from rfl,
    show (dat4 V c).leavesExact 1 t = owns (c : Thread nD τ) (st4_1 t) fullShare ((dat4 V c).after 1 t) from rfl,
    show (dat4 V c).leavesExact 2 t = owns (c : Thread nD τ) (st4_2 t) fullShare ((dat4 V c).after 2 t) from rfl,
    show (dat4 V c).leavesExact 3 t = owns (c : Thread nD τ) (st4_3 t) fullShare ((dat4 V c).after 3 t) from by
      unfold Dat.leavesExact; rw [live4_3 t]]
  rw [Phi4, Phi4, show (dat4 V c).owesAt () t.succ = (dat4 V c).owesAt () t.castSucc from rfl,
    after4_0, after4_1, after4_2, after4_3, PhiA4_eq]
  iintro ⟨⟨⟨HS, HR⟩, Hg⟩, Hw, ⟨%d0, Ha⟩, ⟨%d1, Hb⟩, ⟨%d2, Hc⟩, ⟨%d3, Ho⟩⟩
  iapply (sound_kernel4 c Set.univ _ _ _ _ _ _ _ _ _ _ _ (iblk4 V c 0 t) (iblk4 V c 1 t) (iblk4 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5 of @main: custom_call 5, the block matrix product without bias, at the entry contents `V`

The grid is 160 × 1: the second axis has a single point, so both of the body's conditionals on "second coordinate
= 0" hold at every point. At every point the body therefore zeroes its accumulator, adds the product of the
row block (5000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (a window
    not fetched at a point has the block index of the point before), for any proof data whose array is `V`'s and
    whose body leaves the block in place. Window 0: the row block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1: the weight matrix, fetched at the first point only. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2: the bias row, fetched at the first point only (this body never reads it). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The conditionals -/

/-- The second grid axis has one point: its coordinate is zero everywhere. -/
theorem coord5_eq_zero (i : grid5.Coords) : (i 1).val = 0 := by
  have h : (i 1).val < 1 := (i 1).isLt
  omega

/-- The first conditional ("zero the accumulator") is taken at every point. -/
theorem cond5_1 (i : grid5.Coords) :
    Scalar.cmpi .ne (Scalar.extui (Scalar.cmpi .eq (BitVec.ofNat 32 (i 1).val) 0#32)) 0#32 = 1#1 := by
  rw [coord5_eq_zero i]; decide

/-- The second conditional ("store the accumulator to the output") is taken at every point. -/
theorem cond5_2 (i : grid5.Coords) : k5_cond2 i = 1#1 := by
  unfold k5_cond2; exact cond5_1 i

/-- So the output window is live at every point. -/
theorem live5_3 (t : Fin cfg5.N) : cfg5.idle 3 (cfg5.grid.coords t) = false := by
  show (!(k5_cond2 (grid5.coords t) == 1#1)) = false
  rw [cond5_2]; rfl

/-- The offsets of every access of the body: zero on both axes. -/
theorem off5_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out5 (x0 : Vec F S5000x128 .bf16) (x1 : Vec F S128x128 .bf16) : Vec F S5000x128 .f32 :=
  k5_pay2 (k5_pay1 (F := F)) x0 x1

theorem out5_eq (x0 : Vec F S5000x128 .bf16) (x1 : Vec F S128x128 .bf16) :
    out5 x0 x1 = k5_pay2 (k5_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out5 x0 x1` and the accumulator at some contents. Both conditionals are decided (`cond5_1`, `cond5_2`); every
    access is through the whole-buffer rectangle, so each load after a store reads that store's payload. -/
theorem sound_kernel5 (c : Dev nD) (E : Set ℕ) (i : grid5.Coords)
    (arg2 : Memref sig .tc .vmem S5000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S5000x128 .f32) (harg5 : arg5.IsWhole)
    (arg6 : Memref sig .tc .vmem S5000x128 .f32) (harg6 : arg6.IsWhole)
    (x0 : Vec F S5000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out5 x0 x1)
            ∗ (∃ d, owns (c : Thread nD τ) arg6 fullShare d)) -∗ K ⟨⟩))
      ⊢ wp frame (wpE (defs₀ (F := F)) Variants.none c none) E
          (cc5__matmul_kernel i arg2 harg2 arg3 harg3 arg4 harg4 arg5 harg5 arg6 harg6) K := by
  simp only [cc5__matmul_kernel_eq_skeleton]; unfold cc5__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond5_1 i
  have hcb := cond5_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off5_zero inb_S5000x128_S5000x128_0_0 y⟩)]
    rw [View.canon_unit_zero off5_zero]
    unfold sound_kernel5.sl.v16 sound_kernel5.sl.Hs_2
    rw [View.readCov_cons_toLoadRect]
    unfold sound_kernel5.sl.v3 sound_kernel5.sl.Hs_1 out5
    rw [View.readCov_cons_toLoadRect, View.readAt_eq_ld, View.readAt_eq_ld, View.ld_unit_zero off5_zero, View.ld_unit_zero off5_zero]
  iexists _; iexists _; isplitr
  swap; · iexact Hs
  ipureintro; rfl

/-! ## The pipeline's proof data -/

/-- The proof data of pipeline 5 on core `c`: the arrays as the region finds them (`V`); after the body at point
    `t` each input's buffer at its block and the output's at `out5` of the row block and the weight matrix; the
    invariant the scoped rest and the generator register, untouched between points; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) := by dsimp only [dat5]

/-- The invariant is the same at every point. -/
theorem Phi5 (c : Dev nD) (t : Fin (cfg5.N + 1)) : (dat5 V c).Φ t = Pipeline.ΦA spec5 c := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- The region invariant with the accumulator set apart as a whole memref owned at some contents. -/
theorem PhiA5_eq (c : Dev nD) :
    (Pipeline.ΦA spec5 c : sProp 𝕄)
      = iprop(((∃ d, owns (c : Thread nD τ) (Memref.whole cc5_scratch0) fullShare d)
            ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [owns_whole]

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 1000000 in
/-- The body at any point: the inputs' memrefs hold their blocks (`before5_W`), the invariant lends the accumulator
    at some contents, so `sound_kernel5` applies; the accumulator goes back into the invariant at what it ends
    with; the rest of the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).leavesExact 0 t = owns (c : Thread nD τ) (st5_0 t) fullShare ((dat5 V c).after 0 t) from rfl,
    show (dat5 V c).leavesExact 1 t = owns (c : Thread nD τ) (st5_1 t) fullShare ((dat5 V c).after 1 t) from rfl,
    show (dat5 V c).leavesExact 2 t = owns (c : Thread nD τ) (st5_2 t) fullShare ((dat5 V c).after 2 t) from rfl,
    show (dat5 V c).leavesExact 3 t = owns (c : Thread nD τ) (st5_3 t) fullShare ((dat5 V c).after 3 t) from by
      unfold Dat.leavesExact; rw [live5_3 t]]
  rw [Phi5, Phi5, show (dat5 V c).owesAt () t.succ = (dat5 V c).owesAt () t.castSucc from rfl,
    after5_0, after5_1, after5_2, after5_3, PhiA5_eq]
  iintro ⟨⟨⟨HS, HR⟩, Hg⟩, Hw, ⟨%d0, Ha⟩, ⟨%d1, Hb⟩, ⟨%d2, Hc⟩, ⟨%d3, Ho⟩⟩
  iapply (sound_kernel5 c Set.univ _ _ _ _ _ _ _ _ _ _ _ (iblk5 V c 0 t) (iblk5 V c 1 t) (iblk5 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The layer-norm epilogue call number 6: its pipeline proof data and body obligation

The call walks 50 row blocks of 2000 rows. At every block the body reads the aggregate block, the bias row,
the residual block, the scale row and the shift row, and overwrites the WHOLE output block with one store whose value is
a closed function of those reads. So what the body leaves in the output's staging buffer is that function of the
input blocks, and it keeps nothing from block to block: the invariant is the untouched rest of the core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Block `t` of window `w`: its array, as the region finds it, read through the rectangle the window's index map
    names at point `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the body finds in an input's staging buffer

Windows 0 and 2 move to a new block at every point and are fetched there; windows 1, 3 and 4 sit on their one block and
are fetched once, at the first point. Either way the body finds block `t`: an unfetched buffer still holds the previous
point's block, and the block index did not move. Stated for ANY proof data over the region's arrays that leaves the
inputs in place, so that it can be cited before the proof data below is unfolded. -/

section Before
variable {c : Dev nD} (dat : Dat τ (Elt F) Unit ℕ (UR sig nD τ) ℕ cfg6 c)

theorem before6_0_of (hA : dat.A 0 = V c (Pipeline.arrRef spec6 0)) (hafter : ∀ t, dat.after 0 t = iblk6 V c 0 t)
    (t : Fin cfg6.N) (d) : dat.before 0 t d = iblk6 V c 0 t := by
  have hkeep : ∀ t, (cfg6.win 0).cut (cfg6.grid.coords t) (dat.after 0 t) = dat.blockOf 0 t := fun t => by
    rw [hafter]; unfold Dat.blockOf iblk6; rw [hA]; try rfl
  rw [dat.before_in_eq_fetched 0 rfl (fun _ => rfl) (fun _ _ _ => rfl) hkeep t d]
  unfold Dat.fetched Dat.blockOf iblk6; rw [hA]; try rfl

theorem before6_1_of (hA : dat.A 1 = V c (Pipeline.arrRef spec6 1)) (hafter : ∀ t, dat.after 1 t = iblk6 V c 1 t)
    (t : Fin cfg6.N) (d) : dat.before 1 t d = iblk6 V c 1 t := by
  have hkeep : ∀ t, (cfg6.win 1).cut (cfg6.grid.coords t) (dat.after 1 t) = dat.blockOf 1 t := fun t => by
    rw [hafter]; unfold Dat.blockOf iblk6; rw [hA]; try rfl
  rw [dat.before_in_eq_fetched 1 rfl (fun _ => rfl) (fun _ _ _ => rfl) hkeep t d]
  unfold Dat.fetched Dat.blockOf iblk6; rw [hA]; try rfl

theorem before6_2_of (hA : dat.A 2 = V c (Pipeline.arrRef spec6 2)) (hafter : ∀ t, dat.after 2 t = iblk6 V c 2 t)
    (t : Fin cfg6.N) (d) : dat.before 2 t d = iblk6 V c 2 t := by
  have hkeep : ∀ t, (cfg6.win 2).cut (cfg6.grid.coords t) (dat.after 2 t) = dat.blockOf 2 t := fun t => by
    rw [hafter]; unfold Dat.blockOf iblk6; rw [hA]; try rfl
  rw [dat.before_in_eq_fetched 2 rfl (fun _ => rfl) (fun _ _ _ => rfl) hkeep t d]
  unfold Dat.fetched Dat.blockOf iblk6; rw [hA]; try rfl

theorem before6_3_of (hA : dat.A 3 = V c (Pipeline.arrRef spec6 3)) (hafter : ∀ t, dat.after 3 t = iblk6 V c 3 t)
    (t : Fin cfg6.N) (d) : dat.before 3 t d = iblk6 V c 3 t := by
  have hkeep : ∀ t, (cfg6.win 3).cut (cfg6.grid.coords t) (dat.after 3 t) = dat.blockOf 3 t := fun t => by
    rw [hafter]; unfold Dat.blockOf iblk6; rw [hA]; try rfl
  rw [dat.before_in_eq_fetched 3 rfl (fun _ => rfl) (fun _ _ _ => rfl) hkeep t d]
  unfold Dat.fetched Dat.blockOf iblk6; rw [hA]; try rfl

theorem before6_4_of (hA : dat.A 4 = V c (Pipeline.arrRef spec6 4)) (hafter : ∀ t, dat.after 4 t = iblk6 V c 4 t)
    (t : Fin cfg6.N) (d) : dat.before 4 t d = iblk6 V c 4 t := by
  have hkeep : ∀ t, (cfg6.win 4).cut (cfg6.grid.coords t) (dat.after 4 t) = dat.blockOf 4 t := fun t => by
    rw [hafter]; unfold Dat.blockOf iblk6; rw [hA]; try rfl
  rw [dat.before_in_eq_fetched 4 rfl (fun _ => rfl) (fun _ _ _ => rfl) hkeep t d]
  unfold Dat.fetched Dat.blockOf iblk6; rw [hA]; try rfl

end Before

/-! ## What the body leaves in the output's staging buffer -/

/-- The whole 2000 x 128 block and the whole 1 x 128 row, as rectangles at offset zero: every load and the one store
    of the body go through these. -/
abbrev r6_blk : Rect S2000x128 := Rect.unit (s := S2000x128) ![0, 0] S2000x128.size inb_S2000x128_S2000x128_0_0
abbrev r6_row : Rect S1x128 := Rect.unit (s := S1x128) ![0, 0] S1x128.size inb_S1x128_S1x128_0_0

theorem r6_blk_zero : (![0, 0] : Fin S2000x128.rank → Nat) = fun _ => 0 := funext fun a => by fin_cases a <;> rfl
theorem r6_row_zero : (![0, 0] : Fin S1x128.rank → Nat) = fun _ => 0 := funext fun a => by fin_cases a <;> rfl

/-- The output block after the body, from the contents `x0` (aggregate block), `x1` (bias row), `x2` (residual block),
    `x3` (scale row) and `x4` (shift row) of the input buffers: the body's one store laid over whatever was there. -/
def out6 (x0 : Vec F S2000x128 .f32) (x1 : Vec F S1x128 .f32) (x2 : Vec F S2000x128 .f32) (x3 x4 : Vec F S1x128 .f32) : Vec F S2000x128 .f32 :=
  View.canon [⟨r6_blk, k6_pay1 (View.ld x0 r6_blk) (View.ld x1 r6_row) (View.ld x2 r6_blk) (View.ld x3 r6_row) (View.ld x4 r6_row)⟩]

/-- The store covers the block and each load reads a whole buffer, so the block left is the store's value at the
    buffers' contents. -/
theorem out6_eq (x0 : Vec F S2000x128 .f32) (x1 : Vec F S1x128 .f32) (x2 : Vec F S2000x128 .f32) (x3 x4 : Vec F S1x128 .f32) :
    out6 x0 x1 x2 x3 x4 = k6_pay1 x0 x1 x2 x3 x4 := by
  unfold out6
  rw [View.canon_unit_zero r6_blk_zero, View.ld_unit_zero r6_blk_zero, View.ld_unit_zero r6_row_zero,
    View.ld_unit_zero r6_blk_zero, View.ld_unit_zero r6_row_zero, View.ld_unit_zero r6_row_zero]

/-- The one store reaches every index of the block. -/
theorem cover6 (p : Vec F S2000x128 .f32) (y : S2000x128.Idx) :
    ∃ pc ∈ ([⟨r6_blk, p⟩] : List (View.Piece (Elt F) S2000x128 .f32)), y ∈ pc.1.set :=
  ⟨_, List.mem_singleton_self _, View.mem_set_unit_zero r6_blk_zero inb_S2000x128_S2000x128_0_0 y⟩

/-! ## The body's triple -/

set_option maxHeartbeats 1000000 in
/-- The body on whole staging buffers: the five inputs at contents `x0 … x4`, the output at anything. It runs to a
    state in which the inputs are as they were and the output holds `out6` of them. (It also loads the output buffer
    before the store; that value is never used.) -/
theorem sound_kernel6 (c : Dev nD) (E : Set ℕ) (i : grid6.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S2000x128 .f32) (x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6 x0 x1 x2 x3 x4)) -∗ K ⟨⟩))
      ⊢ wp frame (wpE (defs₀ (F := F)) Variants.none c none) E (cc6__post_kernel i arg1 harg1 arg2 harg2 arg3 harg3 arg4 harg4 arg5 harg5 arg6 harg6) K := by
  simp only [cc6__post_kernel_eq_skeleton]; unfold cc6__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-! ## The pipeline's proof data -/

/-- The proof data of this pipeline on core `c`. The arrays are the region's entry contents. After the body at point
    `t` every input buffer still holds its block and the output buffer holds `out6` of the blocks the body reads.
    Nothing is carried between points and nothing is owed: the invariant is the rest of the core, untouched. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem Phi6 (c : Dev nD) (t : Fin (cfg6.N + 1)) : (dat6 V c).Φ t = Pipeline.ΦA spec6 c := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the pipeline hands the body at point `t`: the invariant, the core's debt, and each window's current staging
    buffer at what it then holds. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What the body hands back: the same, each buffer at what the body leaves in it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point. The input buffers hold their blocks, so the body's triple applies; the invariant and the
    debt are the same before and after and pass by unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7 of @main: custom_call 7, the block matrix product without bias, at the entry contents `V`

The grid is 50 × 1: the second axis has a single point, so both of the body's conditionals on "second coordinate
= 0" hold at every point. At every point the body therefore zeroes its accumulator, adds the product of the
row block (2000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window
    not fetched at a point has the block index of the point before), for any proof data whose array is `V`'s and
    whose body leaves the block in place. Window 0: the row block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1: the weight matrix, fetched at the first point only. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2: the bias row, fetched at the first point only (this body never reads it). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The conditionals -/

/-- The second grid axis has one point: its coordinate is zero everywhere. -/
theorem coord7_eq_zero (i : grid7.Coords) : (i 1).val = 0 := by
  have h : (i 1).val < 1 := (i 1).isLt
  omega

/-- The first conditional ("zero the accumulator") is taken at every point. -/
theorem cond7_1 (i : grid7.Coords) :
    Scalar.cmpi .ne (Scalar.extui (Scalar.cmpi .eq (BitVec.ofNat 32 (i 1).val) 0#32)) 0#32 = 1#1 := by
  rw [coord7_eq_zero i]; decide

/-- The second conditional ("store the accumulator to the output") is taken at every point. -/
theorem cond7_2 (i : grid7.Coords) : k7_cond2 i = 1#1 := by
  unfold k7_cond2; exact cond7_1 i

/-- So the output window is live at every point. -/
theorem live7_3 (t : Fin cfg7.N) : cfg7.idle 3 (cfg7.grid.coords t) = false := by
  show (!(k7_cond2 (grid7.coords t) == 1#1)) = false
  rw [cond7_2]; rfl

/-- The offsets of every access of the body: zero on both axes. -/
theorem off7_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out7 (x0 : Vec F S2000x128 .bf16) (x1 : Vec F S128x128 .bf16) : Vec F S2000x128 .f32 :=
  k7_pay2 (k7_pay1 (F := F)) x0 x1

theorem out7_eq (x0 : Vec F S2000x128 .bf16) (x1 : Vec F S128x128 .bf16) :
    out7 x0 x1 = k7_pay2 (k7_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out7 x0 x1` and the accumulator at some contents. Both conditionals are decided (`cond7_1`, `cond7_2`); every
    access is through the whole-buffer rectangle, so each load after a store reads that store's payload. -/
theorem sound_kernel7 (c : Dev nD) (E : Set ℕ) (i : grid7.Coords)
    (arg2 : Memref sig .tc .vmem S2000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out7 x0 x1)
            ∗ (∃ d, owns (c : Thread nD τ) arg6 fullShare d)) -∗ K ⟨⟩))
      ⊢ wp frame (wpE (defs₀ (F := F)) Variants.none c none) E
          (cc7__matmul_kernel i arg2 harg2 arg3 harg3 arg4 harg4 arg5 harg5 arg6 harg6) K := by
  simp only [cc7__matmul_kernel_eq_skeleton]; unfold cc7__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond7_1 i
  have hcb := cond7_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off7_zero inb_S2000x128_S2000x128_0_0 y⟩)]
    rw [View.canon_unit_zero off7_zero]
    unfold sound_kernel7.sl.v16 sound_kernel7.sl.Hs_2
    rw [View.readCov_cons_toLoadRect]
    unfold sound_kernel7.sl.v3 sound_kernel7.sl.Hs_1 out7
    rw [View.readCov_cons_toLoadRect, View.readAt_eq_ld, View.readAt_eq_ld, View.ld_unit_zero off7_zero, View.ld_unit_zero off7_zero]
  iexists _; iexists _; isplitr
  swap; · iexact Hs
  ipureintro; rfl

/-! ## The pipeline's proof data -/

/-- The proof data of pipeline 7 on core `c`: the arrays as the region finds them (`V`); after the body at point
    `t` each input's buffer at its block and the output's at `out7` of the row block and the weight matrix; the
    invariant the scoped rest and the generator register, untouched between points; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 (iblk7 V c 0 t) (iblk7 V c 1 t) := by dsimp only [dat7]

/-- The invariant is the same at every point. -/
theorem Phi7 (c : Dev nD) (t : Fin (cfg7.N + 1)) : (dat7 V c).Φ t = Pipeline.ΦA spec7 c := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- The region invariant with the accumulator set apart as a whole memref owned at some contents. -/
theorem PhiA7_eq (c : Dev nD) :
    (Pipeline.ΦA spec7 c : sProp 𝕄)
      = iprop(((∃ d, owns (c : Thread nD τ) (Memref.whole cc7_scratch0) fullShare d)
            ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [owns_whole]

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 1000000 in
/-- The body at any point: the inputs' memrefs hold their blocks (`before7_W`), the invariant lends the accumulator
    at some contents, so `sound_kernel7` applies; the accumulator goes back into the invariant at what it ends
    with; the rest of the invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).leavesExact 0 t = owns (c : Thread nD τ) (st7_0 t) fullShare ((dat7 V c).after 0 t) from rfl,
    show (dat7 V c).leavesExact 1 t = owns (c : Thread nD τ) (st7_1 t) fullShare ((dat7 V c).after 1 t) from rfl,
    show (dat7 V c).leavesExact 2 t = owns (c : Thread nD τ) (st7_2 t) fullShare ((dat7 V c).after 2 t) from rfl,
    show (dat7 V c).leavesExact 3 t = owns (c : Thread nD τ) (st7_3 t) fullShare ((dat7 V c).after 3 t) from by
      unfold Dat.leavesExact; rw [live7_3 t]]
  rw [Phi7, Phi7, show (dat7 V c).owesAt () t.succ = (dat7 V c).owesAt () t.castSucc from rfl,
    after7_0, after7_1, after7_2, after7_3, PhiA7_eq]
  iintro ⟨⟨⟨HS, HR⟩, Hg⟩, Hw, ⟨%d0, Ha⟩, ⟨%d1, Hb⟩, ⟨%d2, Hc⟩, ⟨%d3, Ho⟩⟩
  iapply (sound_kernel7 c Set.univ _ _ _ _ _ _ _ _ _ _ _ (iblk7 V c 0 t) (iblk7 V c 1 t) (iblk7 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8 of @main: custom_call 8, the block matrix product without bias, at the entry contents `V`

The grid is 160 × 1: the second axis has a single point, so both of the body's conditionals on "second coordinate
= 0" hold at every point. At every point the body therefore zeroes its accumulator, adds the product of the
row block (5000 × 128) with the weight matrix (128 × 128) into it, and copies the accumulator to the output
block. Nothing is carried between points: the accumulator is handed back at whatever it holds, inside the
region invariant (every scoped buffer that is no staging buffer at some contents, and the generator register). -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (a window
    not fetched at a point has the block index of the point before), for any proof data whose array is `V`'s and
    whose body leaves the block in place. Window 0: the row block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1: the weight matrix, fetched at the first point only. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2: the bias row, fetched at the first point only (this body never reads it). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The conditionals -/

/-- The second grid axis has one point: its coordinate is zero everywhere. -/
theorem coord8_eq_zero (i : grid8.Coords) : (i 1).val = 0 := by
  have h : (i 1).val < 1 := (i 1).isLt
  omega

/-- The first conditional ("zero the accumulator") is taken at every point. -/
theorem cond8_1 (i : grid8.Coords) :
    Scalar.cmpi .ne (Scalar.extui (Scalar.cmpi .eq (BitVec.ofNat 32 (i 1).val) 0#32)) 0#32 = 1#1 := by
  rw [coord8_eq_zero i]; decide

/-- The second conditional ("store the accumulator to the output") is taken at every point. -/
theorem cond8_2 (i : grid8.Coords) : k8_cond2 i = 1#1 := by
  unfold k8_cond2; exact cond8_1 i

/-- So the output window is live at every point. -/
theorem live8_3 (t : Fin cfg8.N) : cfg8.idle 3 (cfg8.grid.coords t) = false := by
  show (!(k8_cond2 (grid8.coords t) == 1#1)) = false
  rw [cond8_2]; rfl

/-- The offsets of every access of the body: zero on both axes. -/
theorem off8_zero : (![0, 0] : Fin 2 → ℕ) = fun _ => 0 := by
  funext a; fin_cases a <;> rfl

/-! ## What the body leaves in the output window's buffer -/

/-- Window 3's staging buffer after the body, from the input windows' blocks: the accumulator, zeroed and
    then increased by the product of the row block and the weight matrix. -/
def out8 (x0 : Vec F S5000x128 .bf16) (x1 : Vec F S128x128 .bf16) : Vec F S5000x128 .f32 :=
  k8_pay2 (k8_pay1 (F := F)) x0 x1

theorem out8_eq (x0 : Vec F S5000x128 .bf16) (x1 : Vec F S128x128 .bf16) :
    out8 x0 x1 = k8_pay2 (k8_pay1 (F := F)) x0 x1 := rfl

/-! ## The body's triple -/

set_option maxHeartbeats 1000000 in
/-- The kernel body on whole memrefs — the inputs' staging buffers at read contents `x0`, `x1`, `x2`, the output's
    and the accumulator at anything — runs to the continuation holding the inputs' as they were, the output's at
    `out8 x0 x1` and the accumulator at some contents. Both conditionals are decided (`cond8_1`, `cond8_2`); every
    access is through the whole-buffer rectangle, so each load after a store reads that store's payload. -/
theorem sound_kernel8 (c : Dev nD) (E : Set ℕ) (i : grid8.Coords)
    (arg2 : Memref sig .tc .vmem S5000x128 .bf16) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S5000x128 .f32) (harg5 : arg5.IsWhole)
    (arg6 : Memref sig .tc .vmem S5000x128 .f32) (harg6 : arg6.IsWhole)
    (x0 : Vec F S5000x128 .bf16) (x1 : Vec F S128x128 .bf16) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out8 x0 x1)
            ∗ (∃ d, owns (c : Thread nD τ) arg6 fullShare d)) -∗ K ⟨⟩))
      ⊢ wp frame (wpE (defs₀ (F := F)) Variants.none c none) E
          (cc8__matmul_kernel i arg2 harg2 arg3 harg3 arg4 harg4 arg5 harg5 arg6 harg6) K := by
  simp only [cc8__matmul_kernel_eq_skeleton]; unfold cc8__matmul_kernel_skel
  unfold owns
  iintro ⟨⟨%f0, %hf0, Ha⟩, ⟨%fb, %hfb, Hb⟩, ⟨%fc, %hfc, Hc⟩, ⟨%do_, %fo, -, Ho⟩, ⟨%ds, %fs, -, Hs⟩, Hk⟩
  subst hf0 hfb hfc
  have hca := cond8_1 i
  have hcb := cond8_2 i
  sl_exec (disch := first | exact hca | exact hcb)
  sl_step
  iapply Hk
  isplitl [Ha]
  · iexists f0; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    rw [View.read_writes_eq_canon _ _ _ (fun y => ⟨_, List.mem_singleton_self _, View.mem_set_unit_zero off8_zero inb_S5000x128_S5000x128_0_0 y⟩)]
    rw [View.canon_unit_zero off8_zero]
    unfold sound_kernel8.sl.v16 sound_kernel8.sl.Hs_2
    rw [View.readCov_cons_toLoadRect]
    unfold sound_kernel8.sl.v3 sound_kernel8.sl.Hs_1 out8
    rw [View.readCov_cons_toLoadRect, View.readAt_eq_ld, View.readAt_eq_ld, View.ld_unit_zero off8_zero, View.ld_unit_zero off8_zero]
  iexists _; iexists _; isplitr
  swap; · iexact Hs
  ipureintro; rfl

/-! ## The pipeline's proof data -/

/-- The proof data of pipeline 8 on core `c`: the arrays as the region finds them (`V`); after the body at point
    `t` each input's buffer at its block and the output's at `out8` of the row block and the weight matrix; the
    invariant the scoped rest and the generator register, untouched between points; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8 (iblk8 V c 0 t) (iblk8 V c 1 t) := by dsimp only [dat8]

/-- The invariant is the same at every point. -/
theorem Phi8 (c : Dev nD) (t : Fin (cfg8.N + 1)) : (dat8 V c).Φ t = Pipeline.ΦA spec8 c := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- The region invariant with the accumulator set apart as a whole memref owned at some contents. -/
theorem PhiA8_eq (c : Dev nD) :
    (Pipeline.ΦA spec8 c : sProp 𝕄)
      = iprop(((∃ d, owns (c : Thread nD τ) (Memref.whole cc8_scratch0) fullShare d)
            ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [owns_whole]

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 1000000 in
/-- The body at any point: the inputs' memrefs hold their blocks (`before8_W`), the invariant lends the accumulator
    at some contents, so `sound_kernel8` applies; the accumulator goes back into the invariant at what it ends
    with; the rest of the invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).leavesExact 0 t = owns (c : Thread nD τ) (st8_0 t) fullShare ((dat8 V c).after 0 t) from rfl,
    show (dat8 V c).leavesExact 1 t = owns (c : Thread nD τ) (st8_1 t) fullShare ((dat8 V c).after 1 t) from rfl,
    show (dat8 V c).leavesExact 2 t = owns (c : Thread nD τ) (st8_2 t) fullShare ((dat8 V c).after 2 t) from rfl,
    show (dat8 V c).leavesExact 3 t = owns (c : Thread nD τ) (st8_3 t) fullShare ((dat8 V c).after 3 t) from by
      unfold Dat.leavesExact; rw [live8_3 t]]
  rw [Phi8, Phi8, show (dat8 V c).owesAt () t.succ = (dat8 V c).owesAt () t.castSucc from rfl,
    after8_0, after8_1, after8_2, after8_3, PhiA8_eq]
  iintro ⟨⟨⟨HS, HR⟩, Hg⟩, Hw, ⟨%d0, Ha⟩, ⟨%d1, Hb⟩, ⟨%d2, Hc⟩, ⟨%d3, Ho⟩⟩
  iapply (sound_kernel8 c Set.univ _ _ _ _ _ _ _ _ _ _ _ (iblk8 V c 0 t) (iblk8 V c 1 t) (iblk8 V c 2 t) _)
  isplitl [Ha]; · iexact Ha
  isplitl [Hb]; · iexact Hb
  isplitl [Hc]; · iexact Hc
  isplitl [Ho]; · iexists _; iexact Ho
  isplitl [HS]; · iexact HS
  iintro ⟨Ha, Hb, Hc, Ho, HS⟩
  isplitl [HS HR Hg]
  · isplitl [HS HR]
    · isplitl [HS]; · iexact HS
      iexact HR
    iexact Hg
  isplitl [Hw]; · iexact Hw
  isplitl [Ha]; · iexact Ha
  isplitl [Hb]; · iexact Hb
  isplitl [Hc]; · iexact Hc
  iexact Ho

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The layer-norm epilogue call number 9: its pipeline proof data and body obligation

The call walks 50 row blocks of 2000 rows. At every block the body reads the aggregate block, the bias row,
the residual block, the scale row and the shift row, and overwrites the WHOLE output block with one store whose value is
a closed function of those reads. So what the body leaves in the output's staging buffer is that function of the
input blocks, and it keeps nothing from block to block: the invariant is the untouched rest of the core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Block `t` of window `w`: its array, as the region finds it, read through the rectangle the window's index map
    names at point `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## What the body finds in an input's staging buffer

Windows 0 and 2 move to a new block at every point and are fetched there; windows 1, 3 and 4 sit on their one block and
are fetched once, at the first point. Either way the body finds block `t`: an unfetched buffer still holds the previous
point's block, and the block index did not move. Stated for ANY proof data over the region's arrays that leaves the
inputs in place, so that it can be cited before the proof data below is unfolded. -/

section Before
variable {c : Dev nD} (dat : Dat τ (Elt F) Unit ℕ (UR sig nD τ) ℕ cfg9 c)

theorem before9_0_of (hA : dat.A 0 = V c (Pipeline.arrRef spec9 0)) (hafter : ∀ t, dat.after 0 t = iblk9 V c 0 t)
    (t : Fin cfg9.N) (d) : dat.before 0 t d = iblk9 V c 0 t := by
  have hkeep : ∀ t, (cfg9.win 0).cut (cfg9.grid.coords t) (dat.after 0 t) = dat.blockOf 0 t := fun t => by
    rw [hafter]; unfold Dat.blockOf iblk9; rw [hA]; try rfl
  rw [dat.before_in_eq_fetched 0 rfl (fun _ => rfl) (fun _ _ _ => rfl) hkeep t d]
  unfold Dat.fetched Dat.blockOf iblk9; rw [hA]; try rfl

theorem before9_1_of (hA : dat.A 1 = V c (Pipeline.arrRef spec9 1)) (hafter : ∀ t, dat.after 1 t = iblk9 V c 1 t)
    (t : Fin cfg9.N) (d) : dat.before 1 t d = iblk9 V c 1 t := by
  have hkeep : ∀ t, (cfg9.win 1).cut (cfg9.grid.coords t) (dat.after 1 t) = dat.blockOf 1 t := fun t => by
    rw [hafter]; unfold Dat.blockOf iblk9; rw [hA]; try rfl
  rw [dat.before_in_eq_fetched 1 rfl (fun _ => rfl) (fun _ _ _ => rfl) hkeep t d]
  unfold Dat.fetched Dat.blockOf iblk9; rw [hA]; try rfl

theorem before9_2_of (hA : dat.A 2 = V c (Pipeline.arrRef spec9 2)) (hafter : ∀ t, dat.after 2 t = iblk9 V c 2 t)
    (t : Fin cfg9.N) (d) : dat.before 2 t d = iblk9 V c 2 t := by
  have hkeep : ∀ t, (cfg9.win 2).cut (cfg9.grid.coords t) (dat.after 2 t) = dat.blockOf 2 t := fun t => by
    rw [hafter]; unfold Dat.blockOf iblk9; rw [hA]; try rfl
  rw [dat.before_in_eq_fetched 2 rfl (fun _ => rfl) (fun _ _ _ => rfl) hkeep t d]
  unfold Dat.fetched Dat.blockOf iblk9; rw [hA]; try rfl

theorem before9_3_of (hA : dat.A 3 = V c (Pipeline.arrRef spec9 3)) (hafter : ∀ t, dat.after 3 t = iblk9 V c 3 t)
    (t : Fin cfg9.N) (d) : dat.before 3 t d = iblk9 V c 3 t := by
  have hkeep : ∀ t, (cfg9.win 3).cut (cfg9.grid.coords t) (dat.after 3 t) = dat.blockOf 3 t := fun t => by
    rw [hafter]; unfold Dat.blockOf iblk9; rw [hA]; try rfl
  rw [dat.before_in_eq_fetched 3 rfl (fun _ => rfl) (fun _ _ _ => rfl) hkeep t d]
  unfold Dat.fetched Dat.blockOf iblk9; rw [hA]; try rfl

theorem before9_4_of (hA : dat.A 4 = V c (Pipeline.arrRef spec9 4)) (hafter : ∀ t, dat.after 4 t = iblk9 V c 4 t)
    (t : Fin cfg9.N) (d) : dat.before 4 t d = iblk9 V c 4 t := by
  have hkeep : ∀ t, (cfg9.win 4).cut (cfg9.grid.coords t) (dat.after 4 t) = dat.blockOf 4 t := fun t => by
    rw [hafter]; unfold Dat.blockOf iblk9; rw [hA]; try rfl
  rw [dat.before_in_eq_fetched 4 rfl (fun _ => rfl) (fun _ _ _ => rfl) hkeep t d]
  unfold Dat.fetched Dat.blockOf iblk9; rw [hA]; try rfl

end Before

/-! ## What the body leaves in the output's staging buffer -/

/-- The whole 2000 x 128 block and the whole 1 x 128 row, as rectangles at offset zero: every load and the one store
    of the body go through these. -/
abbrev r9_blk : Rect S2000x128 := Rect.unit (s := S2000x128) ![0, 0] S2000x128.size inb_S2000x128_S2000x128_0_0
abbrev r9_row : Rect S1x128 := Rect.unit (s := S1x128) ![0, 0] S1x128.size inb_S1x128_S1x128_0_0

theorem r9_blk_zero : (![0, 0] : Fin S2000x128.rank → Nat) = fun _ => 0 := funext fun a => by fin_cases a <;> rfl
theorem r9_row_zero : (![0, 0] : Fin S1x128.rank → Nat) = fun _ => 0 := funext fun a => by fin_cases a <;> rfl

/-- The output block after the body, from the contents `x0` (aggregate block), `x1` (bias row), `x2` (residual block),
    `x3` (scale row) and `x4` (shift row) of the input buffers: the body's one store laid over whatever was there. -/
def out9 (x0 : Vec F S2000x128 .f32) (x1 : Vec F S1x128 .f32) (x2 : Vec F S2000x128 .f32) (x3 x4 : Vec F S1x128 .f32) : Vec F S2000x128 .f32 :=
  View.canon [⟨r9_blk, k9_pay1 (View.ld x0 r9_blk) (View.ld x1 r9_row) (View.ld x2 r9_blk) (View.ld x3 r9_row) (View.ld x4 r9_row)⟩]

/-- The store covers the block and each load reads a whole buffer, so the block left is the store's value at the
    buffers' contents. -/
theorem out9_eq (x0 : Vec F S2000x128 .f32) (x1 : Vec F S1x128 .f32) (x2 : Vec F S2000x128 .f32) (x3 x4 : Vec F S1x128 .f32) :
    out9 x0 x1 x2 x3 x4 = k9_pay1 x0 x1 x2 x3 x4 := by
  unfold out9
  rw [View.canon_unit_zero r9_blk_zero, View.ld_unit_zero r9_blk_zero, View.ld_unit_zero r9_row_zero,
    View.ld_unit_zero r9_blk_zero, View.ld_unit_zero r9_row_zero, View.ld_unit_zero r9_row_zero]

/-- The one store reaches every index of the block. -/
theorem cover9 (p : Vec F S2000x128 .f32) (y : S2000x128.Idx) :
    ∃ pc ∈ ([⟨r9_blk, p⟩] : List (View.Piece (Elt F) S2000x128 .f32)), y ∈ pc.1.set :=
  ⟨_, List.mem_singleton_self _, View.mem_set_unit_zero r9_blk_zero inb_S2000x128_S2000x128_0_0 y⟩

/-! ## The body's triple -/

set_option maxHeartbeats 1000000 in
/-- The body on whole staging buffers: the five inputs at contents `x0 … x4`, the output at anything. It runs to a
    state in which the inputs are as they were and the output holds `out9` of them. (It also loads the output buffer
    before the store; that value is never used.) -/
theorem sound_kernel9 (c : Dev nD) (E : Set ℕ) (i : grid9.Coords)
    (arg1 : Memref sig .tc .vmem S2000x128 .f32) (harg1 : arg1.IsWhole) (arg2 : Memref sig .tc .vmem S1x128 .f32) (harg2 : arg2.IsWhole)
    (arg3 : Memref sig .tc .vmem S2000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S2000x128 .f32) (x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9 x0 x1 x2 x3 x4)) -∗ K ⟨⟩))
      ⊢ wp frame (wpE (defs₀ (F := F)) Variants.none c none) E (cc9__post_kernel i arg1 harg1 arg2 harg2 arg3 harg3 arg4 harg4 arg5 harg5 arg6 harg6) K := by
  simp only [cc9__post_kernel_eq_skeleton]; unfold cc9__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9 _)

/-! ## The pipeline's proof data -/

/-- The proof data of this pipeline on core `c`. The arrays are the region's entry contents. After the body at point
    `t` every input buffer still holds its block and the output buffer holds `out9` of the blocks the body reads.
    Nothing is carried between points and nothing is owed: the invariant is the rest of the core, untouched. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem Phi9 (c : Dev nD) (t : Fin (cfg9.N + 1)) : (dat9 V c).Φ t = Pipeline.ΦA spec9 c := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation -/

/-- What the pipeline hands the body at point `t`: the invariant, the core's debt, and each window's current staging
    buffer at what it then holds. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- What the body hands back: the same, each buffer at what the body leaves in it. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point. The input buffers hold their blocks, so the body's triple applies; the invariant and the
    debt are the same before and after and pass by unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
/- Region 10 of the encoder: one block of 2000 rows of the product `a · b + bias` per grid point.
   The grid's second axis has extent 1, so at every point the kernel zeroes its accumulator, adds the block product
   into it, and stores accumulator + bias into the output's staging buffer: nothing is carried from point to point, and
   the class's invariant (the scoped rest at some contents, the generator register at some state) is the region's.
   Stated at a parameter `V`, the TensorCore's buffer contents when the region is entered, and at any `F`. -/
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 10: the matrix product with bias, one block of rows per grid point -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The rows' window (0) is fetched at every point, so its staging buffer holds its block there: for any proof
    data over the entry contents whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl)
    (fun t => by rw [hafter]; unfold Dat.blockOf iblk10; rw [hA]; try rfl) t d).trans
    (by unfold Dat.fetched Dat.blockOf iblk10; rw [hA]; try rfl)

/-- The weights' window (1) is fetched at the first point only and its block index never moves: its staging
    buffer holds the one block at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl)
    (fun t => by rw [hafter]; unfold Dat.blockOf iblk10; rw [hA]; try rfl) t d).trans
    (by unfold Dat.fetched Dat.blockOf iblk10; rw [hA]; try rfl)

/-- The bias' window (2), likewise. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl)
    (fun t => by rw [hafter]; unfold Dat.blockOf iblk10; rw [hA]; try rfl) t d).trans
    (by unfold Dat.fetched Dat.blockOf iblk10; rw [hA]; try rfl)

/-! ## The body's branch conditions

The grid's second axis has extent 1, so its coordinate is 0 at every point: both conditions hold throughout. -/

/-- The first `scf.if`'s condition (the accumulator is zeroed), from the grid coordinates. -/
abbrev cond10_a (i : grid10.Coords) : Prop :=
  (Scalar.cmpi .ne (Scalar.extui (Scalar.cmpi .eq (BitVec.ofNat 32 (i 1).val) 0#32)) 0#32) = 1#1
theorem hcond10_a : ∀ t : Fin cfg10.N, cond10_a (grid10.coords t) :=
  (by decide +kernel : ∀ t : Fin grid10.N, cond10_a (grid10.coords t))

/-- The second `scf.if`'s condition (the output is stored). -/
abbrev cond10_b (i : grid10.Coords) : Prop := k10_cond2 i = 1#1
theorem hcond10_b : ∀ t : Fin cfg10.N, cond10_b (grid10.coords t) :=
  (by decide +kernel : ∀ t : Fin grid10.N, cond10_b (grid10.coords t))

/-- So the output window is idle at no point. -/
theorem liveAt10_3 : ∀ t : Fin cfg10.N, cfg10.idle 3 (grid10.coords t) = false := by decide +kernel

/-! ## The body's accesses: every buffer whole, through the unit rectangle at zero offsets -/

abbrev r10_a : Rect S2000x128 := Rect.unit (s := S2000x128) ![0, 0] S2000x128.size inb_S2000x128_S2000x128_0_0
abbrev r10_b : Rect S128x128 := Rect.unit (s := S128x128) ![0, 0] S128x128.size inb_S128x128_S128x128_0_0
abbrev r10_c : Rect S1x128 := Rect.unit (s := S1x128) ![0, 0] S1x128.size inb_S1x128_S1x128_0_0

/-! ## What the body leaves in the output window's buffer -/

/-- The output's staging buffer after the body, from the input windows' blocks: its one store, whose payload is the
    bias added to the accumulator — the accumulator zeroed, then the blocks' product added. -/
def out10 (x0 : Vec F S2000x128 .bf16) (x1 : Vec F S128x128 .bf16) (x2 : Vec F S1x128 .f32) : Vec F S2000x128 .f32 :=
  View.canon [⟨r10_a, k10_pay3 (k10_pay2 (k10_pay1 (F := F)) (View.ld x0 r10_a) (View.ld x1 r10_b)) (View.ld x2 r10_c)⟩]

/-- The loads read the whole blocks and the one store covers the buffer: the payload itself. -/
theorem out10_eq (x0 : Vec F S2000x128 .bf16) (x1 : Vec F S128x128 .bf16) (x2 : Vec F S1x128 .f32) :
    out10 x0 x1 x2 = k10_pay3 (k10_pay2 (k10_pay1 (F := F)) x0 x1) x2 := by
  have hza : (![0, 0] : Fin S2000x128.rank → Nat) = fun _ => 0 := funext fun a => by fin_cases a <;> rfl
  have hzb : (![0, 0] : Fin S128x128.rank → Nat) = fun _ => 0 := funext fun a => by fin_cases a <;> rfl
  have hzc : (![0, 0] : Fin S1x128.rank → Nat) = fun _ => 0 := funext fun a => by fin_cases a <;> rfl
  unfold out10
  rw [View.canon_unit_zero hza, View.ld_unit_zero hza, View.ld_unit_zero hzb, View.ld_unit_zero hzc]

/-- The one store covers the buffer. -/
theorem cover10_3 (p0 : Vec F S2000x128 .f32) (y : S2000x128.Idx) :
    ∃ pc ∈ ([⟨r10_a, p0⟩] : List (View.Piece (Elt F) S2000x128 .f32)), y ∈ pc.1.set :=
  ⟨_, List.mem_singleton_self _, View.mem_set_unit_zero (funext fun a => by fin_cases a <;> rfl) inb_S2000x128_S2000x128_0_0 y⟩

/-! ## The body's triple -/

set_option maxHeartbeats 1000000 in
/-- The kernel body at a point where both conditions hold, on whole memrefs — the inputs' at read contents, the
    output's and the accumulator's at anything — runs to the continuation holding the inputs' as they were, the output's at
    `out10` of the inputs' and the accumulator's at something: the accumulator is zeroed, read back, the product
    added, read back again, and the sum with the bias stored to the output. -/
theorem sound_kernel10 (c : Dev nD) (E : Set ℕ) (i : grid10.Coords) (hca : cond10_a i) (hcb : cond10_b i)
    (arg2 : Memref sig .tc .vmem S2000x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (x0 : Vec F S2000x128 .bf16) (x1 : Vec F S128x128 .bf16) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out10 x0 x1 x2) ∗ (∃ d, owns (c : Thread nD τ) arg6 fullShare d)) -∗ K ⟨⟩))
      ⊢ wp frame (wpE (defs₀ (F := F)) Variants.none c none) E (cc10__matmul_kernel i arg2 harg2 arg3 harg3 arg4 harg4 arg5 harg5 arg6 harg6) K := by
  simp only [cc10__matmul_kernel_eq_skeleton]; unfold cc10__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hca | sl_exact hcb)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover10_3 _)]
    unfold out10 sound_kernel10.sl.v16 sound_kernel10.sl.H4_2
    rw [View.readCov_cons_toLoadRect]
    unfold sound_kernel10.sl.v3 sound_kernel10.sl.H4_1
    rw [View.readCov_cons_toLoadRect]
    rfl
  iexists _, _; isplitr
  swap; · iexact H4
  ipureintro; rfl

/-! ## The pipeline's proof data -/

/-- The proof data of pipeline 10 on core `c`: the arrays as the region finds them (`V`); after the body at point `t`
    each input's buffer at its block and the output's at `out10` of the input blocks; the class's invariant (the scoped
    rest — the accumulator among it — at some contents, the generator register at some state: the accumulator is zeroed
    at every point, so nothing is carried); nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 (iblk10 V c 0 t) (iblk10 V c 1 t) (iblk10 V c 2 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10 (iblk10 V c 0 t) (iblk10 V c 1 t) (iblk10 V c 2 t) := by dsimp only [dat10]

/-- The invariant is the class's at every point. -/
theorem Phi10 (c : Dev nD) (t : Fin (cfg10.N + 1)) : (dat10 V c).Φ t = Pipeline.ΦA spec10 c := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- The accumulator: a whole scoped buffer of the call's own, passed beside the windows. -/
abbrev scM10 : Memref sig .tc .vmem S2000x128 .f32 := Memref.whole cc10_scratch0

/-- The class's invariant with the accumulator as a memref owned at some contents, the other scoped buffers unopened. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 1000000 in
/-- The body at any point: the inputs' memrefs hold their blocks (`before10_W`) and both conditions hold there, so
    `sound_kernel10` applies; the invariant lends the accumulator at whatever it holds and takes it back at whatever the body
    left; the rest of the invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl, Phi10, Phi10]
  rw [show (dat10 V c).leavesExact 0 t = owns (c : Thread nD τ) (st10_0 t) fullShare ((dat10 V c).after 0 t) from rfl, after10_0]
  rw [show (dat10 V c).leavesExact 1 t = owns (c : Thread nD τ) (st10_1 t) fullShare ((dat10 V c).after 1 t) from rfl, after10_1]
  rw [show (dat10 V c).leavesExact 2 t = owns (c : Thread nD τ) (st10_2 t) fullShare ((dat10 V c).after 2 t) from rfl, after10_2]
  rw [show (dat10 V c).leavesExact 3 t = owns (c : Thread nD τ) (st10_3 t) fullShare ((dat10 V c).after 3 t) from by
    unfold Dat.leavesExact; rw [liveAt10_3 t], after10_3]
  rw [PhiA10_eq]
  iintro ⟨⟨⟨HS, Hr⟩, Hg⟩, Ho, ⟨%d0, H0⟩, ⟨%d1, H1⟩, ⟨%d2, H2⟩, ⟨%d3, H3⟩⟩
  iapply (sound_kernel10 c Set.univ (grid10.coords t) (hcond10_a t) (hcond10_b t) _ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr Hg]
  · isplitl [HS Hr]
    · isplitl [HS]; · iexact HS
      iexact Hr
    iexact Hg
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 11: the pooling matmul, a scratch accumulator carried across the 17 points of the reduction axis -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not, for any proof data
    whose array is `V`'s and whose body leaves the block in place: the window is uncut and never idle, and an
    unfetched point has the block index of the point before. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's two conditionals, decided over the grid -/

/-- The first conditional (the accumulator is zeroed): the reduction coordinate is zero. -/
abbrev cond11_0 (i : grid11.Coords) : Prop :=
  (Scalar.cmpi .ne (Scalar.extui (Scalar.cmpi .eq (BitVec.ofNat 32 (i 1).val) 0#32)) 0#32) = 1#1
/-- It holds at the first point only. -/
theorem hcond11_0 : ∀ t : Fin cfg11.N, cond11_0 (grid11.coords t) ↔ t.val = 0 :=
  (by decide +kernel : ∀ t : Fin grid11.N, cond11_0 (grid11.coords t) ↔ t.val = 0)
/-- The second conditional (the accumulator is stored to the output) holds at the last point only. -/
theorem hcond11_1 : ∀ t : Fin cfg11.N, k11_cond2 (grid11.coords t) = 1#1 ↔ t.val = 16 :=
  (by decide +kernel : ∀ t : Fin grid11.N, k11_cond2 (grid11.coords t) = 1#1 ↔ t.val = 16)

/-- The input windows are never idle. -/
theorem liveAt11_0 : ∀ t : Fin cfg11.N, cfg11.idle 0 (grid11.coords t) = false := fun _ => rfl
theorem liveAt11_1 : ∀ t : Fin cfg11.N, cfg11.idle 1 (grid11.coords t) = false := fun _ => rfl
theorem liveAt11_2 : ∀ t : Fin cfg11.N, cfg11.idle 2 (grid11.coords t) = false := fun _ => rfl
/-- The output window is idle exactly where the body does not store it, -/
theorem idleAt11_3 : ∀ t : Fin cfg11.N, ¬k11_cond2 (grid11.coords t) = 1#1 → cfg11.idle 3 (grid11.coords t) = true := by decide +kernel
theorem liveAt11_3 : ∀ t : Fin cfg11.N, k11_cond2 (grid11.coords t) = 1#1 → cfg11.idle 3 (grid11.coords t) = false := by decide +kernel
/-- and is not written back there. -/
theorem noFlush11_3 : ∀ t : Fin cfg11.N, ¬k11_cond2 (grid11.coords t) = 1#1 → (cfg11.win 3).flush t = false := by decide +kernel

/-! ## The body's triple, in each of the three cases the grid meets -/

theorem hz11 : (![0, 0] : Fin 2 → ℕ) = fun _ => 0 := funext fun a => by fin_cases a <;> rfl

/-- The whole 64x128 rectangle, through which the body reads and writes the accumulator and the output block. -/
abbrev rW11 : Rect S64x128 := Rect.unit (s := S64x128) ![0, 0] S64x128.size inb_S64x128_S64x128_0_0

/-- One store through the whole rectangle covers the buffer. -/
theorem cover11 (p : Vec F S64x128 .f32) (L : List (View.Piece (Elt F) S64x128 .f32)) (y : S64x128.Idx) :
    ∃ pc ∈ ((⟨rW11, p⟩ : View.Piece (Elt F) S64x128 .f32) :: L), y ∈ pc.1.set :=
  ⟨_, List.mem_cons_self, View.mem_set_unit_zero hz11 inb_S64x128_S64x128_0_0 y⟩

set_option maxHeartbeats 1000000 in
/-- A MIDDLE point (neither conditional taken): the accumulator, at `xs`, takes the block product on top. -/
theorem run11_B (c : Dev nD) (E : Set ℕ) (i : grid11.Coords)
    (arg2 : Memref sig .tc .vmem S64x5888 .bf16) (harg2 : arg2.IsWhole) (arg3 : Memref sig .tc .vmem S5888x128 .bf16) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (hc0 : ¬cond11_0 i) (hc1 : ¬k11_cond2 i = 1#1)
    (x0 : Vec F S64x5888 .bf16) (x1 : Vec F S5888x128 .bf16) (xs : Vec F S64x128 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k11_pay2 xs x0 x1)) -∗ K ⟨⟩))
      ⊢ wp frame (wpE (defs₀ (F := F)) Variants.none c none) E (cc11__matmul_kernel i arg2 harg2 arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover11 _ _), View.canon_unit_zero hz11]
  simp only [View.readAt_eq_ld, View.ld_unit_zero (S := S64x128) hz11, View.ld_unit_zero (S := S64x5888) hz11, View.ld_unit_zero (S := S5888x128) hz11]

set_option maxHeartbeats 1000000 in
/-- The FIRST point (the first conditional taken): the accumulator, at anything, is zeroed and takes the block product. -/
theorem run11_A (c : Dev nD) (E : Set ℕ) (i : grid11.Coords)
    (arg2 : Memref sig .tc .vmem S64x5888 .bf16) (harg2 : arg2.IsWhole) (arg3 : Memref sig .tc .vmem S5888x128 .bf16) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (hc0 : cond11_0 i) (hc1 : ¬k11_cond2 i = 1#1)
    (x0 : Vec F S64x5888 .bf16) (x1 : Vec F S5888x128 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k11_pay2 (k11_pay1 (F := F)) x0 x1)) -∗ K ⟨⟩))
      ⊢ wp frame (wpE (defs₀ (F := F)) Variants.none c none) E (cc11__matmul_kernel i arg2 harg2 arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover11 _ _), View.canon_cons_unit_zero (S := S64x128) hz11, View.readCov_unit_zero (S := S64x128) _ hz11]
  simp only [View.readAt_eq_ld, View.ld_unit_zero (S := S64x5888) hz11, View.ld_unit_zero (S := S5888x128) hz11]

set_option maxHeartbeats 1000000 in
/-- The LAST point (the second conditional taken): the accumulator, at `xs`, takes the block product and is stored to the
    output block, which the body finds at anything. -/
theorem run11_C (c : Dev nD) (E : Set ℕ) (i : grid11.Coords)
    (arg2 : Memref sig .tc .vmem S64x5888 .bf16) (harg2 : arg2.IsWhole) (arg3 : Memref sig .tc .vmem S5888x128 .bf16) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (hc0 : ¬cond11_0 i) (hc1 : k11_cond2 i = 1#1)
    (x0 : Vec F S64x5888 .bf16) (x1 : Vec F S5888x128 .bf16) (xs : Vec F S64x128 .f32) (K : PUnit → sProp 𝕄) :
    iprop(owns (c : Thread nD τ) arg2 fullShare x0 ∗ owns (c : Thread nD τ) arg3 fullShare x1 ∗ owns (c : Thread nD τ) arg6 fullShare xs
        ∗ (∃ d, owns (c : Thread nD τ) arg5 fullShare d)
        ∗ (iprop(owns (c : Thread nD τ) arg2 fullShare x0 ∗ owns (c : Thread nD τ) arg3 fullShare x1
            ∗ owns (c : Thread nD τ) arg6 fullShare (k11_pay2 xs x0 x1) ∗ owns (c : Thread nD τ) arg5 fullShare (k11_pay2 xs x0 x1)) -∗ K ⟨⟩))
      ⊢ wp frame (wpE (defs₀ (F := F)) Variants.none c none) E (cc11__matmul_kernel i arg2 harg2 arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%fs, %hfs, HS⟩, ⟨%do5, %f5, -, H5⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS]
  · iexists _; isplitr
    swap; · iexact HS
    ipureintro
    sl_unfold_words
    rw [View.read_writes_eq_canon _ _ _ (cover11 _ _), View.canon_unit_zero hz11]
    simp only [View.readAt_eq_ld, View.ld_unit_zero (S := S64x128) hz11, View.ld_unit_zero (S := S64x5888) hz11, View.ld_unit_zero (S := S5888x128) hz11]
  iexists _; isplitr
  swap; · iexact H5
  ipureintro
  sl_unfold_words
  rw [View.read_writes_eq_canon _ _ _ (cover11 _ _), View.canon_unit_zero hz11, View.readCov_unit_zero (S := S64x128) _ hz11]
  simp only [View.readAt_eq_ld, View.ld_unit_zero (S := S64x128) hz11, View.ld_unit_zero (S := S64x5888) hz11, View.ld_unit_zero (S := S5888x128) hz11]

/-! ## The accumulator, point by point -/

/-- THE ACCUMULATION. What the scratch holds after the body at point `n`: at the first point the zero block with the
    first block product added, afterwards what the point before left with this point's block product added. -/
def acc11 (c : Dev nD) : (n : ℕ) → n < cfg11.N → Vec F S64x128 .f32
  | 0, hn => k11_pay2 (k11_pay1 (F := F)) (iblk11 V c 0 ⟨0, hn⟩) (iblk11 V c 1 ⟨0, hn⟩)
  | n + 1, hn => k11_pay2 (acc11 c n (Nat.lt_of_succ_lt hn)) (iblk11 V c 0 ⟨n + 1, hn⟩) (iblk11 V c 1 ⟨n + 1, hn⟩)

theorem acc11_zero (c : Dev nD) (hn : 0 < cfg11.N) :
    acc11 V c 0 hn = k11_pay2 (k11_pay1 (F := F)) (iblk11 V c 0 ⟨0, hn⟩) (iblk11 V c 1 ⟨0, hn⟩) := rfl

theorem acc11_succ (c : Dev nD) (n : ℕ) (hn : n + 1 < cfg11.N) :
    acc11 V c (n + 1) hn = k11_pay2 (acc11 V c n (Nat.lt_of_succ_lt hn)) (iblk11 V c 0 ⟨n + 1, hn⟩) (iblk11 V c 1 ⟨n + 1, hn⟩) := rfl

/-- The accumulator at the first point, stated at a point of the grid. -/
theorem acc11_of_zero (c : Dev nD) (t : Fin cfg11.N) (h0 : t.val = 0) :
    acc11 V c t.val t.isLt = k11_pay2 (k11_pay1 (F := F)) (iblk11 V c 0 t) (iblk11 V c 1 t) := by
  obtain ⟨n, hn⟩ := t
  cases n with
  | zero => rfl
  | succ n => exact absurd h0 (Nat.succ_ne_zero n)

/-- The accumulator at a later point, over what the point before left. -/
theorem acc11_of_pos (c : Dev nD) (t : Fin cfg11.N) (h0 : t.val ≠ 0) :
    acc11 V c t.val t.isLt
      = k11_pay2 (acc11 V c (t.val - 1) (Nat.lt_of_le_of_lt (Nat.sub_le _ _) t.isLt)) (iblk11 V c 0 t) (iblk11 V c 1 t) := by
  obtain ⟨n, hn⟩ := t
  cases n with
  | zero => exact absurd rfl h0
  | succ n => rfl

/-! ## The region invariant -/

/-- The scratch operand: a whole scoped buffer of the kernel's own, passed beside the windows. -/
abbrev scM11 : Memref sig .tc .vmem S64x128 .f32 := Memref.whole cc11_scratch0

/-- The class's invariant with the scratch split off as a memref owned at some contents, the other scoped buffers unopened. -/
theorem PhiA11_eq (c : Dev nD) :
    (Pipeline.ΦA spec11 c : sProp 𝕄)
      = iprop(iprop((∃ d, owns (c : Thread nD τ) scM11 fullShare d)
          ∗ Pipeline.scopedRestBut (Ix := Unit) (Name := ℕ) (U := UR sig nD τ) (Lvl := ℕ) (Val := Elt F) spec11 c [cc11_scratch0])
        ∗ (∃ r, prngReg c r)) := by
  unfold Pipeline.ΦA; rw [scopedRest11_split]; simp only [scM11, owns_whole]; try rfl

/-- The invariant before position `n`: before the first point the class's (every scoped buffer that is no staging buffer
    at anything, the generator register at some state); afterwards the same with the scratch at what the point before left in it. -/
def Phi11 (c : Dev nD) : (n : ℕ) → n ≤ cfg11.N → sProp 𝕄
  | 0, _ => Pipeline.ΦA spec11 c
  | n + 1, hn => iprop(iprop(owns (c : Thread nD τ) scM11 fullShare (acc11 V c n hn)
          ∗ Pipeline.scopedRestBut (Ix := Unit) (Name := ℕ) (U := UR sig nD τ) (Lvl := ℕ) (Val := Elt F) spec11 c [cc11_scratch0])
        ∗ (∃ r, prngReg c r))

theorem Phi11_at_zero (c : Dev nD) (n : ℕ) (h : n ≤ cfg11.N) (hz : n = 0) : Phi11 V c n h = Pipeline.ΦA spec11 c := by
  subst hz; rfl

theorem Phi11_succ (c : Dev nD) (n : ℕ) (hn : n < cfg11.N) :
    Phi11 V c (n + 1) hn = iprop(iprop(owns (c : Thread nD τ) scM11 fullShare (acc11 V c n hn)
          ∗ Pipeline.scopedRestBut (Ix := Unit) (Name := ℕ) (U := UR sig nD τ) (Lvl := ℕ) (Val := Elt F) spec11 c [cc11_scratch0])
        ∗ (∃ r, prngReg c r)) := rfl

theorem Phi11_pos (c : Dev nD) (n : ℕ) (h : n ≤ cfg11.N) (hz : n ≠ 0) :
    Phi11 V c n h = iprop(iprop(owns (c : Thread nD τ) scM11 fullShare (acc11 V c (n - 1) (by omega))
          ∗ Pipeline.scopedRestBut (Ix := Unit) (Name := ℕ) (U := UR sig nD τ) (Lvl := ℕ) (Val := Elt F) spec11 c [cc11_scratch0])
        ∗ (∃ r, prngReg c r)) := by
  cases n with
  | zero => exact absurd rfl hz
  | succ n => rfl

/-! ## The pipeline's proof data -/

/-- The proof data of pipeline 11 on core `c`: the arrays as the region finds them (`V`); after the body each input's
    buffer at its block and the output's at the accumulator (consulted at the last point only: at the others the window
    is idle); the invariant `Phi11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => acc11 V c t.val t.isLt
  Φ t := Phi11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = acc11 V c t.val t.isLt := by dsimp only [dat11]

theorem lt16_11 : 16 < cfg11.N := by rw [show cfg11.N = 17 from N_11]; omega

/-- The output's buffer after the last point holds the whole accumulation. -/
theorem after11_3_last (c : Dev nD) : (dat11 V c).after 3 ⟨16, lt16_11⟩ = acc11 V c 16 lt16_11 := by dsimp only [dat11]

theorem Phi11_castSucc (c : Dev nD) (t : Fin cfg11.N) :
    (dat11 V c).Φ t.castSucc = Phi11 V c t.val (Nat.le_of_lt t.isLt) := by
  dsimp only [dat11]; simp only [Fin.coe_castSucc]

theorem Phi11_zero (c : Dev nD) : (dat11 V c).Φ 0 = Pipeline.ΦA spec11 c := rfl

/-- After the last point the invariant gives the class's back: the scratch's named contents are forgotten. -/
theorem Phi11_last (c : Dev nD) : (dat11 V c).Φ (Fin.last cfg11.N) ⊢ (Pipeline.ΦA spec11 c : sProp 𝕄) := by
  rw [show (dat11 V c).Φ (Fin.last cfg11.N) = Phi11 V c (Fin.last cfg11.N).val (Nat.le_of_lt_succ (Fin.last cfg11.N).isLt) from rfl,
    Phi11_pos V c _ _ (by rw [Fin.val_last]; have : cfg11.N = 17 := N_11; omega), PhiA11_eq]
  iintro ⟨⟨HS, Hr⟩, Hg⟩
  isplitl [HS Hr]
  · isplitl [HS]
    · iexists _; iexact HS
    iexact Hr
  iexact Hg

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point. The inputs' buffers hold their blocks; the bias window passes through unread. At the first
    point the invariant hands over the scratch at anything and the body zeroes it; at a later point the scratch holds what
    the point before left. The body adds the block product and the invariant takes the scratch back at the new sum. The
    output window is idle (handed back as found) except at the last point, where the body stores the sum into it. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = Phi11 V c (t.val + 1) t.isLt from rfl, Phi11_succ]
  rw [show (dat11 V c).leavesExact 0 t = owns (c : Thread nD τ) (st11_0 t) fullShare ((dat11 V c).after 0 t) from by
      unfold Dat.leavesExact; rw [liveAt11_0 t], after11_0]
  rw [show (dat11 V c).leavesExact 1 t = owns (c : Thread nD τ) (st11_1 t) fullShare ((dat11 V c).after 1 t) from by
      unfold Dat.leavesExact; rw [liveAt11_1 t], after11_1]
  rw [show (dat11 V c).leavesExact 2 t = owns (c : Thread nD τ) (st11_2 t) fullShare ((dat11 V c).after 2 t) from by
      unfold Dat.leavesExact; rw [liveAt11_2 t], after11_2]
  have hN : t.val < 17 := lt_of_lt_of_eq t.isLt (show cfg11.N = 17 from N_11)
  by_cases h0 : t.val = 0
  · -- the first point: zero, add
    have h1 : ¬k11_cond2 (grid11.coords t) = 1#1 := fun h => by have := (hcond11_1 t).mp h; omega
    rw [Dat.leavesExact_idle (dat11 V c) 3 t (idleAt11_3 t h1) (noFlush11_3 t h1)]
    rw [Phi11_castSucc V c t, Phi11_at_zero V c _ _ h0, PhiA11_eq, acc11_of_zero V c t h0]
    iintro ⟨⟨⟨HS, Hr⟩, Hg⟩, Ho, ⟨%d0, H0⟩, ⟨%d1, H1⟩, ⟨%d2, H2⟩, H3⟩
    iapply (run11_A c Set.univ (grid11.coords t) _ _ _ _ _ _ _ _ _ _ ((hcond11_0 t).mpr h0) h1 (iblk11 V c 0 t) (iblk11 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hc0 : ¬cond11_0 (grid11.coords t) := fun h => h0 ((hcond11_0 t).mp h)
    rw [Phi11_castSucc V c t, Phi11_pos V c _ _ h0, acc11_of_pos V c t h0]
    by_cases h16 : t.val = 16
    · -- the last point: add, store
      have h1 : k11_cond2 (grid11.coords t) = 1#1 := (hcond11_1 t).mpr h16
      rw [show (dat11 V c).leavesExact 3 t = owns (c : Thread nD τ) (st11_3 t) fullShare ((dat11 V c).after 3 t) from by
          unfold Dat.leavesExact; rw [liveAt11_3 t h1], after11_3, acc11_of_pos V c t h0]
      iintro ⟨⟨⟨HS, Hr⟩, Hg⟩, Ho, ⟨%d0, H0⟩, ⟨%d1, H1⟩, ⟨%d2, H2⟩, ⟨%d3, H3⟩⟩
      iapply (run11_C c Set.univ (grid11.coords t) _ _ _ _ _ _ _ _ _ _ hc0 h1 (iblk11 V c 0 t) (iblk11 V c 1 t) _ _)
      isplitl [H0]; · iexact H0
      isplitl [H1]; · iexact H1
      isplitl [HS]; · iexact HS
      isplitl [H3]; · iexists _; iexact H3
      iintro ⟨H0, H1, HS, H3⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · -- a middle point: add
      have h1 : ¬k11_cond2 (grid11.coords t) = 1#1 := fun h => h16 ((hcond11_1 t).mp h)
      rw [Dat.leavesExact_idle (dat11 V c) 3 t (idleAt11_3 t h1) (noFlush11_3 t h1)]
      iintro ⟨⟨⟨HS, Hr⟩, Hg⟩, Ho, ⟨%d0, H0⟩, ⟨%d1, H1⟩, ⟨%d2, H2⟩, H3⟩
      iapply (run11_B c Set.univ (grid11.coords t) _ _ _ _ _ _ _ _ _ _ hc0 h1 (iblk11 V c 0 t) (iblk11 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The output array after the region -/

/-- The one write-back, at the last point, writes the output's whole block: read through that block the array after the
    region holds the whole accumulation. -/
theorem arrAt11_out (c : Dev nD) :
    ((cfg11.win 3).blk ⟨16, lt16_11⟩).view.read (Elt F) ((dat11 V c).arrAt 3 cfg11.N) = acc11 V c 16 lt16_11 := by
  have h := (dat11 V c).read_blk_arrAt_eq_flushed 3
    (fun t t' ht ht' hne => by
      exfalso
      have hN : t.val < 17 := lt_of_lt_of_eq t.isLt (show cfg11.N = 17 from N_11)
      have hN' : t'.val < 17 := lt_of_lt_of_eq t'.isLt (show cfg11.N = 17 from N_11)
      have e := (flush11_3 t).mp ht
      have e' := (flush11_3 t').mp ht'
      exact hne (Fin.ext (by omega)))
    cfg11.N ⟨16, lt16_11⟩ lt16_11 ((flush11_3 ⟨16, lt16_11⟩).mpr rfl)
  rw [h]
  exact after11_3_last V c

/-- The output's block is the whole array (one block, at index zero), so the array itself ends at the accumulation. -/
theorem arrAt11_out_whole (c : Dev nD) : (dat11 V c).arrAt 3 cfg11.N = acc11 V c 16 lt16_11 := by
  have hz : (fun a => (win11_3.index ⟨16, lt16_11⟩) a * main_v108.ty.shape.size a) = fun _ => 0 :=
    funext fun a => by fin_cases a <;> decide
  have h := arrAt11_out V c
  rw [show ((cfg11.win 3).blk ⟨16, lt16_11⟩).view.read (Elt F) ((dat11 V c).arrAt 3 cfg11.N) = (dat11 V c).arrAt 3 cfg11.N from
    Memref.read_access_unit_zero (Elt F) main_v108 hz _ _] at h
  exact h

end Cert.KernelIdeal.Hand

end
-- ==== Proof.KI.Outs.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.R0
import proofs.«402750_j37864431681686_1_alg».proof.Proof.KI.R1
import proofs.«402750_j37864431681686_1_alg».proof.Proof.KI.R2
import proofs.«402750_j37864431681686_1_alg».proof.Proof.KI.R3
import proofs.«402750_j37864431681686_1_alg».proof.Proof.KI.R4
import proofs.«402750_j37864431681686_1_alg».proof.Proof.KI.R5
import proofs.«402750_j37864431681686_1_alg».proof.Proof.KI.R6
import proofs.«402750_j37864431681686_1_alg».proof.Proof.KI.R7
import proofs.«402750_j37864431681686_1_alg».proof.Proof.KI.R8
import proofs.«402750_j37864431681686_1_alg».proof.Proof.KI.R9
import proofs.«402750_j37864431681686_1_alg».proof.Proof.KI.R10
import proofs.«402750_j37864431681686_1_alg».proof.Proof.KI.R11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between @main's items, stated outright

The conditional frame writes the contents between two items over UNKNOWNS `outs`: what each kernel region leaves in the
one array it may change. Here they are named without self-reference: from the launch memory, a host stretch acts by
`StableHlo.after`, and a kernel region replaces its output array by the write-backs of all its grid points folded over
the array as the region found it (`Dat.arrAt … N` of the region's proof data AT THE CONTENTS BEFORE IT). The unknowns are
then read off this chain, and the conditional frame's valuations at them are the chain's. -/

/-- A valuation of a core's buffers read at the TensorCore's references: what a region's proof data take. -/
abbrev atTc (W : Dev nD → Valuation τ sig (Elt F)) : (c : Dev nD) → (b : Ref sig .tc) → Buf (Elt F) ((c : Thread nD τ).loc b) :=
  fun c b => W c b

/-- Before region 0: the launch contents after the first host stretch. -/
abbrev U1 (c : Dev nD) : Valuation τ sig (Elt F) := V1 m c
/-- What region 0 leaves in its output array. -/
def o2 (c : Dev nD) : Buf (Elt F) ((c : Thread nD τ).loc main_v12) := (dat0 (atTc (U1 m)) c).arrAt 3 cfg0.N
/-- After region 0. -/
def U2 (c : Dev nD) : Valuation τ sig (Elt F) := Function.update (U1 m c) main_v12 (o2 m c)
/-- Before region 1. -/
def U3 (c : Dev nD) : Valuation τ sig (Elt F) := StableHlo.after hostOps1 (U2 m c)
/-- What region 1 leaves in its output array. -/
def o4 (c : Dev nD) : Buf (Elt F) ((c : Thread nD τ).loc main_v16) := (dat1 (atTc (U3 m)) c).arrAt 3 cfg1.N
/-- After region 1. -/
def U4 (c : Dev nD) : Valuation τ sig (Elt F) := Function.update (U3 m c) main_v16 (o4 m c)
/-- Before region 2. -/
def U5 (c : Dev nD) : Valuation τ sig (Elt F) := StableHlo.after hostOps2 (U4 m c)
/-- What region 2 leaves in its output array. -/
def o6 (c : Dev nD) : Buf (Elt F) ((c : Thread nD τ).loc main_v19) := (dat2 (atTc (U5 m)) c).arrAt 3 cfg2.N
/-- After region 2. -/
def U6 (c : Dev nD) : Valuation τ sig (Elt F) := Function.update (U5 m c) main_v19 (o6 m c)
/-- Before region 3. -/
def U7 (c : Dev nD) : Valuation τ sig (Elt F) := StableHlo.after hostOps3 (U6 m c)
/-- What region 3 leaves in its output array. -/
def o8 (c : Dev nD) : Buf (Elt F) ((c : Thread nD τ).loc main_v40) := (dat3 (atTc (U7 m)) c).arrAt 5 cfg3.N
/-- After region 3. -/
def U8 (c : Dev nD) : Valuation τ sig (Elt F) := Function.update (U7 m c) main_v40 (o8 m c)
/-- Before region 4. -/
def U9 (c : Dev nD) : Valuation τ sig (Elt F) := StableHlo.after hostOps4 (U8 m c)
/-- What region 4 leaves in its output array. -/
def o10 (c : Dev nD) : Buf (Elt F) ((c : Thread nD τ).loc main_v44) := (dat4 (atTc (U9 m)) c).arrAt 3 cfg4.N
/-- After region 4. -/
def U10 (c : Dev nD) : Valuation τ sig (Elt F) := Function.update (U9 m c) main_v44 (o10 m c)
/-- Before region 5. -/
def U11 (c : Dev nD) : Valuation τ sig (Elt F) := StableHlo.after hostOps5 (U10 m c)
/-- What region 5 leaves in its output array. -/
def o12 (c : Dev nD) : Buf (Elt F) ((c : Thread nD τ).loc main_v47) := (dat5 (atTc (U11 m)) c).arrAt 3 cfg5.N
/-- After region 5. -/
def U12 (c : Dev nD) : Valuation τ sig (Elt F) := Function.update (U11 m c) main_v47 (o12 m c)
/-- Before region 6. -/
def U13 (c : Dev nD) : Valuation τ sig (Elt F) := StableHlo.after hostOps6 (U12 m c)
/-- What region 6 leaves in its output array. -/
def o14 (c : Dev nD) : Buf (Elt F) ((c : Thread nD τ).loc main_v68) := (dat6 (atTc (U13 m)) c).arrAt 5 cfg6.N
/-- After region 6. -/
def U14 (c : Dev nD) : Valuation τ sig (Elt F) := Function.update (U13 m c) main_v68 (o14 m c)
/-- Before region 7. -/
def U15 (c : Dev nD) : Valuation τ sig (Elt F) := StableHlo.after hostOps7 (U14 m c)
/-- What region 7 leaves in its output array. -/
def o16 (c : Dev nD) : Buf (Elt F) ((c : Thread nD τ).loc main_v72) := (dat7 (atTc (U15 m)) c).arrAt 3 cfg7.N
/-- After region 7. -/
def U16 (c : Dev nD) : Valuation τ sig (Elt F) := Function.update (U15 m c) main_v72 (o16 m c)
/-- Before region 8. -/
def U17 (c : Dev nD) : Valuation τ sig (Elt F) := StableHlo.after hostOps8 (U16 m c)
/-- What region 8 leaves in its output array. -/
def o18 (c : Dev nD) : Buf (Elt F) ((c : Thread nD τ).loc main_v75) := (dat8 (atTc (U17 m)) c).arrAt 3 cfg8.N
/-- After region 8. -/
def U18 (c : Dev nD) : Valuation τ sig (Elt F) := Function.update (U17 m c) main_v75 (o18 m c)
/-- Before region 9. -/
def U19 (c : Dev nD) : Valuation τ sig (Elt F) := StableHlo.after hostOps9 (U18 m c)
/-- What region 9 leaves in its output array. -/
def o20 (c : Dev nD) : Buf (Elt F) ((c : Thread nD τ).loc main_v96) := (dat9 (atTc (U19 m)) c).arrAt 5 cfg9.N
/-- After region 9. -/
def U20 (c : Dev nD) : Valuation τ sig (Elt F) := Function.update (U19 m c) main_v96 (o20 m c)
/-- Before region 10. -/
def U21 (c : Dev nD) : Valuation τ sig (Elt F) := StableHlo.after hostOps10 (U20 m c)
/-- What region 10 leaves in its output array. -/
def o22 (c : Dev nD) : Buf (Elt F) ((c : Thread nD τ).loc main_v99) := (dat10 (atTc (U21 m)) c).arrAt 3 cfg10.N
/-- After region 10. -/
def U22 (c : Dev nD) : Valuation τ sig (Elt F) := Function.update (U21 m c) main_v99 (o22 m c)
/-- After each of the four host stretches between regions 10 and 11; the last is what region 11 is entered from. -/
def U23 (c : Dev nD) : Valuation τ sig (Elt F) := StableHlo.after hostOps11 (U22 m c)
def U24 (c : Dev nD) : Valuation τ sig (Elt F) := StableHlo.after hostOps11_1 (U23 m c)
def U25 (c : Dev nD) : Valuation τ sig (Elt F) := StableHlo.after hostOps11_2 (U24 m c)
def U26 (c : Dev nD) : Valuation τ sig (Elt F) := StableHlo.after hostOps11_3 (U25 m c)
/-- What region 11 leaves in its output array. -/
def o27 (c : Dev nD) : Buf (Elt F) ((c : Thread nD τ).loc main_v108) := (dat11 (atTc (U26 m)) c).arrAt 3 cfg11.N
/-- After region 11. -/
def U27 (c : Dev nD) : Valuation τ sig (Elt F) := Function.update (U26 m c) main_v108 (o27 m c)
/-- At the end, after the last host stretch. -/
def U28 (c : Dev nD) : Valuation τ sig (Elt F) := StableHlo.after hostOps12 (U27 m c)

/-! ## The unknowns, read off the chain -/

/-- `outs J r c`, the contents of `r` on core `c` after item J − 1: the chain's valuation there (read by the conditional
    frame only after a kernel region, at the region's output array). -/
def outs : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 27 => U27 m c r
  | _ => U1 m c r

theorem outs_2 (c : Dev nD) : outs m 2 main_v12 c = o2 m c := by
  show Function.update (U1 m c) main_v12 (o2 m c) main_v12 = o2 m c
  exact Function.update_self _ _ _
theorem outs_4 (c : Dev nD) : outs m 4 main_v16 c = o4 m c := by
  show Function.update (U3 m c) main_v16 (o4 m c) main_v16 = o4 m c
  exact Function.update_self _ _ _
theorem outs_6 (c : Dev nD) : outs m 6 main_v19 c = o6 m c := by
  show Function.update (U5 m c) main_v19 (o6 m c) main_v19 = o6 m c
  exact Function.update_self _ _ _
theorem outs_8 (c : Dev nD) : outs m 8 main_v40 c = o8 m c := by
  show Function.update (U7 m c) main_v40 (o8 m c) main_v40 = o8 m c
  exact Function.update_self _ _ _
theorem outs_10 (c : Dev nD) : outs m 10 main_v44 c = o10 m c := by
  show Function.update (U9 m c) main_v44 (o10 m c) main_v44 = o10 m c
  exact Function.update_self _ _ _
theorem outs_12 (c : Dev nD) : outs m 12 main_v47 c = o12 m c := by
  show Function.update (U11 m c) main_v47 (o12 m c) main_v47 = o12 m c
  exact Function.update_self _ _ _
theorem outs_14 (c : Dev nD) : outs m 14 main_v68 c = o14 m c := by
  show Function.update (U13 m c) main_v68 (o14 m c) main_v68 = o14 m c
  exact Function.update_self _ _ _
theorem outs_16 (c : Dev nD) : outs m 16 main_v72 c = o16 m c := by
  show Function.update (U15 m c) main_v72 (o16 m c) main_v72 = o16 m c
  exact Function.update_self _ _ _
theorem outs_18 (c : Dev nD) : outs m 18 main_v75 c = o18 m c := by
  show Function.update (U17 m c) main_v75 (o18 m c) main_v75 = o18 m c
  exact Function.update_self _ _ _
theorem outs_20 (c : Dev nD) : outs m 20 main_v96 c = o20 m c := by
  show Function.update (U19 m c) main_v96 (o20 m c) main_v96 = o20 m c
  exact Function.update_self _ _ _
theorem outs_22 (c : Dev nD) : outs m 22 main_v99 c = o22 m c := by
  show Function.update (U21 m c) main_v99 (o22 m c) main_v99 = o22 m c
  exact Function.update_self _ _ _
theorem outs_27 (c : Dev nD) : outs m 27 main_v108 c = o27 m c := by
  show Function.update (U26 m c) main_v108 (o27 m c) main_v108 = o27 m c
  exact Function.update_self _ _ _

/-! ## The conditional frame's valuations at these unknowns are the chain's -/

theorem V_eq_1 (c : Dev nD) : V1 m c = U1 m c := rfl
theorem V_eq_2 (c : Dev nD) : V2 m (outs m) c = U2 m c := congrArg (Function.update (V1 m c) main_v12) (outs_2 m c)
theorem V_eq_3 (c : Dev nD) : V3 m (outs m) c = U3 m c := congrArg (StableHlo.after hostOps1) (V_eq_2 m c)
theorem V_eq_4 (c : Dev nD) : V4 m (outs m) c = U4 m c := by
  show Function.update (V3 m (outs m) c) main_v16 (outs m 4 main_v16 c) = Function.update (U3 m c) main_v16 (o4 m c)
  rw [V_eq_3, outs_4]
theorem V_eq_5 (c : Dev nD) : V5 m (outs m) c = U5 m c := congrArg (StableHlo.after hostOps2) (V_eq_4 m c)
theorem V_eq_6 (c : Dev nD) : V6 m (outs m) c = U6 m c := by
  show Function.update (V5 m (outs m) c) main_v19 (outs m 6 main_v19 c) = Function.update (U5 m c) main_v19 (o6 m c)
  rw [V_eq_5, outs_6]
theorem V_eq_7 (c : Dev nD) : V7 m (outs m) c = U7 m c := congrArg (StableHlo.after hostOps3) (V_eq_6 m c)
theorem V_eq_8 (c : Dev nD) : V8 m (outs m) c = U8 m c := by
  show Function.update (V7 m (outs m) c) main_v40 (outs m 8 main_v40 c) = Function.update (U7 m c) main_v40 (o8 m c)
  rw [V_eq_7, outs_8]
theorem V_eq_9 (c : Dev nD) : V9 m (outs m) c = U9 m c := congrArg (StableHlo.after hostOps4) (V_eq_8 m c)
theorem V_eq_10 (c : Dev nD) : V10 m (outs m) c = U10 m c := by
  show Function.update (V9 m (outs m) c) main_v44 (outs m 10 main_v44 c) = Function.update (U9 m c) main_v44 (o10 m c)
  rw [V_eq_9, outs_10]
theorem V_eq_11 (c : Dev nD) : V11 m (outs m) c = U11 m c := congrArg (StableHlo.after hostOps5) (V_eq_10 m c)
theorem V_eq_12 (c : Dev nD) : V12 m (outs m) c = U12 m c := by
  show Function.update (V11 m (outs m) c) main_v47 (outs m 12 main_v47 c) = Function.update (U11 m c) main_v47 (o12 m c)
  rw [V_eq_11, outs_12]
theorem V_eq_13 (c : Dev nD) : V13 m (outs m) c = U13 m c := congrArg (StableHlo.after hostOps6) (V_eq_12 m c)
theorem V_eq_14 (c : Dev nD) : V14 m (outs m) c = U14 m c := by
  show Function.update (V13 m (outs m) c) main_v68 (outs m 14 main_v68 c) = Function.update (U13 m c) main_v68 (o14 m c)
  rw [V_eq_13, outs_14]
theorem V_eq_15 (c : Dev nD) : V15 m (outs m) c = U15 m c := congrArg (StableHlo.after hostOps7) (V_eq_14 m c)
theorem V_eq_16 (c : Dev nD) : V16 m (outs m) c = U16 m c := by
  show Function.update (V15 m (outs m) c) main_v72 (outs m 16 main_v72 c) = Function.update (U15 m c) main_v72 (o16 m c)
  rw [V_eq_15, outs_16]
theorem V_eq_17 (c : Dev nD) : V17 m (outs m) c = U17 m c := congrArg (StableHlo.after hostOps8) (V_eq_16 m c)
theorem V_eq_18 (c : Dev nD) : V18 m (outs m) c = U18 m c := by
  show Function.update (V17 m (outs m) c) main_v75 (outs m 18 main_v75 c) = Function.update (U17 m c) main_v75 (o18 m c)
  rw [V_eq_17, outs_18]
theorem V_eq_19 (c : Dev nD) : V19 m (outs m) c = U19 m c := congrArg (StableHlo.after hostOps9) (V_eq_18 m c)
theorem V_eq_20 (c : Dev nD) : V20 m (outs m) c = U20 m c := by
  show Function.update (V19 m (outs m) c) main_v96 (outs m 20 main_v96 c) = Function.update (U19 m c) main_v96 (o20 m c)
  rw [V_eq_19, outs_20]
theorem V_eq_21 (c : Dev nD) : V21 m (outs m) c = U21 m c := congrArg (StableHlo.after hostOps10) (V_eq_20 m c)
theorem V_eq_22 (c : Dev nD) : V22 m (outs m) c = U22 m c := by
  show Function.update (V21 m (outs m) c) main_v99 (outs m 22 main_v99 c) = Function.update (U21 m c) main_v99 (o22 m c)
  rw [V_eq_21, outs_22]
theorem V_eq_23 (c : Dev nD) : V23 m (outs m) c = U23 m c := congrArg (StableHlo.after hostOps11) (V_eq_22 m c)
theorem V_eq_24 (c : Dev nD) : V24 m (outs m) c = U24 m c := congrArg (StableHlo.after hostOps11_1) (V_eq_23 m c)
theorem V_eq_25 (c : Dev nD) : V25 m (outs m) c = U25 m c := congrArg (StableHlo.after hostOps11_2) (V_eq_24 m c)
theorem V_eq_26 (c : Dev nD) : V26 m (outs m) c = U26 m c := congrArg (StableHlo.after hostOps11_3) (V_eq_25 m c)
theorem V_eq_27 (c : Dev nD) : V27 m (outs m) c = U27 m c := by
  show Function.update (V26 m (outs m) c) main_v108 (outs m 27 main_v108 c) = Function.update (U26 m c) main_v108 (o27 m c)
  rw [V_eq_26, outs_27]
theorem V_eq_28 (c : Dev nD) : V28 m (outs m) c = U28 m c := congrArg (StableHlo.after hostOps12) (V_eq_27 m c)

/-! ## The proof data family -/

/-- Every pipeline's proof data, each at the contents its region is entered from: a literal match on the pipeline, so
    that the family at a numeral reduces to that region's data. -/
def pdats : (p : Fin 12) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c
  | ⟨10, _⟩ => fun c => dat10 (atTc (U21 m)) c
  | ⟨11, _⟩ => fun c => dat11 (atTc (U26 m)) c

/-! ## A region's exit contents: its output array replaced, every other buffer as entered -/

theorem U2_out (c : Dev nD) : U2 m c main_v12 = o2 m c := by unfold U2; exact Function.update_self _ _ _
theorem U2_of_ne (c : Dev nD) (b : Ref sig .tc) (h : b ≠ main_v12) : U2 m c b = U1 m c b := by
  unfold U2; exact Function.update_of_ne (StableHlo.devRef_ne_of_ne h) _ _
theorem U4_out (c : Dev nD) : U4 m c main_v16 = o4 m c := by unfold U4; exact Function.update_self _ _ _
theorem U4_of_ne (c : Dev nD) (b : Ref sig .tc) (h : b ≠ main_v16) : U4 m c b = U3 m c b := by
  unfold U4; exact Function.update_of_ne (StableHlo.devRef_ne_of_ne h) _ _
theorem U6_out (c : Dev nD) : U6 m c main_v19 = o6 m c := by unfold U6; exact Function.update_self _ _ _
theorem U6_of_ne (c : Dev nD) (b : Ref sig .tc) (h : b ≠ main_v19) : U6 m c b = U5 m c b := by
  unfold U6; exact Function.update_of_ne (StableHlo.devRef_ne_of_ne h) _ _
theorem U8_out (c : Dev nD) : U8 m c main_v40 = o8 m c := by unfold U8; exact Function.update_self _ _ _
theorem U8_of_ne (c : Dev nD) (b : Ref sig .tc) (h : b ≠ main_v40) : U8 m c b = U7 m c b := by
  unfold U8; exact Function.update_of_ne (StableHlo.devRef_ne_of_ne h) _ _
theorem U10_out (c : Dev nD) : U10 m c main_v44 = o10 m c := by unfold U10; exact Function.update_self _ _ _
theorem U10_of_ne (c : Dev nD) (b : Ref sig .tc) (h : b ≠ main_v44) : U10 m c b = U9 m c b := by
  unfold U10; exact Function.update_of_ne (StableHlo.devRef_ne_of_ne h) _ _
theorem U12_out (c : Dev nD) : U12 m c main_v47 = o12 m c := by unfold U12; exact Function.update_self _ _ _
theorem U12_of_ne (c : Dev nD) (b : Ref sig .tc) (h : b ≠ main_v47) : U12 m c b = U11 m c b := by
  unfold U12; exact Function.update_of_ne (StableHlo.devRef_ne_of_ne h) _ _
theorem U14_out (c : Dev nD) : U14 m c main_v68 = o14 m c := by unfold U14; exact Function.update_self _ _ _
theorem U14_of_ne (c : Dev nD) (b : Ref sig .tc) (h : b ≠ main_v68) : U14 m c b = U13 m c b := by
  unfold U14; exact Function.update_of_ne (StableHlo.devRef_ne_of_ne h) _ _
theorem U16_out (c : Dev nD) : U16 m c main_v72 = o16 m c := by unfold U16; exact Function.update_self _ _ _
theorem U16_of_ne (c : Dev nD) (b : Ref sig .tc) (h : b ≠ main_v72) : U16 m c b = U15 m c b := by
  unfold U16; exact Function.update_of_ne (StableHlo.devRef_ne_of_ne h) _ _
theorem U18_out (c : Dev nD) : U18 m c main_v75 = o18 m c := by unfold U18; exact Function.update_self _ _ _
theorem U18_of_ne (c : Dev nD) (b : Ref sig .tc) (h : b ≠ main_v75) : U18 m c b = U17 m c b := by
  unfold U18; exact Function.update_of_ne (StableHlo.devRef_ne_of_ne h) _ _
theorem U20_out (c : Dev nD) : U20 m c main_v96 = o20 m c := by unfold U20; exact Function.update_self _ _ _
theorem U20_of_ne (c : Dev nD) (b : Ref sig .tc) (h : b ≠ main_v96) : U20 m c b = U19 m c b := by
  unfold U20; exact Function.update_of_ne (StableHlo.devRef_ne_of_ne h) _ _
theorem U22_out (c : Dev nD) : U22 m c main_v99 = o22 m c := by unfold U22; exact Function.update_self _ _ _
theorem U22_of_ne (c : Dev nD) (b : Ref sig .tc) (h : b ≠ main_v99) : U22 m c b = U21 m c b := by
  unfold U22; exact Function.update_of_ne (StableHlo.devRef_ne_of_ne h) _ _
theorem U27_out (c : Dev nD) : U27 m c main_v108 = o27 m c := by unfold U27; exact Function.update_self _ _ _
theorem U27_of_ne (c : Dev nD) (b : Ref sig .tc) (h : b ≠ main_v108) : U27 m c b = U26 m c b := by
  unfold U27; exact Function.update_of_ne (StableHlo.devRef_ne_of_ne h) _ _

/-! ## What rides beside the buffers -/

/-- Beside the unscoped buffers, through every item of @main: the core's generator register at some state (a region's
    invariant takes it in and gives it back) and the core owing nothing. -/
abbrev Rst (c : Dev nD) : sProp 𝕄 :=
  iprop((∃ r, prngReg c r) ∗ ∃ W, owes (c : Thread nD τ) (0 : CellTallies nD τ sig Unit) W)

end Cert.KernelIdeal.Hand

end
-- ==== Proof.KI.Cond.lean ====
import proofs.«402750_j37864431681686_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. Under the hypotheses of the conditional frame (one segment record per kernel region, entered
    from the thread state before it and left at the one after it), every weakly fair execution of @main from memory `m`
    with zero counters terminates, and every final memory holds EVERY unscoped buffer of every core at the last
    valuation `V28`: the whole end state, of which the frame claim reads only the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 12) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 13 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE12 : ∀ c : Dev nD, E 12 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V26 m outs c) ∗ E 11 c) ⊢ R11.pre c)
    (hpost11 : ∀ c : Dev nD, R11.post c ⊢ iprop(StableHlo.held (c : Thread nD τ) (Pipeline.ucRefs τ sig) (V27 m outs c) ∗ E 12 c)) :
    θ_run defs (onTc (τ := τ) (main (F := F))) ⟨m, fun _ => 0, ρ⟩ (fun r => ∀ c : Dev nD, ∀ b ∈ Pipeline.ucRefs τ sig,
      r.2.mem ((c : Thread nD τ).1, b) = V28 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11)
    (fun c Q => by
      rewrite [main_chain c, Seg.run_eq_chain,
        show (segs m outs 𝒱₀ L lv E ι pdats R0 R1 R2 R3 R4 R5 R6 R7 R8 R9 R10 R11 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          StableHlo.seq hostOps11_1,
          StableHlo.seq hostOps11_2,
          StableHlo.seq hostOps11_3,
          Prog.lift (.customCall (Pipeline.entry 11) ()),
          StableHlo.seq hostOps12 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V28 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, .rfl, .rfl, .rfl, hpre11 c, hpost11 c, sep_mono .rfl (hE12 c)⟩)
    (hinit := ?_)
    (QY := fun c s => ∀ b ∈ Pipeline.ucRefs τ sig, s.mem ((c : Thread nD τ).1, b) = V28 m outs c b)
    (hfin := fun c s' => ?_) (hQ := fun _ h => h)
  · -- the launch: each core's unscoped buffers are held at the launch contents; what else the launch deals makes the
    -- first rest on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer is read off the last valuation against the final state
    unfold StableHlo.held
    iintro ⟨Hh, HSI⟩
    ihave Hr := (pointsTo_read_all (Pipeline.ucRefs τ sig) (fun b => ((c : Thread nD τ).1, b)) (V28 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Reg0.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 0 of @main as a segment of the run

Entered from the contents `U1`, left at `U2`: the output array `main_v12` (window 3) at what the write-backs of all the
grid's points leave, every other buffer as entered. -/

/-- Every window but the last is an input. -/
theorem hin0 : ∀ w : Fin cfg0.W, w ≠ 3 → (cfg0.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF0 (c : Dev nD) (w : Fin cfg0.W) : (pdats m 0 c).arrAt w cfg0.N = atTc (U2 m) c (Pipeline.arrRef spec0 w) := by
  by_cases hw : w = 3
  · subst hw; exact (U2_out m c).symm
  · exact ((pdats m 0 c).arrAt_in w (hin0 w hw) _).trans ((A_eq0 (atTc (U1 m)) c w).trans
      (U2_of_ne m c _ fun e => hw (winFacts0.arr_inj (e.trans (show main_v12 = Pipeline.arrRef spec0 3 from rfl)))).symm)

/-- Off the region's arrays the exit contents are the entry's. -/
theorem hrest0 (c : Dev nD) : ∀ b, b ∉ Finset.univ.image (Pipeline.arrRef spec0) → atTc (U2 m) c b = atTc (U1 m) c b :=
  fun b hb => U2_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 0 over the thread state "every unscoped buffer at the boundary's contents, the generator register at some
    state, nothing owed". Entry: the region's arrays are split out of the unscoped buffers at `U1`, the rest bypasses
    the region; the register enters the invariant beside the scoped buffers no window stages (the kernel's scratch
    among them). Exit: the arrays come back at what the pipeline leaves and, with the bypassed rest, are the unscoped
    buffers at `U2`; the register comes back out of the invariant; nothing is owed at either end. The kernel has no
    semaphore of its own. -/
def reg0 : Pipeline.RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ (fun _ => ∅) (fun _ _ => 0) 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) (A_eq0 (atTc (U1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (atTc (U1 m)) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (atTc (U1 m)) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 1 of @main as a segment of the run

Entered from the contents `U3`, left at `U4`: the output array `main_v16` (window 3) at what the write-backs of all the
grid's points leave, every other buffer as entered. -/

/-- Every window but the last is an input. -/
theorem hin1 : ∀ w : Fin cfg1.W, w ≠ 3 → (cfg1.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF1 (c : Dev nD) (w : Fin cfg1.W) : (pdats m 1 c).arrAt w cfg1.N = atTc (U4 m) c (Pipeline.arrRef spec1 w) := by
  by_cases hw : w = 3
  · subst hw; exact (U4_out m c).symm
  · exact ((pdats m 1 c).arrAt_in w (hin1 w hw) _).trans ((A_eq1 (atTc (U3 m)) c w).trans
      (U4_of_ne m c _ fun e => hw (winFacts1.arr_inj (e.trans (show main_v16 = Pipeline.arrRef spec1 3 from rfl)))).symm)

/-- Off the region's arrays the exit contents are the entry's. -/
theorem hrest1 (c : Dev nD) : ∀ b, b ∉ Finset.univ.image (Pipeline.arrRef spec1) → atTc (U4 m) c b = atTc (U3 m) c b :=
  fun b hb => U4_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 1 over the thread state "every unscoped buffer at the boundary's contents, the generator register at some
    state, nothing owed". Entry: the region's arrays are split out of the unscoped buffers at `U3`, the rest bypasses
    the region; the register enters the invariant beside the scoped buffers no window stages (the kernel's scratch
    among them). Exit: the arrays come back at what the pipeline leaves and, with the bypassed rest, are the unscoped
    buffers at `U4`; the register comes back out of the invariant; nothing is owed at either end. The kernel has no
    semaphore of its own. -/
def reg1 : Pipeline.RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ (fun _ => ∅) (fun _ _ => 0) 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) (A_eq1 (atTc (U3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (atTc (U3 m)) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (atTc (U3 m)) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 2 of @main as a segment of the run

Entered from the contents `U5`, left at `U6`: the output array `main_v19` (window 3) at what the write-backs of all the
grid's points leave, every other buffer as entered. -/

/-- Every window but the last is an input. -/
theorem hin2 : ∀ w : Fin cfg2.W, w ≠ 3 → (cfg2.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF2 (c : Dev nD) (w : Fin cfg2.W) : (pdats m 2 c).arrAt w cfg2.N = atTc (U6 m) c (Pipeline.arrRef spec2 w) := by
  by_cases hw : w = 3
  · subst hw; exact (U6_out m c).symm
  · exact ((pdats m 2 c).arrAt_in w (hin2 w hw) _).trans ((A_eq2 (atTc (U5 m)) c w).trans
      (U6_of_ne m c _ fun e => hw (winFacts2.arr_inj (e.trans (show main_v19 = Pipeline.arrRef spec2 3 from rfl)))).symm)

/-- Off the region's arrays the exit contents are the entry's. -/
theorem hrest2 (c : Dev nD) : ∀ b, b ∉ Finset.univ.image (Pipeline.arrRef spec2) → atTc (U6 m) c b = atTc (U5 m) c b :=
  fun b hb => U6_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 2 over the thread state "every unscoped buffer at the boundary's contents, the generator register at some
    state, nothing owed". Entry: the region's arrays are split out of the unscoped buffers at `U5`, the rest bypasses
    the region; the register enters the invariant beside the scoped buffers no window stages (the kernel's scratch
    among them). Exit: the arrays come back at what the pipeline leaves and, with the bypassed rest, are the unscoped
    buffers at `U6`; the register comes back out of the invariant; nothing is owed at either end. The kernel has no
    semaphore of its own. -/
def reg2 : Pipeline.RegionSeg (pcfgs (F := F)) adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (atTc (U5 m)) c).loose
  hwaits := Pipeline.hwaits_of_owed_zero _ _ _ _ (fun _ => ∅) (fun _ _ => 0) 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U5 m) c) (A_eq2 (atTc (U5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2 (atTc (U5 m)) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Phi2 (atTc (U5 m)) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U5 m) c) (atTc (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 3 of @main as a segment of the run

Entered from the contents `U7`, left at `U8`: the output array `main_v40` (window 5) at what the write-backs of all the
grid's points leave, every other buffer as entered. -/

/-- Every window but the last is an input. -/
theorem hin3 : ∀ w : Fin cfg3.W, w ≠ 5 → (cfg3.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF3 (c : Dev nD) (w : Fin cfg3.W) : (pdats m 3 c).arrAt w cfg3.N = atTc (U8 m) c (Pipeline.arrRef spec3 w) := by
  by_cases hw : w = 5
  · subst hw; exact (U8_out m c).symm
  · exact ((pdats m 3 c).arrAt_in w (hin3 w hw) _).trans ((A_eq3 (atTc (U7 m)) c w).trans
      (U8_of_ne m c _ fun e => hw (winFacts3.arr_inj (e.trans (show main_v40 = Pipeline.arrRef spec3 5 from rfl)))).symm)

/-- Off the region's arrays the exit contents are the entry's. -/
theorem hrest3 (c : Dev nD) : ∀ b, b ∉ Finset.univ.image (Pipeline.arrRef spec3) → atTc (U8 m) c b = atTc (U7 m) c b :=
  fun b hb => U8_of_ne m c b fun e => hb (Finset.mem_image.mpr ⟨5, Finset.mem_univ _, e.symm⟩)

-- a library lemma stated over the pinned configuration unifies with the printed one only when unification may unfold
-- plain definitions in a metavariable's type
set_option backward.isDefEq.respectTransparency.types false in
/-- REGION 3 over the thread state "every unscoped buffer at the boundary's contents, the generator register at some
    state, nothing owed". Entry: the region's arrays are split out of the unscoped buffers at `U7`, the rest bypasses
    the region; the register enters the invariant beside the scoped buffers no window stages (the kernel's scratch
    among them). Exit: the arrays come back at what the pipeline leaves and, with the bypassed rest, are the unscoped
    buffers at `U8`; the register comes back out of the invariant; nothing is owed at either end. The kernel has no
    semaphore of its own. -/
def reg3 : Pipeline.RegionSeg (pcfgs (F := F)) adm (pdats m) () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := (body_obligation3 (atTc (U7 m)) c).loose
  hwaits := Pipeline.hwaits_of_owed_zero _ _ _ _ (fun _ => ∅) (fun _ _ => 0) 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U7 m) c) (A_eq3 (atTc (U7 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3 (atTc (U7 m)) c 0]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Phi3 (atTc (U7 m)) c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U7 m) c) (atTc (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 4 of @main as a segment of the run

Entered from the contents `U9`, left at `U10`: the output array `main_v44` (window 3) at what the write-backs of all the
grid's points leave, every other buffer as entered. -/

/-- Every window but the last is an input. -/
theorem hin4 : ∀ w : Fin cfg4.W, w ≠ 3 → (cfg4.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF4 (c : Dev nD) (w : Fin cfg4.W) : (pdats m 4 c).arrAt w cfg4.N = atTc (U10 m) c (Pipeline.arrRef spec4 w) := by
  by_cases hw : w = 3
  · subst hw; exact (U10_out m c).symm
  · exact ((pdats m 4 c).arrAt_in w (hin4 w hw) _).trans ((A_eq4 (atTc (U9 m)) c w).trans
      (U10_of_ne m c _ fun e => hw (winFacts4.arr_inj (e.trans (show main_v44 = Pipeline.arrRef spec4 3 from rfl)))).symm)

/-- Off the region's arrays the exit contents are the entry's. -/
theorem hrest4 (c : Dev nD) : ∀ b, b ∉ Finset.univ.image (Pipeline.arrRef spec4) → atTc (U10 m) c b = atTc (U9 m) c b :=
  fun b hb => U10_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 4 over the thread state "every unscoped buffer at the boundary's contents, the generator register at some
    state, nothing owed". Entry: the region's arrays are split out of the unscoped buffers at `U9`, the rest bypasses
    the region; the register enters the invariant beside the scoped buffers no window stages (the kernel's scratch
    among them). Exit: the arrays come back at what the pipeline leaves and, with the bypassed rest, are the unscoped
    buffers at `U10`; the register comes back out of the invariant; nothing is owed at either end. The kernel has no
    semaphore of its own. -/
def reg4 : Pipeline.RegionSeg (pcfgs (F := F)) adm (pdats m) () defs₀ Variants.none (fun _ => ∅) (fun _ _ => 0) 4 where
  win := launch4.win.to₀
  block_pos := launch4.block_pos
  stage_whole := launch4.stage_whole
  K := PEmpty
  osem k := k.elim
  ho := Pipeline.OwnSemFacts.none _
  hbody c := (body_obligation4 (atTc (U9 m)) c).loose
  hwaits := Pipeline.hwaits_of_owed_zero _ _ _ _ (fun _ => ∅) (fun _ _ => 0) 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U9 m) c) (A_eq4 (atTc (U9 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi4 (atTc (U9 m)) c 0]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from Phi4 (atTc (U9 m)) c _]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U9 m) c) (atTc (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 5 of @main as a segment of the run

Entered from the contents `U11`, left at `U12`: the output array `main_v47` (window 3) at what the write-backs of all the
grid's points leave, every other buffer as entered. -/

/-- Every window but the last is an input. -/
theorem hin5 : ∀ w : Fin cfg5.W, w ≠ 3 → (cfg5.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF5 (c : Dev nD) (w : Fin cfg5.W) : (pdats m 5 c).arrAt w cfg5.N = atTc (U12 m) c (Pipeline.arrRef spec5 w) := by
  by_cases hw : w = 3
  · subst hw; exact (U12_out m c).symm
  · exact ((pdats m 5 c).arrAt_in w (hin5 w hw) _).trans ((A_eq5 (atTc (U11 m)) c w).trans
      (U12_of_ne m c _ fun e => hw (winFacts5.arr_inj (e.trans (show main_v47 = Pipeline.arrRef spec5 3 from rfl)))).symm)

/-- Off the region's arrays the exit contents are the entry's. -/
theorem hrest5 (c : Dev nD) : ∀ b, b ∉ Finset.univ.image (Pipeline.arrRef spec5) → atTc (U12 m) c b = atTc (U11 m) c b :=
  fun b hb => U12_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 5 over the thread state "every unscoped buffer at the boundary's contents, the generator register at some
    state, nothing owed". Entry: the region's arrays are split out of the unscoped buffers at `U11`, the rest bypasses
    the region; the register enters the invariant beside the scoped buffers no window stages (the kernel's scratch
    among them). Exit: the arrays come back at what the pipeline leaves and, with the bypassed rest, are the unscoped
    buffers at `U12`; the register comes back out of the invariant; nothing is owed at either end. The kernel has no
    semaphore of its own. -/
def reg5 : Pipeline.RegionSeg (pcfgs (F := F)) adm (pdats m) () defs₀ Variants.none (fun _ => ∅) (fun _ _ => 0) 5 where
  win := launch5.win.to₀
  block_pos := launch5.block_pos
  stage_whole := launch5.stage_whole
  K := PEmpty
  osem k := k.elim
  ho := Pipeline.OwnSemFacts.none _
  hbody c := (body_obligation5 (atTc (U11 m)) c).loose
  hwaits := Pipeline.hwaits_of_owed_zero _ _ _ _ (fun _ => ∅) (fun _ _ => 0) 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (U11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (U11 m) c) (A_eq5 (atTc (U11 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi5 (atTc (U11 m)) c 0]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from Phi5 (atTc (U11 m)) c _]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (U11 m) c) (atTc (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 6 of @main as a segment of the run

Entered from the contents `U13`, left at `U14`: the output array `main_v68` (window 5) at what the write-backs of all the
grid's points leave, every other buffer as entered. -/

/-- Every window but the last is an input. -/
theorem hin6 : ∀ w : Fin cfg6.W, w ≠ 5 → (cfg6.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF6 (c : Dev nD) (w : Fin cfg6.W) : (pdats m 6 c).arrAt w cfg6.N = atTc (U14 m) c (Pipeline.arrRef spec6 w) := by
  by_cases hw : w = 5
  · subst hw; exact (U14_out m c).symm
  · exact ((pdats m 6 c).arrAt_in w (hin6 w hw) _).trans ((A_eq6 (atTc (U13 m)) c w).trans
      (U14_of_ne m c _ fun e => hw (winFacts6.arr_inj (e.trans (show main_v68 = Pipeline.arrRef spec6 5 from rfl)))).symm)

/-- Off the region's arrays the exit contents are the entry's. -/
theorem hrest6 (c : Dev nD) : ∀ b, b ∉ Finset.univ.image (Pipeline.arrRef spec6) → atTc (U14 m) c b = atTc (U13 m) c b :=
  fun b hb => U14_of_ne m c b fun e => hb (Finset.mem_image.mpr ⟨5, Finset.mem_univ _, e.symm⟩)

-- a library lemma stated over the pinned configuration unifies with the printed one only when unification may unfold
-- plain definitions in a metavariable's type
set_option backward.isDefEq.respectTransparency.types false in
/-- REGION 6 over the thread state "every unscoped buffer at the boundary's contents, the generator register at some
    state, nothing owed". Entry: the region's arrays are split out of the unscoped buffers at `U13`, the rest bypasses
    the region; the register enters the invariant beside the scoped buffers no window stages (the kernel's scratch
    among them). Exit: the arrays come back at what the pipeline leaves and, with the bypassed rest, are the unscoped
    buffers at `U14`; the register comes back out of the invariant; nothing is owed at either end. The kernel has no
    semaphore of its own. -/
def reg6 : Pipeline.RegionSeg (pcfgs (F := F)) adm (pdats m) () defs₀ Variants.none (fun _ => ∅) (fun _ _ => 0) 6 where
  win := launch6.win.to₀
  block_pos := launch6.block_pos
  stage_whole := launch6.stage_whole
  K := PEmpty
  osem k := k.elim
  ho := Pipeline.OwnSemFacts.none _
  hbody c := (body_obligation6 (atTc (U13 m)) c).loose
  hwaits := Pipeline.hwaits_of_owed_zero _ _ _ _ (fun _ => ∅) (fun _ _ => 0) 6 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (U13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (U13 m) c) (A_eq6 (atTc (U13 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi6 (atTc (U13 m)) c 0]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from Phi6 (atTc (U13 m)) c _]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (U13 m) c) (atTc (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 7 of @main as a segment of the run

Entered from the contents `U15`, left at `U16`: the output array `main_v72` (window 3) at what the write-backs of all the
grid's points leave, every other buffer as entered. -/

/-- Every window but the last is an input. -/
theorem hin7 : ∀ w : Fin cfg7.W, w ≠ 3 → (cfg7.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF7 (c : Dev nD) (w : Fin cfg7.W) : (pdats m 7 c).arrAt w cfg7.N = atTc (U16 m) c (Pipeline.arrRef spec7 w) := by
  by_cases hw : w = 3
  · subst hw; exact (U16_out m c).symm
  · exact ((pdats m 7 c).arrAt_in w (hin7 w hw) _).trans ((A_eq7 (atTc (U15 m)) c w).trans
      (U16_of_ne m c _ fun e => hw (winFacts7.arr_inj (e.trans (show main_v72 = Pipeline.arrRef spec7 3 from rfl)))).symm)

/-- Off the region's arrays the exit contents are the entry's. -/
theorem hrest7 (c : Dev nD) : ∀ b, b ∉ Finset.univ.image (Pipeline.arrRef spec7) → atTc (U16 m) c b = atTc (U15 m) c b :=
  fun b hb => U16_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 7 over the thread state "every unscoped buffer at the boundary's contents, the generator register at some
    state, nothing owed". Entry: the region's arrays are split out of the unscoped buffers at `U15`, the rest bypasses
    the region; the register enters the invariant beside the scoped buffers no window stages (the kernel's scratch
    among them). Exit: the arrays come back at what the pipeline leaves and, with the bypassed rest, are the unscoped
    buffers at `U16`; the register comes back out of the invariant; nothing is owed at either end. The kernel has no
    semaphore of its own. -/
def reg7 : Pipeline.RegionSeg (pcfgs (F := F)) adm (pdats m) () defs₀ Variants.none (fun _ => ∅) (fun _ _ => 0) 7 where
  win := launch7.win.to₀
  block_pos := launch7.block_pos
  stage_whole := launch7.stage_whole
  K := PEmpty
  osem k := k.elim
  ho := Pipeline.OwnSemFacts.none _
  hbody c := (body_obligation7 (atTc (U15 m)) c).loose
  hwaits := Pipeline.hwaits_of_owed_zero _ _ _ _ (fun _ => ∅) (fun _ _ => 0) 7 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := UR sig nD τ) (Lvl := ℕ) spec7 c (atTc (U15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (U15 m) c) (A_eq7 (atTc (U15 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi7 (atTc (U15 m)) c 0]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from Phi7 (atTc (U15 m)) c _]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (U15 m) c) (atTc (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 8 of @main as a segment of the run

Entered from the contents `U17`, left at `U18`: the output array `main_v75` (window 3) at what the write-backs of all the
grid's points leave, every other buffer as entered. -/

/-- Every window but the last is an input. -/
theorem hin8 : ∀ w : Fin cfg8.W, w ≠ 3 → (cfg8.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF8 (c : Dev nD) (w : Fin cfg8.W) : (pdats m 8 c).arrAt w cfg8.N = atTc (U18 m) c (Pipeline.arrRef spec8 w) := by
  by_cases hw : w = 3
  · subst hw; exact (U18_out m c).symm
  · exact ((pdats m 8 c).arrAt_in w (hin8 w hw) _).trans ((A_eq8 (atTc (U17 m)) c w).trans
      (U18_of_ne m c _ fun e => hw (winFacts8.arr_inj (e.trans (show main_v75 = Pipeline.arrRef spec8 3 from rfl)))).symm)

/-- Off the region's arrays the exit contents are the entry's. -/
theorem hrest8 (c : Dev nD) : ∀ b, b ∉ Finset.univ.image (Pipeline.arrRef spec8) → atTc (U18 m) c b = atTc (U17 m) c b :=
  fun b hb => U18_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 8 over the thread state "every unscoped buffer at the boundary's contents, the generator register at some
    state, nothing owed". Entry: the region's arrays are split out of the unscoped buffers at `U17`, the rest bypasses
    the region; the register enters the invariant beside the scoped buffers no window stages (the kernel's scratch
    among them). Exit: the arrays come back at what the pipeline leaves and, with the bypassed rest, are the unscoped
    buffers at `U18`; the register comes back out of the invariant; nothing is owed at either end. The kernel has no
    semaphore of its own. -/
def reg8 : Pipeline.RegionSeg (pcfgs (F := F)) adm (pdats m) () defs₀ Variants.none (fun _ => ∅) (fun _ _ => 0) 8 where
  win := launch8.win.to₀
  block_pos := launch8.block_pos
  stage_whole := launch8.stage_whole
  K := PEmpty
  osem k := k.elim
  ho := Pipeline.OwnSemFacts.none _
  hbody c := (body_obligation8 (atTc (U17 m)) c).loose
  hwaits := Pipeline.hwaits_of_owed_zero _ _ _ _ (fun _ => ∅) (fun _ _ => 0) 8 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := UR sig nD τ) (Lvl := ℕ) spec8 c (atTc (U17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (U17 m) c) (A_eq8 (atTc (U17 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi8 (atTc (U17 m)) c 0]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from Phi8 (atTc (U17 m)) c _]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (U17 m) c) (atTc (U18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 9 of @main as a segment of the run

Entered from the contents `U19`, left at `U20`: the output array `main_v96` (window 5) at what the write-backs of all the
grid's points leave, every other buffer as entered. -/

/-- Every window but the last is an input. -/
theorem hin9 : ∀ w : Fin cfg9.W, w ≠ 5 → (cfg9.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF9 (c : Dev nD) (w : Fin cfg9.W) : (pdats m 9 c).arrAt w cfg9.N = atTc (U20 m) c (Pipeline.arrRef spec9 w) := by
  by_cases hw : w = 5
  · subst hw; exact (U20_out m c).symm
  · exact ((pdats m 9 c).arrAt_in w (hin9 w hw) _).trans ((A_eq9 (atTc (U19 m)) c w).trans
      (U20_of_ne m c _ fun e => hw (winFacts9.arr_inj (e.trans (show main_v96 = Pipeline.arrRef spec9 5 from rfl)))).symm)

/-- Off the region's arrays the exit contents are the entry's. -/
theorem hrest9 (c : Dev nD) : ∀ b, b ∉ Finset.univ.image (Pipeline.arrRef spec9) → atTc (U20 m) c b = atTc (U19 m) c b :=
  fun b hb => U20_of_ne m c b fun e => hb (Finset.mem_image.mpr ⟨5, Finset.mem_univ _, e.symm⟩)

-- a library lemma stated over the pinned configuration unifies with the printed one only when unification may unfold
-- plain definitions in a metavariable's type
set_option backward.isDefEq.respectTransparency.types false in
/-- REGION 9 over the thread state "every unscoped buffer at the boundary's contents, the generator register at some
    state, nothing owed". Entry: the region's arrays are split out of the unscoped buffers at `U19`, the rest bypasses
    the region; the register enters the invariant beside the scoped buffers no window stages (the kernel's scratch
    among them). Exit: the arrays come back at what the pipeline leaves and, with the bypassed rest, are the unscoped
    buffers at `U20`; the register comes back out of the invariant; nothing is owed at either end. The kernel has no
    semaphore of its own. -/
def reg9 : Pipeline.RegionSeg (pcfgs (F := F)) adm (pdats m) () defs₀ Variants.none (fun _ => ∅) (fun _ _ => 0) 9 where
  win := launch9.win.to₀
  block_pos := launch9.block_pos
  stage_whole := launch9.stage_whole
  K := PEmpty
  osem k := k.elim
  ho := Pipeline.OwnSemFacts.none _
  hbody c := (body_obligation9 (atTc (U19 m)) c).loose
  hwaits := Pipeline.hwaits_of_owed_zero _ _ _ _ (fun _ => ∅) (fun _ _ => 0) 9 fun _ _ => rfl
  pre c := iprop(StableHlo.held (c : Thread nD τ) (Pipeline.ucRefs τ sig) (U19 m c) ∗ Rst c)
  post c := iprop(StableHlo.held (c : Thread nD τ) (Pipeline.ucRefs τ sig) (U20 m c) ∗ Rst c)
  X c := iprop(∃ r, prngReg c r)
  Y c := iprop(∃ r, prngReg c r)
  Z c := Pipeline.unscopedRest (Ix := Unit) (Name := ℕ) (U := UR sig nD τ) (Lvl := ℕ) spec9 c (atTc (U19 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (U19 m) c) (A_eq9 (atTc (U19 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi9 (atTc (U19 m)) c 0]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from Phi9 (atTc (U19 m)) c _]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (U19 m) c) (atTc (U20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg10.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 10 of @main as a segment of the run

Entered from the contents `U21`, left at `U22`: the output array `main_v99` (window 3) at what the write-backs of all the
grid's points leave, every other buffer as entered. -/

/-- Every window but the last is an input. -/
theorem hin10 : ∀ w : Fin cfg10.W, w ≠ 3 → (cfg10.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF10 (c : Dev nD) (w : Fin cfg10.W) : (pdats m 10 c).arrAt w cfg10.N = atTc (U22 m) c (Pipeline.arrRef spec10 w) := by
  by_cases hw : w = 3
  · subst hw; exact (U22_out m c).symm
  · exact ((pdats m 10 c).arrAt_in w (hin10 w hw) _).trans ((A_eq10 (atTc (U21 m)) c w).trans
      (U22_of_ne m c _ fun e => hw (winFacts10.arr_inj (e.trans (show main_v99 = Pipeline.arrRef spec10 3 from rfl)))).symm)

/-- Off the region's arrays the exit contents are the entry's. -/
theorem hrest10 (c : Dev nD) : ∀ b, b ∉ Finset.univ.image (Pipeline.arrRef spec10) → atTc (U22 m) c b = atTc (U21 m) c b :=
  fun b hb => U22_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 10 over the thread state "every unscoped buffer at the boundary's contents, the generator register at some
    state, nothing owed". Entry: the region's arrays are split out of the unscoped buffers at `U21`, the rest bypasses
    the region; the register enters the invariant beside the scoped buffers no window stages (the kernel's scratch
    among them). Exit: the arrays come back at what the pipeline leaves and, with the bypassed rest, are the unscoped
    buffers at `U22`; the register comes back out of the invariant; nothing is owed at either end. The kernel has no
    semaphore of its own. -/
def reg10 : Pipeline.RegionSeg (pcfgs (F := F)) adm (pdats m) () defs₀ Variants.none (fun _ => ∅) (fun _ _ => 0) 10 where
  win := launch10.win.to₀
  block_pos := launch10.block_pos
  stage_whole := launch10.stage_whole
  K := PEmpty
  osem k := k.elim
  ho := Pipeline.OwnSemFacts.none _
  hbody c := (body_obligation10 (atTc (U21 m)) c).loose
  hwaits := Pipeline.hwaits_of_owed_zero _ _ _ _ (fun _ => ∅) (fun _ _ => 0) 10 fun _ _ => rfl
  pre c := iprop(StableHlo.held (c : Thread nD τ) (Pipeline.ucRefs τ sig) (U21 m c) ∗ Rst c)
  post c := iprop(StableHlo.held (c : Thread nD τ) (Pipeline.ucRefs τ sig) (U22 m c) ∗ Rst c)
  X c := iprop(∃ r, prngReg c r)
  Y c := iprop(∃ r, prngReg c r)
  Z c := Pipeline.unscopedRest (Ix := Unit) (Name := ℕ) (U := UR sig nD τ) (Lvl := ℕ) spec10 c (atTc (U21 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atTc (U21 m) c) (A_eq10 (atTc (U21 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi10 (atTc (U21 m)) c 0]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from Phi10 (atTc (U21 m)) c _]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atTc (U21 m) c) (atTc (U22 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg11.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 11 of @main as a segment of the run

Entered from the contents `U26`, left at `U27`: the output array `main_v108` (window 3) at what the write-backs of all the
grid's points leave, every other buffer as entered. -/

/-- Every window but the last is an input. -/
theorem hin11 : ∀ w : Fin cfg11.W, w ≠ 3 → (cfg11.win w).isOut = false := by decide

/-- At the region's exit each windowed array holds what the pipeline leaves: an input array its entry contents (no
    write-back touches it, and the exit contents differ from the entry's at the output array only, which is no input's
    array, the windows' arrays being distinct), the output array the folded write-backs, by definition of the exit
    contents. Stated at a general window, so that no buffer type is computed. -/
theorem hF11 (c : Dev nD) (w : Fin cfg11.W) : (pdats m 11 c).arrAt w cfg11.N = atTc (U27 m) c (Pipeline.arrRef spec11 w) := by
  by_cases hw : w = 3
  · subst hw; exact (U27_out m c).symm
  · exact ((pdats m 11 c).arrAt_in w (hin11 w hw) _).trans ((A_eq11 (atTc (U26 m)) c w).trans
      (U27_of_ne m c _ fun e => hw (winFacts11.arr_inj (e.trans (show main_v108 = Pipeline.arrRef spec11 3 from rfl)))).symm)

/-- Off the region's arrays the exit contents are the entry's. -/
theorem hrest11 (c : Dev nD) : ∀ b, b ∉ Finset.univ.image (Pipeline.arrRef spec11) → atTc (U27 m) c b = atTc (U26 m) c b :=
  fun b hb => U27_of_ne m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 11 over the thread state "every unscoped buffer at the boundary's contents, the generator register at some
    state, nothing owed". Entry: the region's arrays are split out of the unscoped buffers at `U26`, the rest bypasses
    the region; the register enters the invariant beside the scoped buffers no window stages (the kernel's scratch
    among them). Exit: the arrays come back at what the pipeline leaves and, with the bypassed rest, are the unscoped
    buffers at `U27`; the register comes back out of the invariant; nothing is owed at either end. The kernel has no
    semaphore of its own. -/
def reg11 : Pipeline.RegionSeg (pcfgs (F := F)) adm (pdats m) () defs₀ Variants.none (fun _ => ∅) (fun _ _ => 0) 11 where
  win := launch11.win.to₀
  block_pos := launch11.block_pos
  stage_whole := launch11.stage_whole
  K := PEmpty
  osem k := k.elim
  ho := Pipeline.OwnSemFacts.none _
  hbody c := (body_obligation11 (atTc (U26 m)) c).loose
  hwaits := Pipeline.hwaits_of_owed_zero _ _ _ _ (fun _ => ∅) (fun _ _ => 0) 11 fun _ _ => rfl
  pre c := iprop(StableHlo.held (c : Thread nD τ) (Pipeline.ucRefs τ sig) (U26 m c) ∗ Rst c)
  post c := iprop(StableHlo.held (c : Thread nD τ) (Pipeline.ucRefs τ sig) (U27 m c) ∗ Rst c)
  X c := iprop(∃ r, prngReg c r)
  Y c := iprop(∃ r, prngReg c r)
  Z c := Pipeline.unscopedRest (Ix := Unit) (Name := ℕ) (U := UR sig nD τ) (Lvl := ℕ) spec11 c (atTc (U26 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (atTc (U26 m) c) (A_eq11 (atTc (U26 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from Phi11_zero (atTc (U26 m)) c]; unfold Pipeline.ΦA
    iintro ⟨Hp, -, Hr⟩
    isplitl [Hr]; · iexact Hr
    iexact Hp
  hout c := by
    rw [Pipeline.ownSems0_none]; refine (Phi11_last (atTc (U26 m)) c).trans ?_; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (atTc (U26 m) c) (atTc (U27 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«402750_j37864431681686_1_alg».proof.Proof.Gen.KernelIdeal.Launch
import proofs.«402750_j37864431681686_1_alg».proof.Proof.Gen.KernelIdeal.Skeleton
import proofs.«402750_j37864431681686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Frame
import Idealize.ShloMosaic.Lib.Pipeline.Regions
import proofs.«402750_j37864431681686_1_alg».proof.Proof.Gen.KernelIdeal.Regions
import proofs.«402750_j37864431681686_1_alg».proof.Proof.KI.Outs
import proofs.«402750_j37864431681686_1_alg».proof.Proof.KI.Cond
import proofs.«402750_j37864431681686_1_alg».proof.Proof.KI.Reg0
import proofs.«402750_j37864431681686_1_alg».proof.Proof.KI.Reg1
import proofs.«402750_j37864431681686_1_alg».proof.Proof.KI.Reg2
import proofs.«402750_j37864431681686_1_alg».proof.Proof.KI.Reg3
import proofs.«402750_j37864431681686_1_alg».proof.Proof.KI.Reg4
import proofs.«402750_j37864431681686_1_alg».proof.Proof.KI.Reg5
import proofs.«402750_j37864431681686_1_alg».proof.Proof.KI.Reg6
import proofs.«402750_j37864431681686_1_alg».proof.Proof.KI.Reg7
import proofs.«402750_j37864431681686_1_alg».proof.Proof.KI.Reg8
import proofs.«402750_j37864431681686_1_alg».proof.Proof.KI.Reg9
import proofs.«402750_j37864431681686_1_alg».proof.Proof.KI.Reg10
import proofs.«402750_j37864431681686_1_alg».proof.Proof.KI.Reg11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: the conditional run at the twelve regions' records -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the conditional run's implicit arguments are found by unifying hypotheses stated over the pinned configurations with
-- the records', which takes unfolding plain definitions in a metavariable's type
set_option backward.isDefEq.respectTransparency.types false in
/-- THE RUN. From any memory `m` with zero counters, every weakly fair execution of @main on the TensorCores terminates,
    and every final memory holds every unscoped buffer of every core at the last contents `U28`: the conditional run at
    the unknowns read off the chain (`outs`), the proof data family `pdats` and the twelve records; no level is assigned,
    nothing is owed at launch, no ghost resource is dealt, and beside the buffers ride the generator register and the
    core owing nothing (`Rst`), which the launch makes on each core by itself. -/
theorem run : θ_run defs (onTc (τ := τ) (main (F := F))) ⟨m, fun _ => 0, ρ⟩
    (fun r => ∀ c : Dev nD, ∀ b ∈ Pipeline.ucRefs τ sig, r.2.mem ((c : Thread nD τ).1, b) = U28 m c b) := by
  have h := run_cond m (Ix := Unit) (U := UR sig nD τ) (Lvl := ℕ) emb₁ () Variants.none (fun _ => ∅) (fun _ _ => 0)
    (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rst)
    (by
      refine Pipeline.initEach (fun _ => ∅) (fun _ _ => 0) fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V_eq_2]; exact .rfl)
    (reg1 m) (fun c => by rw [V_eq_3]; exact .rfl) (fun c => by rw [V_eq_4]; exact .rfl)
    (reg2 m) (fun c => by rw [V_eq_5]; exact .rfl) (fun c => by rw [V_eq_6]; exact .rfl)
    (reg3 m) (fun c => by rw [V_eq_7]; exact .rfl) (fun c => by rw [V_eq_8]; exact .rfl)
    (reg4 m) (fun c => by rw [V_eq_9]; exact .rfl) (fun c => by rw [V_eq_10]; exact .rfl)
    (reg5 m) (fun c => by rw [V_eq_11]; exact .rfl) (fun c => by rw [V_eq_12]; exact .rfl)
    (reg6 m) (fun c => by rw [V_eq_13]; exact .rfl) (fun c => by rw [V_eq_14]; exact .rfl)
    (reg7 m) (fun c => by rw [V_eq_15]; exact .rfl) (fun c => by rw [V_eq_16]; exact .rfl)
    (reg8 m) (fun c => by rw [V_eq_17]; exact .rfl) (fun c => by rw [V_eq_18]; exact .rfl)
    (reg9 m) (fun c => by rw [V_eq_19]; exact .rfl) (fun c => by rw [V_eq_20]; exact .rfl)
    (reg10 m) (fun c => by rw [V_eq_21]; exact .rfl) (fun c => by rw [V_eq_22]; exact .rfl)
    (reg11 m) (fun c => by rw [V_eq_26]; exact .rfl) (fun c => by rw [V_eq_27]; exact .rfl)
  exact (θ_run defs _ _).mono (fun r hr c b hb => (hr c b hb).trans (congrFun (V_eq_28 m c) b)) h

/-! ## What the frame claim and the value claim read off the last contents -/

/-- A memory holding the last contents holds an unscoped buffer at the conditional frame's last valuation (at the
    unknowns read off the chain). -/
theorem read_end {s : MemSt nD τ sig (Elt F)}
    (hs : ∀ c : Dev nD, ∀ b ∈ Pipeline.ucRefs τ sig, s.mem ((c : Thread nD τ).1, b) = U28 m c b)
    (c : Dev nD) (b : Ref sig .tc) (hb : ¬ (Proc.devRef .tc b : DevRef τ sig).isScoped) :
    s.mem ((c.tc : Thread nD τ).loc b) = V28 m (outs m) c b :=
  (hs c _ (mem_uc b hb)).trans (congrFun (V_eq_28 m c).symm _)

/-- THE FRAME: from any memory with zero counters every weakly fair execution of @main terminates and every final
    memory holds each argument array as launched: no host stretch writes an argument and no region may change one, so
    the last contents at an argument walk back to the launch memory. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (Q := fun r => ∀ c : Dev nD, ∀ b ∈ Pipeline.ucRefs τ sig, r.2.mem ((c : Thread nD τ).1, b) = U28 m c b)
    (fun r hr c =>
      ⟨(read_end m hr c main_arg0 (by decide)).trans (V28_main_arg0 m (outs m) c),
       (read_end m hr c main_arg1 (by decide)).trans (V28_main_arg1 m (outs m) c),
       (read_end m hr c main_arg2 (by decide)).trans (V28_main_arg2 m (outs m) c),
       (read_end m hr c main_arg3 (by decide)).trans (V28_main_arg3 m (outs m) c),
       (read_end m hr c main_arg4 (by decide)).trans (V28_main_arg4 m (outs m) c),
       (read_end m hr c main_arg5 (by decide)).trans (V28_main_arg5 m (outs m) c),
       (read_end m hr c main_arg6 (by decide)).trans (V28_main_arg6 m (outs m) c),
       (read_end m hr c main_arg7 (by decide)).trans (V28_main_arg7 m (outs m) c),
       (read_end m hr c main_arg8 (by decide)).trans (V28_main_arg8 m (outs m) c),
       (read_end m hr c main_arg9 (by decide)).trans (V28_main_arg9 m (outs m) c),
       (read_end m hr c main_arg10 (by decide)).trans (V28_main_arg10 m (outs m) c),
       (read_end m hr c main_arg11 (by decide)).trans (V28_main_arg11 m (outs m) c),
       (read_end m hr c main_arg12 (by decide)).trans (V28_main_arg12 m (outs m) c)⟩)
    (run m ρ)

/-- THE RUN AT THE RESULT: as the frame, and every final memory holds the result array `main_v117` at the last
    contents. -/
theorem run_value :
    θ_run defs (onTc (τ := τ) (main (F := F))) ⟨m, fun _ => 0, ρ⟩ (fun r => ∀ c : Dev nD,
      r.2.mem ((c.tc : Thread nD τ).loc main_v117) = U28 m c main_v117
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (Q := fun r => ∀ c : Dev nD, ∀ b ∈ Pipeline.ucRefs τ sig, r.2.mem ((c : Thread nD τ).1, b) = U28 m c b)
    (fun r hr c =>
      ⟨hr c _ (mem_uc main_v117 (by decide)),
       (read_end m hr c main_arg0 (by decide)).trans (V28_main_arg0 m (outs m) c),
       (read_end m hr c main_arg1 (by decide)).trans (V28_main_arg1 m (outs m) c),
       (read_end m hr c main_arg2 (by decide)).trans (V28_main_arg2 m (outs m) c),
       (read_end m hr c main_arg3 (by decide)).trans (V28_main_arg3 m (outs m) c),
       (read_end m hr c main_arg4 (by decide)).trans (V28_main_arg4 m (outs m) c),
       (read_end m hr c main_arg5 (by decide)).trans (V28_main_arg5 m (outs m) c),
       (read_end m hr c main_arg6 (by decide)).trans (V28_main_arg6 m (outs m) c),
       (read_end m hr c main_arg7 (by decide)).trans (V28_main_arg7 m (outs m) c),
       (read_end m hr c main_arg8 (by decide)).trans (V28_main_arg8 m (outs m) c),
       (read_end m hr c main_arg9 (by decide)).trans (V28_main_arg9 m (outs m) c),
       (read_end m hr c main_arg10 (by decide)).trans (V28_main_arg10 m (outs m) c),
       (read_end m hr c main_arg11 (by decide)).trans (V28_main_arg11 m (outs m) c),
       (read_end m hr c main_arg12 (by decide)).trans (V28_main_arg12 m (outs m) c)⟩)
    (run m ρ)

end Cert.KernelIdeal.Hand

end
-- ==== Proof.RefRunLib.lean ====
import proofs.«402750_j37864431681686_1_alg».proof.Proof.RefOps
import proofs.«402750_j37864431681686_1_alg».proof.Proof.RefRead
import Idealize.ShloMosaic.Lib.StableHlo.Run

/-!
# The reference's run, stretch by stretch: the vocabulary

The reference's @main is one straight line of host operations in single-assignment form: every operation writes one
buffer of its own, none writes an argument, and each reads arguments and buffers written before it. The value such a
buffer ends at is therefore the operation's function of the values its operands ended at, and the stage `val_<buffer>`
says exactly that, as a function of the argument arrays. The line is cut into stretches; between two stretches only a
handful of buffers are still to be read. For each cut we state what those buffers hold (their stages at the argument
arrays) and that the arguments are unchanged, and each stretch carries the statement at its start to the statement
at its end:

* a buffer the stretch does not write keeps its contents (`StableHlo.after_of_writes_sub`, over the list of references
  the stretch writes);
* a buffer the stretch writes holds the fold of the stretch's operations from the contents at its start, which reads
  only buffers of the statement at the start; rewriting those to their stages leaves the definition of the buffer's own
  stage, unfolded as far as the stretch goes.

This module has the argument arrays as one record, the statement that a valuation holds them, its survival over a line
that writes no argument, and the three small tactics the stretches' statements are closed with.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The thirteen argument arrays of the reference, in @main's order. -/
structure Args (F : FTy → Type) [FloatOps F] where
  x0 : (⟨S100000x128, .f32⟩ : BufTy).Contents (Elt F)
  x1 : (⟨S800000x128, .f32⟩ : BufTy).Contents (Elt F)
  x2 : (⟨S128x128, .f32⟩ : BufTy).Contents (Elt F)
  x3 : (⟨S128, .f32⟩ : BufTy).Contents (Elt F)
  x4 : (⟨S3x128x128, .f32⟩ : BufTy).Contents (Elt F)
  x5 : (⟨S3x128x128, .f32⟩ : BufTy).Contents (Elt F)
  x6 : (⟨S3x128, .f32⟩ : BufTy).Contents (Elt F)
  x7 : (⟨S3x128, .f32⟩ : BufTy).Contents (Elt F)
  x8 : (⟨S3x128, .f32⟩ : BufTy).Contents (Elt F)
  x9 : (⟨S128x128, .f32⟩ : BufTy).Contents (Elt F)
  x10 : (⟨S128, .f32⟩ : BufTy).Contents (Elt F)
  x11 : (⟨S2x800000, .i32⟩ : BufTy).Contents (Elt F)
  x12 : (⟨S100000, .i32⟩ : BufTy).Contents (Elt F)

/-- The valuation holds the argument arrays at the arguments' buffers. -/
structure ArgsAt (a : Args F) (W : Valuation τ sig (Elt F)) : Prop where
  h0 : W (Proc.devRef .tc main_arg0) = a.x0
  h1 : W (Proc.devRef .tc main_arg1) = a.x1
  h2 : W (Proc.devRef .tc main_arg2) = a.x2
  h3 : W (Proc.devRef .tc main_arg3) = a.x3
  h4 : W (Proc.devRef .tc main_arg4) = a.x4
  h5 : W (Proc.devRef .tc main_arg5) = a.x5
  h6 : W (Proc.devRef .tc main_arg6) = a.x6
  h7 : W (Proc.devRef .tc main_arg7) = a.x7
  h8 : W (Proc.devRef .tc main_arg8) = a.x8
  h9 : W (Proc.devRef .tc main_arg9) = a.x9
  h10 : W (Proc.devRef .tc main_arg10) = a.x10
  h11 : W (Proc.devRef .tc main_arg11) = a.x11
  h12 : W (Proc.devRef .tc main_arg12) = a.x12

/-- The arguments' references. -/
def argRefs : List (Ref sig .tc) := [main_arg0, main_arg1, main_arg2, main_arg3, main_arg4, main_arg5, main_arg6, main_arg7, main_arg8, main_arg9, main_arg10, main_arg11, main_arg12]

/-- A line all of whose written references are in `wl`, none of them an argument, keeps the arguments. -/
theorem ArgsAt.after {a : Args F} {W : Valuation τ sig (Elt F)} (h : ArgsAt a W) (l : List (HloOp τ sig (Elt F))) (wl : List (Ref sig .tc))
    (hW : l.Forall fun op => op.writes ⊆ (wl.map (Proc.devRef (τ := τ) .tc)).toFinset) (hd : ∀ r ∈ argRefs, r ∉ wl) :
    ArgsAt a (after l W) where
  h0 := (after_of_writes_sub l W hW (hd _ (by decide))).trans h.h0
  h1 := (after_of_writes_sub l W hW (hd _ (by decide))).trans h.h1
  h2 := (after_of_writes_sub l W hW (hd _ (by decide))).trans h.h2
  h3 := (after_of_writes_sub l W hW (hd _ (by decide))).trans h.h3
  h4 := (after_of_writes_sub l W hW (hd _ (by decide))).trans h.h4
  h5 := (after_of_writes_sub l W hW (hd _ (by decide))).trans h.h5
  h6 := (after_of_writes_sub l W hW (hd _ (by decide))).trans h.h6
  h7 := (after_of_writes_sub l W hW (hd _ (by decide))).trans h.h7
  h8 := (after_of_writes_sub l W hW (hd _ (by decide))).trans h.h8
  h9 := (after_of_writes_sub l W hW (hd _ (by decide))).trans h.h9
  h10 := (after_of_writes_sub l W hW (hd _ (by decide))).trans h.h10
  h11 := (after_of_writes_sub l W hW (hd _ (by decide))).trans h.h11
  h12 := (after_of_writes_sub l W hW (hd _ (by decide))).trans h.h12

/-- Two lines of operations that determine all they write make one such line. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h =>
  (List.mem_append.mp h).elim (h₁ op) (h₂ op)

/-- Each operation of a literal line writes one reference, and it is in the list: the operations' `writes` are
    singletons by definition, membership in the list of references is decided. -/
macro "line_writes" : tactic =>
  `(tactic| ((simp only [List.Forall]; repeat' apply And.intro) <;>
      (simp only [nullary_writes, unary_writes, binary_writes, ternary_writes, reshape_writes, Finset.singleton_subset_iff, List.mem_toFinset]
       exact List.mem_map_of_mem (by decide))))

/-- Each operation of a literal line determines what it writes: one case per operation, each by definition. -/
macro "line_fresh" : tactic =>
  `(tactic| (intro _ h; (repeat (cases h with | head => rfl | tail _ h => ?_)); exact nomatch h))

/-- The fold of a literal line at one buffer: the result of the operation that writes it, as its function of its
    operands' contents, those read in turn through the operations before it, down to the contents the line starts from. -/
macro "stage " c:ident : tactic => `(tactic| (unfold $c; after_results_simp))

end Cert.ReferenceIdeal.Hand

end
-- ==== Proof.RefRun.lean ====
import proofs.«402750_j37864431681686_1_alg».proof.Proof.RefRunSteps

/-!
# The reference's run

The reference's @main is one line of 213 host operations (`Value.ops`), cut into sixteen stretches
(proof/Proof/RefRunSteps.lean). The line is the stretches in a row, so what the buffers hold after it is what they
hold after the stretches one after the other (`after_append`), and the statement at each cut follows from the one
before (`step1` … `step16`), starting from contents that hold the argument arrays: at the end the result buffer
holds its stage `val_main_v178` at the argument arrays and the arguments are unchanged. `StableHlo.run_seq` says every
weakly fair execution of @main terminates with each buffer at the fold of the line over its launch contents; read at
the result and at the arguments this is `ref_run`.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

/-- The reference's line is its sixteen stretches in a row: the same operations in the same order. -/
theorem ops_eq : (ops : List (HloOp τ sig (Elt F))) = c1 ++ (c2 ++ (c3 ++ (c4 ++ (c5 ++ (c6 ++ (c7 ++ (c8 ++ (c9 ++ (c10 ++ (c11 ++ (c12 ++ (c13 ++ (c14 ++ (c15 ++ (c16))))))))))))))) := by
  unfold c1 c2 c3 c4 c5 c6 c7 c8 c9 c10 c11 c12 c13 c14 c15 c16
  rfl

/-- Every operation of the reference determines what it writes, stretch by stretch. -/
theorem ops_fresh : ∀ op ∈ (ops : List (HloOp τ sig (Elt F))), op.fresh = ∅ := by
  rw [ops_eq]
  exact fresh_append c1_fresh (fresh_append c2_fresh (fresh_append c3_fresh (fresh_append c4_fresh (fresh_append c5_fresh (fresh_append c6_fresh (fresh_append c7_fresh (fresh_append c8_fresh (fresh_append c9_fresh (fresh_append c10_fresh (fresh_append c11_fresh (fresh_append c12_fresh (fresh_append c13_fresh (fresh_append c14_fresh (fresh_append c15_fresh (c16_fresh)))))))))))))))

/-- From contents that hold the argument arrays, the whole line ends with the result buffer at its stage at those
    arrays and the arguments unchanged: the sixteen steps in a row. -/
theorem inv_ops {a : Args F} {W : Valuation τ sig (Elt F)} (h : ArgsAt a W) : Inv16 a (after ops W) := by
  rw [ops_eq]
  simp only [after_append]
  exact step16 (step15 (step14 (step13 (step12 (step11 (step10 (step9 (step8 (step7 (step6 (step5 (step4 (step3 (step2 (step1 (⟨h⟩))))))))))))))))

/-- The argument arrays a device's memory holds at launch. -/
abbrev argsOf (m : (ℓ : Loc nD τ sig) → Buf (Elt F) ℓ) (c : Dev nD) : Args F :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12)⟩

/-- On every device, for any float values, from any memory with zero counters: every weakly fair execution of the
    reference's @main terminates with its result at the stage `val_main_v178` of the arguments' launch contents and the
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v178) = Read.val_main_v178 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      have hI := inv_ops (a := argsOf m c) (W := launchContents m c)
        ⟨rfl, rfl, rfl, rfl, rfl, rfl, rfl, rfl, rfl, rfl, rfl, rfl, rfl⟩
      exact ⟨(h c main_v178).trans hI.at_main_v178,
        (h c main_arg0).trans hI.args.h0,
        (h c main_arg1).trans hI.args.h1,
        (h c main_arg2).trans hI.args.h2,
        (h c main_arg3).trans hI.args.h3,
        (h c main_arg4).trans hI.args.h4,
        (h c main_arg5).trans hI.args.h5,
        (h c main_arg6).trans hI.args.h6,
        (h c main_arg7).trans hI.args.h7,
        (h c main_arg8).trans hI.args.h8,
        (h c main_arg9).trans hI.args.h9,
        (h c main_arg10).trans hI.args.h10,
        (h c main_arg11).trans hI.args.h11,
        (h c main_arg12).trans hI.args.h12⟩)
    (run_seq scopedRefs_eq scopedSems_eq defs main (fun _ => ops) main_eq (fun _ => ops_sub) m ρ (fun _ => ops_fresh))

end Cert.ReferenceIdeal.Hand

end
-- ==== Proof.KV.ChainArgs.lean ====
import proofs.«402750_j37864431681686_1_alg».proof.Proof.KI.Outs
import proofs.«402750_j37864431681686_1_alg».proof.Proof.RefRead

/-! # The program's arguments, as the reference reads them

The reference's stages are functions of the arguments of its entry point. The kernel program's arguments are the launch
contents of its argument buffers on a core; the names below spell them at the types the reference's stages take. -/

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- Node features. -/
abbrev a0 (c : Dev nD) : (⟨Cert.ReferenceIdeal.S100000x128, .f32⟩ : BufTy).Contents (Elt Ideal) := m ((c : Thread nD τ).loc main_arg0)
/-- Edge features. -/
abbrev a1 (c : Dev nD) : (⟨Cert.ReferenceIdeal.S800000x128, .f32⟩ : BufTy).Contents (Elt Ideal) := m ((c : Thread nD τ).loc main_arg1)
/-- Input projection matrix. -/
abbrev a2 (c : Dev nD) : (⟨Cert.ReferenceIdeal.S128x128, .f32⟩ : BufTy).Contents (Elt Ideal) := m ((c : Thread nD τ).loc main_arg2)
/-- Input bias. -/
abbrev a3 (c : Dev nD) : (⟨Cert.ReferenceIdeal.S128, .f32⟩ : BufTy).Contents (Elt Ideal) := m ((c : Thread nD τ).loc main_arg3)
/-- Stack of node weight matrices. -/
abbrev a4 (c : Dev nD) : (⟨Cert.ReferenceIdeal.S3x128x128, .f32⟩ : BufTy).Contents (Elt Ideal) := m ((c : Thread nD τ).loc main_arg4)
/-- Stack of edge weight matrices. -/
abbrev a5 (c : Dev nD) : (⟨Cert.ReferenceIdeal.S3x128x128, .f32⟩ : BufTy).Contents (Elt Ideal) := m ((c : Thread nD τ).loc main_arg5)
/-- Layer bias table. -/
abbrev a6 (c : Dev nD) : (⟨Cert.ReferenceIdeal.S3x128, .f32⟩ : BufTy).Contents (Elt Ideal) := m ((c : Thread nD τ).loc main_arg6)
/-- Normalisation scale table. -/
abbrev a7 (c : Dev nD) : (⟨Cert.ReferenceIdeal.S3x128, .f32⟩ : BufTy).Contents (Elt Ideal) := m ((c : Thread nD τ).loc main_arg7)
/-- Normalisation shift table. -/
abbrev a8 (c : Dev nD) : (⟨Cert.ReferenceIdeal.S3x128, .f32⟩ : BufTy).Contents (Elt Ideal) := m ((c : Thread nD τ).loc main_arg8)
/-- Output projection matrix. -/
abbrev a9 (c : Dev nD) : (⟨Cert.ReferenceIdeal.S128x128, .f32⟩ : BufTy).Contents (Elt Ideal) := m ((c : Thread nD τ).loc main_arg9)
/-- Output bias. -/
abbrev a10 (c : Dev nD) : (⟨Cert.ReferenceIdeal.S128, .f32⟩ : BufTy).Contents (Elt Ideal) := m ((c : Thread nD τ).loc main_arg10)
/-- Edge list. -/
abbrev a11 (c : Dev nD) : (⟨Cert.ReferenceIdeal.S2x800000, .i32⟩ : BufTy).Contents (Elt Ideal) := m ((c : Thread nD τ).loc main_arg11)
/-- Graph number of every node. -/
abbrev a12 (c : Dev nD) : (⟨Cert.ReferenceIdeal.S100000, .i32⟩ : BufTy).Contents (Elt Ideal) := m ((c : Thread nD τ).loc main_arg12)

end Cert.KernelIdeal.Val

end
-- ==== Proof.KV.Host0.lean ====
import proofs.«402750_j37864431681686_1_alg».proof.Proof.Gen.KernelIdeal.Regions
import proofs.«402750_j37864431681686_1_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

/-!
# The first host stretch, read at the extended reals

Before the first kernel call the program only renames and reshapes its arguments: six of them are narrowed to a
sixteen-bit format, which over the extended reals changes nothing; the two rows of the edge list are cut out and
flattened; the input bias is given a leading unit axis; and a row of zeros is made. Each lemma reads one of these
buffers, on any core, in the valuation the first kernel call is entered from.
-/

variable (m : (ℓ : Loc nD τ sig) → Buf (Elt Ideal) ℓ)

/-! ## The narrowed arguments are the arguments -/

/-- The narrowed node features is the node features. -/
theorem host0_v4 (c : Dev nD) : (Gen.V1 m c main_v4 : S100000x128.Idx → EReal) = Gen.V0 m c main_arg0 := by
  dsimp only [Gen.V1, Gen.hostOps0]; after_results; rfl
theorem host0_v4_apply (c : Dev nD) (i : S100000x128.Idx) :
    (Gen.V1 m c main_v4 : S100000x128.Idx → EReal) i = (Gen.V0 m c main_arg0 : S100000x128.Idx → EReal) i :=
  congrFun (host0_v4 m c) i
/-- The narrowed edge features is the edge features. -/
theorem host0_v5 (c : Dev nD) : (Gen.V1 m c main_v5 : S800000x128.Idx → EReal) = Gen.V0 m c main_arg1 := by
  dsimp only [Gen.V1, Gen.hostOps0]; after_results; rfl
theorem host0_v5_apply (c : Dev nD) (i : S800000x128.Idx) :
    (Gen.V1 m c main_v5 : S800000x128.Idx → EReal) i = (Gen.V0 m c main_arg1 : S800000x128.Idx → EReal) i :=
  congrFun (host0_v5 m c) i
/-- The narrowed input projection matrix is the input projection matrix. -/
theorem host0_v6 (c : Dev nD) : (Gen.V1 m c main_v6 : S128x128.Idx → EReal) = Gen.V0 m c main_arg2 := by
  dsimp only [Gen.V1, Gen.hostOps0]; after_results; rfl
theorem host0_v6_apply (c : Dev nD) (i : S128x128.Idx) :
    (Gen.V1 m c main_v6 : S128x128.Idx → EReal) i = (Gen.V0 m c main_arg2 : S128x128.Idx → EReal) i :=
  congrFun (host0_v6 m c) i
/-- The narrowed output projection matrix is the output projection matrix. -/
theorem host0_v7 (c : Dev nD) : (Gen.V1 m c main_v7 : S128x128.Idx → EReal) = Gen.V0 m c main_arg9 := by
  dsimp only [Gen.V1, Gen.hostOps0]; after_results; rfl
theorem host0_v7_apply (c : Dev nD) (i : S128x128.Idx) :
    (Gen.V1 m c main_v7 : S128x128.Idx → EReal) i = (Gen.V0 m c main_arg9 : S128x128.Idx → EReal) i :=
  congrFun (host0_v7 m c) i
/-- The narrowed stack of node weight matrices is the stack of node weight matrices. -/
theorem host0_v8 (c : Dev nD) : (Gen.V1 m c main_v8 : S3x128x128.Idx → EReal) = Gen.V0 m c main_arg4 := by
  dsimp only [Gen.V1, Gen.hostOps0]; after_results; rfl
theorem host0_v8_apply (c : Dev nD) (i : S3x128x128.Idx) :
    (Gen.V1 m c main_v8 : S3x128x128.Idx → EReal) i = (Gen.V0 m c main_arg4 : S3x128x128.Idx → EReal) i :=
  congrFun (host0_v8 m c) i
/-- The narrowed stack of edge weight matrices is the stack of edge weight matrices. -/
theorem host0_v9 (c : Dev nD) : (Gen.V1 m c main_v9 : S3x128x128.Idx → EReal) = Gen.V0 m c main_arg5 := by
  dsimp only [Gen.V1, Gen.hostOps0]; after_results; rfl
theorem host0_v9_apply (c : Dev nD) (i : S3x128x128.Idx) :
    (Gen.V1 m c main_v9 : S3x128x128.Idx → EReal) i = (Gen.V0 m c main_arg5 : S3x128x128.Idx → EReal) i :=
  congrFun (host0_v9 m c) i

/-! ## The bias row and the zero row -/

/-- The input bias with a leading unit axis. -/
theorem host0_v11 (c : Dev nD) :
    (Gen.V1 m c main_v11 : S1x128.Idx → EReal) = shapeCast S1x128 (Gen.V0 m c main_arg3 : S128.Idx → EReal) shapeCasts_S128_S1x128 := by
  dsimp only [Gen.V1, Gen.hostOps0]; after_results; rfl

/-- Its entry in column `j` is the bias's entry `j`. -/
theorem host0_v11_apply (c : Dev nD) (u : Fin 1) (j : Fin 128) :
    (Gen.V1 m c main_v11 : S1x128.Idx → EReal) (ix2 u j) = (Gen.V0 m c main_arg3 : S128.Idx → EReal) (ix1 j) := by
  rw [host0_v11]; exact shapeCast_a_1a_apply _ _ u j

/-- The zero row: the scalar zero spread over one row of 128 columns. -/
theorem host0_v10 (c : Dev nD) :
    (Gen.V1 m c main_v10 : S1x128.Idx → EReal) = broadcastInDim S1x128 ![] bcast_S_S1x128 (constant (F := Ideal) S_ .f32 0x00000000#32) := by
  dsimp only [Gen.V1, Gen.hostOps0]; after_results

/-- Every entry of the zero row is zero. -/
theorem host0_v10_apply (c : Dev nD) (i : S1x128.Idx) : (Gen.V1 m c main_v10 : S1x128.Idx → EReal) i = (0 : EReal) := by
  rw [host0_v10, broadcastInDim_apply ![] bcast_S_S1x128 _ i ix0 (fun a => a.elim0), constant_apply, Ideal.ofBits_zero_f32]

/-! ## The two rows of the edge list -/

/-- The source-node vector: row 0 of the edge list, flattened. -/
theorem host0_v1 (c : Dev nD) :
    (Gen.V1 m c main_v1 : S800000.Idx → BitVec 32)
      = shapeCast S800000 (extractStridedSlice S1x800000 ![0, 0] (Gen.V0 m c main_arg11 : S2x800000.Idx → BitVec 32) slices_S2x800000_S1x800000_0_0) shapeCasts_S1x800000_S800000 := by
  dsimp only [Gen.V1, Gen.hostOps0]; after_results; rfl

/-- The target-node vector: row 1 of the edge list, flattened. -/
theorem host0_v3 (c : Dev nD) :
    (Gen.V1 m c main_v3 : S800000.Idx → BitVec 32)
      = shapeCast S800000 (extractStridedSlice S1x800000 ![1, 0] (Gen.V0 m c main_arg11 : S2x800000.Idx → BitVec 32) slices_S2x800000_S1x800000_1_0) shapeCasts_S1x800000_S800000 := by
  dsimp only [Gen.V1, Gen.hostOps0]; after_results; rfl

/-- Edge `e`'s source node is the edge list's entry `(0, e)`. -/
theorem host0_v1_apply (c : Dev nD) (e : Fin 800000) :
    (Gen.V1 m c main_v1 : S800000.Idx → BitVec 32) (ix1 e) = (Gen.V0 m c main_arg11 : S2x800000.Idx → BitVec 32) (ix2 (0 : Fin 2) e) := by
  rw [host0_v1, shapeCast_1a_a_apply, slice2_axis0_apply 0 _ _ (0 : Fin 1) e (0 : Fin 2) rfl]

/-- Edge `e`'s target node is the edge list's entry `(1, e)`. -/
theorem host0_v3_apply (c : Dev nD) (e : Fin 800000) :
    (Gen.V1 m c main_v3 : S800000.Idx → BitVec 32) (ix1 e) = (Gen.V0 m c main_arg11 : S2x800000.Idx → BitVec 32) (ix2 (1 : Fin 2) e) := by
  rw [host0_v3, shapeCast_1a_a_apply, slice2_axis0_apply 1 _ _ (0 : Fin 1) e (1 : Fin 2) rfl]

/-- The source-node vector is the reference's: the same cut and the same flattening of the same argument. -/
theorem host0_v1_ref (c : Dev nD) :
    (Gen.V1 m c main_v1 : S800000.Idx → BitVec 32)
      = Cert.ReferenceIdeal.Read.val_main_v1 (F := Ideal) (Gen.V0 m c main_arg11 : S2x800000.Idx → BitVec 32) := by
  rw [host0_v1]; rfl

/-- The target-node vector is the reference's. -/
theorem host0_v3_ref (c : Dev nD) :
    (Gen.V1 m c main_v3 : S800000.Idx → BitVec 32)
      = Cert.ReferenceIdeal.Read.val_main_v3 (F := Ideal) (Gen.V0 m c main_arg11 : S2x800000.Idx → BitVec 32) := by
  rw [host0_v3]; rfl

end Cert.KernelIdeal.Val
-- ==== Proof.KV.HostW.lean ====
import proofs.«402750_j37864431681686_1_alg».proof.Proof.Gen.KernelIdeal.Regions
import proofs.«402750_j37864431681686_1_alg».proof.Proof.RefRead
import proofs.«402750_j37864431681686_1_alg».proof.Proof.KV.Host0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

/-!
# The host stretches that prepare a matrix product

Before each node product the program narrows the current node features to a sixteen-bit format, which over the
extended reals changes nothing, and cuts the layer's matrix out of the stack of node weight matrices, dropping the
leading unit axis; before each edge product it cuts the layer's matrix out of the stack of edge weight matrices; before
the output projection it narrows the last features and gives the output bias a leading unit axis. The two stacks were
narrowed once, before the first kernel call, and nothing writes them afterwards. The cut matrices are the reference's:
the same cut and the same reshape of the same argument.
-/

variable (m : (ℓ : Loc nD τ sig) → Buf (Elt Ideal) ℓ) (outs : Gen.Outs (F := Ideal))

/-! ## The two weight stacks stay what the first stretch made them -/

/-- The narrowed stack of node weight matrices is the argument when the first node product is prepared, -/
theorem nodeStack_at2 (c : Dev nD) : (Gen.V2 m outs c main_v8 : S3x128x128.Idx → EReal) = Gen.V0 m c main_arg4 :=
  (Gen.V2_of m outs c main_v8 (by decide)).trans (host0_v8 m c)

/-- when the second is, -/
theorem nodeStack_at8 (c : Dev nD) : (Gen.V8 m outs c main_v8 : S3x128x128.Idx → EReal) = Gen.V0 m c main_arg4 :=
  (Gen.V8_of m outs c main_v8 (by decide)).trans <| (Gen.V7_of m outs c main_v8 (by decide)).trans <|
  (Gen.V6_of m outs c main_v8 (by decide)).trans <| (Gen.V5_of m outs c main_v8 (by decide)).trans <|
  (Gen.V4_of m outs c main_v8 (by decide)).trans <| (Gen.V3_of m outs c main_v8 (by decide)).trans (nodeStack_at2 m outs c)

/-- and when the third is. -/
theorem nodeStack_at14 (c : Dev nD) : (Gen.V14 m outs c main_v8 : S3x128x128.Idx → EReal) = Gen.V0 m c main_arg4 :=
  (Gen.V14_of m outs c main_v8 (by decide)).trans <| (Gen.V13_of m outs c main_v8 (by decide)).trans <|
  (Gen.V12_of m outs c main_v8 (by decide)).trans <| (Gen.V11_of m outs c main_v8 (by decide)).trans <|
  (Gen.V10_of m outs c main_v8 (by decide)).trans <| (Gen.V9_of m outs c main_v8 (by decide)).trans (nodeStack_at8 m outs c)

/-- The narrowed stack of edge weight matrices is the argument when the first edge product is prepared, -/
theorem edgeStack_at4 (c : Dev nD) : (Gen.V4 m outs c main_v9 : S3x128x128.Idx → EReal) = Gen.V0 m c main_arg5 :=
  (Gen.V4_of m outs c main_v9 (by decide)).trans <| (Gen.V3_of m outs c main_v9 (by decide)).trans <|
  (Gen.V2_of m outs c main_v9 (by decide)).trans (host0_v9 m c)

/-- when the second is, -/
theorem edgeStack_at10 (c : Dev nD) : (Gen.V10 m outs c main_v9 : S3x128x128.Idx → EReal) = Gen.V0 m c main_arg5 :=
  (Gen.V10_of m outs c main_v9 (by decide)).trans <| (Gen.V9_of m outs c main_v9 (by decide)).trans <|
  (Gen.V8_of m outs c main_v9 (by decide)).trans <| (Gen.V7_of m outs c main_v9 (by decide)).trans <|
  (Gen.V6_of m outs c main_v9 (by decide)).trans <| (Gen.V5_of m outs c main_v9 (by decide)).trans (edgeStack_at4 m outs c)

/-- and when the third is. -/
theorem edgeStack_at16 (c : Dev nD) : (Gen.V16 m outs c main_v9 : S3x128x128.Idx → EReal) = Gen.V0 m c main_arg5 :=
  (Gen.V16_of m outs c main_v9 (by decide)).trans <| (Gen.V15_of m outs c main_v9 (by decide)).trans <|
  (Gen.V14_of m outs c main_v9 (by decide)).trans <| (Gen.V13_of m outs c main_v9 (by decide)).trans <|
  (Gen.V12_of m outs c main_v9 (by decide)).trans <| (Gen.V11_of m outs c main_v9 (by decide)).trans (edgeStack_at10 m outs c)

/-! ## The node products' operands -/

/-- The first node product's left operand is what the input projection's kernel call left. -/
theorem hostW_v13 (c : Dev nD) : (Gen.V3 m outs c main_v13 : S100000x128.Idx → EReal) = outs 2 main_v12 c := by
  dsimp only [Gen.V3, Gen.hostOps1]; after_results
  simp only [Gen.V2, Function.update_self]; rfl

/-- The first node product's right operand is the reference's first node weight matrix. -/
theorem hostW_v15 (c : Dev nD) :
    (Gen.V3 m outs c main_v15 : S128x128.Idx → EReal)
      = Cert.ReferenceIdeal.Read.val_main_v9 (F := Ideal) (Gen.V0 m c main_arg4 : S3x128x128.Idx → EReal) := by
  dsimp only [Gen.V3, Gen.hostOps1]; after_results
  rw [nodeStack_at2]; rfl

/-- The second node product's left operand is what the first layer's closing kernel call left. -/
theorem hostW_v41 (c : Dev nD) : (Gen.V9 m outs c main_v41 : S100000x128.Idx → EReal) = outs 8 main_v40 c := by
  dsimp only [Gen.V9, Gen.hostOps4]; after_results
  simp only [Gen.V8, Function.update_self]; rfl

/-- The second node product's right operand is the reference's second node weight matrix. -/
theorem hostW_v43 (c : Dev nD) :
    (Gen.V9 m outs c main_v43 : S128x128.Idx → EReal)
      = Cert.ReferenceIdeal.Read.val_main_v60 (F := Ideal) (Gen.V0 m c main_arg4 : S3x128x128.Idx → EReal) := by
  dsimp only [Gen.V9, Gen.hostOps4]; after_results
  rw [nodeStack_at8]; rfl

/-- The third node product's left operand is what the second layer's closing kernel call left. -/
theorem hostW_v69 (c : Dev nD) : (Gen.V15 m outs c main_v69 : S100000x128.Idx → EReal) = outs 14 main_v68 c := by
  dsimp only [Gen.V15, Gen.hostOps7]; after_results
  simp only [Gen.V14, Function.update_self]; rfl

/-- The third node product's right operand is the reference's third node weight matrix. -/
theorem hostW_v71 (c : Dev nD) :
    (Gen.V15 m outs c main_v71 : S128x128.Idx → EReal)
      = Cert.ReferenceIdeal.Read.val_main_v112 (F := Ideal) (Gen.V0 m c main_arg4 : S3x128x128.Idx → EReal) := by
  dsimp only [Gen.V15, Gen.hostOps7]; after_results
  rw [nodeStack_at14]; rfl

/-! ## The edge products' right operands -/

/-- The first edge product's right operand is the reference's first edge weight matrix. -/
theorem hostW_v18 (c : Dev nD) :
    (Gen.V5 m outs c main_v18 : S128x128.Idx → EReal)
      = Cert.ReferenceIdeal.Read.val_main_v12 (F := Ideal) (Gen.V0 m c main_arg5 : S3x128x128.Idx → EReal) := by
  dsimp only [Gen.V5, Gen.hostOps2]; after_results
  rw [edgeStack_at4]; rfl

/-- The second edge product's right operand is the reference's second edge weight matrix. -/
theorem hostW_v46 (c : Dev nD) :
    (Gen.V11 m outs c main_v46 : S128x128.Idx → EReal)
      = Cert.ReferenceIdeal.Read.val_main_v63 (F := Ideal) (Gen.V0 m c main_arg5 : S3x128x128.Idx → EReal) := by
  dsimp only [Gen.V11, Gen.hostOps5]; after_results
  rw [edgeStack_at10]; rfl

/-- The third edge product's right operand is the reference's third edge weight matrix. -/
theorem hostW_v74 (c : Dev nD) :
    (Gen.V17 m outs c main_v74 : S128x128.Idx → EReal)
      = Cert.ReferenceIdeal.Read.val_main_v115 (F := Ideal) (Gen.V0 m c main_arg5 : S3x128x128.Idx → EReal) := by
  dsimp only [Gen.V17, Gen.hostOps8]; after_results
  rw [edgeStack_at16]; rfl

/-! ## The output projection's operands -/

/-- The output projection's left operand is what the last layer's closing kernel call left. -/
theorem hostW_v97 (c : Dev nD) : (Gen.V21 m outs c main_v97 : S100000x128.Idx → EReal) = outs 20 main_v96 c := by
  dsimp only [Gen.V21, Gen.hostOps10]; after_results
  simp only [Gen.V20, Function.update_self]; rfl

/-- Nothing writes the output bias before the output projection. -/
theorem outBias_at20 (c : Dev nD) : Gen.V20 m outs c main_arg10 = Gen.V0 m c main_arg10 :=
  (Gen.V20_of m outs c main_arg10 (by decide)).trans <| (Gen.V19_of m outs c main_arg10 (by decide)).trans <|
  (Gen.V18_of m outs c main_arg10 (by decide)).trans <| (Gen.V17_of m outs c main_arg10 (by decide)).trans <|
  (Gen.V16_of m outs c main_arg10 (by decide)).trans <| (Gen.V15_of m outs c main_arg10 (by decide)).trans <|
  (Gen.V14_of m outs c main_arg10 (by decide)).trans <| (Gen.V13_of m outs c main_arg10 (by decide)).trans <|
  (Gen.V12_of m outs c main_arg10 (by decide)).trans <| (Gen.V11_of m outs c main_arg10 (by decide)).trans <|
  (Gen.V10_of m outs c main_arg10 (by decide)).trans <| (Gen.V9_of m outs c main_arg10 (by decide)).trans <|
  (Gen.V8_of m outs c main_arg10 (by decide)).trans <| (Gen.V7_of m outs c main_arg10 (by decide)).trans <|
  (Gen.V6_of m outs c main_arg10 (by decide)).trans <| (Gen.V5_of m outs c main_arg10 (by decide)).trans <|
  (Gen.V4_of m outs c main_arg10 (by decide)).trans <| (Gen.V3_of m outs c main_arg10 (by decide)).trans <|
  (Gen.V2_of m outs c main_arg10 (by decide)).trans (Gen.V1_of m c main_arg10 (by decide))

/-- The output bias with a leading unit axis. -/
theorem hostW_v98 (c : Dev nD) :
    (Gen.V21 m outs c main_v98 : S1x128.Idx → EReal) = shapeCast S1x128 (Gen.V0 m c main_arg10 : S128.Idx → EReal) shapeCasts_S128_S1x128 := by
  dsimp only [Gen.V21, Gen.hostOps10]; after_results
  rw [outBias_at20]; rfl

/-- Its entry in column `j` is the bias's entry `j`. -/
theorem hostW_v98_apply (c : Dev nD) (u : Fin 1) (j : Fin 128) :
    (Gen.V21 m outs c main_v98 : S1x128.Idx → EReal) (ix2 u j) = (Gen.V0 m c main_arg10 : S128.Idx → EReal) (ix1 j) := by
  rw [hostW_v98]; exact shapeCast_a_1a_apply _ _ u j

end Cert.KernelIdeal.Val
-- ==== Proof.KV.GMS.lean ====
import proofs.«402750_j37864431681686_1_alg».proof.Proof.Gen.KernelIdeal.Regions
import proofs.«402750_j37864431681686_1_alg».proof.Proof.RefRead
import proofs.«402750_j37864431681686_1_alg».proof.Proof.KV.Host0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

/-!
# The message passing between the kernel calls

In each of the three layers, between the edge product and the layer's closing kernel call, the program gathers the
transformed node features at every edge's source node (a negative node number counted from the end), multiplies them
entrywise by the transformed edge features, and adds every edge's message into the row of its target node, starting
from zeros. It also cuts the layer's rows out of the bias, scale and shift tables and gives each a leading unit axis.

The reference spells the same operations, over the same source and target vectors, with dimension records of its own
that have the same fields. So whatever the two products left, the aggregate is the reference's aggregate of the same
two arrays, and no gather or scatter has to be read at an index. The reference flattens each table row and spreads it
along a new leading unit axis where the kernel program reshapes twice: the same row.
-/

variable (m : (ℓ : Loc nD τ sig) → Buf (Elt Ideal) ℓ) (outs : Gen.Outs (F := Ideal))

/-! ## What the layers leave alone -/

/-- A buffer that neither the first layer's two products nor the host stretches before them write is, when the first
    aggregation starts, what the first host stretch left. -/
theorem keep_1_6 (c : Dev nD) (r : Ref sig .tc) (h2 : r ∉ ([main_v12] : List (Ref sig .tc))) (h3 : r ∉ hostOps1_W)
    (h4 : r ∉ ([main_v16] : List (Ref sig .tc))) (h5 : r ∉ hostOps2_W) (h6 : r ∉ ([main_v19] : List (Ref sig .tc))) :
    Gen.V6 m outs c r = Gen.V1 m c r :=
  (Gen.V6_of m outs c r h6).trans <| (Gen.V5_of m outs c r h5).trans <| (Gen.V4_of m outs c r h4).trans <|
  (Gen.V3_of m outs c r h3).trans (Gen.V2_of m outs c r h2)

/-- From the first aggregation's start to the second's. -/
theorem keep_6_12 (c : Dev nD) (r : Ref sig .tc) (h7 : r ∉ hostOps3_W) (h8 : r ∉ ([main_v40] : List (Ref sig .tc)))
    (h9 : r ∉ hostOps4_W) (h10 : r ∉ ([main_v44] : List (Ref sig .tc))) (h11 : r ∉ hostOps5_W)
    (h12 : r ∉ ([main_v47] : List (Ref sig .tc))) :
    Gen.V12 m outs c r = Gen.V6 m outs c r :=
  (Gen.V12_of m outs c r h12).trans <| (Gen.V11_of m outs c r h11).trans <| (Gen.V10_of m outs c r h10).trans <|
  (Gen.V9_of m outs c r h9).trans <| (Gen.V8_of m outs c r h8).trans (Gen.V7_of m outs c r h7)

/-- From the second aggregation's start to the third's. -/
theorem keep_12_18 (c : Dev nD) (r : Ref sig .tc) (h13 : r ∉ hostOps6_W) (h14 : r ∉ ([main_v68] : List (Ref sig .tc)))
    (h15 : r ∉ hostOps7_W) (h16 : r ∉ ([main_v72] : List (Ref sig .tc))) (h17 : r ∉ hostOps8_W)
    (h18 : r ∉ ([main_v75] : List (Ref sig .tc))) :
    Gen.V18 m outs c r = Gen.V12 m outs c r :=
  (Gen.V18_of m outs c r h18).trans <| (Gen.V17_of m outs c r h17).trans <| (Gen.V16_of m outs c r h16).trans <|
  (Gen.V15_of m outs c r h15).trans <| (Gen.V14_of m outs c r h14).trans (Gen.V13_of m outs c r h13)

/-- The source-node vector at the three aggregations is the reference's. -/
theorem src_at6 (c : Dev nD) :
    (Gen.V6 m outs c main_v1 : S800000.Idx → BitVec 32)
      = Cert.ReferenceIdeal.Read.val_main_v1 (F := Ideal) (Gen.V0 m c main_arg11 : S2x800000.Idx → BitVec 32) :=
  (keep_1_6 m outs c main_v1 (by decide) (by decide) (by decide) (by decide) (by decide)).trans (host0_v1_ref m c)
theorem src_at12 (c : Dev nD) :
    (Gen.V12 m outs c main_v1 : S800000.Idx → BitVec 32)
      = Cert.ReferenceIdeal.Read.val_main_v1 (F := Ideal) (Gen.V0 m c main_arg11 : S2x800000.Idx → BitVec 32) :=
  (keep_6_12 m outs c main_v1 (by decide) (by decide) (by decide) (by decide) (by decide) (by decide)).trans (src_at6 m outs c)
theorem src_at18 (c : Dev nD) :
    (Gen.V18 m outs c main_v1 : S800000.Idx → BitVec 32)
      = Cert.ReferenceIdeal.Read.val_main_v1 (F := Ideal) (Gen.V0 m c main_arg11 : S2x800000.Idx → BitVec 32) :=
  (keep_12_18 m outs c main_v1 (by decide) (by decide) (by decide) (by decide) (by decide) (by decide)).trans (src_at12 m outs c)

/-- The target-node vector at the three aggregations is the reference's. -/
theorem dst_at6 (c : Dev nD) :
    (Gen.V6 m outs c main_v3 : S800000.Idx → BitVec 32)
      = Cert.ReferenceIdeal.Read.val_main_v3 (F := Ideal) (Gen.V0 m c main_arg11 : S2x800000.Idx → BitVec 32) :=
  (keep_1_6 m outs c main_v3 (by decide) (by decide) (by decide) (by decide) (by decide)).trans (host0_v3_ref m c)
theorem dst_at12 (c : Dev nD) :
    (Gen.V12 m outs c main_v3 : S800000.Idx → BitVec 32)
      = Cert.ReferenceIdeal.Read.val_main_v3 (F := Ideal) (Gen.V0 m c main_arg11 : S2x800000.Idx → BitVec 32) :=
  (keep_6_12 m outs c main_v3 (by decide) (by decide) (by decide) (by decide) (by decide) (by decide)).trans (dst_at6 m outs c)
theorem dst_at18 (c : Dev nD) :
    (Gen.V18 m outs c main_v3 : S800000.Idx → BitVec 32)
      = Cert.ReferenceIdeal.Read.val_main_v3 (F := Ideal) (Gen.V0 m c main_arg11 : S2x800000.Idx → BitVec 32) :=
  (keep_12_18 m outs c main_v3 (by decide) (by decide) (by decide) (by decide) (by decide) (by decide)).trans (dst_at12 m outs c)

/-- The bias table at the three aggregations is the argument. -/
theorem biasTab_at6 (c : Dev nD) : Gen.V6 m outs c main_arg6 = Gen.V0 m c main_arg6 :=
  (keep_1_6 m outs c main_arg6 (by decide) (by decide) (by decide) (by decide) (by decide)).trans (Gen.V1_of m c main_arg6 (by decide))
theorem biasTab_at12 (c : Dev nD) : Gen.V12 m outs c main_arg6 = Gen.V0 m c main_arg6 :=
  (keep_6_12 m outs c main_arg6 (by decide) (by decide) (by decide) (by decide) (by decide) (by decide)).trans (biasTab_at6 m outs c)
theorem biasTab_at18 (c : Dev nD) : Gen.V18 m outs c main_arg6 = Gen.V0 m c main_arg6 :=
  (keep_12_18 m outs c main_arg6 (by decide) (by decide) (by decide) (by decide) (by decide) (by decide)).trans (biasTab_at12 m outs c)

/-- The scale table at the three aggregations is the argument. -/
theorem scaleTab_at6 (c : Dev nD) : Gen.V6 m outs c main_arg7 = Gen.V0 m c main_arg7 :=
  (keep_1_6 m outs c main_arg7 (by decide) (by decide) (by decide) (by decide) (by decide)).trans (Gen.V1_of m c main_arg7 (by decide))
theorem scaleTab_at12 (c : Dev nD) : Gen.V12 m outs c main_arg7 = Gen.V0 m c main_arg7 :=
  (keep_6_12 m outs c main_arg7 (by decide) (by decide) (by decide) (by decide) (by decide) (by decide)).trans (scaleTab_at6 m outs c)
theorem scaleTab_at18 (c : Dev nD) : Gen.V18 m outs c main_arg7 = Gen.V0 m c main_arg7 :=
  (keep_12_18 m outs c main_arg7 (by decide) (by decide) (by decide) (by decide) (by decide) (by decide)).trans (scaleTab_at12 m outs c)

/-- The shift table at the three aggregations is the argument. -/
theorem shiftTab_at6 (c : Dev nD) : Gen.V6 m outs c main_arg8 = Gen.V0 m c main_arg8 :=
  (keep_1_6 m outs c main_arg8 (by decide) (by decide) (by decide) (by decide) (by decide)).trans (Gen.V1_of m c main_arg8 (by decide))
theorem shiftTab_at12 (c : Dev nD) : Gen.V12 m outs c main_arg8 = Gen.V0 m c main_arg8 :=
  (keep_6_12 m outs c main_arg8 (by decide) (by decide) (by decide) (by decide) (by decide) (by decide)).trans (shiftTab_at6 m outs c)
theorem shiftTab_at18 (c : Dev nD) : Gen.V18 m outs c main_arg8 = Gen.V0 m c main_arg8 :=
  (keep_12_18 m outs c main_arg8 (by decide) (by decide) (by decide) (by decide) (by decide) (by decide)).trans (shiftTab_at12 m outs c)

/-! ## The two programs' dimension records -/

/-- The gather's dimension numbers: the two programs' records have the same fields. -/
theorem gatherDims_eq :
    Cert.KernelIdeal.gather_S100000x128_S800000x1_S800000x128_1_0_n_n_0_1_1128
      = Cert.ReferenceIdeal.gather_S100000x128_S800000x1_S800000x128_1_0_n_n_0_1_1128 := rfl

/-- The scatter's dimension numbers: the same. -/
theorem scatterDims_eq :
    Cert.KernelIdeal.scatter_S100000x128_S800000x1_S800000x128_1_0_0_1
      = Cert.ReferenceIdeal.scatter_S100000x128_S800000x1_S800000x128_1_0_0_1 := rfl

/-! ## A row with a leading unit axis -/

/-- A vector of 128 entries reshaped to one row is the vector spread along a new leading unit axis: entry `(u, j)` of
    either is the vector's entry `j`. -/
theorem unitRow_eq (y : S128.Idx → EReal) (hc : S128.ShapeCasts S1x128)
    (hb : S128.BroadcastsInDim S1x128 (![1] : Fin 1 → Fin S1x128.rank)) :
    shapeCast S1x128 y hc = broadcastInDim S1x128 ![1] hb y := by
  funext i
  obtain ⟨u, j, rfl⟩ : ∃ (u : Fin 1) (j : Fin 128), i = ix2 u j := ⟨i 0, i 1, eq_ix2 i⟩
  rw [shapeCast_a_1a_apply]
  exact (broadcastInDim_apply ![1] hb y (ix2 u j) (ix1 j) (fun a => match a with
    | ⟨0, _⟩ => by show j.val = if (128 : Nat) = 1 then 0 else j.val; rw [if_neg (by decide)])).symm

/-! ## The first layer -/

/-- The first layer's aggregate, whatever the node product `H` and the edge product `EW` are: the reference's
    scatter-add, from zeros at the target nodes, of the reference's gather of `H` at the source nodes times `EW`. -/
theorem agg0 (c : Dev nD) (H : FVec Ideal S100000x128 .f32) (EW : FVec Ideal S800000x128 .f32)
    (hH : ∀ i, (Gen.V6 m outs c main_v16 : S100000x128.Idx → EReal) i = H i)
    (hEW : ∀ i, (Gen.V6 m outs c main_v19 : S800000x128.Idx → EReal) i = EW i) :
    (Gen.V7 m outs c main_v30 : S100000x128.Idx → EReal)
      = Host.scatterAdd (F := Ideal) (φ := .f32) Cert.ReferenceIdeal.scatter_S100000x128_S800000x1_S800000x128_1_0_0_1
          (Cert.ReferenceIdeal.Read.val_main_v22 (F := Ideal))
          (Cert.ReferenceIdeal.Read.val_main_v23 (F := Ideal) (Gen.V0 m c main_arg11 : S2x800000.Idx → BitVec 32))
          (mulf (Host.gather Cert.ReferenceIdeal.gather_S100000x128_S800000x1_S800000x128_1_0_n_n_0_1_1128 H
            (Cert.ReferenceIdeal.Read.val_main_v19 (F := Ideal) (Gen.V0 m c main_arg11 : S2x800000.Idx → BitVec 32))) EW) := by
  have eH : (Gen.V6 m outs c main_v16 : S100000x128.Idx → EReal) = H := funext hH
  have eEW : (Gen.V6 m outs c main_v19 : S800000x128.Idx → EReal) = EW := funext hEW
  dsimp only [Gen.V7, Gen.hostOps3]; after_results_simp
  rw [src_at6, dst_at6, eH, eEW, gatherDims_eq, scatterDims_eq]; rfl

/-- With the reference's two products in place, it is the reference's first aggregate. -/
theorem agg0_ref (c : Dev nD) (x0 : FVec Ideal S100000x128 .f32) (x1 : FVec Ideal S800000x128 .f32)
    (x2 : FVec Ideal S128x128 .f32) (x3 : FVec Ideal S128 .f32) (x4 x5 : FVec Ideal S3x128x128 .f32)
    (hH : ∀ i, (Gen.V6 m outs c main_v16 : S100000x128.Idx → EReal) i = Cert.ReferenceIdeal.Read.val_main_v10 (F := Ideal) x0 x2 x3 x4 i)
    (hEW : ∀ i, (Gen.V6 m outs c main_v19 : S800000x128.Idx → EReal) i = Cert.ReferenceIdeal.Read.val_main_v13 (F := Ideal) x1 x5 i)
    (i : S100000x128.Idx) :
    (Gen.V7 m outs c main_v30 : S100000x128.Idx → EReal) i
      = Cert.ReferenceIdeal.Read.val_main_v24 (F := Ideal) x0 x1 x2 x3 x4 x5 (Gen.V0 m c main_arg11 : S2x800000.Idx → BitVec 32) i :=
  congrFun ((agg0 m outs c _ _ hH hEW).trans rfl) i

/-- The first layer's bias row is the reference's. -/
theorem biasRow0 (c : Dev nD) :
    (Gen.V7 m outs c main_v33 : S1x128.Idx → EReal)
      = Cert.ReferenceIdeal.Read.val_main_v27 (F := Ideal) (Gen.V0 m c main_arg6 : S3x128.Idx → EReal) := by
  dsimp only [Gen.V7, Gen.hostOps3]; after_results
  rw [biasTab_at6]; exact unitRow_eq _ _ _

/-- The first layer's scale row is the reference's. -/
theorem scaleRow0 (c : Dev nD) :
    (Gen.V7 m outs c main_v36 : S1x128.Idx → EReal)
      = Cert.ReferenceIdeal.Read.val_main_v53 (F := Ideal) (Gen.V0 m c main_arg7 : S3x128.Idx → EReal) := by
  dsimp only [Gen.V7, Gen.hostOps3]; after_results
  rw [scaleTab_at6]; exact unitRow_eq _ _ _

/-- The first layer's shift row is the reference's. -/
theorem shiftRow0 (c : Dev nD) :
    (Gen.V7 m outs c main_v39 : S1x128.Idx → EReal)
      = Cert.ReferenceIdeal.Read.val_main_v56 (F := Ideal) (Gen.V0 m c main_arg8 : S3x128.Idx → EReal) := by
  dsimp only [Gen.V7, Gen.hostOps3]; after_results
  rw [shiftTab_at6]; exact unitRow_eq _ _ _

/-! ## The second layer -/

/-- The second layer's aggregate, whatever the node product `H` and the edge product `EW` are. -/
theorem agg1 (c : Dev nD) (H : FVec Ideal S100000x128 .f32) (EW : FVec Ideal S800000x128 .f32)
    (hH : ∀ i, (Gen.V12 m outs c main_v44 : S100000x128.Idx → EReal) i = H i)
    (hEW : ∀ i, (Gen.V12 m outs c main_v47 : S800000x128.Idx → EReal) i = EW i) :
    (Gen.V13 m outs c main_v58 : S100000x128.Idx → EReal)
      = Host.scatterAdd (F := Ideal) (φ := .f32) Cert.ReferenceIdeal.scatter_S100000x128_S800000x1_S800000x128_1_0_0_1
          (Cert.ReferenceIdeal.Read.val_main_v73 (F := Ideal))
          (Cert.ReferenceIdeal.Read.val_main_v74 (F := Ideal) (Gen.V0 m c main_arg11 : S2x800000.Idx → BitVec 32))
          (mulf (Host.gather Cert.ReferenceIdeal.gather_S100000x128_S800000x1_S800000x128_1_0_n_n_0_1_1128 H
            (Cert.ReferenceIdeal.Read.val_main_v70 (F := Ideal) (Gen.V0 m c main_arg11 : S2x800000.Idx → BitVec 32))) EW) := by
  have eH : (Gen.V12 m outs c main_v44 : S100000x128.Idx → EReal) = H := funext hH
  have eEW : (Gen.V12 m outs c main_v47 : S800000x128.Idx → EReal) = EW := funext hEW
  dsimp only [Gen.V13, Gen.hostOps6]; after_results_simp
  rw [src_at12, dst_at12, eH, eEW, gatherDims_eq, scatterDims_eq]; rfl

/-- With the reference's two products in place, it is the reference's second aggregate. -/
theorem agg1_ref (c : Dev nD) (x0 : FVec Ideal S100000x128 .f32) (x1 : FVec Ideal S800000x128 .f32)
    (x2 : FVec Ideal S128x128 .f32) (x3 : FVec Ideal S128 .f32) (x4 x5 : FVec Ideal S3x128x128 .f32)
    (x6 x7 x8 : FVec Ideal S3x128 .f32) (x11 : IVec S2x800000 32)
    (hH : ∀ i, (Gen.V12 m outs c main_v44 : S100000x128.Idx → EReal) i
      = Cert.ReferenceIdeal.Read.val_main_v61 (F := Ideal) x0 x1 x2 x3 x4 x5 x6 x7 x8 x11 i)
    (hEW : ∀ i, (Gen.V12 m outs c main_v47 : S800000x128.Idx → EReal) i = Cert.ReferenceIdeal.Read.val_main_v64 (F := Ideal) x1 x5 i)
    (h11 : x11 = (Gen.V0 m c main_arg11 : S2x800000.Idx → BitVec 32))
    (i : S100000x128.Idx) :
    (Gen.V13 m outs c main_v58 : S100000x128.Idx → EReal) i
      = Cert.ReferenceIdeal.Read.val_main_v75 (F := Ideal) x0 x1 x2 x3 x4 x5 x6 x7 x8 x11 i := by
  subst h11
  exact congrFun ((agg1 m outs c _ _ hH hEW).trans rfl) i

/-- The second layer's bias row is the reference's. -/
theorem biasRow1 (c : Dev nD) :
    (Gen.V13 m outs c main_v61 : S1x128.Idx → EReal)
      = Cert.ReferenceIdeal.Read.val_main_v78 (F := Ideal) (Gen.V0 m c main_arg6 : S3x128.Idx → EReal) := by
  dsimp only [Gen.V13, Gen.hostOps6]; after_results
  rw [biasTab_at12]; exact unitRow_eq _ _ _

/-- The second layer's scale row is the reference's. -/
theorem scaleRow1 (c : Dev nD) :
    (Gen.V13 m outs c main_v64 : S1x128.Idx → EReal)
      = Cert.ReferenceIdeal.Read.val_main_v105 (F := Ideal) (Gen.V0 m c main_arg7 : S3x128.Idx → EReal) := by
  dsimp only [Gen.V13, Gen.hostOps6]; after_results
  rw [scaleTab_at12]; exact unitRow_eq _ _ _

/-- The second layer's shift row is the reference's. -/
theorem shiftRow1 (c : Dev nD) :
    (Gen.V13 m outs c main_v67 : S1x128.Idx → EReal)
      = Cert.ReferenceIdeal.Read.val_main_v108 (F := Ideal) (Gen.V0 m c main_arg8 : S3x128.Idx → EReal) := by
  dsimp only [Gen.V13, Gen.hostOps6]; after_results
  rw [shiftTab_at12]; exact unitRow_eq _ _ _

/-! ## The third layer -/

/-- The third layer's aggregate, whatever the node product `H` and the edge product `EW` are. -/
theorem agg2 (c : Dev nD) (H : FVec Ideal S100000x128 .f32) (EW : FVec Ideal S800000x128 .f32)
    (hH : ∀ i, (Gen.V18 m outs c main_v72 : S100000x128.Idx → EReal) i = H i)
    (hEW : ∀ i, (Gen.V18 m outs c main_v75 : S800000x128.Idx → EReal) i = EW i) :
    (Gen.V19 m outs c main_v86 : S100000x128.Idx → EReal)
      = Host.scatterAdd (F := Ideal) (φ := .f32) Cert.ReferenceIdeal.scatter_S100000x128_S800000x1_S800000x128_1_0_0_1
          (Cert.ReferenceIdeal.Read.val_main_v125 (F := Ideal))
          (Cert.ReferenceIdeal.Read.val_main_v126 (F := Ideal) (Gen.V0 m c main_arg11 : S2x800000.Idx → BitVec 32))
          (mulf (Host.gather Cert.ReferenceIdeal.gather_S100000x128_S800000x1_S800000x128_1_0_n_n_0_1_1128 H
            (Cert.ReferenceIdeal.Read.val_main_v122 (F := Ideal) (Gen.V0 m c main_arg11 : S2x800000.Idx → BitVec 32))) EW) := by
  have eH : (Gen.V18 m outs c main_v72 : S100000x128.Idx → EReal) = H := funext hH
  have eEW : (Gen.V18 m outs c main_v75 : S800000x128.Idx → EReal) = EW := funext hEW
  dsimp only [Gen.V19, Gen.hostOps9]; after_results_simp
  rw [src_at18, dst_at18, eH, eEW, gatherDims_eq, scatterDims_eq]; rfl

/-- With the reference's two products in place, it is the reference's third aggregate. -/
theorem agg2_ref (c : Dev nD) (x0 : FVec Ideal S100000x128 .f32) (x1 : FVec Ideal S800000x128 .f32)
    (x2 : FVec Ideal S128x128 .f32) (x3 : FVec Ideal S128 .f32) (x4 x5 : FVec Ideal S3x128x128 .f32)
    (x6 x7 x8 : FVec Ideal S3x128 .f32) (x11 : IVec S2x800000 32)
    (hH : ∀ i, (Gen.V18 m outs c main_v72 : S100000x128.Idx → EReal) i
      = Cert.ReferenceIdeal.Read.val_main_v113 (F := Ideal) x0 x1 x2 x3 x4 x5 x6 x7 x8 x11 i)
    (hEW : ∀ i, (Gen.V18 m outs c main_v75 : S800000x128.Idx → EReal) i = Cert.ReferenceIdeal.Read.val_main_v116 (F := Ideal) x1 x5 i)
    (h11 : x11 = (Gen.V0 m c main_arg11 : S2x800000.Idx → BitVec 32))
    (i : S100000x128.Idx) :
    (Gen.V19 m outs c main_v86 : S100000x128.Idx → EReal) i
      = Cert.ReferenceIdeal.Read.val_main_v127 (F := Ideal) x0 x1 x2 x3 x4 x5 x6 x7 x8 x11 i := by
  subst h11
  exact congrFun ((agg2 m outs c _ _ hH hEW).trans rfl) i

/-- The third layer's bias row is the reference's. -/
theorem biasRow2 (c : Dev nD) :
    (Gen.V19 m outs c main_v89 : S1x128.Idx → EReal)
      = Cert.ReferenceIdeal.Read.val_main_v130 (F := Ideal) (Gen.V0 m c main_arg6 : S3x128.Idx → EReal) := by
  dsimp only [Gen.V19, Gen.hostOps9]; after_results
  rw [biasTab_at18]; exact unitRow_eq _ _ _

/-- The third layer's scale row is the reference's. -/
theorem scaleRow2 (c : Dev nD) :
    (Gen.V19 m outs c main_v92 : S1x128.Idx → EReal)
      = Cert.ReferenceIdeal.Read.val_main_v157 (F := Ideal) (Gen.V0 m c main_arg7 : S3x128.Idx → EReal) := by
  dsimp only [Gen.V19, Gen.hostOps9]; after_results
  rw [scaleTab_at18]; exact unitRow_eq _ _ _

/-- The third layer's shift row is the reference's. -/
theorem shiftRow2 (c : Dev nD) :
    (Gen.V19 m outs c main_v95 : S1x128.Idx → EReal)
      = Cert.ReferenceIdeal.Read.val_main_v160 (F := Ideal) (Gen.V0 m c main_arg8 : S3x128.Idx → EReal) := by
  dsimp only [Gen.V19, Gen.hostOps9]; after_results
  rw [shiftTab_at18]; exact unitRow_eq _ _ _

end Cert.KernelIdeal.Val
-- ==== Proof.KV.ChainKeep.lean ====
import proofs.«402750_j37864431681686_1_alg».proof.Proof.KI.Outs
import proofs.«402750_j37864431681686_1_alg».proof.Proof.KV.Host0
import proofs.«402750_j37864431681686_1_alg».proof.Proof.KV.HostW
import proofs.«402750_j37864431681686_1_alg».proof.Proof.KV.GMS

/-! # What each kernel call finds on entry

Between two kernel calls the program's host code writes only the buffers it names, and a kernel call writes only its
output array. So an array a later call reads is what the call (or the host stretch) that made it left there. Each lemma
below reads one such array in the contents a kernel call, or a gather-multiply-scatter stretch, is entered from, and
names it: an argument of the program, or the output of an earlier call. -/

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-! ## The node products' left operands -/

/-- The first node product reads what the input projection left. -/
theorem entry_x3 (c : Dev nD) : (Hand.U3 m c main_v13 : S100000x128.Idx → EReal) = Hand.o2 m c := by
  rw [← Hand.V_eq_3, hostW_v13, Hand.outs_2]

/-- The second node product reads what the first layer's closing call left. -/
theorem entry_x9 (c : Dev nD) : (Hand.U9 m c main_v41 : S100000x128.Idx → EReal) = Hand.o8 m c := by
  rw [← Hand.V_eq_9, hostW_v41, Hand.outs_8]

/-- The third node product reads what the second layer's closing call left. -/
theorem entry_x15 (c : Dev nD) : (Hand.U15 m c main_v69 : S100000x128.Idx → EReal) = Hand.o14 m c := by
  rw [← Hand.V_eq_15, hostW_v69, Hand.outs_14]

/-- The output projection reads what the third layer's closing call left. -/
theorem entry_x21 (c : Dev nD) : (Hand.U21 m c main_v97 : S100000x128.Idx → EReal) = Hand.o20 m c := by
  rw [← Hand.V_eq_21, hostW_v97, Hand.outs_20]

/-! ## The edge features at the three edge products -/

/-- Nothing writes the narrowed edge features after the first host stretch: at the first edge product, -/
theorem entry_edge5 (c : Dev nD) : (Hand.U5 m c main_v5 : S800000x128.Idx → EReal) = Gen.V0 m c main_arg1 := by
  rw [← Hand.V_eq_5]
  exact (Gen.V5_of m _ c main_v5 (by decide)).trans <| (Gen.V4_of m _ c main_v5 (by decide)).trans <|
    (Gen.V3_of m _ c main_v5 (by decide)).trans <| (Gen.V2_of m _ c main_v5 (by decide)).trans (host0_v5 m c)

/-- at the first aggregation, -/
theorem entry_edge6 (c : Dev nD) : (Gen.V6 m (Hand.outs m) c main_v5 : S800000x128.Idx → EReal) = Gen.V0 m c main_arg1 :=
  (keep_1_6 m _ c main_v5 (by decide) (by decide) (by decide) (by decide) (by decide)).trans (host0_v5 m c)

/-- at the second edge product, -/
theorem entry_edge11 (c : Dev nD) : (Hand.U11 m c main_v5 : S800000x128.Idx → EReal) = Gen.V0 m c main_arg1 := by
  rw [← Hand.V_eq_11]
  exact (Gen.V11_of m _ c main_v5 (by decide)).trans <| (Gen.V10_of m _ c main_v5 (by decide)).trans <|
    (Gen.V9_of m _ c main_v5 (by decide)).trans <| (Gen.V8_of m _ c main_v5 (by decide)).trans <|
    (Gen.V7_of m _ c main_v5 (by decide)).trans (entry_edge6 m c)

/-- at the second aggregation, -/
theorem entry_edge12 (c : Dev nD) : (Gen.V12 m (Hand.outs m) c main_v5 : S800000x128.Idx → EReal) = Gen.V0 m c main_arg1 :=
  (keep_6_12 m _ c main_v5 (by decide) (by decide) (by decide) (by decide) (by decide) (by decide)).trans (entry_edge6 m c)

/-- and at the third edge product. -/
theorem entry_edge17 (c : Dev nD) : (Hand.U17 m c main_v5 : S800000x128.Idx → EReal) = Gen.V0 m c main_arg1 := by
  rw [← Hand.V_eq_17]
  exact (Gen.V17_of m _ c main_v5 (by decide)).trans <| (Gen.V16_of m _ c main_v5 (by decide)).trans <|
    (Gen.V15_of m _ c main_v5 (by decide)).trans <| (Gen.V14_of m _ c main_v5 (by decide)).trans <|
    (Gen.V13_of m _ c main_v5 (by decide)).trans (entry_edge12 m c)

/-! ## The output projection's matrix -/

/-- Nothing writes the narrowed output projection matrix after the first host stretch. -/
theorem entry_outProj21 (c : Dev nD) : (Hand.U21 m c main_v7 : S128x128.Idx → EReal) = Gen.V0 m c main_arg9 := by
  rw [← Hand.V_eq_21]
  exact (Gen.V21_of m _ c main_v7 (by decide)).trans <| (Gen.V20_of m _ c main_v7 (by decide)).trans <|
    (Gen.V19_of m _ c main_v7 (by decide)).trans <|
    (keep_12_18 m _ c main_v7 (by decide) (by decide) (by decide) (by decide) (by decide) (by decide)).trans <|
    (keep_6_12 m _ c main_v7 (by decide) (by decide) (by decide) (by decide) (by decide) (by decide)).trans <|
    (keep_1_6 m _ c main_v7 (by decide) (by decide) (by decide) (by decide) (by decide)).trans (host0_v7 m c)

/-! ## The two products at each aggregation -/

/-- The first aggregation reads the first node product -/
theorem entry_h6 (c : Dev nD) : (Gen.V6 m (Hand.outs m) c main_v16 : S100000x128.Idx → EReal) = Hand.o4 m c := by
  rw [Gen.V6_of m _ c main_v16 (by decide), Gen.V5_of m _ c main_v16 (by decide), Hand.V_eq_4, Hand.U4_out]

/-- and the first edge product. -/
theorem entry_ew6 (c : Dev nD) : (Gen.V6 m (Hand.outs m) c main_v19 : S800000x128.Idx → EReal) = Hand.o6 m c := by
  rw [Hand.V_eq_6, Hand.U6_out]

/-- The second aggregation reads the second node product -/
theorem entry_h12 (c : Dev nD) : (Gen.V12 m (Hand.outs m) c main_v44 : S100000x128.Idx → EReal) = Hand.o10 m c := by
  rw [Gen.V12_of m _ c main_v44 (by decide), Gen.V11_of m _ c main_v44 (by decide), Hand.V_eq_10, Hand.U10_out]

/-- and the second edge product. -/
theorem entry_ew12 (c : Dev nD) : (Gen.V12 m (Hand.outs m) c main_v47 : S800000x128.Idx → EReal) = Hand.o12 m c := by
  rw [Hand.V_eq_12, Hand.U12_out]

/-- The third aggregation reads the third node product -/
theorem entry_h18 (c : Dev nD) : (Gen.V18 m (Hand.outs m) c main_v72 : S100000x128.Idx → EReal) = Hand.o16 m c := by
  rw [Gen.V18_of m _ c main_v72 (by decide), Gen.V17_of m _ c main_v72 (by decide), Hand.V_eq_16, Hand.U16_out]

/-- and the third edge product. -/
theorem entry_ew18 (c : Dev nD) : (Gen.V18 m (Hand.outs m) c main_v75 : S800000x128.Idx → EReal) = Hand.o18 m c := by
  rw [Hand.V_eq_18, Hand.U18_out]

/-! ## The residuals -/

/-- The second layer's closing call adds what the first layer's closing call left. -/
theorem entry_res13 (c : Dev nD) : (Hand.U13 m c main_v40 : S100000x128.Idx → EReal) = Hand.o8 m c := by
  rw [← Hand.V_eq_13, Gen.V13_of m _ c main_v40 (by decide), Gen.V12_of m _ c main_v40 (by decide),
    Gen.V11_of m _ c main_v40 (by decide), Gen.V10_of m _ c main_v40 (by decide), Gen.V9_of m _ c main_v40 (by decide),
    Hand.V_eq_8, Hand.U8_out]

/-- The third layer's closing call adds what the second layer's closing call left. -/
theorem entry_res19 (c : Dev nD) : (Hand.U19 m c main_v68 : S100000x128.Idx → EReal) = Hand.o14 m c := by
  rw [← Hand.V_eq_19, Gen.V19_of m _ c main_v68 (by decide), Gen.V18_of m _ c main_v68 (by decide),
    Gen.V17_of m _ c main_v68 (by decide), Gen.V16_of m _ c main_v68 (by decide), Gen.V15_of m _ c main_v68 (by decide),
    Hand.V_eq_14, Hand.U14_out]

end Cert.KernelIdeal.Val

end
-- ==== Proof.KV.PayMM1.lean ====
import proofs.«402750_j37864431681686_1_alg».proof.Proof.Gen.KernelIdeal.Skeleton
import Idealize.ShloMosaic.Lib.ValueIdx
import Idealize.ShloMosaic.Lib.Pipeline.Value
import Idealize.ShloMosaic.PureOps.Ideal.Laws

/-! The block product of region 1 at an index: the accumulator, zeroed at the one contraction step, plus the
    block's matrix product is, at row `p` and column `q`, the sum over `k` of the left block at `(p, k)` times the
    right block at `(k, q)`. Pure: over the payloads only, at the ideal values. -/

noncomputable section

namespace Cert.KernelIdeal.Val

open Cert.KernelIdeal Cert.KernelIdeal.Gen Idealize.ShloMosaic Idealize.ShloMosaic.ValueIdx Idealize.SL.Sem

/-- The left operand's row is the output's row. -/
theorem lhs_mm1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction coordinate. -/
theorem lhs_mm1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction coordinate. -/
theorem rhs_mm1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_mm1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product into the zero accumulator, at `(p, q)`. -/
theorem matmul_mm1_apply (x0 : FVec Ideal S2000x128 .bf16) (x1 : FVec Ideal S128x128 .bf16) (p : Fin 2000) (q : Fin 128) :
    FloatOps.matmul dot_S2000x128_S128x128_S2000x128_1_0_0_1_n_n none x0 x1 (constant (F := Ideal) S2000x128 .f32 0x00000000#32) (ix2 p q)
      = ∑ k : Fin 128, x0 (ix2 p k) * x1 (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

/-- The accumulator's initial value is zero everywhere. -/
theorem pay1_mm1_apply (j : S2000x128.Idx) : k1_pay1 (F := Ideal) j = 0 := by
  unfold k1_pay1
  rw [shapeCast_self]
  exact Ideal.ofBits_zero_f32

/-- The block product of region 1 at `(p, q)`: the sum over `k` of the left block at `(p, k)` times the right at `(k, q)`. -/
theorem pay_mm1 (x0 : FVec Ideal S2000x128 .bf16) (x1 : FVec Ideal S128x128 .bf16) (p : Fin 2000) (q : Fin 128) :
    k1_pay2 (F := Ideal) (k1_pay1 (F := Ideal)) x0 x1 (ix2 p q) = ∑ k : Fin 128, x0 (ix2 p k) * x1 (ix2 k q) := by
  unfold k1_pay2
  simp only [shapeCast_self]
  rw [addf_apply, pay1_mm1_apply, zero_add]
  exact matmul_mm1_apply x0 x1 p q

end Cert.KernelIdeal.Val
-- ==== Proof.KV.PayMM0.lean ====
import proofs.«402750_j37864431681686_1_alg».proof.Proof.KV.PayMM1
import Idealize.ShloMosaic.Lib.ValueLayout

/-! The block of region 0 at an index: the accumulator, zeroed at the one contraction step, plus the block's matrix
    product, plus the bias row broadcast over the rows, is, at row `p` and column `q`, the sum over `k` of the left block
    at `(p, k)` times the right block at `(k, q)`, plus the bias row at `q`. Pure: over the payloads only. -/

noncomputable section

namespace Cert.KernelIdeal.Val

open Cert.KernelIdeal Cert.KernelIdeal.Gen Idealize.ShloMosaic Idealize.ShloMosaic.ValueIdx Idealize.SL.Sem

/-- The accumulator's initial value is zero everywhere. -/
theorem pay1_mm0_apply (j : S2000x128.Idx) : k0_pay1 (F := Ideal) j = 0 := by
  unfold k0_pay1
  rw [shapeCast_self]
  exact Ideal.ofBits_zero_f32

/-- The accumulated block product of region 0 at `(p, q)`. -/
theorem pay2_mm0 (x0 : FVec Ideal S2000x128 .bf16) (x1 : FVec Ideal S128x128 .bf16) (p : Fin 2000) (q : Fin 128) :
    k0_pay2 (F := Ideal) (k0_pay1 (F := Ideal)) x0 x1 (ix2 p q) = ∑ k : Fin 128, x0 (ix2 p k) * x1 (ix2 k q) := by
  unfold k0_pay2
  simp only [shapeCast_self]
  rw [addf_apply, pay1_mm0_apply, zero_add]
  exact matmul_mm1_apply x0 x1 p q

/-- The stored block of region 0 at `(p, q)`: the block product there plus the bias row at `q`. -/
theorem pay_mm0 (x0 : FVec Ideal S2000x128 .bf16) (x1 : FVec Ideal S128x128 .bf16) (x2 : FVec Ideal S1x128 .f32) (p : Fin 2000) (q : Fin 128) :
    k0_pay3 (F := Ideal) (k0_pay2 (F := Ideal) (k0_pay1 (F := Ideal)) x0 x1) x2 (ix2 p q)
      = (∑ k : Fin 128, x0 (ix2 p k) * x1 (ix2 k q)) + x2 (ix2 (0 : Fin 1) q) := by
  unfold k0_pay3
  simp only [shapeCast_self]
  rw [addf_apply, broadcastTo_1b_ab_apply, pay2_mm0]

end Cert.KernelIdeal.Val
-- ==== Proof.KV.MMSpec.lean ====
import Idealize.ShloMosaic.Lib.ValueIdx

/-! The product of an [N, 128] array and a [128, 128] array over the extended reals, index by index: what every
    matrix-product call of the program leaves in its output array, and what the reference's product is. -/

noncomputable section

namespace Cert.KernelIdeal.Val

open Idealize.ShloMosaic Idealize.ShloMosaic.ValueIdx

/-- At row `p` and column `q`: the sum over `k` of the left array at `(p, k)` times the right array at `(k, q)`. -/
def prod128 {N : Nat} (A : (⟨2, ![N, 128]⟩ : Shape).Idx → EReal) (B : (⟨2, ![128, 128]⟩ : Shape).Idx → EReal) :
    (⟨2, ![N, 128]⟩ : Shape).Idx → EReal :=
  fun i => ∑ k : Fin 128, A (ix2 (i 0) k) * B (ix2 k (i 1))

theorem prod128_apply {N : Nat} (A : (⟨2, ![N, 128]⟩ : Shape).Idx → EReal) (B : (⟨2, ![128, 128]⟩ : Shape).Idx → EReal)
    (p : Fin N) (q : Fin 128) : prod128 A B (ix2 p q) = ∑ k : Fin 128, A (ix2 p k) * B (ix2 k q) := rfl

/-- The product depends on its operands only through their values. -/
theorem prod128_congr {N : Nat} {A A' : (⟨2, ![N, 128]⟩ : Shape).Idx → EReal} {B B' : (⟨2, ![128, 128]⟩ : Shape).Idx → EReal}
    (hA : ∀ i, A i = A' i) (hB : ∀ i, B i = B' i) (i : (⟨2, ![N, 128]⟩ : Shape).Idx) : prod128 A B i = prod128 A' B' i := by
  unfold prod128
  exact Finset.sum_congr rfl fun k _ => by rw [hA, hB]

end Cert.KernelIdeal.Val
-- ==== Proof.KV.BlkMM0.lean ====
import proofs.«402750_j37864431681686_1_alg».proof.Proof.KV.PayMM0
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 0 (with a bias row). The call walks 50 row blocks of
    2000 rows; at block `t` the body leaves in the output's buffer the product of the left array's block `t` and the
    whole right array, plus the bias row on every row. The 50 blocks tile the output array, so it ends holding the
    product of the two arrays plus the bias row, index by index. Stated for ANY proof data over the call's windows whose
    output block is that function of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window and the bias row sit on their one block; the output's row block is the point's number. -/
theorem idx_mm0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

variable (V : (c : Dev nD) → (b : Ref sig .tc) → Buf (Elt Ideal) ((c : Thread nD τ).loc b))

/-- What point `t` writes back is block `t` of the product of the two arrays plus the bias row, as the call finds them. -/
theorem flushed_mm0 {c : Dev nD} (dat : Dat τ (Elt Ideal) Unit ℕ (UR sig nD τ) ℕ cfg0 c)
    (hafter : ∀ t, dat.after 3 t = k0_pay3 (F := Ideal) (k0_pay2 (F := Ideal) (k0_pay1 (F := Ideal))
        (((cfg0.win 0).blk t).view.read (Elt Ideal) (V c (Pipeline.arrRef spec0 0)))
        (((cfg0.win 1).blk t).view.read (Elt Ideal) (V c (Pipeline.arrRef spec0 1))))
        (((cfg0.win 2).blk t).view.read (Elt Ideal) (V c (Pipeline.arrRef spec0 2))))
    (t : Fin cfg0.N) :
    dat.flushed 3 t = ((cfg0.win 3).blk t).view.read (Elt Ideal)
      (fun i => prod128 (V c main_v4) (V c main_v6) i + V c main_v11 (ix2 (0 : Fin 1) (i 1))) := by
  show (cfg0.win 3).cut (grid0.coords t) (dat.after 3 t) = _
  rw [hafter]
  obtain ⟨e0, e1, e2, e3, e4, e5, e6, e7⟩ := idx_mm0 t
  funext j
  obtain ⟨p, q, rfl⟩ : ∃ (p : Fin 2000) (q : Fin 128), j = ix2 p q := ⟨j 0, j 1, eq_ix2 j⟩
  show k0_pay3 (F := Ideal) (k0_pay2 (F := Ideal) (k0_pay1 (F := Ideal)) _ _) _ (ix2 p q)
    = prod128 (V c main_v4) (V c main_v6) (((cfg0.win 3).blk t).view.emb (ix2 p q))
      + V c main_v11 (ix2 (0 : Fin 1) ((((cfg0.win 3).blk t).view.emb (ix2 p q)) 1))
  rw [pay_mm0]
  unfold prod128
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [View.read_apply, h2]
  refine congrArg₂ (· + ·) (Finset.sum_congr rfl fun k _ => ?_) rfl
  have h0 : ((cfg0.win 0).blk t).view.emb (ix2 p k) = ix2 ((((cfg0.win 3).blk t).view.emb (ix2 p q)) 0) k := by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 3).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  rw [View.read_apply, View.read_apply, h0, h1]
  rfl

/-- An index of the output array is in point `t`'s block iff each coordinate is in the block's range on its axis. -/
theorem mem_blk_mm0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12).slice (win0_3.rect t)).set ↔ _
  rw [View.set_slice_whole, Rect.mem_set_unit]
  exact Iff.rfl

/-- Every index of the output array is in some point's block: row `r` is in block `r / 2000`. -/
theorem cover_mm0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 2000 < cfg0.N := by show (i 0).val / 2000 < 50; omega
  obtain ⟨e0, e1, e2, e3, e4, e5, e6, e7⟩ := idx_mm0 ⟨(i 0).val / 2000, ht⟩
  have e7' : win0_3.index ⟨(i 0).val / 2000, ht⟩ (0 : Fin 2) = (i 0).val / 2000 := e7
  refine ⟨⟨(i 0).val / 2000, ht⟩, flush0_3 _, ?_⟩
  rw [mem_blk_mm0]
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; omega
  | ⟨1, _⟩ => show win0_3.index ⟨(i 0).val / 2000, ht⟩ (1 : Fin 2) * 128 ≤ (i 1).val ∧ (i 1).val < win0_3.index ⟨(i 0).val / 2000, ht⟩ (1 : Fin 2) * 128 + 128; omega

/-- The output array after the call: the product of the two arrays plus the bias row, as the call finds them. -/
theorem arr_mm0 {c : Dev nD} (dat : Dat τ (Elt Ideal) Unit ℕ (UR sig nD τ) ℕ cfg0 c)
    (hafter : ∀ t, dat.after 3 t = k0_pay3 (F := Ideal) (k0_pay2 (F := Ideal) (k0_pay1 (F := Ideal))
        (((cfg0.win 0).blk t).view.read (Elt Ideal) (V c (Pipeline.arrRef spec0 0)))
        (((cfg0.win 1).blk t).view.read (Elt Ideal) (V c (Pipeline.arrRef spec0 1))))
        (((cfg0.win 2).blk t).view.read (Elt Ideal) (V c (Pipeline.arrRef spec0 2)))) :
    dat.arrAt 3 cfg0.N = fun i => prod128 (V c main_v4) (V c main_v6) i + V c main_v11 (ix2 (0 : Fin 1) (i 1)) :=
  dat.arrAt_eq_of_cover 3 _ (fun t _ => flushed_mm0 V dat hafter t) cover_mm0

end Cert.KernelIdeal.Val
-- ==== Proof.KV.RefDot.lean ====
import proofs.«402750_j37864431681686_1_alg».proof.Proof.Gen.ReferenceIdeal
import Idealize.ShloMosaic.Lib.ValueIdx
import Idealize.ShloMosaic.PureOps.Ideal.Laws

/-! The reference's two matrix products at an index, for ANY operands: at the ideal values the host's product of an
    [N, 128] array and a [128, 128] array is, at row `p` and column `q`, the sum over `k` of the left at `(p, k)` times
    the right at `(k, q)`. One statement per shape the reference multiplies (N = 100000 and N = 800000). -/

noncomputable section

namespace Cert.KernelIdeal.Val

open Idealize.ShloMosaic Idealize.ShloMosaic.ValueIdx Idealize.SL.Sem Idealize.ShloMosaic.StableHlo

/-! ## The [100000, 128] x [128, 128] product -/

/-- The left operand's row is the output's row. -/
theorem lhs_ref100000_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- The left operand's column is the contraction coordinate. -/
theorem lhs_ref100000_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row is the contraction coordinate. -/
theorem rhs_ref100000_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- The right operand's column is the output's column. -/
theorem rhs_ref100000_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product of an [100000, 128] array and a [128, 128] array at row `p`, column `q`: the sum over `k` of the
    left at `(p, k)` times the right at `(k, q)`. -/
theorem refdot100000_apply (X : FVec Ideal Cert.ReferenceIdeal.S100000x128 .f32) (W : FVec Ideal Cert.ReferenceIdeal.S128x128 .f32) (p : Fin 100000) (q : Fin 128) :
    Host.dotGeneral (F := Ideal) Cert.ReferenceIdeal.dot_S100000x128_S128x128_S100000x128_1_0_0_1_n_n none X W (ix2 p q) = ∑ k : Fin 128, X (ix2 p k) * W (ix2 k q) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((ValueIdx.contrEquiv1 Cert.ReferenceIdeal.dot_S100000x128_S128x128_S100000x128_1_0_0_1_n_n 128 rfl rfl).symm k) = ix2 p k := funext fun a => Fin.ext (by
    match a with
    | ⟨0, _⟩ => exact lhs_ref100000_0 _ _
    | ⟨1, _⟩ => exact (lhs_ref100000_1 _ _).trans hk)
  have er : Cert.ReferenceIdeal.dot_S100000x128_S128x128_S100000x128_1_0_0_1_n_n.rhsIdx (ix2 p q) ((ValueIdx.contrEquiv1 Cert.ReferenceIdeal.dot_S100000x128_S128x128_S100000x128_1_0_0_1_n_n 128 rfl rfl).symm k) = ix2 k q := funext fun a => Fin.ext (by
    match a with
    | ⟨0, _⟩ => exact (rhs_ref100000_0 _ _).trans hk
    | ⟨1, _⟩ => exact rhs_ref100000_1 _ _)
  rw [el, er]

/-! ## The [800000, 128] x [128, 128] product -/

/-- The left operand's row is the output's row. -/
theorem lhs_ref800000_0 (i : Cert.ReferenceIdeal.S800000x128.Idx) (q : Cert.ReferenceIdeal.dot_S800000x128_S128x128_S800000x128_1_0_0_1_n_n.contr.Idx) :
    (Cert.ReferenceIdeal.dot_S800000x128_S128x128_S800000x128_1_0_0_1_n_n.lhsIdx i q 0).val = (i 0).val := by
  unfold DotDims.lhsIdx
  rw [dif_neg (show ¬(0 : Fin Cert.ReferenceIdeal.S800000x128.rank) ∈ Cert.ReferenceIdeal.dot_S800000x128_S128x128_S800000x128_1_0_0_1_n_n.lhsBatch by decide), dif_pos (show (0 : Fin Cert.ReferenceIdeal.S800000x128.rank) ∈ Cert.ReferenceIdeal.dot_S800000x128_S128x128_S800000x128_1_0_0_1_n_n.lhsNonContracting by decide)]
  rfl
/-- The left operand's column is the contraction coordinate. -/
theorem lhs_ref800000_1 (i : Cert.ReferenceIdeal.S800000x128.Idx) (q : Cert.ReferenceIdeal.dot_S800000x128_S128x128_S800000x128_1_0_0_1_n_n.contr.Idx) :
    (Cert.ReferenceIdeal.dot_S800000x128_S128x128_S800000x128_1_0_0_1_n_n.lhsIdx i q 1).val = (q ⟨0, by decide⟩).val :=
  Cert.ReferenceIdeal.dot_S800000x128_S128x128_S800000x128_1_0_0_1_n_n.lhsIdx_val_of_single rfl i q
/-- The right operand's row is the contraction coordinate. -/
theorem rhs_ref800000_0 (i : Cert.ReferenceIdeal.S800000x128.Idx) (q : Cert.ReferenceIdeal.dot_S800000x128_S128x128_S800000x128_1_0_0_1_n_n.contr.Idx) :
    (Cert.ReferenceIdeal.dot_S800000x128_S128x128_S800000x128_1_0_0_1_n_n.rhsIdx i q 0).val = (q ⟨0, by decide⟩).val :=
  Cert.ReferenceIdeal.dot_S800000x128_S128x128_S800000x128_1_0_0_1_n_n.rhsIdx_val_of_single rfl i q
/-- The right operand's column is the output's column. -/
theorem rhs_ref800000_1 (i : Cert.ReferenceIdeal.S800000x128.Idx) (q : Cert.ReferenceIdeal.dot_S800000x128_S128x128_S800000x128_1_0_0_1_n_n.contr.Idx) :
    (Cert.ReferenceIdeal.dot_S800000x128_S128x128_S800000x128_1_0_0_1_n_n.rhsIdx i q 1).val = (i 1).val := by
  unfold DotDims.rhsIdx
  rw [dif_neg (show ¬(1 : Fin Cert.ReferenceIdeal.S128x128.rank) ∈ Cert.ReferenceIdeal.dot_S800000x128_S128x128_S800000x128_1_0_0_1_n_n.rhsBatch by decide), dif_pos (show (1 : Fin Cert.ReferenceIdeal.S128x128.rank) ∈ Cert.ReferenceIdeal.dot_S800000x128_S128x128_S800000x128_1_0_0_1_n_n.rhsNonContracting by decide)]
  rfl

/-- The host's product of an [800000, 128] array and a [128, 128] array at row `p`, column `q`: the sum over `k` of the
    left at `(p, k)` times the right at `(k, q)`. -/
theorem refdot800000_apply (X : FVec Ideal Cert.ReferenceIdeal.S800000x128 .f32) (W : FVec Ideal Cert.ReferenceIdeal.S128x128 .f32) (p : Fin 800000) (q : Fin 128) :
    Host.dotGeneral (F := Ideal) Cert.ReferenceIdeal.dot_S800000x128_S128x128_S800000x128_1_0_0_1_n_n none X W (ix2 p q) = ∑ k : Fin 128, X (ix2 p k) * W (ix2 k q) := by
  simp only [Host.dotGeneral]
  rw [Ideal.dotGeneral_apply, ← Equiv.sum_comp (ValueIdx.contrEquiv1 Cert.ReferenceIdeal.dot_S800000x128_S128x128_S800000x128_1_0_0_1_n_n 128 rfl rfl).symm]
  refine Finset.sum_congr rfl fun k _ => ?_
  have hk := ValueIdx.contrEquiv1_symm_val Cert.ReferenceIdeal.dot_S800000x128_S128x128_S800000x128_1_0_0_1_n_n 128 rfl rfl k
  have el : Cert.ReferenceIdeal.dot_S800000x128_S128x128_S800000x128_1_0_0_1_n_n.lhsIdx (ix2 p q) ((ValueIdx.contrEquiv1 Cert.ReferenceIdeal.dot_S800000x128_S128x128_S800000x128_1_0_0_1_n_n 128 rfl rfl).symm k) = ix2 p k := funext fun a => Fin.ext (by
    match a with
    | ⟨0, _⟩ => exact lhs_ref800000_0 _ _
    | ⟨1, _⟩ => exact (lhs_ref800000_1 _ _).trans hk)
  have er : Cert.ReferenceIdeal.dot_S800000x128_S128x128_S800000x128_1_0_0_1_n_n.rhsIdx (ix2 p q) ((ValueIdx.contrEquiv1 Cert.ReferenceIdeal.dot_S800000x128_S128x128_S800000x128_1_0_0_1_n_n 128 rfl rfl).symm k) = ix2 k q := funext fun a => Fin.ext (by
    match a with
    | ⟨0, _⟩ => exact (rhs_ref800000_0 _ _).trans hk
    | ⟨1, _⟩ => exact rhs_ref800000_1 _ _)
  rw [el, er]

end Cert.KernelIdeal.Val
-- ==== Proof.KV.MM0.lean ====
import proofs.«402750_j37864431681686_1_alg».proof.Proof.KI.R0
import proofs.«402750_j37864431681686_1_alg».proof.Proof.KV.BlkMM0
import proofs.«402750_j37864431681686_1_alg».proof.Proof.KV.RefDot
import proofs.«402750_j37864431681686_1_alg».proof.Proof.RefRead

/-! Matrix-product call number 0 (with a bias row) against the reference: the output array after the call is the
    reference's product of the two arrays the call finds on entry plus the bias vector on every row, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 0, for the call's own proof data: the product of the two entry arrays plus the
    entry bias row. -/
theorem arr0_eq (c : Dev nD) : (Hand.dat0 (F := Ideal) V c).arrAt 3 cfg0.N
    = fun i => prod128 (V c main_v4) (V c main_v6) i + V c main_v11 (ix2 (0 : Fin 1) (i 1)) :=
  arr_mm0 V (Hand.dat0 (F := Ideal) V c) (fun t => by rw [Hand.after0_3, Hand.out0_eq]; rfl)

/-- The output array after call 0 is the reference's product of whatever the two entry arrays hold, plus the bias
    vector `b` at the column, when the entry bias row holds `b`. -/
theorem mm0_val (c : Dev nD) (X : FVec Ideal S100000x128 .f32) (W : FVec Ideal S128x128 .f32) (b : FVec Ideal S128 .f32)
    (hX : ∀ i, V c main_v4 i = X i) (hW : ∀ i, V c main_v6 i = W i)
    (hB : ∀ j : Fin 128, V c main_v11 (ix2 (0 : Fin 1) j) = b (ix1 j)) :
    ∀ i, (Hand.dat0 (F := Ideal) V c).arrAt 3 cfg0.N i
      = Host.dotGeneral (F := Ideal) Cert.ReferenceIdeal.dot_S100000x128_S128x128_S100000x128_1_0_0_1_n_n none X W i + b (ix1 (i 1)) := by
  intro i
  obtain ⟨p, q, rfl⟩ : ∃ (p : Fin 100000) (q : Fin 128), i = ix2 p q := ⟨i 0, i 1, eq_ix2 i⟩
  rw [arr0_eq]
  show prod128 (V c main_v4) (V c main_v6) (ix2 p q) + V c main_v11 (ix2 (0 : Fin 1) q)
    = Host.dotGeneral (F := Ideal) Cert.ReferenceIdeal.dot_S100000x128_S128x128_S100000x128_1_0_0_1_n_n none X W (ix2 p q) + b (ix1 q)
  rw [prod128_congr hX hW, hB, refdot100000_apply]
  rfl

/-- The reference's bias vector broadcast over the rows, read at an index: the vector at the column. -/
theorem ref_bias_v6_apply (b : FVec Ideal S128 .f32) (i : S100000x128.Idx) :
    Cert.ReferenceIdeal.Read.val_main_v6 (F := Ideal) b i = b (ix1 (i 1)) := by
  rw [Cert.ReferenceIdeal.Read.val_main_v6_apply, Cert.ReferenceIdeal.Read.val_main_v5_apply]
  exact congrArg b (funext fun a => match a with | ⟨0, _⟩ => rfl)

/-- The output array after call 0 is the reference's first stage (product plus bias) of what the entry arrays hold. -/
theorem mm0_ref (c : Dev nD) (X : FVec Ideal S100000x128 .f32) (W : FVec Ideal S128x128 .f32) (b : FVec Ideal S128 .f32)
    (hX : ∀ i, V c main_v4 i = X i) (hW : ∀ i, V c main_v6 i = W i)
    (hB : ∀ j : Fin 128, V c main_v11 (ix2 (0 : Fin 1) j) = b (ix1 j)) :
    ∀ i, (Hand.dat0 (F := Ideal) V c).arrAt 3 cfg0.N i = Cert.ReferenceIdeal.Read.val_main_v7 (F := Ideal) X W b i := by
  intro i
  rw [mm0_val V c X W b hX hW hB i, Cert.ReferenceIdeal.Read.val_main_v7_apply, ref_bias_v6_apply]
  rfl

end Cert.KernelIdeal.Val
-- ==== Proof.KV.BlkMM1.lean ====
import proofs.«402750_j37864431681686_1_alg».proof.Proof.KV.PayMM1
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 1. The call walks 50 row blocks of 2000 rows; at block
    `t` the body leaves in the output's buffer the product of the left array's block `t` and the whole right array.
    The 50 blocks tile the output array, so it ends holding the product of the two arrays, index by index. Stated for
    ANY proof data over the call's windows whose output block is that product of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window sits on its one block; the output's row block is the point's number. -/
theorem idx_mm1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_3.index t (1 : Fin 2) = 0 ∧ win1_3.index t (0 : Fin 2) = t.val :=
  (by decide +kernel : ∀ t : Fin grid1.N, _)

variable (V : (c : Dev nD) → (b : Ref sig .tc) → Buf (Elt Ideal) ((c : Thread nD τ).loc b))

/-- What point `t` writes back is block `t` of the product of the two arrays as the call finds them. -/
theorem flushed_mm1 {c : Dev nD} (dat : Dat τ (Elt Ideal) Unit ℕ (UR sig nD τ) ℕ cfg1 c)
    (hafter : ∀ t, dat.after 3 t = k1_pay2 (F := Ideal) (k1_pay1 (F := Ideal))
        (((cfg1.win 0).blk t).view.read (Elt Ideal) (V c (Pipeline.arrRef spec1 0)))
        (((cfg1.win 1).blk t).view.read (Elt Ideal) (V c (Pipeline.arrRef spec1 1))))
    (t : Fin cfg1.N) :
    dat.flushed 3 t = ((cfg1.win 3).blk t).view.read (Elt Ideal) (prod128 (V c main_v13) (V c main_v15)) := by
  show (cfg1.win 3).cut (grid1.coords t) (dat.after 3 t) = _
  rw [hafter]
  obtain ⟨e0, e1, e2, e3, e4, e5⟩ := idx_mm1 t
  funext j
  obtain ⟨p, q, rfl⟩ : ∃ (p : Fin 2000) (q : Fin 128), j = ix2 p q := ⟨j 0, j 1, eq_ix2 j⟩
  show k1_pay2 (F := Ideal) (k1_pay1 (F := Ideal)) _ _ (ix2 p q) = prod128 (V c main_v13) (V c main_v15) (((cfg1.win 3).blk t).view.emb (ix2 p q))
  rw [pay_mm1]
  unfold prod128
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have h1 : ((cfg1.win 1).blk t).view.emb (ix2 k q) = ix2 k ((((cfg1.win 3).blk t).view.emb (ix2 p q)) 1) := by
    funext a; apply Fin.ext
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  rw [View.read_apply, View.read_apply, h0, h1]
  rfl

/-- An index of the output array is in point `t`'s block iff each coordinate is in the block's range on its axis. -/
theorem mem_blk_mm1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v16).slice (win1_3.rect t)).set ↔ _
  rw [View.set_slice_whole, Rect.mem_set_unit]
  exact Iff.rfl

/-- Every index of the output array is in some point's block: row `r` is in block `r / 2000`. -/
theorem cover_mm1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 2000 < cfg1.N := by show (i 0).val / 2000 < 50; omega
  obtain ⟨e0, e1, e2, e3, e4, e5⟩ := idx_mm1 ⟨(i 0).val / 2000, ht⟩
  have e5' : win1_3.index ⟨(i 0).val / 2000, ht⟩ (0 : Fin 2) = (i 0).val / 2000 := e5
  refine ⟨⟨(i 0).val / 2000, ht⟩, flush1_3 _, ?_⟩
  rw [mem_blk_mm1]
  intro a
  match a with
  | ⟨0, _⟩ => show win1_3.index ⟨(i 0).val / 2000, ht⟩ (0 : Fin 2) * 2000 ≤ (i 0).val ∧ (i 0).val < win1_3.index ⟨(i 0).val / 2000, ht⟩ (0 : Fin 2) * 2000 + 2000; omega
  | ⟨1, _⟩ => show win1_3.index ⟨(i 0).val / 2000, ht⟩ (1 : Fin 2) * 128 ≤ (i 1).val ∧ (i 1).val < win1_3.index ⟨(i 0).val / 2000, ht⟩ (1 : Fin 2) * 128 + 128; omega

/-- The output array after the call: the product of the two arrays as the call finds them. -/
theorem arr_mm1 {c : Dev nD} (dat : Dat τ (Elt Ideal) Unit ℕ (UR sig nD τ) ℕ cfg1 c)
    (hafter : ∀ t, dat.after 3 t = k1_pay2 (F := Ideal) (k1_pay1 (F := Ideal))
        (((cfg1.win 0).blk t).view.read (Elt Ideal) (V c (Pipeline.arrRef spec1 0)))
        (((cfg1.win 1).blk t).view.read (Elt Ideal) (V c (Pipeline.arrRef spec1 1)))) :
    dat.arrAt 3 cfg1.N = prod128 (V c main_v13) (V c main_v15) :=
  dat.arrAt_eq_of_cover 3 (prod128 (V c main_v13) (V c main_v15)) (fun t _ => flushed_mm1 V dat hafter t) cover_mm1

end Cert.KernelIdeal.Val
-- ==== Proof.KV.MM1.lean ====
import proofs.«402750_j37864431681686_1_alg».proof.Proof.KI.R1
import proofs.«402750_j37864431681686_1_alg».proof.Proof.KV.BlkMM1
import proofs.«402750_j37864431681686_1_alg».proof.Proof.KV.RefDot

/-! Matrix-product call number 1 against the reference: the output array after the call is the reference's product of
    the two arrays the call finds on entry, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 1, for the call's own proof data: the product of the two entry arrays. -/
theorem arr1_eq (c : Dev nD) : (Hand.dat1 (F := Ideal) V c).arrAt 3 cfg1.N = prod128 (V c main_v13) (V c main_v15) :=
  arr_mm1 V (Hand.dat1 (F := Ideal) V c) (fun t => by rw [Hand.after1_3, Hand.out1_eq]; rfl)

/-- The output array after call 1 is the reference's product of whatever the two entry arrays hold. -/
theorem mm1_val (c : Dev nD) (X : FVec Ideal S100000x128 .f32) (W : FVec Ideal S128x128 .f32)
    (hX : ∀ i, V c main_v13 i = X i) (hW : ∀ i, V c main_v15 i = W i) :
    ∀ i, (Hand.dat1 (F := Ideal) V c).arrAt 3 cfg1.N i
      = Host.dotGeneral (F := Ideal) Cert.ReferenceIdeal.dot_S100000x128_S128x128_S100000x128_1_0_0_1_n_n none X W i := by
  intro i
  rw [arr1_eq, prod128_congr hX hW]
  obtain ⟨p, q, rfl⟩ : ∃ (p : Fin 100000) (q : Fin 128), i = ix2 p q := ⟨i 0, i 1, eq_ix2 i⟩
  rw [refdot100000_apply]
  rfl

end Cert.KernelIdeal.Val
-- ==== Proof.KV.PayMM2.lean ====
import proofs.«402750_j37864431681686_1_alg».proof.Proof.Gen.KernelIdeal.Skeleton
import Idealize.ShloMosaic.Lib.ValueIdx
import Idealize.ShloMosaic.Lib.Pipeline.Value
import Idealize.ShloMosaic.PureOps.Ideal.Laws

/-! The block product of region 2 at an index: the accumulator, zeroed at the one contraction step, plus the
    block's matrix product is, at row `p` and column `q`, the sum over `k` of the left block at `(p, k)` times the
    right block at `(k, q)`. Pure: over the payloads only, at the ideal values. -/

noncomputable section

namespace Cert.KernelIdeal.Val

open Cert.KernelIdeal Cert.KernelIdeal.Gen Idealize.ShloMosaic Idealize.ShloMosaic.ValueIdx Idealize.SL.Sem

/-- The left operand's row is the output's row. -/
theorem lhs_mm2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction coordinate. -/
theorem lhs_mm2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction coordinate. -/
theorem rhs_mm2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_mm2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at `(p, q)`. -/
theorem matmul_mm2_apply (x0 : FVec Ideal S5000x128 .bf16) (x1 : FVec Ideal S128x128 .bf16) (p : Fin 5000) (q : Fin 128) :
    FloatOps.matmul dot_S5000x128_S128x128_S5000x128_1_0_0_1_n_n none x0 x1 (constant (F := Ideal) S5000x128 .f32 0x00000000#32) (ix2 p q)
      = ∑ k : Fin 128, x0 (ix2 p k) * x1 (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-- The accumulator's initial value is zero everywhere. -/
theorem pay1_mm2_apply (j : S5000x128.Idx) : k2_pay1 (F := Ideal) j = 0 := by
  unfold k2_pay1
  rw [shapeCast_self]
  exact Ideal.ofBits_zero_f32

/-- The block product of region 2 at `(p, q)`: the sum over `k` of the left block at `(p, k)` times the right at `(k, q)`. -/
theorem pay_mm2 (x0 : FVec Ideal S5000x128 .bf16) (x1 : FVec Ideal S128x128 .bf16) (p : Fin 5000) (q : Fin 128) :
    k2_pay2 (F := Ideal) (k2_pay1 (F := Ideal)) x0 x1 (ix2 p q) = ∑ k : Fin 128, x0 (ix2 p k) * x1 (ix2 k q) := by
  unfold k2_pay2
  simp only [shapeCast_self]
  rw [addf_apply, pay1_mm2_apply, zero_add]
  exact matmul_mm2_apply x0 x1 p q

end Cert.KernelIdeal.Val
-- ==== Proof.KV.BlkMM2.lean ====
import proofs.«402750_j37864431681686_1_alg».proof.Proof.KV.PayMM2
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 2. The call walks 160 row blocks of 5000 rows; at block
    `t` the body leaves in the output's buffer the product of the left array's block `t` and the whole right array.
    The 160 blocks tile the output array, so it ends holding the product of the two arrays, index by index. Stated for
    ANY proof data over the call's windows whose output block is that product of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window sits on its one block; the output's row block is the point's number. -/
theorem idx_mm2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_3.index t (1 : Fin 2) = 0 ∧ win2_3.index t (0 : Fin 2) = t.val :=
  (by decide +kernel : ∀ t : Fin grid2.N, _)

variable (V : (c : Dev nD) → (b : Ref sig .tc) → Buf (Elt Ideal) ((c : Thread nD τ).loc b))

/-- What point `t` writes back is block `t` of the product of the two arrays as the call finds them. -/
theorem flushed_mm2 {c : Dev nD} (dat : Dat τ (Elt Ideal) Unit ℕ (UR sig nD τ) ℕ cfg2 c)
    (hafter : ∀ t, dat.after 3 t = k2_pay2 (F := Ideal) (k2_pay1 (F := Ideal))
        (((cfg2.win 0).blk t).view.read (Elt Ideal) (V c (Pipeline.arrRef spec2 0)))
        (((cfg2.win 1).blk t).view.read (Elt Ideal) (V c (Pipeline.arrRef spec2 1))))
    (t : Fin cfg2.N) :
    dat.flushed 3 t = ((cfg2.win 3).blk t).view.read (Elt Ideal) (prod128 (V c main_v5) (V c main_v18)) := by
  show (cfg2.win 3).cut (grid2.coords t) (dat.after 3 t) = _
  rw [hafter]
  obtain ⟨e0, e1, e2, e3, e4, e5⟩ := idx_mm2 t
  funext j
  obtain ⟨p, q, rfl⟩ : ∃ (p : Fin 5000) (q : Fin 128), j = ix2 p q := ⟨j 0, j 1, eq_ix2 j⟩
  show k2_pay2 (F := Ideal) (k2_pay1 (F := Ideal)) _ _ (ix2 p q) = prod128 (V c main_v5) (V c main_v18) (((cfg2.win 3).blk t).view.emb (ix2 p q))
  rw [pay_mm2]
  unfold prod128
  refine Finset.sum_congr rfl fun k _ => ?_
  have h0 : ((cfg2.win 0).blk t).view.emb (ix2 p k) = ix2 ((((cfg2.win 3).blk t).view.emb (ix2 p q)) 0) k := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 3).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  rw [View.read_apply, View.read_apply, h0, h1]
  rfl

/-- An index of the output array is in point `t`'s block iff each coordinate is in the block's range on its axis. -/
theorem mem_blk_mm2 (t : Fin cfg2.N) (i : S800000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v19).slice (win2_3.rect t)).set ↔ _
  rw [View.set_slice_whole, Rect.mem_set_unit]
  exact Iff.rfl

/-- Every index of the output array is in some point's block: row `r` is in block `r / 5000`. -/
theorem cover_mm2 (i : S800000x128.Idx) :
    ∃ t : Fin cfg2.N, (cfg2.win 3).flush t = true ∧ i ∈ ((cfg2.win 3).blk t).view.set := by
  have hi0 : (i 0).val < 800000 := (i 0).isLt
  have hi1 : (i 1).val < 128 := (i 1).isLt
  have ht : (i 0).val / 5000 < cfg2.N := by show (i 0).val / 5000 < 160; omega
  obtain ⟨e0, e1, e2, e3, e4, e5⟩ := idx_mm2 ⟨(i 0).val / 5000, ht⟩
  have e5' : win2_3.index ⟨(i 0).val / 5000, ht⟩ (0 : Fin 2) = (i 0).val / 5000 := e5
  refine ⟨⟨(i 0).val / 5000, ht⟩, flush2_3 _, ?_⟩
  rw [mem_blk_mm2]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 128 ≤ (i 1).val ∧ (i 1).val < win2_3.index ⟨(i 0).val / 5000, ht⟩ (1 : Fin 2) * 128 + 128; omega

/-- The output array after the call: the product of the two arrays as the call finds them. -/
theorem arr_mm2 {c : Dev nD} (dat : Dat τ (Elt Ideal) Unit ℕ (UR sig nD τ) ℕ cfg2 c)
    (hafter : ∀ t, dat.after 3 t = k2_pay2 (F := Ideal) (k2_pay1 (F := Ideal))
        (((cfg2.win 0).blk t).view.read (Elt Ideal) (V c (Pipeline.arrRef spec2 0)))
        (((cfg2.win 1).blk t).view.read (Elt Ideal) (V c (Pipeline.arrRef spec2 1)))) :
    dat.arrAt 3 cfg2.N = prod128 (V c main_v5) (V c main_v18) :=
  dat.arrAt_eq_of_cover 3 (prod128 (V c main_v5) (V c main_v18)) (fun t _ => flushed_mm2 V dat hafter t) cover_mm2

end Cert.KernelIdeal.Val
-- ==== Proof.KV.MM2.lean ====
import proofs.«402750_j37864431681686_1_alg».proof.Proof.KI.R2
import proofs.«402750_j37864431681686_1_alg».proof.Proof.KV.BlkMM2
import proofs.«402750_j37864431681686_1_alg».proof.Proof.KV.RefDot

/-! Matrix-product call number 2 against the reference: the output array after the call is the reference's product of
    the two arrays the call finds on entry, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 2, for the call's own proof data: the product of the two entry arrays. -/
theorem arr2_eq (c : Dev nD) : (Hand.dat2 (F := Ideal) V c).arrAt 3 cfg2.N = prod128 (V c main_v5) (V c main_v18) :=
  arr_mm2 V (Hand.dat2 (F := Ideal) V c) (fun t => by rw [Hand.after2_3, Hand.out2_eq]; rfl)

/-- The output array after call 2 is the reference's product of whatever the two entry arrays hold. -/
theorem mm2_val (c : Dev nD) (X : FVec Ideal S800000x128 .f32) (W : FVec Ideal S128x128 .f32)
    (hX : ∀ i, V c main_v5 i = X i) (hW : ∀ i, V c main_v18 i = W i) :
    ∀ i, (Hand.dat2 (F := Ideal) V c).arrAt 3 cfg2.N i
      = Host.dotGeneral (F := Ideal) Cert.ReferenceIdeal.dot_S800000x128_S128x128_S800000x128_1_0_0_1_n_n none X W i := by
  intro i
  rw [arr2_eq, prod128_congr hX hW]
  obtain ⟨p, q, rfl⟩ : ∃ (p : Fin 800000) (q : Fin 128), i = ix2 p q := ⟨i 0, i 1, eq_ix2 i⟩
  rw [refdot800000_apply]
  rfl

end Cert.KernelIdeal.Val
-- ==== Proof.KV.PostSpec.lean ====
/-
  One row of the post stage, on the extended reals: the message sum plus the bias, clipped below at zero, optionally plus
  the residual row, then normalised over its 128 lanes (mean and variance as plain lane sums divided by the word for 128.0,
  the word for 1e-5 added under the reciprocal square root), scaled and shifted lane by lane. Both the kernel's block
  payload and the reference's whole-array stage are this function of a row; the float words are kept as words.
-/
import Idealize.ShloMosaic.PureOps.Ideal
import Idealize.ShloMosaic.Lib.ValueIdx

noncomputable section

open scoped BigOperators

namespace Cert.KernelIdeal.Val

open Idealize.ShloMosaic

/-- The word for 128.0 at the ideal values. -/
abbrev c128 : EReal := Ideal.ofBits .f32 0x43000000#32
/-- The word for 1e-5 (as f32) at the ideal values. -/
abbrev cEps : EReal := Ideal.ofBits .f32 0x3727C5AC#32
/-- The zero word at the ideal values. -/
abbrev cZero : EReal := Ideal.ofBits .f32 0x00000000#32

/-- The mean of a row of 128 lanes: the lane sum over the word for 128.0. -/
def rowMean (h : Fin 128 → EReal) : EReal := Ideal.div (∑ k : Fin 128, h k) c128

/-- The (biased) variance of a row: the mean of the squared deviations from the mean. -/
def rowVar (h : Fin 128 → EReal) : EReal :=
  Ideal.div (∑ k : Fin 128, (h k - rowMean h) * (h k - rowMean h)) c128

/-- Layer normalisation of a row, read at lane `q`: the deviation from the mean times the reciprocal square root of the
    variance plus epsilon, times the scale's lane, plus the shift's lane. -/
def lnRow (h s bb : Fin 128 → EReal) (q : Fin 128) : EReal :=
  (h q - rowMean h) * Ideal.rsqrt (rowVar h + cEps) * s q + bb q

/-- The clipped row: message sum plus bias, lane by lane, not below zero. -/
def reluRow (row b : Fin 128 → EReal) (k : Fin 128) : EReal := max (row k + b k) cZero

/-- The post stage of the first layer (no residual) on one row. -/
def postRow0 (row b s bb : Fin 128 → EReal) (q : Fin 128) : EReal := lnRow (reluRow row b) s bb q

/-- The post stage of the later layers on one row: the residual row is added before the normalisation. -/
def postRowR (row b res s bb : Fin 128 → EReal) (q : Fin 128) : EReal :=
  lnRow (fun k => reluRow row b k + res k) s bb q

end Cert.KernelIdeal.Val

end
-- ==== Proof.KV.PayPost.lean ====
/-
  The post kernels' one store, read at an index of the 2000 x 128 block: the row formula of PostSpec on row `p` of the
  block of message sums (and of the residual block, in the later layers), with the bias, scale and shift rows. The lane
  sums of the body are plain sums over the 128 lanes at the ideal values; the keep-dims column and its broadcast back over
  the lanes read one element each.
-/
import proofs.«402750_j37864431681686_1_alg».proof.Proof.Gen.KernelIdeal.Skeleton
import proofs.«402750_j37864431681686_1_alg».proof.Proof.KV.PostSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## Layout operations of a keep-dims reduction, read at an index -/

section Layout
variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a 2000 x 128 block at row `p`, at the ideal values: the sum of the row's 128 entries. -/
theorem rowSum_apply (src : FVec Ideal S2000x128 .f32) (hφ : FKind.Formats .f32)
    (hacc : (0x00000000#32 : BitVec 32) = FKind.add.neutral .f32 hφ) (p : Fin 2000) :
    multiReduction .add [1] S2000 src 0x00000000#32 reduces_S2000x128_S2000 hφ hacc (ix1 p)
      = ∑ k : Fin 128, src (ix2 p k) := by
  refine (Ideal.multiReduction_add_single src 0x00000000#32 reduces_S2000x128_S2000 hφ hacc (ix1 p)).trans ?_
  refine Finset.sum_congr rfl fun k _ => ?_
  exact congrArg src (funext fun a => Fin.ext (by match a with | ⟨0, _⟩ => rfl | ⟨1, _⟩ => rfl))

/-- The reciprocal square root of a vector, at an index, at the ideal values. -/
theorem rsqrt_apply {s : Shape} {φ : FTy} (x : FVec Ideal s φ) (i : s.Idx) : rsqrt x i = Ideal.rsqrt (x i) := rfl

/-! ## The body's arithmetic as two vector functions -/

/-- The clipped block: message sums plus the broadcast bias row, not below zero. -/
def kRelu (x0 : Vec Ideal S2000x128 .f32) (x1 : Vec Ideal S1x128 .f32) : FVec Ideal S2000x128 .f32 :=
  maximumf (addf (shapeCast S2000x128 x0 shapeCasts_S2000x128_S2000x128)
      (broadcastTo S2000x128 (shapeCast S1x128 x1 shapeCasts_S1x128_S1x128) broadcasts_S1x128_S2000x128))
    (broadcast S2000x128 (Scalar.ofBits .f32 0x00000000#32))

/-- The clipped block at `(p, k)` is the clipped row `p` at lane `k`. -/
theorem kRelu_apply (x0 : Vec Ideal S2000x128 .f32) (x1 : Vec Ideal S1x128 .f32) (p : Fin 2000) (k : Fin 128) :
    kRelu x0 x1 (ix2 p k) = reluRow (fun k => x0 (ix2 p k)) (fun k => x1 (ix2 (0 : Fin 1) k)) k := by
  unfold kRelu reluRow
  rw [maximumf_apply, addf_apply, shapeCast_self, shapeCast_self, broadcastTo_1b_ab_apply]
  rfl

/-- f32 is a format the lane sum is compiled at, and the zero word is the sum's neutral word: the two side conditions of
    the body's lane sums, named so that a statement about the sum can carry them as variables. -/
theorem fmtF32 : FKind.Formats .f32 := .inl rfl
theorem addNeutralF32 : (0x00000000#32 : BitVec 32) = FKind.add.neutral .f32 fmtF32 := rfl

/-- The column of lane means of a block, as the body computes it: the lane sum kept as a [2000, 1] column, over the
    broadcast word for 128.0. -/
def kColMean (y : FVec Ideal S2000x128 .f32) : FVec Ideal S2000x1 .f32 :=
  divf (shapeCast S2000x1 (multiReduction .add [1] S2000 y 0x00000000#32 reduces_S2000x128_S2000 fmtF32 addNeutralF32) shapeCasts_S2000_S2000x1)
    (broadcast S2000x1 (Scalar.ofBits .f32 0x43000000#32))

/-- The column of lane means at row `p`: the row's sum over the word for 128.0. -/
theorem kColMean_apply (y : FVec Ideal S2000x128 .f32) (p : Fin 2000) (u : Fin 1) :
    kColMean y (ix2 p u) = Ideal.div (∑ k : Fin 128, y (ix2 p k)) c128 := by
  unfold kColMean
  rw [divf_apply, shapeCast_a_a1_apply, rowSum_apply]
  rfl

/-- The deviations from the lane mean: the block minus its column of means broadcast over the lanes. -/
def kDev (h : FVec Ideal S2000x128 .f32) : FVec Ideal S2000x128 .f32 :=
  subf h (broadcastTo S2000x128 (kColMean h) broadcasts_S2000x1_S2000x128)

/-- The deviation at `(p, k)`: the entry minus the mean of row `p`. -/
theorem kDev_apply (h : FVec Ideal S2000x128 .f32) (p : Fin 2000) (k : Fin 128) :
    kDev h (ix2 p k) = h (ix2 p k) - rowMean (fun k => h (ix2 p k)) := by
  unfold kDev rowMean
  rw [subf_apply, broadcastTo_a1_ab_apply, kColMean_apply]

/-- The column of lane means of the squared deviations at row `p`: the variance of row `p`. -/
theorem kVar_apply (h : FVec Ideal S2000x128 .f32) (p : Fin 2000) (u : Fin 1) :
    kColMean (mulf (kDev h) (kDev h)) (ix2 p u) = rowVar (fun k => h (ix2 p k)) := by
  rw [kColMean_apply]
  unfold rowVar
  exact congrArg (fun x => Ideal.div x c128) (Finset.sum_congr rfl fun k _ => by rw [mulf_apply, kDev_apply])

/-- The body's normalisation of a block `h` with the scale row `s` and the shift row `bb`, as the body computes it. -/
def kLN (h : FVec Ideal S2000x128 .f32) (s bb : Vec Ideal S1x128 .f32) : FVec Ideal S2000x128 .f32 :=
  addf
    (mulf
      (mulf (kDev h)
        (broadcastTo S2000x128
          (rsqrt (addf (kColMean (mulf (kDev h) (kDev h))) (broadcast S2000x1 (Scalar.ofBits .f32 0x3727C5AC#32))))
          broadcasts_S2000x1_S2000x128))
      (broadcastTo S2000x128 (shapeCast S1x128 s shapeCasts_S1x128_S1x128) broadcasts_S1x128_S2000x128))
    (broadcastTo S2000x128 (shapeCast S1x128 bb shapeCasts_S1x128_S1x128) broadcasts_S1x128_S2000x128)

/-- The body's normalisation at `(p, q)` is the row normalisation of row `p` at lane `q`. -/
theorem kLN_apply (h : FVec Ideal S2000x128 .f32) (s bb : Vec Ideal S1x128 .f32) (p : Fin 2000) (q : Fin 128) :
    kLN h s bb (ix2 p q)
      = lnRow (fun k => h (ix2 p k)) (fun k => s (ix2 (0 : Fin 1) k)) (fun k => bb (ix2 (0 : Fin 1) k)) q := by
  unfold kLN lnRow
  rw [addf_apply, mulf_apply, mulf_apply, kDev_apply, broadcastTo_a1_ab_apply, rsqrt_apply, addf_apply, kVar_apply,
    broadcastTo_1b_ab_apply, broadcastTo_1b_ab_apply, shapeCast_self, shapeCast_self]
  rfl

/-! ## The payloads -/

/-- Call 3's store is the normalisation of the clipped block. -/
theorem k3_pay1_eq (x0 : Vec Ideal S2000x128 .f32) (x1 x3 x4 : Vec Ideal S1x128 .f32) :
    k3_pay1 (F := Ideal) x0 x1 x3 x4 = kLN (kRelu x0 x1) x3 x4 := rfl

/-- Calls 6 and 9 add the residual block to the clipped block first. -/
theorem k6_pay1_eq (x0 : Vec Ideal S2000x128 .f32) (x1 : Vec Ideal S1x128 .f32) (x2 : Vec Ideal S2000x128 .f32)
    (x3 x4 : Vec Ideal S1x128 .f32) :
    k6_pay1 (F := Ideal) x0 x1 x2 x3 x4
      = kLN (addf (kRelu x0 x1) (shapeCast S2000x128 x2 shapeCasts_S2000x128_S2000x128)) x3 x4 := rfl
theorem k9_pay1_eq (x0 : Vec Ideal S2000x128 .f32) (x1 : Vec Ideal S1x128 .f32) (x2 : Vec Ideal S2000x128 .f32)
    (x3 x4 : Vec Ideal S1x128 .f32) :
    k9_pay1 (F := Ideal) x0 x1 x2 x3 x4
      = kLN (addf (kRelu x0 x1) (shapeCast S2000x128 x2 shapeCasts_S2000x128_S2000x128)) x3 x4 := rfl

/-- CALL 3'S STORE AT `(p, q)`: the first layer's row formula on row `p` of the block. -/
theorem k3_pay1_apply (x0 : Vec Ideal S2000x128 .f32) (x1 x3 x4 : Vec Ideal S1x128 .f32) (p : Fin 2000) (q : Fin 128) :
    k3_pay1 (F := Ideal) x0 x1 x3 x4 (ix2 p q)
      = postRow0 (fun k => x0 (ix2 p k)) (fun k => x1 (ix2 (0 : Fin 1) k)) (fun k => x3 (ix2 (0 : Fin 1) k))
          (fun k => x4 (ix2 (0 : Fin 1) k)) q := by
  rw [k3_pay1_eq, kLN_apply]
  unfold postRow0
  exact congrArg (fun h => lnRow h _ _ q) (funext fun k => kRelu_apply x0 x1 p k)

/-- The later layers' store at `(p, q)`: the row formula with the residual block's row `p`. -/
theorem kLNres_apply (x0 : Vec Ideal S2000x128 .f32) (x1 : Vec Ideal S1x128 .f32) (x2 : Vec Ideal S2000x128 .f32)
    (x3 x4 : Vec Ideal S1x128 .f32) (p : Fin 2000) (q : Fin 128) :
    kLN (addf (kRelu x0 x1) (shapeCast S2000x128 x2 shapeCasts_S2000x128_S2000x128)) x3 x4 (ix2 p q)
      = postRowR (fun k => x0 (ix2 p k)) (fun k => x1 (ix2 (0 : Fin 1) k)) (fun k => x2 (ix2 p k))
          (fun k => x3 (ix2 (0 : Fin 1) k)) (fun k => x4 (ix2 (0 : Fin 1) k)) q := by
  rw [kLN_apply]
  unfold postRowR
  refine congrArg (fun h => lnRow h _ _ q) (funext fun k => ?_)
  rw [addf_apply, kRelu_apply, shapeCast_self]

/-- CALL 6'S STORE AT `(p, q)`. -/
theorem k6_pay1_apply (x0 : Vec Ideal S2000x128 .f32) (x1 : Vec Ideal S1x128 .f32) (x2 : Vec Ideal S2000x128 .f32)
    (x3 x4 : Vec Ideal S1x128 .f32) (p : Fin 2000) (q : Fin 128) :
    k6_pay1 (F := Ideal) x0 x1 x2 x3 x4 (ix2 p q)
      = postRowR (fun k => x0 (ix2 p k)) (fun k => x1 (ix2 (0 : Fin 1) k)) (fun k => x2 (ix2 p k))
          (fun k => x3 (ix2 (0 : Fin 1) k)) (fun k => x4 (ix2 (0 : Fin 1) k)) q := by
  rw [k6_pay1_eq]; exact kLNres_apply x0 x1 x2 x3 x4 p q

/-- CALL 9'S STORE AT `(p, q)`. -/
theorem k9_pay1_apply (x0 : Vec Ideal S2000x128 .f32) (x1 : Vec Ideal S1x128 .f32) (x2 : Vec Ideal S2000x128 .f32)
    (x3 x4 : Vec Ideal S1x128 .f32) (p : Fin 2000) (q : Fin 128) :
    k9_pay1 (F := Ideal) x0 x1 x2 x3 x4 (ix2 p q)
      = postRowR (fun k => x0 (ix2 p k)) (fun k => x1 (ix2 (0 : Fin 1) k)) (fun k => x2 (ix2 p k))
          (fun k => x3 (ix2 (0 : Fin 1) k)) (fun k => x4 (ix2 (0 : Fin 1) k)) q := by
  rw [k9_pay1_eq]; exact kLNres_apply x0 x1 x2 x3 x4 p q

end Cert.KernelIdeal.Val

end
-- ==== Proof.KV.RefLN.lean ====
/-
  The reference's post stage (bias, clip at zero, optional residual, layer normalisation over the 128 lanes, scale and shift)
  as ONE function of the arrays it reads, written with the reference program's own operations, and the three places where
  the reference's stages are that function. Then the function read at an index: the row formula of PostSpec on the row of
  the message sums, the host's lane sums being the plain sums over the 128 lanes and its initial value the zero word.
-/
import proofs.«402750_j37864431681686_1_alg».proof.Proof.RefRead
import proofs.«402750_j37864431681686_1_alg».proof.Proof.KV.PostSpec

noncomputable section

open scoped BigOperators

namespace Cert.KernelIdeal.Val

open Cert.ReferenceIdeal Cert.ReferenceIdeal.Gen Idealize.ShloMosaic Idealize.ShloMosaic.ValueIdx

/-! ## The stage as one function -/

/-- The column of lane means of a [100000, 128] array: the host's lane sum from the zero word, kept as a [100000, 1]
    column, over the broadcast word for 128.0. -/
def refColMean (y : S100000x128.Idx → EReal) : S100000x1.Idx → EReal :=
  Host.divf (F := Ideal) (φ := .f32)
    (broadcastInDim S100000x1 ![0] bcast_S100000_S100000x1_0
      (Host.reduceAdd (F := Ideal) (φ := .f32) y (constant S_ .f32 0x00000000#32) reducesTo_S100000x128_S100000_d1 h_S_))
    (broadcastInDim S100000x1 ![] bcast_S_S100000x1 (constant S_ .f32 0x43000000#32))

/-- The deviations from the lane mean: the array minus its column of means broadcast over the lanes. -/
def refDev (h : S100000x128.Idx → EReal) : S100000x128.Idx → EReal :=
  subf (F := Ideal) (φ := .f32) h (broadcastInDim S100000x128 ![0, 1] bcast_S100000x1_S100000x128_0_1 (refColMean h))

/-- The layer normalisation of a whole [100000, 128] array `h`, row by row, with the [1, 128] scale `s1` and shift `bb1`:
    the operations from the first lane sum to the final sum of the reference's `@main`, of the clipped (and, in the later
    layers, residual-added) array. -/
def refLN (h : S100000x128.Idx → EReal) (s1 bb1 : S1x128.Idx → EReal) : S100000x128.Idx → EReal :=
  addf (F := Ideal) (φ := .f32)
    (mulf
      (mulf (refDev h)
        (broadcastInDim S100000x128 ![0, 1] bcast_S100000x1_S100000x128_0_1
          (Host.rsqrt (addf (refColMean (mulf (F := Ideal) (φ := .f32) (refDev h) (refDev h)))
            (broadcastInDim S100000x1 ![] bcast_S_S100000x1 (constant S_ .f32 0x3727C5AC#32))))))
      (broadcastInDim S100000x128 ![0, 1] bcast_S1x128_S100000x128_0_1 s1))
    (broadcastInDim S100000x128 ![0, 1] bcast_S1x128_S100000x128_0_1 bb1)

/-- The clipped array: message sums plus the broadcast bias row, not below the zero array. -/
def refRelu (agg : S100000x128.Idx → EReal) (b1 : S1x128.Idx → EReal) : S100000x128.Idx → EReal :=
  maximumf (F := Ideal) (φ := .f32) (addf agg (broadcastInDim S100000x128 ![0, 1] bcast_S1x128_S100000x128_0_1 b1))
    (broadcastInDim S100000x128 ![] bcast_S_S100000x128 (constant S_ .f32 0x00000000#32))

/-- The first layer's post stage (no residual). -/
def refPost0 (agg : S100000x128.Idx → EReal) (b1 s1 bb1 : S1x128.Idx → EReal) : S100000x128.Idx → EReal :=
  refLN (refRelu agg b1) s1 bb1

/-- The later layers' post stage: the residual array is added to the clipped one before the normalisation. -/
def refPostR (agg : S100000x128.Idx → EReal) (b1 : S1x128.Idx → EReal) (res : S100000x128.Idx → EReal)
    (s1 bb1 : S1x128.Idx → EReal) : S100000x128.Idx → EReal :=
  refLN (addf (F := Ideal) (φ := .f32) (refRelu agg b1) res) s1 bb1

/-! ## The reference's three post stages are that function

Each is the chain of definitions between the message sum and the layer's result, unfolded by name; the two sides are then
the same term. -/

/-- Layer 0: the stage after the first message sum. -/
theorem val_main_v58_eq (x0 : (⟨S100000x128, .f32⟩ : BufTy).Contents (Elt Ideal)) (x1 : (⟨S800000x128, .f32⟩ : BufTy).Contents (Elt Ideal)) (x2 : (⟨S128x128, .f32⟩ : BufTy).Contents (Elt Ideal)) (x3 : (⟨S128, .f32⟩ : BufTy).Contents (Elt Ideal)) (x4 x5 : (⟨S3x128x128, .f32⟩ : BufTy).Contents (Elt Ideal)) (x6 x7 x8 : (⟨S3x128, .f32⟩ : BufTy).Contents (Elt Ideal)) (x11 : (⟨S2x800000, .i32⟩ : BufTy).Contents (Elt Ideal)) :
    Read.val_main_v58 (F := Ideal) x0 x1 x2 x3 x4 x5 x6 x7 x8 x11
      = refPost0 (Read.val_main_v24 (F := Ideal) x0 x1 x2 x3 x4 x5 x11) (Read.val_main_v27 (F := Ideal) x6)
          (Read.val_main_v53 (F := Ideal) x7) (Read.val_main_v56 (F := Ideal) x8) := by
  unfold refPost0 refLN refDev refColMean refRelu
  unfold Read.val_main_v58 Read.val_main_v57 Read.val_main_v55 Read.val_main_v54 Read.val_main_v52 Read.val_main_v51 Read.val_main_v50 Read.val_main_v49 Read.val_main_v48 Read.val_main_cst_5 Read.val_main_v47 Read.val_main_v46 Read.val_main_v45 Read.val_main_v44 Read.val_main_cst_4 Read.val_main_v43 Read.val_main_v42 Read.val_main_cst_3 Read.val_main_v41 Read.val_main_v40 Read.val_main_v39 Read.val_main_v38 Read.val_main_v37 Read.val_main_cst_2 Read.val_main_v36 Read.val_main_v35 Read.val_main_cst_1 Read.val_main_v30 Read.val_main_call0_v0 Read.val_main_call0_cst Read.val_main_v29 Read.val_main_v28
  rfl

/-- Layer 1: the residual is layer 0's result. -/
theorem val_main_v110_eq (x0 : (⟨S100000x128, .f32⟩ : BufTy).Contents (Elt Ideal)) (x1 : (⟨S800000x128, .f32⟩ : BufTy).Contents (Elt Ideal)) (x2 : (⟨S128x128, .f32⟩ : BufTy).Contents (Elt Ideal)) (x3 : (⟨S128, .f32⟩ : BufTy).Contents (Elt Ideal)) (x4 x5 : (⟨S3x128x128, .f32⟩ : BufTy).Contents (Elt Ideal)) (x6 x7 x8 : (⟨S3x128, .f32⟩ : BufTy).Contents (Elt Ideal)) (x11 : (⟨S2x800000, .i32⟩ : BufTy).Contents (Elt Ideal)) :
    Read.val_main_v110 (F := Ideal) x0 x1 x2 x3 x4 x5 x6 x7 x8 x11
      = refPostR (Read.val_main_v75 (F := Ideal) x0 x1 x2 x3 x4 x5 x6 x7 x8 x11) (Read.val_main_v78 (F := Ideal) x6)
          (Read.val_main_v58 (F := Ideal) x0 x1 x2 x3 x4 x5 x6 x7 x8 x11) (Read.val_main_v105 (F := Ideal) x7) (Read.val_main_v108 (F := Ideal) x8) := by
  unfold refPostR refLN refDev refColMean refRelu
  unfold Read.val_main_v110 Read.val_main_v109 Read.val_main_v107 Read.val_main_v106 Read.val_main_v104 Read.val_main_v103 Read.val_main_v102 Read.val_main_v101 Read.val_main_v100 Read.val_main_cst_13 Read.val_main_v99 Read.val_main_v98 Read.val_main_v97 Read.val_main_v96 Read.val_main_cst_12 Read.val_main_v95 Read.val_main_v94 Read.val_main_cst_11 Read.val_main_v93 Read.val_main_v92 Read.val_main_v91 Read.val_main_v90 Read.val_main_v89 Read.val_main_cst_10 Read.val_main_v88 Read.val_main_v87 Read.val_main_cst_9 Read.val_main_v82 Read.val_main_v81 Read.val_main_call1_v0 Read.val_main_call1_cst Read.val_main_v80 Read.val_main_v79
  rfl

/-- Layer 2: the residual is layer 1's result. -/
theorem val_main_v162_eq (x0 : (⟨S100000x128, .f32⟩ : BufTy).Contents (Elt Ideal)) (x1 : (⟨S800000x128, .f32⟩ : BufTy).Contents (Elt Ideal)) (x2 : (⟨S128x128, .f32⟩ : BufTy).Contents (Elt Ideal)) (x3 : (⟨S128, .f32⟩ : BufTy).Contents (Elt Ideal)) (x4 x5 : (⟨S3x128x128, .f32⟩ : BufTy).Contents (Elt Ideal)) (x6 x7 x8 : (⟨S3x128, .f32⟩ : BufTy).Contents (Elt Ideal)) (x11 : (⟨S2x800000, .i32⟩ : BufTy).Contents (Elt Ideal)) :
    Read.val_main_v162 (F := Ideal) x0 x1 x2 x3 x4 x5 x6 x7 x8 x11
      = refPostR (Read.val_main_v127 (F := Ideal) x0 x1 x2 x3 x4 x5 x6 x7 x8 x11) (Read.val_main_v130 (F := Ideal) x6)
          (Read.val_main_v110 (F := Ideal) x0 x1 x2 x3 x4 x5 x6 x7 x8 x11) (Read.val_main_v157 (F := Ideal) x7) (Read.val_main_v160 (F := Ideal) x8) := by
  unfold refPostR refLN refDev refColMean refRelu
  unfold Read.val_main_v162 Read.val_main_v161 Read.val_main_v159 Read.val_main_v158 Read.val_main_v156 Read.val_main_v155 Read.val_main_v154 Read.val_main_v153 Read.val_main_v152 Read.val_main_cst_21 Read.val_main_v151 Read.val_main_v150 Read.val_main_v149 Read.val_main_v148 Read.val_main_cst_20 Read.val_main_v147 Read.val_main_v146 Read.val_main_cst_19 Read.val_main_v145 Read.val_main_v144 Read.val_main_v143 Read.val_main_v142 Read.val_main_v141 Read.val_main_cst_18 Read.val_main_v140 Read.val_main_v139 Read.val_main_cst_17 Read.val_main_v134 Read.val_main_v133 Read.val_main_call2_v0 Read.val_main_call2_cst Read.val_main_v132 Read.val_main_v131
  rfl

/-! ## The function read at an index

Each layout operation of the stage reads one element of its operand; the host's lane sum, at the ideal values, is its
initial value (the zero word, which is zero) plus the sum over the 128 lanes. -/

section AtIndex
variable {φ : FTy} {s : Shape}

/-- The host's quotient at an index is the ideal division of the elements. -/
theorem hostDivf_apply (x y : FVec Ideal s φ) (i : s.Idx) : Host.divf x y i = Ideal.div (x i) (y i) := rfl
/-- The host's reciprocal square root at an index is the ideal one of the element. -/
theorem hostRsqrt_apply (x : FVec Ideal s φ) (i : s.Idx) : Host.rsqrt x i = Ideal.rsqrt (x i) := rfl

end AtIndex

/-- A [1, 128] row broadcast over the 100000 rows reads, at `(r, q)`, the row at lane `q`. -/
theorem refBcastRow_apply (v : S1x128.Idx → EReal) (r : Fin 100000) (q : Fin 128) :
    broadcastInDim S100000x128 ![0, 1] bcast_S1x128_S100000x128_0_1 v (ix2 r q) = v (ix2 (0 : Fin 1) q) :=
  broadcastInDim_apply _ bcast_S1x128_S100000x128_0_1 v _ _ (fun a => match a with
    | ⟨0, _⟩ => by show 0 = if (1 : Nat) = 1 then 0 else r.val; rw [if_pos rfl]
    | ⟨1, _⟩ => by show q.val = if (128 : Nat) = 1 then 0 else q.val; rw [if_neg (by decide)])

/-- A [100000, 1] column broadcast over the 128 lanes reads, at `(r, q)`, the column at row `r`. -/
theorem refBcastCol_apply (v : S100000x1.Idx → EReal) (r : Fin 100000) (q : Fin 128) :
    broadcastInDim S100000x128 ![0, 1] bcast_S100000x1_S100000x128_0_1 v (ix2 r q) = v (ix2 r (0 : Fin 1)) :=
  broadcastInDim_apply _ bcast_S100000x1_S100000x128_0_1 v _ _ (fun a => match a with
    | ⟨0, _⟩ => by show r.val = if (100000 : Nat) = 1 then 0 else r.val; rw [if_neg (by decide)]
    | ⟨1, _⟩ => by show 0 = if (1 : Nat) = 1 then 0 else q.val; rw [if_pos rfl])

/-- A [100000] vector viewed as a [100000, 1] column reads, at `(r, u)`, the vector at `r`. -/
theorem refKeep_apply (v : S100000.Idx → EReal) (r : Fin 100000) (u : Fin 1) :
    broadcastInDim S100000x1 ![0] bcast_S100000_S100000x1_0 v (ix2 r u) = v (ix1 r) :=
  broadcastInDim_apply _ bcast_S100000_S100000x1_0 v _ _ (fun a => match a with
    | ⟨0, _⟩ => by show r.val = if (100000 : Nat) = 1 then 0 else r.val; rw [if_neg (by decide)])

/-- A scalar word broadcast to a column reads the word's value everywhere. -/
theorem refScalarCol_apply (w : BitVec 32) (i : S100000x1.Idx) :
    broadcastInDim S100000x1 ![] bcast_S_S100000x1 (constant (F := Ideal) S_ .f32 w) i = Ideal.ofBits .f32 w := rfl

/-- A scalar word broadcast to the whole array reads the word's value everywhere. -/
theorem refScalarArr_apply (w : BitVec 32) (i : S100000x128.Idx) :
    broadcastInDim S100000x128 ![] bcast_S_S100000x128 (constant (F := Ideal) S_ .f32 w) i = Ideal.ofBits .f32 w := rfl

/-- The host's sum over the lanes from the zero word, at row `r`: the plain sum of the row's 128 entries. -/
theorem refRowSum_apply (y : S100000x128.Idx → EReal) (r : Fin 100000) :
    Host.reduceAdd (F := Ideal) (φ := .f32) y (constant S_ .f32 0x00000000#32) reducesTo_S100000x128_S100000_d1 h_S_ (ix1 r)
      = ∑ k : Fin 128, y (ix2 r k) := by
  simp only [Host.reduceAdd, Ideal.hostReduceAdd_def]
  rw [Ideal.hostReduceAdd_single reducesTo_S100000x128_S100000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The column of lane means at row `r`: the row's sum over the word for 128.0. -/
theorem refColMean_apply (y : S100000x128.Idx → EReal) (r : Fin 100000) (u : Fin 1) :
    refColMean y (ix2 r u) = Ideal.div (∑ k : Fin 128, y (ix2 r k)) c128 := by
  unfold refColMean
  rw [hostDivf_apply, refKeep_apply, refRowSum_apply, refScalarCol_apply]

/-- The deviation at `(r, k)`: the entry minus the mean of row `r`. -/
theorem refDev_apply (h : S100000x128.Idx → EReal) (r : Fin 100000) (k : Fin 128) :
    refDev h (ix2 r k) = h (ix2 r k) - rowMean (fun k => h (ix2 r k)) := by
  unfold refDev rowMean
  rw [subf_apply, refBcastCol_apply, refColMean_apply]

/-- The column of lane means of the squared deviations at row `r`: the variance of row `r`. -/
theorem refVar_apply (h : S100000x128.Idx → EReal) (r : Fin 100000) (u : Fin 1) :
    refColMean (mulf (F := Ideal) (φ := .f32) (refDev h) (refDev h)) (ix2 r u) = rowVar (fun k => h (ix2 r k)) := by
  rw [refColMean_apply]
  unfold rowVar
  exact congrArg (fun x => Ideal.div x c128) (Finset.sum_congr rfl fun k _ => by rw [mulf_apply, refDev_apply])

/-- The whole-array normalisation at `(r, q)` is the row normalisation of row `r` at lane `q`. -/
theorem refLN_apply (h : S100000x128.Idx → EReal) (s1 bb1 : S1x128.Idx → EReal) (r : Fin 100000) (q : Fin 128) :
    refLN h s1 bb1 (ix2 r q)
      = lnRow (fun k => h (ix2 r k)) (fun k => s1 (ix2 (0 : Fin 1) k)) (fun k => bb1 (ix2 (0 : Fin 1) k)) q := by
  unfold refLN lnRow
  rw [addf_apply, mulf_apply, mulf_apply, refDev_apply, refBcastCol_apply, hostRsqrt_apply, addf_apply, refVar_apply,
    refScalarCol_apply, refBcastRow_apply, refBcastRow_apply]

/-- The clipped array at `(r, k)` is the clipped row `r` at lane `k`. -/
theorem refRelu_apply (agg : S100000x128.Idx → EReal) (b1 : S1x128.Idx → EReal) (r : Fin 100000) (k : Fin 128) :
    refRelu agg b1 (ix2 r k) = reluRow (fun k => agg (ix2 r k)) (fun k => b1 (ix2 (0 : Fin 1) k)) k := by
  unfold refRelu reluRow
  rw [maximumf_apply, addf_apply, refBcastRow_apply, refScalarArr_apply]

/-- THE FIRST LAYER'S STAGE AT AN INDEX: the row formula on row `r` of the message sums. -/
theorem refPost0_apply (agg : S100000x128.Idx → EReal) (b1 s1 bb1 : S1x128.Idx → EReal) (r : Fin 100000) (q : Fin 128) :
    refPost0 agg b1 s1 bb1 (ix2 r q)
      = postRow0 (fun k => agg (ix2 r k)) (fun k => b1 (ix2 (0 : Fin 1) k)) (fun k => s1 (ix2 (0 : Fin 1) k))
          (fun k => bb1 (ix2 (0 : Fin 1) k)) q := by
  unfold refPost0 postRow0
  rw [refLN_apply]
  exact congrArg (fun h => lnRow h _ _ q) (funext fun k => refRelu_apply agg b1 r k)

/-- THE LATER LAYERS' STAGE AT AN INDEX: the row formula on row `r` of the message sums and of the residual. -/
theorem refPostR_apply (agg : S100000x128.Idx → EReal) (b1 : S1x128.Idx → EReal) (res : S100000x128.Idx → EReal)
    (s1 bb1 : S1x128.Idx → EReal) (r : Fin 100000) (q : Fin 128) :
    refPostR agg b1 res s1 bb1 (ix2 r q)
      = postRowR (fun k => agg (ix2 r k)) (fun k => b1 (ix2 (0 : Fin 1) k)) (fun k => res (ix2 r k))
          (fun k => s1 (ix2 (0 : Fin 1) k)) (fun k => bb1 (ix2 (0 : Fin 1) k)) q := by
  unfold refPostR postRowR
  rw [refLN_apply]
  refine congrArg (fun h => lnRow h _ _ q) (funext fun k => ?_)
  rw [addf_apply, refRelu_apply]

end Cert.KernelIdeal.Val

end
-- ==== Proof.KV.Post3.lean ====
/-
  Post call number 3, from blocks to the array: the call walks 50 row blocks of 2000 rows; at block `t` the body leaves in
  the output's buffer the row formula of rows `2000 t … 2000 t + 1999` of the message sums, with the whole
  bias, scale and shift rows. The 50 blocks tile the output array, so it ends holding the reference's post stage of the
  arrays the call finds, index by index.
-/
import proofs.«402750_j37864431681686_1_alg».proof.Proof.KI.R3
import proofs.«402750_j37864431681686_1_alg».proof.Proof.KV.PayPost
import proofs.«402750_j37864431681686_1_alg».proof.Proof.KV.RefLN
import Idealize.ShloMosaic.Lib.ValueIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The index maps at a point: the three [100000, 128] windows sit on row block `t`, the three [1, 128] windows on their
    one block. -/
structure IdxPost3 (t : Fin cfg3.N) : Prop where
  blk00 : win3_0.index t (0 : Fin 2) = t.val
  blk01 : win3_0.index t (1 : Fin 2) = 0
  blk20 : win3_2.index t (0 : Fin 2) = t.val
  blk21 : win3_2.index t (1 : Fin 2) = 0
  blk50 : win3_5.index t (0 : Fin 2) = t.val
  blk51 : win3_5.index t (1 : Fin 2) = 0
  row10 : win3_1.index t (0 : Fin 2) = 0
  row11 : win3_1.index t (1 : Fin 2) = 0
  row30 : win3_3.index t (0 : Fin 2) = 0
  row31 : win3_3.index t (1 : Fin 2) = 0
  row40 : win3_4.index t (0 : Fin 2) = 0
  row41 : win3_4.index t (1 : Fin 2) = 0

/-- Decided once over the 50 points. -/
theorem idx_post3_all : ∀ t : Fin grid3.N, win3_0.index t (0 : Fin 2) = t.val ∧ win3_0.index t (1 : Fin 2) = 0 ∧ win3_2.index t (0 : Fin 2) = t.val ∧ win3_2.index t (1 : Fin 2) = 0 ∧ win3_5.index t (0 : Fin 2) = t.val ∧ win3_5.index t (1 : Fin 2) = 0 ∧ win3_1.index t (0 : Fin 2) = 0 ∧ win3_1.index t (1 : Fin 2) = 0 ∧ win3_3.index t (0 : Fin 2) = 0 ∧ win3_3.index t (1 : Fin 2) = 0 ∧ win3_4.index t (0 : Fin 2) = 0 ∧ win3_4.index t (1 : Fin 2) = 0 := by decide +kernel

theorem idx_post3 (t : Fin cfg3.N) : IdxPost3 t :=
  have h := idx_post3_all t
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2⟩

/-- The array row under row `p` of block `t`. -/
def rowOf3 (t : Fin cfg3.N) (p : Fin 2000) : Fin 100000 :=
  ⟨2000 * t.val + p.val, by have ht : t.val < 50 := t.isLt; have := p.isLt; omega⟩

variable (V : (c : Dev nD) → (b : Ref sig .tc) → Buf (Elt Ideal) ((c : Thread nD τ).loc b))

/-- Window 0's block at point `t` is rows `2000 t … 2000 t + 1999` of its array. -/
theorem iblk3_0_apply (c : Dev nD) (t : Fin cfg3.N) (p : Fin 2000) (k : Fin 128) :
    (iblk3 V c 0 t : Vec Ideal S2000x128 .f32) (ix2 p k) = V c main_v30 (ix2 (rowOf3 t p) k) := by
  unfold iblk3
  rw [View.read_apply]
  show V c main_v30 _ = V c main_v30 _
  congr 1
  funext a
  apply Fin.ext
  match a with
  | ⟨0, _⟩ => show win3_0.index t (0 : Fin 2) * 2000 + 1 * p.val = 2000 * t.val + p.val; rw [(idx_post3 t).blk00]; omega
  | ⟨1, _⟩ => show win3_0.index t (1 : Fin 2) * 128 + 1 * k.val = k.val; rw [(idx_post3 t).blk01]; omega

/-- Window 1's one block is the whole [1, 128] row array. -/
theorem iblk3_1_apply (c : Dev nD) (t : Fin cfg3.N) (k : Fin 128) :
    (iblk3 V c 1 t : Vec Ideal S1x128 .f32) (ix2 (0 : Fin 1) k) = V c main_v33 (ix2 (0 : Fin 1) k) := by
  unfold iblk3
  rw [View.read_apply]
  show V c main_v33 _ = V c main_v33 _
  congr 1
  funext a
  apply Fin.ext
  match a with
  | ⟨0, _⟩ => show win3_1.index t (0 : Fin 2) * 1 + 1 * 0 = 0; rw [(idx_post3 t).row10]
  | ⟨1, _⟩ => show win3_1.index t (1 : Fin 2) * 128 + 1 * k.val = k.val; rw [(idx_post3 t).row11]; omega

/-- Window 3's one block is the whole [1, 128] row array. -/
theorem iblk3_3_apply (c : Dev nD) (t : Fin cfg3.N) (k : Fin 128) :
    (iblk3 V c 3 t : Vec Ideal S1x128 .f32) (ix2 (0 : Fin 1) k) = V c main_v36 (ix2 (0 : Fin 1) k) := by
  unfold iblk3
  rw [View.read_apply]
  show V c main_v36 _ = V c main_v36 _
  congr 1
  funext a
  apply Fin.ext
  match a with
  | ⟨0, _⟩ => show win3_3.index t (0 : Fin 2) * 1 + 1 * 0 = 0; rw [(idx_post3 t).row30]
  | ⟨1, _⟩ => show win3_3.index t (1 : Fin 2) * 128 + 1 * k.val = k.val; rw [(idx_post3 t).row31]; omega

/-- Window 4's one block is the whole [1, 128] row array. -/
theorem iblk3_4_apply (c : Dev nD) (t : Fin cfg3.N) (k : Fin 128) :
    (iblk3 V c 4 t : Vec Ideal S1x128 .f32) (ix2 (0 : Fin 1) k) = V c main_v39 (ix2 (0 : Fin 1) k) := by
  unfold iblk3
  rw [View.read_apply]
  show V c main_v39 _ = V c main_v39 _
  congr 1
  funext a
  apply Fin.ext
  match a with
  | ⟨0, _⟩ => show win3_4.index t (0 : Fin 2) * 1 + 1 * 0 = 0; rw [(idx_post3 t).row40]
  | ⟨1, _⟩ => show win3_4.index t (1 : Fin 2) * 128 + 1 * k.val = k.val; rw [(idx_post3 t).row41]; omega

/-- THE BLOCK THE BODY LEAVES, AT `(p, q)`: the reference's stage of the arrays at row `2000 t + p`, lane `q`. -/
theorem block3_apply (c : Dev nD) (AGG : S100000x128.Idx → EReal) (B1 S1 BB1 : S1x128.Idx → EReal)
    (hAGG : ∀ i, V c main_v30 i = AGG i) (hB1 : ∀ i, V c main_v33 i = B1 i)
    (hS1 : ∀ i, V c main_v36 i = S1 i) (hBB1 : ∀ i, V c main_v39 i = BB1 i)
    (t : Fin cfg3.N) (p : Fin 2000) (q : Fin 128) :
    k3_pay1 (F := Ideal) (iblk3 V c 0 t) (iblk3 V c 1 t) (iblk3 V c 3 t) (iblk3 V c 4 t) (ix2 p q) = refPost0 AGG B1 S1 BB1 (ix2 (rowOf3 t p) q) := by
  rw [k3_pay1_apply, refPost0_apply]
  simp only [iblk3_0_apply, iblk3_1_apply, iblk3_3_apply, iblk3_4_apply, hAGG, hB1, hS1, hBB1]

/-- What point `t` writes back is block `t` of the reference's stage of the arrays the call finds. -/
theorem flushed3_eq (c : Dev nD) (AGG : S100000x128.Idx → EReal) (B1 S1 BB1 : S1x128.Idx → EReal)
    (hAGG : ∀ i, V c main_v30 i = AGG i) (hB1 : ∀ i, V c main_v33 i = B1 i)
    (hS1 : ∀ i, V c main_v36 i = S1 i) (hBB1 : ∀ i, V c main_v39 i = BB1 i)
    (t : Fin cfg3.N) :
    (dat3 (F := Ideal) V c).flushed 5 t = ((cfg3.win 5).blk t).view.read (Elt Ideal) (refPost0 AGG B1 S1 BB1) := by
  show (cfg3.win 5).cut (grid3.coords t) ((dat3 (F := Ideal) V c).after 5 t) = _
  rw [after3_5, out3_eq]
  funext j
  obtain ⟨p, q, rfl⟩ : ∃ (p : Fin 2000) (q : Fin 128), j = ix2 p q := ⟨j 0, j 1, eq_ix2 j⟩
  have hemb : ((cfg3.win 5).blk t).view.emb (ix2 p q) = ix2 (rowOf3 t p) q := by
    funext a
    apply Fin.ext
    match a with
    | ⟨0, _⟩ => show win3_5.index t (0 : Fin 2) * 2000 + 1 * p.val = 2000 * t.val + p.val; rw [(idx_post3 t).blk50]; omega
    | ⟨1, _⟩ => show win3_5.index t (1 : Fin 2) * 128 + 1 * q.val = q.val; rw [(idx_post3 t).blk51]; omega
  rw [View.read_apply, hemb]
  exact block3_apply V c AGG B1 S1 BB1 hAGG hB1 hS1 hBB1 t p q

/-- An index of the output array is in point `t`'s block iff each coordinate is in the block's range on its axis. -/
theorem mem_blk3 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v40).slice (win3_5.rect t)).set ↔ _
  rw [View.set_slice_whole, Rect.mem_set_unit]
  exact Iff.rfl

/-- Every index of the output array is in some point's block: row `r` is in block `r / 2000`. -/
theorem cover_post3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 2000 < cfg3.N := by show (i 0).val / 2000 < 50; omega
  have e0 : win3_5.index ⟨(i 0).val / 2000, ht⟩ (0 : Fin 2) = (i 0).val / 2000 := (idx_post3 ⟨(i 0).val / 2000, ht⟩).blk50
  have e1 : win3_5.index ⟨(i 0).val / 2000, ht⟩ (1 : Fin 2) = 0 := (idx_post3 ⟨(i 0).val / 2000, ht⟩).blk51
  refine ⟨⟨(i 0).val / 2000, ht⟩, flush3_5 _, ?_⟩
  rw [mem_blk3]
  intro a
  match a with
  | ⟨0, _⟩ => show win3_5.index ⟨(i 0).val / 2000, ht⟩ (0 : Fin 2) * 2000 ≤ (i 0).val ∧ (i 0).val < win3_5.index ⟨(i 0).val / 2000, ht⟩ (0 : Fin 2) * 2000 + 2000; omega
  | ⟨1, _⟩ => show win3_5.index ⟨(i 0).val / 2000, ht⟩ (1 : Fin 2) * 128 ≤ (i 1).val ∧ (i 1).val < win3_5.index ⟨(i 0).val / 2000, ht⟩ (1 : Fin 2) * 128 + 128; omega

/-- THE OUTPUT ARRAY AFTER THE CALL: the reference's post stage of the arrays the call finds, index by index. -/
theorem post3_val (c : Dev nD) (AGG : S100000x128.Idx → EReal) (B1 S1 BB1 : S1x128.Idx → EReal)
    (hAGG : ∀ i, V c main_v30 i = AGG i) (hB1 : ∀ i, V c main_v33 i = B1 i)
    (hS1 : ∀ i, V c main_v36 i = S1 i) (hBB1 : ∀ i, V c main_v39 i = BB1 i) :
    ∀ i, (dat3 (F := Ideal) V c).arrAt 5 cfg3.N i = refPost0 AGG B1 S1 BB1 i :=
  fun i => congrFun ((dat3 (F := Ideal) V c).arrAt_eq_of_cover 5 (refPost0 AGG B1 S1 BB1)
    (fun t _ => flushed3_eq V c AGG B1 S1 BB1 hAGG hB1 hS1 hBB1 t) cover_post3) i

end Cert.KernelIdeal.Val

end
-- ==== Proof.KV.Chain1.lean ====
import proofs.«402750_j37864431681686_1_alg».proof.Proof.KV.ChainArgs
import proofs.«402750_j37864431681686_1_alg».proof.Proof.KV.ChainKeep
import proofs.«402750_j37864431681686_1_alg».proof.Proof.KV.MM0
import proofs.«402750_j37864431681686_1_alg».proof.Proof.KV.MM1
import proofs.«402750_j37864431681686_1_alg».proof.Proof.KV.MM2
import proofs.«402750_j37864431681686_1_alg».proof.Proof.KV.Post3
import proofs.«402750_j37864431681686_1_alg».proof.Proof.KV.RefLN
import proofs.«402750_j37864431681686_1_alg».proof.Proof.KV.GMS

/-! # The first layer: the kernel program's arrays are the reference's stages

The input projection, then the first message-passing layer: the node product, the edge product, the gather-multiply-
scatter stretch and the layer's closing call. Each step takes what a kernel call (or the host stretch) finds on entry,
names it by the step before, and applies the call's own value lemma; the result is the reference's stage of the program's
arguments, index by index. -/

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The input projection's output is the reference's projected node features. -/
theorem step_o2 (c : Dev nD) : ∀ i, (Hand.o2 m c : S100000x128.Idx → EReal) i
    = Cert.ReferenceIdeal.Read.val_main_v7 (F := Ideal) (a0 m c) (a2 m c) (a3 m c) i :=
  mm0_ref (Hand.atTc (Hand.U1 m)) c (a0 m c) (a2 m c) (a3 m c)
    (fun i => host0_v4_apply m c i) (fun i => host0_v6_apply m c i) (fun j => host0_v11_apply m c 0 j)

/-- The first node product is the reference's. -/
theorem step_o4 (c : Dev nD) : ∀ i, (Hand.o4 m c : S100000x128.Idx → EReal) i
    = Cert.ReferenceIdeal.Read.val_main_v10 (F := Ideal) (a0 m c) (a2 m c) (a3 m c) (a4 m c) i :=
  mm1_val (Hand.atTc (Hand.U3 m)) c (Cert.ReferenceIdeal.Read.val_main_v7 (F := Ideal) (a0 m c) (a2 m c) (a3 m c))
    (Cert.ReferenceIdeal.Read.val_main_v9 (F := Ideal) (a4 m c))
    (fun i => by
      show (Hand.U3 m c main_v13 : S100000x128.Idx → EReal) i = _
      rw [entry_x3]; exact step_o2 m c i)
    (fun i => by
      show (Hand.U3 m c main_v15 : S128x128.Idx → EReal) i = _
      rw [← Hand.V_eq_3]; exact congrFun (hostW_v15 m _ c) i)

/-- The first edge product is the reference's. -/
theorem step_o6 (c : Dev nD) : ∀ i, (Hand.o6 m c : S800000x128.Idx → EReal) i
    = Cert.ReferenceIdeal.Read.val_main_v13 (F := Ideal) (a1 m c) (a5 m c) i :=
  mm2_val (Hand.atTc (Hand.U5 m)) c (a1 m c) (Cert.ReferenceIdeal.Read.val_main_v12 (F := Ideal) (a5 m c))
    (fun i => congrFun (entry_edge5 m c) i)
    (fun i => by
      show (Hand.U5 m c main_v18 : S128x128.Idx → EReal) i = _
      rw [← Hand.V_eq_5]; exact congrFun (hostW_v18 m _ c) i)

/-- The first aggregate is the reference's. -/
theorem step_agg0 (c : Dev nD) : ∀ i, (Hand.U7 m c main_v30 : S100000x128.Idx → EReal) i
    = Cert.ReferenceIdeal.Read.val_main_v24 (F := Ideal) (a0 m c) (a1 m c) (a2 m c) (a3 m c) (a4 m c) (a5 m c) (a11 m c) i := by
  intro i
  rw [← Hand.V_eq_7]
  exact agg0_ref m (Hand.outs m) c (a0 m c) (a1 m c) (a2 m c) (a3 m c) (a4 m c) (a5 m c)
    (fun i => by rw [entry_h6]; exact step_o4 m c i) (fun i => by rw [entry_ew6]; exact step_o6 m c i) i

/-- The first layer's result is the reference's. -/
theorem step_o8 (c : Dev nD) : ∀ i, (Hand.o8 m c : S100000x128.Idx → EReal) i
    = Cert.ReferenceIdeal.Read.val_main_v58 (F := Ideal) (a0 m c) (a1 m c) (a2 m c) (a3 m c) (a4 m c) (a5 m c) (a6 m c) (a7 m c) (a8 m c) (a11 m c) i := by
  intro i
  rw [val_main_v58_eq]
  exact post3_val (Hand.atTc (Hand.U7 m)) c _ _ _ _ (step_agg0 m c)
    (fun i => by
      show (Hand.U7 m c main_v33 : S1x128.Idx → EReal) i = _
      rw [← Hand.V_eq_7]; exact congrFun (biasRow0 m _ c) i)
    (fun i => by
      show (Hand.U7 m c main_v36 : S1x128.Idx → EReal) i = _
      rw [← Hand.V_eq_7]; exact congrFun (scaleRow0 m _ c) i)
    (fun i => by
      show (Hand.U7 m c main_v39 : S1x128.Idx → EReal) i = _
      rw [← Hand.V_eq_7]; exact congrFun (shiftRow0 m _ c) i) i

end Cert.KernelIdeal.Val

end
-- ==== Proof.KV.PayMM4.lean ====
import proofs.«402750_j37864431681686_1_alg».proof.Proof.Gen.KernelIdeal.Skeleton
import Idealize.ShloMosaic.Lib.ValueIdx
import Idealize.ShloMosaic.Lib.Pipeline.Value
import Idealize.ShloMosaic.PureOps.Ideal.Laws

/-! The block product of region 4 at an index: the accumulator, zeroed at the one contraction step, plus the
    block's matrix product is, at row `p` and column `q`, the sum over `k` of the left block at `(p, k)` times the
    right block at `(k, q)`. Pure: over the payloads only, at the ideal values. -/

noncomputable section

namespace Cert.KernelIdeal.Val

open Cert.KernelIdeal Cert.KernelIdeal.Gen Idealize.ShloMosaic Idealize.ShloMosaic.ValueIdx Idealize.SL.Sem

/-- The left operand's row is the output's row. -/
theorem lhs_mm4_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction coordinate. -/
theorem lhs_mm4_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction coordinate. -/
theorem rhs_mm4_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_mm4_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product into the zero accumulator, at `(p, q)`. -/
theorem matmul_mm4_apply (x0 : FVec Ideal S2000x128 .bf16) (x1 : FVec Ideal S128x128 .bf16) (p : Fin 2000) (q : Fin 128) :
    FloatOps.matmul dot_S2000x128_S128x128_S2000x128_1_0_0_1_n_n none x0 x1 (constant (F := Ideal) S2000x128 .f32 0x00000000#32) (ix2 p q)
      = ∑ k : Fin 128, x0 (ix2 p k) * x1 (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm4_0 _ _
    | ⟨1, _⟩ => exact (lhs_mm4_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm4_0 _ _).trans hk
    | ⟨1, _⟩ => exact rhs_mm4_1 _ _)
  rw [el, er]

/-- The accumulator's initial value is zero everywhere. -/
theorem pay1_mm4_apply (j : S2000x128.Idx) : k4_pay1 (F := Ideal) j = 0 := by
  unfold k4_pay1
  rw [shapeCast_self]
  exact Ideal.ofBits_zero_f32

/-- The block product of region 4 at `(p, q)`: the sum over `k` of the left block at `(p, k)` times the right at `(k, q)`. -/
theorem pay_mm4 (x0 : FVec Ideal S2000x128 .bf16) (x1 : FVec Ideal S128x128 .bf16) (p : Fin 2000) (q : Fin 128) :
    k4_pay2 (F := Ideal) (k4_pay1 (F := Ideal)) x0 x1 (ix2 p q) = ∑ k : Fin 128, x0 (ix2 p k) * x1 (ix2 k q) := by
  unfold k4_pay2
  simp only [shapeCast_self]
  rw [addf_apply, pay1_mm4_apply, zero_add]
  exact matmul_mm4_apply x0 x1 p q

end Cert.KernelIdeal.Val
-- ==== Proof.KV.BlkMM4.lean ====
import proofs.«402750_j37864431681686_1_alg».proof.Proof.KV.PayMM4
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 4. The call walks 50 row blocks of 2000 rows; at block
    `t` the body leaves in the output's buffer the product of the left array's block `t` and the whole right array.
    The 50 blocks tile the output array, so it ends holding the product of the two arrays, index by index. Stated for
    ANY proof data over the call's windows whose output block is that product of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window sits on its one block; the output's row block is the point's number. -/
theorem idx_mm4 : ∀ t : Fin cfg4.N, win4_0.index t (0 : Fin 2) = win4_3.index t (0 : Fin 2) ∧ win4_0.index t (1 : Fin 2) = 0
    ∧ win4_1.index t (0 : Fin 2) = 0 ∧ win4_1.index t (1 : Fin 2) = 0
    ∧ win4_3.index t (1 : Fin 2) = 0 ∧ win4_3.index t (0 : Fin 2) = t.val :=
  (by decide +kernel : ∀ t : Fin grid4.N, _)

variable (V : (c : Dev nD) → (b : Ref sig .tc) → Buf (Elt Ideal) ((c : Thread nD τ).loc b))

/-- What point `t` writes back is block `t` of the product of the two arrays as the call finds them. -/
theorem flushed_mm4 {c : Dev nD} (dat : Dat τ (Elt Ideal) Unit ℕ (UR sig nD τ) ℕ cfg4 c)
    (hafter : ∀ t, dat.after 3 t = k4_pay2 (F := Ideal) (k4_pay1 (F := Ideal))
        (((cfg4.win 0).blk t).view.read (Elt Ideal) (V c (Pipeline.arrRef spec4 0)))
        (((cfg4.win 1).blk t).view.read (Elt Ideal) (V c (Pipeline.arrRef spec4 1))))
    (t : Fin cfg4.N) :
    dat.flushed 3 t = ((cfg4.win 3).blk t).view.read (Elt Ideal) (prod128 (V c main_v41) (V c main_v43)) := by
  show (cfg4.win 3).cut (grid4.coords t) (dat.after 3 t) = _
  rw [hafter]
  obtain ⟨e0, e1, e2, e3, e4, e5⟩ := idx_mm4 t
  funext j
  obtain ⟨p, q, rfl⟩ : ∃ (p : Fin 2000) (q : Fin 128), j = ix2 p q := ⟨j 0, j 1, eq_ix2 j⟩
  show k4_pay2 (F := Ideal) (k4_pay1 (F := Ideal)) _ _ (ix2 p q) = prod128 (V c main_v41) (V c main_v43) (((cfg4.win 3).blk t).view.emb (ix2 p q))
  rw [pay_mm4]
  unfold prod128
  refine Finset.sum_congr rfl fun k _ => ?_
  have h0 : ((cfg4.win 0).blk t).view.emb (ix2 p k) = ix2 ((((cfg4.win 3).blk t).view.emb (ix2 p q)) 0) k := by
    funext a; apply Fin.ext
    match a with
    | ⟨0, _⟩ => show win4_0.index t (0 : Fin 2) * 2000 + 1 * p.val = win4_3.index t (0 : Fin 2) * 2000 + 1 * p.val; omega
    | ⟨1, _⟩ => show win4_0.index t (1 : Fin 2) * 128 + 1 * k.val = k.val; omega
  have h1 : ((cfg4.win 1).blk t).view.emb (ix2 k q) = ix2 k ((((cfg4.win 3).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_3.index t (1 : Fin 2) * 128 + 1 * q.val; omega
  rw [View.read_apply, View.read_apply, h0, h1]
  rfl

/-- An index of the output array is in point `t`'s block iff each coordinate is in the block's range on its axis. -/
theorem mem_blk_mm4 (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v44).slice (win4_3.rect t)).set ↔ _
  rw [View.set_slice_whole, Rect.mem_set_unit]
  exact Iff.rfl

/-- Every index of the output array is in some point's block: row `r` is in block `r / 2000`. -/
theorem cover_mm4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have ht : (i 0).val / 2000 < cfg4.N := by show (i 0).val / 2000 < 50; omega
  obtain ⟨e0, e1, e2, e3, e4, e5⟩ := idx_mm4 ⟨(i 0).val / 2000, ht⟩
  have e5' : win4_3.index ⟨(i 0).val / 2000, ht⟩ (0 : Fin 2) = (i 0).val / 2000 := e5
  refine ⟨⟨(i 0).val / 2000, ht⟩, flush4_3 _, ?_⟩
  rw [mem_blk_mm4]
  intro a
  match a with
  | ⟨0, _⟩ => show win4_3.index ⟨(i 0).val / 2000, ht⟩ (0 : Fin 2) * 2000 ≤ (i 0).val ∧ (i 0).val < win4_3.index ⟨(i 0).val / 2000, ht⟩ (0 : Fin 2) * 2000 + 2000; omega
  | ⟨1, _⟩ => show win4_3.index ⟨(i 0).val / 2000, ht⟩ (1 : Fin 2) * 128 ≤ (i 1).val ∧ (i 1).val < win4_3.index ⟨(i 0).val / 2000, ht⟩ (1 : Fin 2) * 128 + 128; omega

/-- The output array after the call: the product of the two arrays as the call finds them. -/
theorem arr_mm4 {c : Dev nD} (dat : Dat τ (Elt Ideal) Unit ℕ (UR sig nD τ) ℕ cfg4 c)
    (hafter : ∀ t, dat.after 3 t = k4_pay2 (F := Ideal) (k4_pay1 (F := Ideal))
        (((cfg4.win 0).blk t).view.read (Elt Ideal) (V c (Pipeline.arrRef spec4 0)))
        (((cfg4.win 1).blk t).view.read (Elt Ideal) (V c (Pipeline.arrRef spec4 1)))) :
    dat.arrAt 3 cfg4.N = prod128 (V c main_v41) (V c main_v43) :=
  dat.arrAt_eq_of_cover 3 (prod128 (V c main_v41) (V c main_v43)) (fun t _ => flushed_mm4 V dat hafter t) cover_mm4

end Cert.KernelIdeal.Val
-- ==== Proof.KV.MM4.lean ====
import proofs.«402750_j37864431681686_1_alg».proof.Proof.KI.R4
import proofs.«402750_j37864431681686_1_alg».proof.Proof.KV.BlkMM4
import proofs.«402750_j37864431681686_1_alg».proof.Proof.KV.RefDot

/-! Matrix-product call number 4 against the reference: the output array after the call is the reference's product of
    the two arrays the call finds on entry, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 4, for the call's own proof data: the product of the two entry arrays. -/
theorem arr4_eq (c : Dev nD) : (Hand.dat4 (F := Ideal) V c).arrAt 3 cfg4.N = prod128 (V c main_v41) (V c main_v43) :=
  arr_mm4 V (Hand.dat4 (F := Ideal) V c) (fun t => by rw [Hand.after4_3, Hand.out4_eq]; rfl)

/-- The output array after call 4 is the reference's product of whatever the two entry arrays hold. -/
theorem mm4_val (c : Dev nD) (X : FVec Ideal S100000x128 .f32) (W : FVec Ideal S128x128 .f32)
    (hX : ∀ i, V c main_v41 i = X i) (hW : ∀ i, V c main_v43 i = W i) :
    ∀ i, (Hand.dat4 (F := Ideal) V c).arrAt 3 cfg4.N i
      = Host.dotGeneral (F := Ideal) Cert.ReferenceIdeal.dot_S100000x128_S128x128_S100000x128_1_0_0_1_n_n none X W i := by
  intro i
  rw [arr4_eq, prod128_congr hX hW]
  obtain ⟨p, q, rfl⟩ : ∃ (p : Fin 100000) (q : Fin 128), i = ix2 p q := ⟨i 0, i 1, eq_ix2 i⟩
  rw [refdot100000_apply]
  rfl

end Cert.KernelIdeal.Val
-- ==== Proof.KV.PayMM5.lean ====
import proofs.«402750_j37864431681686_1_alg».proof.Proof.Gen.KernelIdeal.Skeleton
import Idealize.ShloMosaic.Lib.ValueIdx
import Idealize.ShloMosaic.Lib.Pipeline.Value
import Idealize.ShloMosaic.PureOps.Ideal.Laws

/-! The block product of region 5 at an index: the accumulator, zeroed at the one contraction step, plus the
    block's matrix product is, at row `p` and column `q`, the sum over `k` of the left block at `(p, k)` times the
    right block at `(k, q)`. Pure: over the payloads only, at the ideal values. -/

noncomputable section

namespace Cert.KernelIdeal.Val

open Cert.KernelIdeal Cert.KernelIdeal.Gen Idealize.ShloMosaic Idealize.ShloMosaic.ValueIdx Idealize.SL.Sem

/-- The left operand's row is the output's row. -/
theorem lhs_mm5_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction coordinate. -/
theorem lhs_mm5_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction coordinate. -/
theorem rhs_mm5_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_mm5_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at `(p, q)`. -/
theorem matmul_mm5_apply (x0 : FVec Ideal S5000x128 .bf16) (x1 : FVec Ideal S128x128 .bf16) (p : Fin 5000) (q : Fin 128) :
    FloatOps.matmul dot_S5000x128_S128x128_S5000x128_1_0_0_1_n_n none x0 x1 (constant (F := Ideal) S5000x128 .f32 0x00000000#32) (ix2 p q)
      = ∑ k : Fin 128, x0 (ix2 p k) * x1 (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm5_0 _ _
    | ⟨1, _⟩ => exact (lhs_mm5_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm5_0 _ _).trans hk
    | ⟨1, _⟩ => exact rhs_mm5_1 _ _)
  rw [el, er]

/-- The accumulator's initial value is zero everywhere. -/
theorem pay1_mm5_apply (j : S5000x128.Idx) : k5_pay1 (F := Ideal) j = 0 := by
  unfold k5_pay1
  rw [shapeCast_self]
  exact Ideal.ofBits_zero_f32

/-- The block product of region 5 at `(p, q)`: the sum over `k` of the left block at `(p, k)` times the right at `(k, q)`. -/
theorem pay_mm5 (x0 : FVec Ideal S5000x128 .bf16) (x1 : FVec Ideal S128x128 .bf16) (p : Fin 5000) (q : Fin 128) :
    k5_pay2 (F := Ideal) (k5_pay1 (F := Ideal)) x0 x1 (ix2 p q) = ∑ k : Fin 128, x0 (ix2 p k) * x1 (ix2 k q) := by
  unfold k5_pay2
  simp only [shapeCast_self]
  rw [addf_apply, pay1_mm5_apply, zero_add]
  exact matmul_mm5_apply x0 x1 p q

end Cert.KernelIdeal.Val
-- ==== Proof.KV.BlkMM5.lean ====
import proofs.«402750_j37864431681686_1_alg».proof.Proof.KV.PayMM5
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 5. The call walks 160 row blocks of 5000 rows; at block
    `t` the body leaves in the output's buffer the product of the left array's block `t` and the whole right array.
    The 160 blocks tile the output array, so it ends holding the product of the two arrays, index by index. Stated for
    ANY proof data over the call's windows whose output block is that product of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window sits on its one block; the output's row block is the point's number. -/
theorem idx_mm5 : ∀ t : Fin cfg5.N, win5_0.index t (0 : Fin 2) = win5_3.index t (0 : Fin 2) ∧ win5_0.index t (1 : Fin 2) = 0
    ∧ win5_1.index t (0 : Fin 2) = 0 ∧ win5_1.index t (1 : Fin 2) = 0
    ∧ win5_3.index t (1 : Fin 2) = 0 ∧ win5_3.index t (0 : Fin 2) = t.val :=
  (by decide +kernel : ∀ t : Fin grid5.N, _)

variable (V : (c : Dev nD) → (b : Ref sig .tc) → Buf (Elt Ideal) ((c : Thread nD τ).loc b))

/-- What point `t` writes back is block `t` of the product of the two arrays as the call finds them. -/
theorem flushed_mm5 {c : Dev nD} (dat : Dat τ (Elt Ideal) Unit ℕ (UR sig nD τ) ℕ cfg5 c)
    (hafter : ∀ t, dat.after 3 t = k5_pay2 (F := Ideal) (k5_pay1 (F := Ideal))
        (((cfg5.win 0).blk t).view.read (Elt Ideal) (V c (Pipeline.arrRef spec5 0)))
        (((cfg5.win 1).blk t).view.read (Elt Ideal) (V c (Pipeline.arrRef spec5 1))))
    (t : Fin cfg5.N) :
    dat.flushed 3 t = ((cfg5.win 3).blk t).view.read (Elt Ideal) (prod128 (V c main_v5) (V c main_v46)) := by
  show (cfg5.win 3).cut (grid5.coords t) (dat.after 3 t) = _
  rw [hafter]
  obtain ⟨e0, e1, e2, e3, e4, e5⟩ := idx_mm5 t
  funext j
  obtain ⟨p, q, rfl⟩ : ∃ (p : Fin 5000) (q : Fin 128), j = ix2 p q := ⟨j 0, j 1, eq_ix2 j⟩
  show k5_pay2 (F := Ideal) (k5_pay1 (F := Ideal)) _ _ (ix2 p q) = prod128 (V c main_v5) (V c main_v46) (((cfg5.win 3).blk t).view.emb (ix2 p q))
  rw [pay_mm5]
  unfold prod128
  refine Finset.sum_congr rfl fun k _ => ?_
  have h0 : ((cfg5.win 0).blk t).view.emb (ix2 p k) = ix2 ((((cfg5.win 3).blk t).view.emb (ix2 p q)) 0) k := by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * k.val = k.val; omega
  have h1 : ((cfg5.win 1).blk t).view.emb (ix2 k q) = ix2 k ((((cfg5.win 3).blk t).view.emb (ix2 p q)) 1) := by
    funext a; apply Fin.ext
    match a with
    | ⟨0, _⟩ => show win5_1.index t (0 : Fin 2) * 128 + 1 * k.val = k.val; omega
    | ⟨1, _⟩ => show win5_1.index t (1 : Fin 2) * 128 + 1 * q.val = win5_3.index t (1 : Fin 2) * 128 + 1 * q.val; omega
  rw [View.read_apply, View.read_apply, h0, h1]
  rfl

/-- An index of the output array is in point `t`'s block iff each coordinate is in the block's range on its axis. -/
theorem mem_blk_mm5 (t : Fin cfg5.N) (i : S800000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v47).slice (win5_3.rect t)).set ↔ _
  rw [View.set_slice_whole, Rect.mem_set_unit]
  exact Iff.rfl

/-- Every index of the output array is in some point's block: row `r` is in block `r / 5000`. -/
theorem cover_mm5 (i : S800000x128.Idx) :
    ∃ t : Fin cfg5.N, (cfg5.win 3).flush t = true ∧ i ∈ ((cfg5.win 3).blk t).view.set := by
  have hi0 : (i 0).val < 800000 := (i 0).isLt
  have hi1 : (i 1).val < 128 := (i 1).isLt
  have ht : (i 0).val / 5000 < cfg5.N := by show (i 0).val / 5000 < 160; omega
  obtain ⟨e0, e1, e2, e3, e4, e5⟩ := idx_mm5 ⟨(i 0).val / 5000, ht⟩
  have e5' : win5_3.index ⟨(i 0).val / 5000, ht⟩ (0 : Fin 2) = (i 0).val / 5000 := e5
  refine ⟨⟨(i 0).val / 5000, ht⟩, flush5_3 _, ?_⟩
  rw [mem_blk_mm5]
  intro a
  match a with
  | ⟨0, _⟩ => show win5_3.index ⟨(i 0).val / 5000, ht⟩ (0 : Fin 2) * 5000 ≤ (i 0).val ∧ (i 0).val < win5_3.index ⟨(i 0).val / 5000, ht⟩ (0 : Fin 2) * 5000 + 5000; omega
  | ⟨1, _⟩ => show win5_3.index ⟨(i 0).val / 5000, ht⟩ (1 : Fin 2) * 128 ≤ (i 1).val ∧ (i 1).val < win5_3.index ⟨(i 0).val / 5000, ht⟩ (1 : Fin 2) * 128 + 128; omega

/-- The output array after the call: the product of the two arrays as the call finds them. -/
theorem arr_mm5 {c : Dev nD} (dat : Dat τ (Elt Ideal) Unit ℕ (UR sig nD τ) ℕ cfg5 c)
    (hafter : ∀ t, dat.after 3 t = k5_pay2 (F := Ideal) (k5_pay1 (F := Ideal))
        (((cfg5.win 0).blk t).view.read (Elt Ideal) (V c (Pipeline.arrRef spec5 0)))
        (((cfg5.win 1).blk t).view.read (Elt Ideal) (V c (Pipeline.arrRef spec5 1)))) :
    dat.arrAt 3 cfg5.N = prod128 (V c main_v5) (V c main_v46) :=
  dat.arrAt_eq_of_cover 3 (prod128 (V c main_v5) (V c main_v46)) (fun t _ => flushed_mm5 V dat hafter t) cover_mm5

end Cert.KernelIdeal.Val
-- ==== Proof.KV.MM5.lean ====
import proofs.«402750_j37864431681686_1_alg».proof.Proof.KI.R5
import proofs.«402750_j37864431681686_1_alg».proof.Proof.KV.BlkMM5
import proofs.«402750_j37864431681686_1_alg».proof.Proof.KV.RefDot

/-! Matrix-product call number 5 against the reference: the output array after the call is the reference's product of
    the two arrays the call finds on entry, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 5, for the call's own proof data: the product of the two entry arrays. -/
theorem arr5_eq (c : Dev nD) : (Hand.dat5 (F := Ideal) V c).arrAt 3 cfg5.N = prod128 (V c main_v5) (V c main_v46) :=
  arr_mm5 V (Hand.dat5 (F := Ideal) V c) (fun t => by rw [Hand.after5_3, Hand.out5_eq]; rfl)

/-- The output array after call 5 is the reference's product of whatever the two entry arrays hold. -/
theorem mm5_val (c : Dev nD) (X : FVec Ideal S800000x128 .f32) (W : FVec Ideal S128x128 .f32)
    (hX : ∀ i, V c main_v5 i = X i) (hW : ∀ i, V c main_v46 i = W i) :
    ∀ i, (Hand.dat5 (F := Ideal) V c).arrAt 3 cfg5.N i
      = Host.dotGeneral (F := Ideal) Cert.ReferenceIdeal.dot_S800000x128_S128x128_S800000x128_1_0_0_1_n_n none X W i := by
  intro i
  rw [arr5_eq, prod128_congr hX hW]
  obtain ⟨p, q, rfl⟩ : ∃ (p : Fin 800000) (q : Fin 128), i = ix2 p q := ⟨i 0, i 1, eq_ix2 i⟩
  rw [refdot800000_apply]
  rfl

end Cert.KernelIdeal.Val
-- ==== Proof.KV.Post6.lean ====
/-
  Post call number 6, from blocks to the array: the call walks 50 row blocks of 2000 rows; at block `t` the body leaves in
  the output's buffer the row formula of rows `2000 t … 2000 t + 1999` of the message sums and of the residual array, with the whole
  bias, scale and shift rows. The 50 blocks tile the output array, so it ends holding the reference's post stage of the
  arrays the call finds, index by index.
-/
import proofs.«402750_j37864431681686_1_alg».proof.Proof.KI.R6
import proofs.«402750_j37864431681686_1_alg».proof.Proof.KV.PayPost
import proofs.«402750_j37864431681686_1_alg».proof.Proof.KV.RefLN
import Idealize.ShloMosaic.Lib.ValueIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The index maps at a point: the three [100000, 128] windows sit on row block `t`, the three [1, 128] windows on their
    one block. -/
structure IdxPost6 (t : Fin cfg6.N) : Prop where
  blk00 : win6_0.index t (0 : Fin 2) = t.val
  blk01 : win6_0.index t (1 : Fin 2) = 0
  blk20 : win6_2.index t (0 : Fin 2) = t.val
  blk21 : win6_2.index t (1 : Fin 2) = 0
  blk50 : win6_5.index t (0 : Fin 2) = t.val
  blk51 : win6_5.index t (1 : Fin 2) = 0
  row10 : win6_1.index t (0 : Fin 2) = 0
  row11 : win6_1.index t (1 : Fin 2) = 0
  row30 : win6_3.index t (0 : Fin 2) = 0
  row31 : win6_3.index t (1 : Fin 2) = 0
  row40 : win6_4.index t (0 : Fin 2) = 0
  row41 : win6_4.index t (1 : Fin 2) = 0

/-- Decided once over the 50 points. -/
theorem idx_post6_all : ∀ t : Fin grid6.N, win6_0.index t (0 : Fin 2) = t.val ∧ win6_0.index t (1 : Fin 2) = 0 ∧ win6_2.index t (0 : Fin 2) = t.val ∧ win6_2.index t (1 : Fin 2) = 0 ∧ win6_5.index t (0 : Fin 2) = t.val ∧ win6_5.index t (1 : Fin 2) = 0 ∧ win6_1.index t (0 : Fin 2) = 0 ∧ win6_1.index t (1 : Fin 2) = 0 ∧ win6_3.index t (0 : Fin 2) = 0 ∧ win6_3.index t (1 : Fin 2) = 0 ∧ win6_4.index t (0 : Fin 2) = 0 ∧ win6_4.index t (1 : Fin 2) = 0 := by decide +kernel

theorem idx_post6 (t : Fin cfg6.N) : IdxPost6 t :=
  have h := idx_post6_all t
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2⟩

/-- The array row under row `p` of block `t`. -/
def rowOf6 (t : Fin cfg6.N) (p : Fin 2000) : Fin 100000 :=
  ⟨2000 * t.val + p.val, by have ht : t.val < 50 := t.isLt; have := p.isLt; omega⟩

variable (V : (c : Dev nD) → (b : Ref sig .tc) → Buf (Elt Ideal) ((c : Thread nD τ).loc b))

/-- Window 0's block at point `t` is rows `2000 t … 2000 t + 1999` of its array. -/
theorem iblk6_0_apply (c : Dev nD) (t : Fin cfg6.N) (p : Fin 2000) (k : Fin 128) :
    (iblk6 V c 0 t : Vec Ideal S2000x128 .f32) (ix2 p k) = V c main_v58 (ix2 (rowOf6 t p) k) := by
  unfold iblk6
  rw [View.read_apply]
  show V c main_v58 _ = V c main_v58 _
  congr 1
  funext a
  apply Fin.ext
  match a with
  | ⟨0, _⟩ => show win6_0.index t (0 : Fin 2) * 2000 + 1 * p.val = 2000 * t.val + p.val; rw [(idx_post6 t).blk00]; omega
  | ⟨1, _⟩ => show win6_0.index t (1 : Fin 2) * 128 + 1 * k.val = k.val; rw [(idx_post6 t).blk01]; omega

/-- Window 2's block at point `t` is rows `2000 t … 2000 t + 1999` of its array. -/
theorem iblk6_2_apply (c : Dev nD) (t : Fin cfg6.N) (p : Fin 2000) (k : Fin 128) :
    (iblk6 V c 2 t : Vec Ideal S2000x128 .f32) (ix2 p k) = V c main_v40 (ix2 (rowOf6 t p) k) := by
  unfold iblk6
  rw [View.read_apply]
  show V c main_v40 _ = V c main_v40 _
  congr 1
  funext a
  apply Fin.ext
  match a with
  | ⟨0, _⟩ => show win6_2.index t (0 : Fin 2) * 2000 + 1 * p.val = 2000 * t.val + p.val; rw [(idx_post6 t).blk20]; omega
  | ⟨1, _⟩ => show win6_2.index t (1 : Fin 2) * 128 + 1 * k.val = k.val; rw [(idx_post6 t).blk21]; omega

/-- Window 1's one block is the whole [1, 128] row array. -/
theorem iblk6_1_apply (c : Dev nD) (t : Fin cfg6.N) (k : Fin 128) :
    (iblk6 V c 1 t : Vec Ideal S1x128 .f32) (ix2 (0 : Fin 1) k) = V c main_v61 (ix2 (0 : Fin 1) k) := by
  unfold iblk6
  rw [View.read_apply]
  show V c main_v61 _ = V c main_v61 _
  congr 1
  funext a
  apply Fin.ext
  match a with
  | ⟨0, _⟩ => show win6_1.index t (0 : Fin 2) * 1 + 1 * 0 = 0; rw [(idx_post6 t).row10]
  | ⟨1, _⟩ => show win6_1.index t (1 : Fin 2) * 128 + 1 * k.val = k.val; rw [(idx_post6 t).row11]; omega

/-- Window 3's one block is the whole [1, 128] row array. -/
theorem iblk6_3_apply (c : Dev nD) (t : Fin cfg6.N) (k : Fin 128) :
    (iblk6 V c 3 t : Vec Ideal S1x128 .f32) (ix2 (0 : Fin 1) k) = V c main_v64 (ix2 (0 : Fin 1) k) := by
  unfold iblk6
  rw [View.read_apply]
  show V c main_v64 _ = V c main_v64 _
  congr 1
  funext a
  apply Fin.ext
  match a with
  | ⟨0, _⟩ => show win6_3.index t (0 : Fin 2) * 1 + 1 * 0 = 0; rw [(idx_post6 t).row30]
  | ⟨1, _⟩ => show win6_3.index t (1 : Fin 2) * 128 + 1 * k.val = k.val; rw [(idx_post6 t).row31]; omega

/-- Window 4's one block is the whole [1, 128] row array. -/
theorem iblk6_4_apply (c : Dev nD) (t : Fin cfg6.N) (k : Fin 128) :
    (iblk6 V c 4 t : Vec Ideal S1x128 .f32) (ix2 (0 : Fin 1) k) = V c main_v67 (ix2 (0 : Fin 1) k) := by
  unfold iblk6
  rw [View.read_apply]
  show V c main_v67 _ = V c main_v67 _
  congr 1
  funext a
  apply Fin.ext
  match a with
  | ⟨0, _⟩ => show win6_4.index t (0 : Fin 2) * 1 + 1 * 0 = 0; rw [(idx_post6 t).row40]
  | ⟨1, _⟩ => show win6_4.index t (1 : Fin 2) * 128 + 1 * k.val = k.val; rw [(idx_post6 t).row41]; omega

/-- THE BLOCK THE BODY LEAVES, AT `(p, q)`: the reference's stage of the arrays at row `2000 t + p`, lane `q`. -/
theorem block6_apply (c : Dev nD) (AGG : S100000x128.Idx → EReal) (B1 : S1x128.Idx → EReal) (RES : S100000x128.Idx → EReal) (S1 BB1 : S1x128.Idx → EReal)
    (hAGG : ∀ i, V c main_v58 i = AGG i) (hB1 : ∀ i, V c main_v61 i = B1 i) (hRES : ∀ i, V c main_v40 i = RES i)
    (hS1 : ∀ i, V c main_v64 i = S1 i) (hBB1 : ∀ i, V c main_v67 i = BB1 i)
    (t : Fin cfg6.N) (p : Fin 2000) (q : Fin 128) :
    k6_pay1 (F := Ideal) (iblk6 V c 0 t) (iblk6 V c 1 t) (iblk6 V c 2 t) (iblk6 V c 3 t) (iblk6 V c 4 t) (ix2 p q) = refPostR AGG B1 RES S1 BB1 (ix2 (rowOf6 t p) q) := by
  rw [k6_pay1_apply, refPostR_apply]
  simp only [iblk6_0_apply, iblk6_1_apply, iblk6_2_apply, iblk6_3_apply, iblk6_4_apply, hAGG, hB1, hRES, hS1, hBB1]

/-- What point `t` writes back is block `t` of the reference's stage of the arrays the call finds. -/
theorem flushed6_eq (c : Dev nD) (AGG : S100000x128.Idx → EReal) (B1 : S1x128.Idx → EReal) (RES : S100000x128.Idx → EReal) (S1 BB1 : S1x128.Idx → EReal)
    (hAGG : ∀ i, V c main_v58 i = AGG i) (hB1 : ∀ i, V c main_v61 i = B1 i) (hRES : ∀ i, V c main_v40 i = RES i)
    (hS1 : ∀ i, V c main_v64 i = S1 i) (hBB1 : ∀ i, V c main_v67 i = BB1 i)
    (t : Fin cfg6.N) :
    (dat6 (F := Ideal) V c).flushed 5 t = ((cfg6.win 5).blk t).view.read (Elt Ideal) (refPostR AGG B1 RES S1 BB1) := by
  show (cfg6.win 5).cut (grid6.coords t) ((dat6 (F := Ideal) V c).after 5 t) = _
  rw [after6_5, out6_eq]
  funext j
  obtain ⟨p, q, rfl⟩ : ∃ (p : Fin 2000) (q : Fin 128), j = ix2 p q := ⟨j 0, j 1, eq_ix2 j⟩
  have hemb : ((cfg6.win 5).blk t).view.emb (ix2 p q) = ix2 (rowOf6 t p) q := by
    funext a
    apply Fin.ext
    match a with
    | ⟨0, _⟩ => show win6_5.index t (0 : Fin 2) * 2000 + 1 * p.val = 2000 * t.val + p.val; rw [(idx_post6 t).blk50]; omega
    | ⟨1, _⟩ => show win6_5.index t (1 : Fin 2) * 128 + 1 * q.val = q.val; rw [(idx_post6 t).blk51]; omega
  rw [View.read_apply, hemb]
  exact block6_apply V c AGG B1 RES S1 BB1 hAGG hB1 hRES hS1 hBB1 t p q

/-- An index of the output array is in point `t`'s block iff each coordinate is in the block's range on its axis. -/
theorem mem_blk6 (t : Fin cfg6.N) (i : S100000x128.Idx) :
    i ∈ ((cfg6.win 5).blk t).view.set ↔ ∀ a : Fin 2, win6_5.index t a * S2000x128.size a ≤ (i a).val ∧ (i a).val < win6_5.index t a * S2000x128.size a + S2000x128.size a := by
  show i ∈ ((View.whole main_v68).slice (win6_5.rect t)).set ↔ _
  rw [View.set_slice_whole, Rect.mem_set_unit]
  exact Iff.rfl

/-- Every index of the output array is in some point's block: row `r` is in block `r / 2000`. -/
theorem cover_post6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have ht : (i 0).val / 2000 < cfg6.N := by show (i 0).val / 2000 < 50; omega
  have e0 : win6_5.index ⟨(i 0).val / 2000, ht⟩ (0 : Fin 2) = (i 0).val / 2000 := (idx_post6 ⟨(i 0).val / 2000, ht⟩).blk50
  have e1 : win6_5.index ⟨(i 0).val / 2000, ht⟩ (1 : Fin 2) = 0 := (idx_post6 ⟨(i 0).val / 2000, ht⟩).blk51
  refine ⟨⟨(i 0).val / 2000, ht⟩, flush6_5 _, ?_⟩
  rw [mem_blk6]
  intro a
  match a with
  | ⟨0, _⟩ => show win6_5.index ⟨(i 0).val / 2000, ht⟩ (0 : Fin 2) * 2000 ≤ (i 0).val ∧ (i 0).val < win6_5.index ⟨(i 0).val / 2000, ht⟩ (0 : Fin 2) * 2000 + 2000; omega
  | ⟨1, _⟩ => show win6_5.index ⟨(i 0).val / 2000, ht⟩ (1 : Fin 2) * 128 ≤ (i 1).val ∧ (i 1).val < win6_5.index ⟨(i 0).val / 2000, ht⟩ (1 : Fin 2) * 128 + 128; omega

/-- THE OUTPUT ARRAY AFTER THE CALL: the reference's post stage of the arrays the call finds, index by index. -/
theorem post6_val (c : Dev nD) (AGG : S100000x128.Idx → EReal) (B1 : S1x128.Idx → EReal) (RES : S100000x128.Idx → EReal) (S1 BB1 : S1x128.Idx → EReal)
    (hAGG : ∀ i, V c main_v58 i = AGG i) (hB1 : ∀ i, V c main_v61 i = B1 i) (hRES : ∀ i, V c main_v40 i = RES i)
    (hS1 : ∀ i, V c main_v64 i = S1 i) (hBB1 : ∀ i, V c main_v67 i = BB1 i) :
    ∀ i, (dat6 (F := Ideal) V c).arrAt 5 cfg6.N i = refPostR AGG B1 RES S1 BB1 i :=
  fun i => congrFun ((dat6 (F := Ideal) V c).arrAt_eq_of_cover 5 (refPostR AGG B1 RES S1 BB1)
    (fun t _ => flushed6_eq V c AGG B1 RES S1 BB1 hAGG hB1 hRES hS1 hBB1 t) cover_post6) i

end Cert.KernelIdeal.Val

end
-- ==== Proof.KV.Chain2.lean ====
import proofs.«402750_j37864431681686_1_alg».proof.Proof.KV.Chain1
import proofs.«402750_j37864431681686_1_alg».proof.Proof.KV.MM4
import proofs.«402750_j37864431681686_1_alg».proof.Proof.KV.MM5
import proofs.«402750_j37864431681686_1_alg».proof.Proof.KV.Post6

/-! # The second layer: the kernel program's arrays are the reference's stages

The node product of the first layer's result, the edge product, the gather-multiply-scatter stretch and the layer's
closing call, which adds the first layer's result back before normalising. Each step names what its call finds on entry
by the step before and applies the call's own value lemma. -/

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The second node product is the reference's. -/
theorem step_o10 (c : Dev nD) : ∀ i, (Hand.o10 m c : S100000x128.Idx → EReal) i
    = Cert.ReferenceIdeal.Read.val_main_v61 (F := Ideal) (a0 m c) (a1 m c) (a2 m c) (a3 m c) (a4 m c) (a5 m c) (a6 m c) (a7 m c) (a8 m c) (a11 m c) i :=
  mm4_val (Hand.atTc (Hand.U9 m)) c (Cert.ReferenceIdeal.Read.val_main_v58 (F := Ideal) (a0 m c) (a1 m c) (a2 m c) (a3 m c) (a4 m c) (a5 m c) (a6 m c) (a7 m c) (a8 m c) (a11 m c))
    (Cert.ReferenceIdeal.Read.val_main_v60 (F := Ideal) (a4 m c))
    (fun i => by
      show (Hand.U9 m c main_v41 : S100000x128.Idx → EReal) i = _
      rw [entry_x9]; exact step_o8 m c i)
    (fun i => by
      show (Hand.U9 m c main_v43 : S128x128.Idx → EReal) i = _
      rw [← Hand.V_eq_9]; exact congrFun (hostW_v43 m _ c) i)

/-- The second edge product is the reference's. -/
theorem step_o12 (c : Dev nD) : ∀ i, (Hand.o12 m c : S800000x128.Idx → EReal) i
    = Cert.ReferenceIdeal.Read.val_main_v64 (F := Ideal) (a1 m c) (a5 m c) i :=
  mm5_val (Hand.atTc (Hand.U11 m)) c (a1 m c) (Cert.ReferenceIdeal.Read.val_main_v63 (F := Ideal) (a5 m c))
    (fun i => congrFun (entry_edge11 m c) i)
    (fun i => by
      show (Hand.U11 m c main_v46 : S128x128.Idx → EReal) i = _
      rw [← Hand.V_eq_11]; exact congrFun (hostW_v46 m _ c) i)

/-- The second aggregate is the reference's. -/
theorem step_agg1 (c : Dev nD) : ∀ i, (Hand.U13 m c main_v58 : S100000x128.Idx → EReal) i
    = Cert.ReferenceIdeal.Read.val_main_v75 (F := Ideal) (a0 m c) (a1 m c) (a2 m c) (a3 m c) (a4 m c) (a5 m c) (a6 m c) (a7 m c) (a8 m c) (a11 m c) i := by
  intro i
  rw [← Hand.V_eq_13]
  exact agg1_ref m (Hand.outs m) c (a0 m c) (a1 m c) (a2 m c) (a3 m c) (a4 m c) (a5 m c) (a6 m c) (a7 m c) (a8 m c) (a11 m c)
    (fun i => by rw [entry_h12]; exact step_o10 m c i) (fun i => by rw [entry_ew12]; exact step_o12 m c i) rfl i

/-- The second layer's result is the reference's: the residual it adds is the layer before's result. -/
theorem step_o14 (c : Dev nD) : ∀ i, (Hand.o14 m c : S100000x128.Idx → EReal) i
    = Cert.ReferenceIdeal.Read.val_main_v110 (F := Ideal) (a0 m c) (a1 m c) (a2 m c) (a3 m c) (a4 m c) (a5 m c) (a6 m c) (a7 m c) (a8 m c) (a11 m c) i := by
  intro i
  rw [val_main_v110_eq]
  exact post6_val (Hand.atTc (Hand.U13 m)) c _ _ _ _ _ (step_agg1 m c)
    (fun i => by
      show (Hand.U13 m c main_v61 : S1x128.Idx → EReal) i = _
      rw [← Hand.V_eq_13]; exact congrFun (biasRow1 m _ c) i)
    (fun i => by
      show (Hand.U13 m c main_v40 : S100000x128.Idx → EReal) i = _
      rw [entry_res13]; exact step_o8 m c i)
    (fun i => by
      show (Hand.U13 m c main_v64 : S1x128.Idx → EReal) i = _
      rw [← Hand.V_eq_13]; exact congrFun (scaleRow1 m _ c) i)
    (fun i => by
      show (Hand.U13 m c main_v67 : S1x128.Idx → EReal) i = _
      rw [← Hand.V_eq_13]; exact congrFun (shiftRow1 m _ c) i) i

end Cert.KernelIdeal.Val

end
-- ==== Proof.KV.PayMM7.lean ====
import proofs.«402750_j37864431681686_1_alg».proof.Proof.Gen.KernelIdeal.Skeleton
import Idealize.ShloMosaic.Lib.ValueIdx
import Idealize.ShloMosaic.Lib.Pipeline.Value
import Idealize.ShloMosaic.PureOps.Ideal.Laws

/-! The block product of region 7 at an index: the accumulator, zeroed at the one contraction step, plus the
    block's matrix product is, at row `p` and column `q`, the sum over `k` of the left block at `(p, k)` times the
    right block at `(k, q)`. Pure: over the payloads only, at the ideal values. -/

noncomputable section

namespace Cert.KernelIdeal.Val

open Cert.KernelIdeal Cert.KernelIdeal.Gen Idealize.ShloMosaic Idealize.ShloMosaic.ValueIdx Idealize.SL.Sem

/-- The left operand's row is the output's row. -/
theorem lhs_mm7_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction coordinate. -/
theorem lhs_mm7_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction coordinate. -/
theorem rhs_mm7_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_mm7_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product into the zero accumulator, at `(p, q)`. -/
theorem matmul_mm7_apply (x0 : FVec Ideal S2000x128 .bf16) (x1 : FVec Ideal S128x128 .bf16) (p : Fin 2000) (q : Fin 128) :
    FloatOps.matmul dot_S2000x128_S128x128_S2000x128_1_0_0_1_n_n none x0 x1 (constant (F := Ideal) S2000x128 .f32 0x00000000#32) (ix2 p q)
      = ∑ k : Fin 128, x0 (ix2 p k) * x1 (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm7_0 _ _
    | ⟨1, _⟩ => exact (lhs_mm7_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm7_0 _ _).trans hk
    | ⟨1, _⟩ => exact rhs_mm7_1 _ _)
  rw [el, er]

/-- The accumulator's initial value is zero everywhere. -/
theorem pay1_mm7_apply (j : S2000x128.Idx) : k7_pay1 (F := Ideal) j = 0 := by
  unfold k7_pay1
  rw [shapeCast_self]
  exact Ideal.ofBits_zero_f32

/-- The block product of region 7 at `(p, q)`: the sum over `k` of the left block at `(p, k)` times the right at `(k, q)`. -/
theorem pay_mm7 (x0 : FVec Ideal S2000x128 .bf16) (x1 : FVec Ideal S128x128 .bf16) (p : Fin 2000) (q : Fin 128) :
    k7_pay2 (F := Ideal) (k7_pay1 (F := Ideal)) x0 x1 (ix2 p q) = ∑ k : Fin 128, x0 (ix2 p k) * x1 (ix2 k q) := by
  unfold k7_pay2
  simp only [shapeCast_self]
  rw [addf_apply, pay1_mm7_apply, zero_add]
  exact matmul_mm7_apply x0 x1 p q

end Cert.KernelIdeal.Val
-- ==== Proof.KV.BlkMM7.lean ====
import proofs.«402750_j37864431681686_1_alg».proof.Proof.KV.PayMM7
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 7. The call walks 50 row blocks of 2000 rows; at block
    `t` the body leaves in the output's buffer the product of the left array's block `t` and the whole right array.
    The 50 blocks tile the output array, so it ends holding the product of the two arrays, index by index. Stated for
    ANY proof data over the call's windows whose output block is that product of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window sits on its one block; the output's row block is the point's number. -/
theorem idx_mm7 : ∀ t : Fin cfg7.N, win7_0.index t (0 : Fin 2) = win7_3.index t (0 : Fin 2) ∧ win7_0.index t (1 : Fin 2) = 0
    ∧ win7_1.index t (0 : Fin 2) = 0 ∧ win7_1.index t (1 : Fin 2) = 0
    ∧ win7_3.index t (1 : Fin 2) = 0 ∧ win7_3.index t (0 : Fin 2) = t.val :=
  (by decide +kernel : ∀ t : Fin grid7.N, _)

variable (V : (c : Dev nD) → (b : Ref sig .tc) → Buf (Elt Ideal) ((c : Thread nD τ).loc b))

/-- What point `t` writes back is block `t` of the product of the two arrays as the call finds them. -/
theorem flushed_mm7 {c : Dev nD} (dat : Dat τ (Elt Ideal) Unit ℕ (UR sig nD τ) ℕ cfg7 c)
    (hafter : ∀ t, dat.after 3 t = k7_pay2 (F := Ideal) (k7_pay1 (F := Ideal))
        (((cfg7.win 0).blk t).view.read (Elt Ideal) (V c (Pipeline.arrRef spec7 0)))
        (((cfg7.win 1).blk t).view.read (Elt Ideal) (V c (Pipeline.arrRef spec7 1))))
    (t : Fin cfg7.N) :
    dat.flushed 3 t = ((cfg7.win 3).blk t).view.read (Elt Ideal) (prod128 (V c main_v69) (V c main_v71)) := by
  show (cfg7.win 3).cut (grid7.coords t) (dat.after 3 t) = _
  rw [hafter]
  obtain ⟨e0, e1, e2, e3, e4, e5⟩ := idx_mm7 t
  funext j
  obtain ⟨p, q, rfl⟩ : ∃ (p : Fin 2000) (q : Fin 128), j = ix2 p q := ⟨j 0, j 1, eq_ix2 j⟩
  show k7_pay2 (F := Ideal) (k7_pay1 (F := Ideal)) _ _ (ix2 p q) = prod128 (V c main_v69) (V c main_v71) (((cfg7.win 3).blk t).view.emb (ix2 p q))
  rw [pay_mm7]
  unfold prod128
  refine Finset.sum_congr rfl fun k _ => ?_
  have h0 : ((cfg7.win 0).blk t).view.emb (ix2 p k) = ix2 ((((cfg7.win 3).blk t).view.emb (ix2 p q)) 0) k := by
    funext a; apply Fin.ext
    match a with
    | ⟨0, _⟩ => show win7_0.index t (0 : Fin 2) * 2000 + 1 * p.val = win7_3.index t (0 : Fin 2) * 2000 + 1 * p.val; omega
    | ⟨1, _⟩ => show win7_0.index t (1 : Fin 2) * 128 + 1 * k.val = k.val; omega
  have h1 : ((cfg7.win 1).blk t).view.emb (ix2 k q) = ix2 k ((((cfg7.win 3).blk t).view.emb (ix2 p q)) 1) := by
    funext a; apply Fin.ext
    match a with
    | ⟨0, _⟩ => show win7_1.index t (0 : Fin 2) * 128 + 1 * k.val = k.val; omega
    | ⟨1, _⟩ => show win7_1.index t (1 : Fin 2) * 128 + 1 * q.val = win7_3.index t (1 : Fin 2) * 128 + 1 * q.val; omega
  rw [View.read_apply, View.read_apply, h0, h1]
  rfl

/-- An index of the output array is in point `t`'s block iff each coordinate is in the block's range on its axis. -/
theorem mem_blk_mm7 (t : Fin cfg7.N) (i : S100000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v72).slice (win7_3.rect t)).set ↔ _
  rw [View.set_slice_whole, Rect.mem_set_unit]
  exact Iff.rfl

/-- Every index of the output array is in some point's block: row `r` is in block `r / 2000`. -/
theorem cover_mm7 (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have ht : (i 0).val / 2000 < cfg7.N := by show (i 0).val / 2000 < 50; omega
  obtain ⟨e0, e1, e2, e3, e4, e5⟩ := idx_mm7 ⟨(i 0).val / 2000, ht⟩
  have e5' : win7_3.index ⟨(i 0).val / 2000, ht⟩ (0 : Fin 2) = (i 0).val / 2000 := e5
  refine ⟨⟨(i 0).val / 2000, ht⟩, flush7_3 _, ?_⟩
  rw [mem_blk_mm7]
  intro a
  match a with
  | ⟨0, _⟩ => show win7_3.index ⟨(i 0).val / 2000, ht⟩ (0 : Fin 2) * 2000 ≤ (i 0).val ∧ (i 0).val < win7_3.index ⟨(i 0).val / 2000, ht⟩ (0 : Fin 2) * 2000 + 2000; omega
  | ⟨1, _⟩ => show win7_3.index ⟨(i 0).val / 2000, ht⟩ (1 : Fin 2) * 128 ≤ (i 1).val ∧ (i 1).val < win7_3.index ⟨(i 0).val / 2000, ht⟩ (1 : Fin 2) * 128 + 128; omega

/-- The output array after the call: the product of the two arrays as the call finds them. -/
theorem arr_mm7 {c : Dev nD} (dat : Dat τ (Elt Ideal) Unit ℕ (UR sig nD τ) ℕ cfg7 c)
    (hafter : ∀ t, dat.after 3 t = k7_pay2 (F := Ideal) (k7_pay1 (F := Ideal))
        (((cfg7.win 0).blk t).view.read (Elt Ideal) (V c (Pipeline.arrRef spec7 0)))
        (((cfg7.win 1).blk t).view.read (Elt Ideal) (V c (Pipeline.arrRef spec7 1)))) :
    dat.arrAt 3 cfg7.N = prod128 (V c main_v69) (V c main_v71) :=
  dat.arrAt_eq_of_cover 3 (prod128 (V c main_v69) (V c main_v71)) (fun t _ => flushed_mm7 V dat hafter t) cover_mm7

end Cert.KernelIdeal.Val
-- ==== Proof.KV.MM7.lean ====
import proofs.«402750_j37864431681686_1_alg».proof.Proof.KI.R7
import proofs.«402750_j37864431681686_1_alg».proof.Proof.KV.BlkMM7
import proofs.«402750_j37864431681686_1_alg».proof.Proof.KV.RefDot

/-! Matrix-product call number 7 against the reference: the output array after the call is the reference's product of
    the two arrays the call finds on entry, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 7, for the call's own proof data: the product of the two entry arrays. -/
theorem arr7_eq (c : Dev nD) : (Hand.dat7 (F := Ideal) V c).arrAt 3 cfg7.N = prod128 (V c main_v69) (V c main_v71) :=
  arr_mm7 V (Hand.dat7 (F := Ideal) V c) (fun t => by rw [Hand.after7_3, Hand.out7_eq]; rfl)

/-- The output array after call 7 is the reference's product of whatever the two entry arrays hold. -/
theorem mm7_val (c : Dev nD) (X : FVec Ideal S100000x128 .f32) (W : FVec Ideal S128x128 .f32)
    (hX : ∀ i, V c main_v69 i = X i) (hW : ∀ i, V c main_v71 i = W i) :
    ∀ i, (Hand.dat7 (F := Ideal) V c).arrAt 3 cfg7.N i
      = Host.dotGeneral (F := Ideal) Cert.ReferenceIdeal.dot_S100000x128_S128x128_S100000x128_1_0_0_1_n_n none X W i := by
  intro i
  rw [arr7_eq, prod128_congr hX hW]
  obtain ⟨p, q, rfl⟩ : ∃ (p : Fin 100000) (q : Fin 128), i = ix2 p q := ⟨i 0, i 1, eq_ix2 i⟩
  rw [refdot100000_apply]
  rfl

end Cert.KernelIdeal.Val
-- ==== Proof.KV.PayMM8.lean ====
import proofs.«402750_j37864431681686_1_alg».proof.Proof.Gen.KernelIdeal.Skeleton
import Idealize.ShloMosaic.Lib.ValueIdx
import Idealize.ShloMosaic.Lib.Pipeline.Value
import Idealize.ShloMosaic.PureOps.Ideal.Laws

/-! The block product of region 8 at an index: the accumulator, zeroed at the one contraction step, plus the
    block's matrix product is, at row `p` and column `q`, the sum over `k` of the left block at `(p, k)` times the
    right block at `(k, q)`. Pure: over the payloads only, at the ideal values. -/

noncomputable section

namespace Cert.KernelIdeal.Val

open Cert.KernelIdeal Cert.KernelIdeal.Gen Idealize.ShloMosaic Idealize.ShloMosaic.ValueIdx Idealize.SL.Sem

/-- The left operand's row is the output's row. -/
theorem lhs_mm8_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction coordinate. -/
theorem lhs_mm8_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction coordinate. -/
theorem rhs_mm8_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_mm8_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at `(p, q)`. -/
theorem matmul_mm8_apply (x0 : FVec Ideal S5000x128 .bf16) (x1 : FVec Ideal S128x128 .bf16) (p : Fin 5000) (q : Fin 128) :
    FloatOps.matmul dot_S5000x128_S128x128_S5000x128_1_0_0_1_n_n none x0 x1 (constant (F := Ideal) S5000x128 .f32 0x00000000#32) (ix2 p q)
      = ∑ k : Fin 128, x0 (ix2 p k) * x1 (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm8_0 _ _
    | ⟨1, _⟩ => exact (lhs_mm8_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm8_0 _ _).trans hk
    | ⟨1, _⟩ => exact rhs_mm8_1 _ _)
  rw [el, er]

/-- The accumulator's initial value is zero everywhere. -/
theorem pay1_mm8_apply (j : S5000x128.Idx) : k8_pay1 (F := Ideal) j = 0 := by
  unfold k8_pay1
  rw [shapeCast_self]
  exact Ideal.ofBits_zero_f32

/-- The block product of region 8 at `(p, q)`: the sum over `k` of the left block at `(p, k)` times the right at `(k, q)`. -/
theorem pay_mm8 (x0 : FVec Ideal S5000x128 .bf16) (x1 : FVec Ideal S128x128 .bf16) (p : Fin 5000) (q : Fin 128) :
    k8_pay2 (F := Ideal) (k8_pay1 (F := Ideal)) x0 x1 (ix2 p q) = ∑ k : Fin 128, x0 (ix2 p k) * x1 (ix2 k q) := by
  unfold k8_pay2
  simp only [shapeCast_self]
  rw [addf_apply, pay1_mm8_apply, zero_add]
  exact matmul_mm8_apply x0 x1 p q

end Cert.KernelIdeal.Val
-- ==== Proof.KV.BlkMM8.lean ====
import proofs.«402750_j37864431681686_1_alg».proof.Proof.KV.PayMM8
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 8. The call walks 160 row blocks of 5000 rows; at block
    `t` the body leaves in the output's buffer the product of the left array's block `t` and the whole right array.
    The 160 blocks tile the output array, so it ends holding the product of the two arrays, index by index. Stated for
    ANY proof data over the call's windows whose output block is that product of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window sits on its one block; the output's row block is the point's number. -/
theorem idx_mm8 : ∀ t : Fin cfg8.N, win8_0.index t (0 : Fin 2) = win8_3.index t (0 : Fin 2) ∧ win8_0.index t (1 : Fin 2) = 0
    ∧ win8_1.index t (0 : Fin 2) = 0 ∧ win8_1.index t (1 : Fin 2) = 0
    ∧ win8_3.index t (1 : Fin 2) = 0 ∧ win8_3.index t (0 : Fin 2) = t.val :=
  (by decide +kernel : ∀ t : Fin grid8.N, _)

variable (V : (c : Dev nD) → (b : Ref sig .tc) → Buf (Elt Ideal) ((c : Thread nD τ).loc b))

/-- What point `t` writes back is block `t` of the product of the two arrays as the call finds them. -/
theorem flushed_mm8 {c : Dev nD} (dat : Dat τ (Elt Ideal) Unit ℕ (UR sig nD τ) ℕ cfg8 c)
    (hafter : ∀ t, dat.after 3 t = k8_pay2 (F := Ideal) (k8_pay1 (F := Ideal))
        (((cfg8.win 0).blk t).view.read (Elt Ideal) (V c (Pipeline.arrRef spec8 0)))
        (((cfg8.win 1).blk t).view.read (Elt Ideal) (V c (Pipeline.arrRef spec8 1))))
    (t : Fin cfg8.N) :
    dat.flushed 3 t = ((cfg8.win 3).blk t).view.read (Elt Ideal) (prod128 (V c main_v5) (V c main_v74)) := by
  show (cfg8.win 3).cut (grid8.coords t) (dat.after 3 t) = _
  rw [hafter]
  obtain ⟨e0, e1, e2, e3, e4, e5⟩ := idx_mm8 t
  funext j
  obtain ⟨p, q, rfl⟩ : ∃ (p : Fin 5000) (q : Fin 128), j = ix2 p q := ⟨j 0, j 1, eq_ix2 j⟩
  show k8_pay2 (F := Ideal) (k8_pay1 (F := Ideal)) _ _ (ix2 p q) = prod128 (V c main_v5) (V c main_v74) (((cfg8.win 3).blk t).view.emb (ix2 p q))
  rw [pay_mm8]
  unfold prod128
  refine Finset.sum_congr rfl fun k _ => ?_
  have h0 : ((cfg8.win 0).blk t).view.emb (ix2 p k) = ix2 ((((cfg8.win 3).blk t).view.emb (ix2 p q)) 0) k := by
    funext a; apply Fin.ext
    match a with
    | ⟨0, _⟩ => show win8_0.index t (0 : Fin 2) * 5000 + 1 * p.val = win8_3.index t (0 : Fin 2) * 5000 + 1 * p.val; omega
    | ⟨1, _⟩ => show win8_0.index t (1 : Fin 2) * 128 + 1 * k.val = k.val; omega
  have h1 : ((cfg8.win 1).blk t).view.emb (ix2 k q) = ix2 k ((((cfg8.win 3).blk t).view.emb (ix2 p q)) 1) := by
    funext a; apply Fin.ext
    match a with
    | ⟨0, _⟩ => show win8_1.index t (0 : Fin 2) * 128 + 1 * k.val = k.val; omega
    | ⟨1, _⟩ => show win8_1.index t (1 : Fin 2) * 128 + 1 * q.val = win8_3.index t (1 : Fin 2) * 128 + 1 * q.val; omega
  rw [View.read_apply, View.read_apply, h0, h1]
  rfl

/-- An index of the output array is in point `t`'s block iff each coordinate is in the block's range on its axis. -/
theorem mem_blk_mm8 (t : Fin cfg8.N) (i : S800000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v75).slice (win8_3.rect t)).set ↔ _
  rw [View.set_slice_whole, Rect.mem_set_unit]
  exact Iff.rfl

/-- Every index of the output array is in some point's block: row `r` is in block `r / 5000`. -/
theorem cover_mm8 (i : S800000x128.Idx) :
    ∃ t : Fin cfg8.N, (cfg8.win 3).flush t = true ∧ i ∈ ((cfg8.win 3).blk t).view.set := by
  have hi0 : (i 0).val < 800000 := (i 0).isLt
  have hi1 : (i 1).val < 128 := (i 1).isLt
  have ht : (i 0).val / 5000 < cfg8.N := by show (i 0).val / 5000 < 160; omega
  obtain ⟨e0, e1, e2, e3, e4, e5⟩ := idx_mm8 ⟨(i 0).val / 5000, ht⟩
  have e5' : win8_3.index ⟨(i 0).val / 5000, ht⟩ (0 : Fin 2) = (i 0).val / 5000 := e5
  refine ⟨⟨(i 0).val / 5000, ht⟩, flush8_3 _, ?_⟩
  rw [mem_blk_mm8]
  intro a
  match a with
  | ⟨0, _⟩ => show win8_3.index ⟨(i 0).val / 5000, ht⟩ (0 : Fin 2) * 5000 ≤ (i 0).val ∧ (i 0).val < win8_3.index ⟨(i 0).val / 5000, ht⟩ (0 : Fin 2) * 5000 + 5000; omega
  | ⟨1, _⟩ => show win8_3.index ⟨(i 0).val / 5000, ht⟩ (1 : Fin 2) * 128 ≤ (i 1).val ∧ (i 1).val < win8_3.index ⟨(i 0).val / 5000, ht⟩ (1 : Fin 2) * 128 + 128; omega

/-- The output array after the call: the product of the two arrays as the call finds them. -/
theorem arr_mm8 {c : Dev nD} (dat : Dat τ (Elt Ideal) Unit ℕ (UR sig nD τ) ℕ cfg8 c)
    (hafter : ∀ t, dat.after 3 t = k8_pay2 (F := Ideal) (k8_pay1 (F := Ideal))
        (((cfg8.win 0).blk t).view.read (Elt Ideal) (V c (Pipeline.arrRef spec8 0)))
        (((cfg8.win 1).blk t).view.read (Elt Ideal) (V c (Pipeline.arrRef spec8 1)))) :
    dat.arrAt 3 cfg8.N = prod128 (V c main_v5) (V c main_v74) :=
  dat.arrAt_eq_of_cover 3 (prod128 (V c main_v5) (V c main_v74)) (fun t _ => flushed_mm8 V dat hafter t) cover_mm8

end Cert.KernelIdeal.Val
-- ==== Proof.KV.MM8.lean ====
import proofs.«402750_j37864431681686_1_alg».proof.Proof.KI.R8
import proofs.«402750_j37864431681686_1_alg».proof.Proof.KV.BlkMM8
import proofs.«402750_j37864431681686_1_alg».proof.Proof.KV.RefDot

/-! Matrix-product call number 8 against the reference: the output array after the call is the reference's product of
    the two arrays the call finds on entry, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 8, for the call's own proof data: the product of the two entry arrays. -/
theorem arr8_eq (c : Dev nD) : (Hand.dat8 (F := Ideal) V c).arrAt 3 cfg8.N = prod128 (V c main_v5) (V c main_v74) :=
  arr_mm8 V (Hand.dat8 (F := Ideal) V c) (fun t => by rw [Hand.after8_3, Hand.out8_eq]; rfl)

/-- The output array after call 8 is the reference's product of whatever the two entry arrays hold. -/
theorem mm8_val (c : Dev nD) (X : FVec Ideal S800000x128 .f32) (W : FVec Ideal S128x128 .f32)
    (hX : ∀ i, V c main_v5 i = X i) (hW : ∀ i, V c main_v74 i = W i) :
    ∀ i, (Hand.dat8 (F := Ideal) V c).arrAt 3 cfg8.N i
      = Host.dotGeneral (F := Ideal) Cert.ReferenceIdeal.dot_S800000x128_S128x128_S800000x128_1_0_0_1_n_n none X W i := by
  intro i
  rw [arr8_eq, prod128_congr hX hW]
  obtain ⟨p, q, rfl⟩ : ∃ (p : Fin 800000) (q : Fin 128), i = ix2 p q := ⟨i 0, i 1, eq_ix2 i⟩
  rw [refdot800000_apply]
  rfl

end Cert.KernelIdeal.Val
-- ==== Proof.KV.Post9.lean ====
/-
  Post call number 9, from blocks to the array: the call walks 50 row blocks of 2000 rows; at block `t` the body leaves in
  the output's buffer the row formula of rows `2000 t … 2000 t + 1999` of the message sums and of the residual array, with the whole
  bias, scale and shift rows. The 50 blocks tile the output array, so it ends holding the reference's post stage of the
  arrays the call finds, index by index.
-/
import proofs.«402750_j37864431681686_1_alg».proof.Proof.KI.R9
import proofs.«402750_j37864431681686_1_alg».proof.Proof.KV.PayPost
import proofs.«402750_j37864431681686_1_alg».proof.Proof.KV.RefLN
import Idealize.ShloMosaic.Lib.ValueIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The index maps at a point: the three [100000, 128] windows sit on row block `t`, the three [1, 128] windows on their
    one block. -/
structure IdxPost9 (t : Fin cfg9.N) : Prop where
  blk00 : win9_0.index t (0 : Fin 2) = t.val
  blk01 : win9_0.index t (1 : Fin 2) = 0
  blk20 : win9_2.index t (0 : Fin 2) = t.val
  blk21 : win9_2.index t (1 : Fin 2) = 0
  blk50 : win9_5.index t (0 : Fin 2) = t.val
  blk51 : win9_5.index t (1 : Fin 2) = 0
  row10 : win9_1.index t (0 : Fin 2) = 0
  row11 : win9_1.index t (1 : Fin 2) = 0
  row30 : win9_3.index t (0 : Fin 2) = 0
  row31 : win9_3.index t (1 : Fin 2) = 0
  row40 : win9_4.index t (0 : Fin 2) = 0
  row41 : win9_4.index t (1 : Fin 2) = 0

/-- Decided once over the 50 points. -/
theorem idx_post9_all : ∀ t : Fin grid9.N, win9_0.index t (0 : Fin 2) = t.val ∧ win9_0.index t (1 : Fin 2) = 0 ∧ win9_2.index t (0 : Fin 2) = t.val ∧ win9_2.index t (1 : Fin 2) = 0 ∧ win9_5.index t (0 : Fin 2) = t.val ∧ win9_5.index t (1 : Fin 2) = 0 ∧ win9_1.index t (0 : Fin 2) = 0 ∧ win9_1.index t (1 : Fin 2) = 0 ∧ win9_3.index t (0 : Fin 2) = 0 ∧ win9_3.index t (1 : Fin 2) = 0 ∧ win9_4.index t (0 : Fin 2) = 0 ∧ win9_4.index t (1 : Fin 2) = 0 := by decide +kernel

theorem idx_post9 (t : Fin cfg9.N) : IdxPost9 t :=
  have h := idx_post9_all t
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2⟩

/-- The array row under row `p` of block `t`. -/
def rowOf9 (t : Fin cfg9.N) (p : Fin 2000) : Fin 100000 :=
  ⟨2000 * t.val + p.val, by have ht : t.val < 50 := t.isLt; have := p.isLt; omega⟩

variable (V : (c : Dev nD) → (b : Ref sig .tc) → Buf (Elt Ideal) ((c : Thread nD τ).loc b))

/-- Window 0's block at point `t` is rows `2000 t … 2000 t + 1999` of its array. -/
theorem iblk9_0_apply (c : Dev nD) (t : Fin cfg9.N) (p : Fin 2000) (k : Fin 128) :
    (iblk9 V c 0 t : Vec Ideal S2000x128 .f32) (ix2 p k) = V c main_v86 (ix2 (rowOf9 t p) k) := by
  unfold iblk9
  rw [View.read_apply]
  show V c main_v86 _ = V c main_v86 _
  congr 1
  funext a
  apply Fin.ext
  match a with
  | ⟨0, _⟩ => show win9_0.index t (0 : Fin 2) * 2000 + 1 * p.val = 2000 * t.val + p.val; rw [(idx_post9 t).blk00]; omega
  | ⟨1, _⟩ => show win9_0.index t (1 : Fin 2) * 128 + 1 * k.val = k.val; rw [(idx_post9 t).blk01]; omega

/-- Window 2's block at point `t` is rows `2000 t … 2000 t + 1999` of its array. -/
theorem iblk9_2_apply (c : Dev nD) (t : Fin cfg9.N) (p : Fin 2000) (k : Fin 128) :
    (iblk9 V c 2 t : Vec Ideal S2000x128 .f32) (ix2 p k) = V c main_v68 (ix2 (rowOf9 t p) k) := by
  unfold iblk9
  rw [View.read_apply]
  show V c main_v68 _ = V c main_v68 _
  congr 1
  funext a
  apply Fin.ext
  match a with
  | ⟨0, _⟩ => show win9_2.index t (0 : Fin 2) * 2000 + 1 * p.val = 2000 * t.val + p.val; rw [(idx_post9 t).blk20]; omega
  | ⟨1, _⟩ => show win9_2.index t (1 : Fin 2) * 128 + 1 * k.val = k.val; rw [(idx_post9 t).blk21]; omega

/-- Window 1's one block is the whole [1, 128] row array. -/
theorem iblk9_1_apply (c : Dev nD) (t : Fin cfg9.N) (k : Fin 128) :
    (iblk9 V c 1 t : Vec Ideal S1x128 .f32) (ix2 (0 : Fin 1) k) = V c main_v89 (ix2 (0 : Fin 1) k) := by
  unfold iblk9
  rw [View.read_apply]
  show V c main_v89 _ = V c main_v89 _
  congr 1
  funext a
  apply Fin.ext
  match a with
  | ⟨0, _⟩ => show win9_1.index t (0 : Fin 2) * 1 + 1 * 0 = 0; rw [(idx_post9 t).row10]
  | ⟨1, _⟩ => show win9_1.index t (1 : Fin 2) * 128 + 1 * k.val = k.val; rw [(idx_post9 t).row11]; omega

/-- Window 3's one block is the whole [1, 128] row array. -/
theorem iblk9_3_apply (c : Dev nD) (t : Fin cfg9.N) (k : Fin 128) :
    (iblk9 V c 3 t : Vec Ideal S1x128 .f32) (ix2 (0 : Fin 1) k) = V c main_v92 (ix2 (0 : Fin 1) k) := by
  unfold iblk9
  rw [View.read_apply]
  show V c main_v92 _ = V c main_v92 _
  congr 1
  funext a
  apply Fin.ext
  match a with
  | ⟨0, _⟩ => show win9_3.index t (0 : Fin 2) * 1 + 1 * 0 = 0; rw [(idx_post9 t).row30]
  | ⟨1, _⟩ => show win9_3.index t (1 : Fin 2) * 128 + 1 * k.val = k.val; rw [(idx_post9 t).row31]; omega

/-- Window 4's one block is the whole [1, 128] row array. -/
theorem iblk9_4_apply (c : Dev nD) (t : Fin cfg9.N) (k : Fin 128) :
    (iblk9 V c 4 t : Vec Ideal S1x128 .f32) (ix2 (0 : Fin 1) k) = V c main_v95 (ix2 (0 : Fin 1) k) := by
  unfold iblk9
  rw [View.read_apply]
  show V c main_v95 _ = V c main_v95 _
  congr 1
  funext a
  apply Fin.ext
  match a with
  | ⟨0, _⟩ => show win9_4.index t (0 : Fin 2) * 1 + 1 * 0 = 0; rw [(idx_post9 t).row40]
  | ⟨1, _⟩ => show win9_4.index t (1 : Fin 2) * 128 + 1 * k.val = k.val; rw [(idx_post9 t).row41]; omega

/-- THE BLOCK THE BODY LEAVES, AT `(p, q)`: the reference's stage of the arrays at row `2000 t + p`, lane `q`. -/
theorem block9_apply (c : Dev nD) (AGG : S100000x128.Idx → EReal) (B1 : S1x128.Idx → EReal) (RES : S100000x128.Idx → EReal) (S1 BB1 : S1x128.Idx → EReal)
    (hAGG : ∀ i, V c main_v86 i = AGG i) (hB1 : ∀ i, V c main_v89 i = B1 i) (hRES : ∀ i, V c main_v68 i = RES i)
    (hS1 : ∀ i, V c main_v92 i = S1 i) (hBB1 : ∀ i, V c main_v95 i = BB1 i)
    (t : Fin cfg9.N) (p : Fin 2000) (q : Fin 128) :
    k9_pay1 (F := Ideal) (iblk9 V c 0 t) (iblk9 V c 1 t) (iblk9 V c 2 t) (iblk9 V c 3 t) (iblk9 V c 4 t) (ix2 p q) = refPostR AGG B1 RES S1 BB1 (ix2 (rowOf9 t p) q) := by
  rw [k9_pay1_apply, refPostR_apply]
  simp only [iblk9_0_apply, iblk9_1_apply, iblk9_2_apply, iblk9_3_apply, iblk9_4_apply, hAGG, hB1, hRES, hS1, hBB1]

/-- What point `t` writes back is block `t` of the reference's stage of the arrays the call finds. -/
theorem flushed9_eq (c : Dev nD) (AGG : S100000x128.Idx → EReal) (B1 : S1x128.Idx → EReal) (RES : S100000x128.Idx → EReal) (S1 BB1 : S1x128.Idx → EReal)
    (hAGG : ∀ i, V c main_v86 i = AGG i) (hB1 : ∀ i, V c main_v89 i = B1 i) (hRES : ∀ i, V c main_v68 i = RES i)
    (hS1 : ∀ i, V c main_v92 i = S1 i) (hBB1 : ∀ i, V c main_v95 i = BB1 i)
    (t : Fin cfg9.N) :
    (dat9 (F := Ideal) V c).flushed 5 t = ((cfg9.win 5).blk t).view.read (Elt Ideal) (refPostR AGG B1 RES S1 BB1) := by
  show (cfg9.win 5).cut (grid9.coords t) ((dat9 (F := Ideal) V c).after 5 t) = _
  rw [after9_5, out9_eq]
  funext j
  obtain ⟨p, q, rfl⟩ : ∃ (p : Fin 2000) (q : Fin 128), j = ix2 p q := ⟨j 0, j 1, eq_ix2 j⟩
  have hemb : ((cfg9.win 5).blk t).view.emb (ix2 p q) = ix2 (rowOf9 t p) q := by
    funext a
    apply Fin.ext
    match a with
    | ⟨0, _⟩ => show win9_5.index t (0 : Fin 2) * 2000 + 1 * p.val = 2000 * t.val + p.val; rw [(idx_post9 t).blk50]; omega
    | ⟨1, _⟩ => show win9_5.index t (1 : Fin 2) * 128 + 1 * q.val = q.val; rw [(idx_post9 t).blk51]; omega
  rw [View.read_apply, hemb]
  exact block9_apply V c AGG B1 RES S1 BB1 hAGG hB1 hRES hS1 hBB1 t p q

/-- An index of the output array is in point `t`'s block iff each coordinate is in the block's range on its axis. -/
theorem mem_blk9 (t : Fin cfg9.N) (i : S100000x128.Idx) :
    i ∈ ((cfg9.win 5).blk t).view.set ↔ ∀ a : Fin 2, win9_5.index t a * S2000x128.size a ≤ (i a).val ∧ (i a).val < win9_5.index t a * S2000x128.size a + S2000x128.size a := by
  show i ∈ ((View.whole main_v96).slice (win9_5.rect t)).set ↔ _
  rw [View.set_slice_whole, Rect.mem_set_unit]
  exact Iff.rfl

/-- Every index of the output array is in some point's block: row `r` is in block `r / 2000`. -/
theorem cover_post9 (i : S100000x128.Idx) :
    ∃ t : Fin cfg9.N, (cfg9.win 5).flush t = true ∧ i ∈ ((cfg9.win 5).blk t).view.set := by
  have hi0 : (i 0).val < 100000 := (i 0).isLt
  have hi1 : (i 1).val < 128 := (i 1).isLt
  have ht : (i 0).val / 2000 < cfg9.N := by show (i 0).val / 2000 < 50; omega
  have e0 : win9_5.index ⟨(i 0).val / 2000, ht⟩ (0 : Fin 2) = (i 0).val / 2000 := (idx_post9 ⟨(i 0).val / 2000, ht⟩).blk50
  have e1 : win9_5.index ⟨(i 0).val / 2000, ht⟩ (1 : Fin 2) = 0 := (idx_post9 ⟨(i 0).val / 2000, ht⟩).blk51
  refine ⟨⟨(i 0).val / 2000, ht⟩, flush9_5 _, ?_⟩
  rw [mem_blk9]
  intro a
  match a with
  | ⟨0, _⟩ => show win9_5.index ⟨(i 0).val / 2000, ht⟩ (0 : Fin 2) * 2000 ≤ (i 0).val ∧ (i 0).val < win9_5.index ⟨(i 0).val / 2000, ht⟩ (0 : Fin 2) * 2000 + 2000; omega
  | ⟨1, _⟩ => show win9_5.index ⟨(i 0).val / 2000, ht⟩ (1 : Fin 2) * 128 ≤ (i 1).val ∧ (i 1).val < win9_5.index ⟨(i 0).val / 2000, ht⟩ (1 : Fin 2) * 128 + 128; omega

/-- THE OUTPUT ARRAY AFTER THE CALL: the reference's post stage of the arrays the call finds, index by index. -/
theorem post9_val (c : Dev nD) (AGG : S100000x128.Idx → EReal) (B1 : S1x128.Idx → EReal) (RES : S100000x128.Idx → EReal) (S1 BB1 : S1x128.Idx → EReal)
    (hAGG : ∀ i, V c main_v86 i = AGG i) (hB1 : ∀ i, V c main_v89 i = B1 i) (hRES : ∀ i, V c main_v68 i = RES i)
    (hS1 : ∀ i, V c main_v92 i = S1 i) (hBB1 : ∀ i, V c main_v95 i = BB1 i) :
    ∀ i, (dat9 (F := Ideal) V c).arrAt 5 cfg9.N i = refPostR AGG B1 RES S1 BB1 i :=
  fun i => congrFun ((dat9 (F := Ideal) V c).arrAt_eq_of_cover 5 (refPostR AGG B1 RES S1 BB1)
    (fun t _ => flushed9_eq V c AGG B1 RES S1 BB1 hAGG hB1 hRES hS1 hBB1 t) cover_post9) i

end Cert.KernelIdeal.Val

end
-- ==== Proof.KV.Chain3.lean ====
import proofs.«402750_j37864431681686_1_alg».proof.Proof.KV.Chain2
import proofs.«402750_j37864431681686_1_alg».proof.Proof.KV.MM7
import proofs.«402750_j37864431681686_1_alg».proof.Proof.KV.MM8
import proofs.«402750_j37864431681686_1_alg».proof.Proof.KV.Post9

/-! # The third layer: the kernel program's arrays are the reference's stages

The node product of the second layer's result, the edge product, the gather-multiply-scatter stretch and the layer's
closing call, which adds the second layer's result back before normalising. Each step names what its call finds on entry
by the step before and applies the call's own value lemma. -/

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The third node product is the reference's. -/
theorem step_o16 (c : Dev nD) : ∀ i, (Hand.o16 m c : S100000x128.Idx → EReal) i
    = Cert.ReferenceIdeal.Read.val_main_v113 (F := Ideal) (a0 m c) (a1 m c) (a2 m c) (a3 m c) (a4 m c) (a5 m c) (a6 m c) (a7 m c) (a8 m c) (a11 m c) i :=
  mm7_val (Hand.atTc (Hand.U15 m)) c (Cert.ReferenceIdeal.Read.val_main_v110 (F := Ideal) (a0 m c) (a1 m c) (a2 m c) (a3 m c) (a4 m c) (a5 m c) (a6 m c) (a7 m c) (a8 m c) (a11 m c))
    (Cert.ReferenceIdeal.Read.val_main_v112 (F := Ideal) (a4 m c))
    (fun i => by
      show (Hand.U15 m c main_v69 : S100000x128.Idx → EReal) i = _
      rw [entry_x15]; exact step_o14 m c i)
    (fun i => by
      show (Hand.U15 m c main_v71 : S128x128.Idx → EReal) i = _
      rw [← Hand.V_eq_15]; exact congrFun (hostW_v71 m _ c) i)

/-- The third edge product is the reference's. -/
theorem step_o18 (c : Dev nD) : ∀ i, (Hand.o18 m c : S800000x128.Idx → EReal) i
    = Cert.ReferenceIdeal.Read.val_main_v116 (F := Ideal) (a1 m c) (a5 m c) i :=
  mm8_val (Hand.atTc (Hand.U17 m)) c (a1 m c) (Cert.ReferenceIdeal.Read.val_main_v115 (F := Ideal) (a5 m c))
    (fun i => congrFun (entry_edge17 m c) i)
    (fun i => by
      show (Hand.U17 m c main_v74 : S128x128.Idx → EReal) i = _
      rw [← Hand.V_eq_17]; exact congrFun (hostW_v74 m _ c) i)

/-- The third aggregate is the reference's. -/
theorem step_agg2 (c : Dev nD) : ∀ i, (Hand.U19 m c main_v86 : S100000x128.Idx → EReal) i
    = Cert.ReferenceIdeal.Read.val_main_v127 (F := Ideal) (a0 m c) (a1 m c) (a2 m c) (a3 m c) (a4 m c) (a5 m c) (a6 m c) (a7 m c) (a8 m c) (a11 m c) i := by
  intro i
  rw [← Hand.V_eq_19]
  exact agg2_ref m (Hand.outs m) c (a0 m c) (a1 m c) (a2 m c) (a3 m c) (a4 m c) (a5 m c) (a6 m c) (a7 m c) (a8 m c) (a11 m c)
    (fun i => by rw [entry_h18]; exact step_o16 m c i) (fun i => by rw [entry_ew18]; exact step_o18 m c i) rfl i

/-- The third layer's result is the reference's: the residual it adds is the layer before's result. -/
theorem step_o20 (c : Dev nD) : ∀ i, (Hand.o20 m c : S100000x128.Idx → EReal) i
    = Cert.ReferenceIdeal.Read.val_main_v162 (F := Ideal) (a0 m c) (a1 m c) (a2 m c) (a3 m c) (a4 m c) (a5 m c) (a6 m c) (a7 m c) (a8 m c) (a11 m c) i := by
  intro i
  rw [val_main_v162_eq]
  exact post9_val (Hand.atTc (Hand.U19 m)) c _ _ _ _ _ (step_agg2 m c)
    (fun i => by
      show (Hand.U19 m c main_v89 : S1x128.Idx → EReal) i = _
      rw [← Hand.V_eq_19]; exact congrFun (biasRow2 m _ c) i)
    (fun i => by
      show (Hand.U19 m c main_v68 : S100000x128.Idx → EReal) i = _
      rw [entry_res19]; exact step_o14 m c i)
    (fun i => by
      show (Hand.U19 m c main_v92 : S1x128.Idx → EReal) i = _
      rw [← Hand.V_eq_19]; exact congrFun (scaleRow2 m _ c) i)
    (fun i => by
      show (Hand.U19 m c main_v95 : S1x128.Idx → EReal) i = _
      rw [← Hand.V_eq_19]; exact congrFun (shiftRow2 m _ c) i) i

end Cert.KernelIdeal.Val

end
-- ==== Proof.KV.PayMM10.lean ====
import proofs.«402750_j37864431681686_1_alg».proof.Proof.KV.PayMM1
import Idealize.ShloMosaic.Lib.ValueLayout

/-! The block of region 10 at an index: the accumulator, zeroed at the one contraction step, plus the block's matrix
    product, plus the bias row broadcast over the rows, is, at row `p` and column `q`, the sum over `k` of the left block
    at `(p, k)` times the right block at `(k, q)`, plus the bias row at `q`. Pure: over the payloads only. -/

noncomputable section

namespace Cert.KernelIdeal.Val

open Cert.KernelIdeal Cert.KernelIdeal.Gen Idealize.ShloMosaic Idealize.ShloMosaic.ValueIdx Idealize.SL.Sem

/-- The accumulator's initial value is zero everywhere. -/
theorem pay1_mm10_apply (j : S2000x128.Idx) : k10_pay1 (F := Ideal) j = 0 := by
  unfold k10_pay1
  rw [shapeCast_self]
  exact Ideal.ofBits_zero_f32

/-- The accumulated block product of region 10 at `(p, q)`. -/
theorem pay2_mm10 (x0 : FVec Ideal S2000x128 .bf16) (x1 : FVec Ideal S128x128 .bf16) (p : Fin 2000) (q : Fin 128) :
    k10_pay2 (F := Ideal) (k10_pay1 (F := Ideal)) x0 x1 (ix2 p q) = ∑ k : Fin 128, x0 (ix2 p k) * x1 (ix2 k q) := by
  unfold k10_pay2
  simp only [shapeCast_self]
  rw [addf_apply, pay1_mm10_apply, zero_add]
  exact matmul_mm1_apply x0 x1 p q

/-- The stored block of region 10 at `(p, q)`: the block product there plus the bias row at `q`. -/
theorem pay_mm10 (x0 : FVec Ideal S2000x128 .bf16) (x1 : FVec Ideal S128x128 .bf16) (x2 : FVec Ideal S1x128 .f32) (p : Fin 2000) (q : Fin 128) :
    k10_pay3 (F := Ideal) (k10_pay2 (F := Ideal) (k10_pay1 (F := Ideal)) x0 x1) x2 (ix2 p q)
      = (∑ k : Fin 128, x0 (ix2 p k) * x1 (ix2 k q)) + x2 (ix2 (0 : Fin 1) q) := by
  unfold k10_pay3
  simp only [shapeCast_self]
  rw [addf_apply, broadcastTo_1b_ab_apply, pay2_mm10]

end Cert.KernelIdeal.Val
-- ==== Proof.KV.BlkMM10.lean ====
import proofs.«402750_j37864431681686_1_alg».proof.Proof.KV.PayMM10
import proofs.«402750_j37864431681686_1_alg».proof.Proof.KV.MMSpec
import proofs.«402750_j37864431681686_1_alg».proof.Proof.Gen.KernelIdeal.Points
import Idealize.ShloMosaic.Lib.ValueIdx
import Idealize.ShloMosaic.Lib.Pipeline.Value
import Idealize.ShloMosaic.PureOps.Ideal.Laws

/-! From blocks to the array, for matrix-product call number 10 (with a bias row). The call walks 50 row blocks of
    2000 rows; at block `t` the body leaves in the output's buffer the product of the left array's block `t` and the
    whole right array, plus the bias row on every row. The 50 blocks tile the output array, so it ends holding the
    product of the two arrays plus the bias row, index by index. Stated for ANY proof data over the call's windows whose
    output block is that function of the blocks read. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The index maps, decided over the grid: the left window's row block is the output's, its column block is the
    only one; the right window and the bias row sit on their one block; the output's row block is the point's number. -/
theorem idx_mm10 : ∀ t : Fin cfg10.N, win10_0.index t (0 : Fin 2) = win10_3.index t (0 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (1 : Fin 2) = 0 ∧ win10_3.index t (0 : Fin 2) = t.val :=
  (by decide +kernel : ∀ t : Fin grid10.N, _)

variable (V : (c : Dev nD) → (b : Ref sig .tc) → Buf (Elt Ideal) ((c : Thread nD τ).loc b))

set_option maxHeartbeats 1000000 in
/-- What point `t` writes back is block `t` of the product of the two arrays plus the bias row, as the call finds them. -/
theorem flushed_mm10 {c : Dev nD} (dat : Dat τ (Elt Ideal) Unit ℕ (UR sig nD τ) ℕ cfg10 c)
    (hafter : ∀ t, dat.after 3 t = k10_pay3 (F := Ideal) (k10_pay2 (F := Ideal) (k10_pay1 (F := Ideal))
        (((cfg10.win 0).blk t).view.read (Elt Ideal) (V c (Pipeline.arrRef spec10 0)))
        (((cfg10.win 1).blk t).view.read (Elt Ideal) (V c (Pipeline.arrRef spec10 1))))
        (((cfg10.win 2).blk t).view.read (Elt Ideal) (V c (Pipeline.arrRef spec10 2))))
    (t : Fin cfg10.N) :
    dat.flushed 3 t = ((cfg10.win 3).blk t).view.read (Elt Ideal)
      (fun i => prod128 (V c main_v97) (V c main_v7) i + V c main_v98 (ix2 (0 : Fin 1) (i 1))) := by
  show (cfg10.win 3).cut (grid10.coords t) (dat.after 3 t) = _
  rw [hafter]
  obtain ⟨e0, e1, e2, e3, e4, e5, e6, e7⟩ := idx_mm10 t
  funext j
  obtain ⟨p, q, rfl⟩ : ∃ (p : Fin 2000) (q : Fin 128), j = ix2 p q := ⟨j 0, j 1, eq_ix2 j⟩
  show k10_pay3 (F := Ideal) (k10_pay2 (F := Ideal) (k10_pay1 (F := Ideal)) _ _) _ (ix2 p q)
    = prod128 (V c main_v97) (V c main_v7) (((cfg10.win 3).blk t).view.emb (ix2 p q))
      + V c main_v98 (ix2 (0 : Fin 1) ((((cfg10.win 3).blk t).view.emb (ix2 p q)) 1))
  rw [pay_mm10]
  unfold prod128
  have h2 : ((cfg10.win 2).blk t).view.emb (ix2 (0 : Fin 1) q) = ix2 (0 : Fin 1) ((((cfg10.win 3).blk t).view.emb (ix2 p q)) 1) := by
    funext a; apply Fin.ext
    match a with
    | ⟨0, _⟩ => show win10_2.index t (0 : Fin 2) * 1 + 1 * 0 = 0; omega
    | ⟨1, _⟩ => show win10_2.index t (1 : Fin 2) * 128 + 1 * q.val = win10_3.index t (1 : Fin 2) * 128 + 1 * q.val; omega
  rw [View.read_apply, h2]
  refine congrArg₂ (· + ·) (Finset.sum_congr rfl fun k _ => ?_) rfl
  have h0 : ((cfg10.win 0).blk t).view.emb (ix2 p k) = ix2 ((((cfg10.win 3).blk t).view.emb (ix2 p q)) 0) k := by
    funext a; apply Fin.ext
    match a with
    | ⟨0, _⟩ => show win10_0.index t (0 : Fin 2) * 2000 + 1 * p.val = win10_3.index t (0 : Fin 2) * 2000 + 1 * p.val; omega
    | ⟨1, _⟩ => show win10_0.index t (1 : Fin 2) * 128 + 1 * k.val = k.val; omega
  have h1 : ((cfg10.win 1).blk t).view.emb (ix2 k q) = ix2 k ((((cfg10.win 3).blk t).view.emb (ix2 p q)) 1) := by
    funext a; apply Fin.ext
    match a with
    | ⟨0, _⟩ => show win10_1.index t (0 : Fin 2) * 128 + 1 * k.val = k.val; omega
    | ⟨1, _⟩ => show win10_1.index t (1 : Fin 2) * 128 + 1 * q.val = win10_3.index t (1 : Fin 2) * 128 + 1 * q.val; omega
  rw [View.read_apply, View.read_apply, h0, h1]
  rfl

/-- An index of the output array is in point `t`'s block iff each coordinate is in the block's range on its axis. -/
theorem mem_blk_mm10 (t : Fin cfg10.N) (i : S100000x128.Idx) :
    i ∈ ((cfg10.win 3).blk t).view.set ↔ ∀ a : Fin 2, win10_3.index t a * S2000x128.size a ≤ (i a).val ∧ (i a).val < win10_3.index t a * S2000x128.size a + S2000x128.size a := by
  show i ∈ ((View.whole main_v99).slice (win10_3.rect t)).set ↔ _
  rw [View.set_slice_whole, Rect.mem_set_unit]
  exact Iff.rfl

/-- Every index of the output array is in some point's block: row `r` is in block `r / 2000`. -/
theorem cover_mm10 (i : S100000x128.Idx) :
    ∃ t : Fin cfg10.N, (cfg10.win 3).flush t = true ∧ i ∈ ((cfg10.win 3).blk t).view.set := by
  have hi0 : (i 0).val < 100000 := (i 0).isLt
  have hi1 : (i 1).val < 128 := (i 1).isLt
  have ht : (i 0).val / 2000 < cfg10.N := by show (i 0).val / 2000 < 50; omega
  obtain ⟨e0, e1, e2, e3, e4, e5, e6, e7⟩ := idx_mm10 ⟨(i 0).val / 2000, ht⟩
  have e7' : win10_3.index ⟨(i 0).val / 2000, ht⟩ (0 : Fin 2) = (i 0).val / 2000 := e7
  refine ⟨⟨(i 0).val / 2000, ht⟩, flush10_3 _, ?_⟩
  rw [mem_blk_mm10]
  intro a
  match a with
  | ⟨0, _⟩ => show win10_3.index ⟨(i 0).val / 2000, ht⟩ (0 : Fin 2) * 2000 ≤ (i 0).val ∧ (i 0).val < win10_3.index ⟨(i 0).val / 2000, ht⟩ (0 : Fin 2) * 2000 + 2000; omega
  | ⟨1, _⟩ => show win10_3.index ⟨(i 0).val / 2000, ht⟩ (1 : Fin 2) * 128 ≤ (i 1).val ∧ (i 1).val < win10_3.index ⟨(i 0).val / 2000, ht⟩ (1 : Fin 2) * 128 + 128; omega

/-- The output array after the call: the product of the two arrays plus the bias row, as the call finds them. -/
theorem arr_mm10 {c : Dev nD} (dat : Dat τ (Elt Ideal) Unit ℕ (UR sig nD τ) ℕ cfg10 c)
    (hafter : ∀ t, dat.after 3 t = k10_pay3 (F := Ideal) (k10_pay2 (F := Ideal) (k10_pay1 (F := Ideal))
        (((cfg10.win 0).blk t).view.read (Elt Ideal) (V c (Pipeline.arrRef spec10 0)))
        (((cfg10.win 1).blk t).view.read (Elt Ideal) (V c (Pipeline.arrRef spec10 1))))
        (((cfg10.win 2).blk t).view.read (Elt Ideal) (V c (Pipeline.arrRef spec10 2)))) :
    dat.arrAt 3 cfg10.N = fun i => prod128 (V c main_v97) (V c main_v7) i + V c main_v98 (ix2 (0 : Fin 1) (i 1)) :=
  dat.arrAt_eq_of_cover 3 _ (fun t _ => flushed_mm10 V dat hafter t) cover_mm10

end Cert.KernelIdeal.Val
-- ==== Proof.KV.MM10.lean ====
import proofs.«402750_j37864431681686_1_alg».proof.Proof.KI.R10
import proofs.«402750_j37864431681686_1_alg».proof.Proof.KV.BlkMM10
import proofs.«402750_j37864431681686_1_alg».proof.Proof.KV.RefDot
import proofs.«402750_j37864431681686_1_alg».proof.Proof.RefRead

/-! Matrix-product call number 10 (with a bias row) against the reference: the output array after the call is the
    reference's product of the two arrays the call finds on entry plus the bias vector on every row, index by index. -/

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (V : (c : Dev nD) → (b : Ref sig .tc) → Buf (Elt Ideal) ((c : Thread nD τ).loc b))

/-- The output array after call 10, for the call's own proof data: the product of the two entry arrays plus the
    entry bias row. -/
theorem arr10_eq (c : Dev nD) : (Hand.dat10 (F := Ideal) V c).arrAt 3 cfg10.N
    = fun i => prod128 (V c main_v97) (V c main_v7) i + V c main_v98 (ix2 (0 : Fin 1) (i 1)) :=
  arr_mm10 V (Hand.dat10 (F := Ideal) V c) (fun t => by rw [Hand.after10_3, Hand.out10_eq]; rfl)

/-- The output array after call 10 is the reference's product of whatever the two entry arrays hold, plus the bias
    vector `b` at the column, when the entry bias row holds `b`. -/
theorem mm10_val (c : Dev nD) (X : FVec Ideal S100000x128 .f32) (W : FVec Ideal S128x128 .f32) (b : FVec Ideal S128 .f32)
    (hX : ∀ i, V c main_v97 i = X i) (hW : ∀ i, V c main_v7 i = W i)
    (hB : ∀ j : Fin 128, V c main_v98 (ix2 (0 : Fin 1) j) = b (ix1 j)) :
    ∀ i, (Hand.dat10 (F := Ideal) V c).arrAt 3 cfg10.N i
      = Host.dotGeneral (F := Ideal) Cert.ReferenceIdeal.dot_S100000x128_S128x128_S100000x128_1_0_0_1_n_n none X W i + b (ix1 (i 1)) := by
  intro i
  obtain ⟨p, q, rfl⟩ : ∃ (p : Fin 100000) (q : Fin 128), i = ix2 p q := ⟨i 0, i 1, eq_ix2 i⟩
  rw [arr10_eq]
  show prod128 (V c main_v97) (V c main_v7) (ix2 p q) + V c main_v98 (ix2 (0 : Fin 1) q)
    = Host.dotGeneral (F := Ideal) Cert.ReferenceIdeal.dot_S100000x128_S128x128_S100000x128_1_0_0_1_n_n none X W (ix2 p q) + b (ix1 q)
  rw [prod128_congr hX hW, hB, refdot100000_apply]
  rfl

/-- The reference's output bias vector broadcast over the rows, read at an index: the vector at the column. -/
theorem ref_bias_v165_apply (b : FVec Ideal S128 .f32) (i : S100000x128.Idx) :
    Cert.ReferenceIdeal.Read.val_main_v165 (F := Ideal) b i = b (ix1 (i 1)) := by
  rw [Cert.ReferenceIdeal.Read.val_main_v165_apply, Cert.ReferenceIdeal.Read.val_main_v164_apply]
  exact congrArg b (funext fun a => match a with | ⟨0, _⟩ => rfl)

/-- The output array after call 10 in the shape of the reference's output projection: its product of what the entry
    arrays hold, plus its broadcast bias. -/
theorem mm10_ref (c : Dev nD) (X : FVec Ideal S100000x128 .f32) (W : FVec Ideal S128x128 .f32) (b : FVec Ideal S128 .f32)
    (hX : ∀ i, V c main_v97 i = X i) (hW : ∀ i, V c main_v7 i = W i)
    (hB : ∀ j : Fin 128, V c main_v98 (ix2 (0 : Fin 1) j) = b (ix1 j)) :
    ∀ i, (Hand.dat10 (F := Ideal) V c).arrAt 3 cfg10.N i
      = FloatOps.addf (Host.dotGeneral (F := Ideal) Cert.ReferenceIdeal.dot_S100000x128_S128x128_S100000x128_1_0_0_1_n_n none X W i) (Cert.ReferenceIdeal.Read.val_main_v165 (F := Ideal) b i) := by
  intro i
  rw [mm10_val V c X W b hX hW hB i, ref_bias_v165_apply]
  rfl

end Cert.KernelIdeal.Val
-- ==== Proof.KV.PoolHost.lean ====
import proofs.«402750_j37864431681686_1_alg».proof.Proof.Gen.KernelIdeal.Regions
import Idealize.ShloMosaic.Lib.ValueIdx
import Idealize.ShloMosaic.Lib.Pipeline.Value
import Idealize.ShloMosaic.Lib.KernelVsHost
import Idealize.ShloMosaic.Lib.StableHlo.Predicate
import Idealize.ShloMosaic.PureOps.Ideal.Laws

/-!
# The two operands of the pooling product, as the host code before it builds them

Before the pooling call the program builds, on the host, the two matrices it multiplies.

* The left one is the graph-membership matrix: entry (g, n) compares the row number g with node n's
  graph number (an equality of 32-bit words), turns the one-bit answer into 1 or 0, and pads the
  100000 node columns with 96 zero columns.
* The right one is the node-feature matrix y, its 100000 rows padded with 96 zero rows.

Both are read here at one index, over any contents the earlier kernel calls may have left.
-/

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : Gen.Outs (F := Ideal))

/-- The graph numbers are an argument no operation writes: before the pooling stretch they are still
the launch contents. -/
theorem batch_at_pool (c : Dev nD) :
    Gen.V22 (F := Ideal) m outs c main_arg12 = m ((c : Thread nD τ).loc main_arg12) :=
  (Gen.V22_of m outs c main_arg12 (by decide)).trans <|
    (Gen.V21_of m outs c main_arg12 (by decide)).trans <|
    (Gen.V20_of m outs c main_arg12 (by decide)).trans <|
    (Gen.V19_of m outs c main_arg12 (by decide)).trans <|
    (Gen.V18_of m outs c main_arg12 (by decide)).trans <|
    (Gen.V17_of m outs c main_arg12 (by decide)).trans <|
    (Gen.V16_of m outs c main_arg12 (by decide)).trans <|
    (Gen.V15_of m outs c main_arg12 (by decide)).trans <|
    (Gen.V14_of m outs c main_arg12 (by decide)).trans <|
    (Gen.V13_of m outs c main_arg12 (by decide)).trans <|
    (Gen.V12_of m outs c main_arg12 (by decide)).trans <|
    (Gen.V11_of m outs c main_arg12 (by decide)).trans <|
    (Gen.V10_of m outs c main_arg12 (by decide)).trans <|
    (Gen.V9_of m outs c main_arg12 (by decide)).trans <|
    (Gen.V8_of m outs c main_arg12 (by decide)).trans <|
    (Gen.V7_of m outs c main_arg12 (by decide)).trans <|
    (Gen.V6_of m outs c main_arg12 (by decide)).trans <|
    (Gen.V5_of m outs c main_arg12 (by decide)).trans <|
    (Gen.V4_of m outs c main_arg12 (by decide)).trans <|
    (Gen.V3_of m outs c main_arg12 (by decide)).trans <|
    (Gen.V2_of m outs c main_arg12 (by decide)).trans <|
    (Gen.V1_of m c main_arg12 (by decide)).trans rfl

/-! ## The two arrays as terms of the host operations -/

/-- The right operand: y, format-changed, padded below with the converted integer zero. -/
theorem rows_term (c : Dev nD) :
    (Gen.V26 (F := Ideal) m outs c main_v107 : S100096x128.Idx → EReal)
      = pad S100096x128 ![0, 0] ![96, 0] ![0, 0]
          (truncf (F := Ideal) .bf16 (outs 22 main_v99 c : S100000x128.Idx → EReal) bitsLt_bf16_f32)
          (sitofp (F := Ideal) .bf16 (constantI S_ 32 0#32))
          pads_S100000x128_S100096x128_0960_000 h_S_ := by
  dsimp only [Gen.V26, Gen.V25, Gen.V24, Gen.V23, Gen.V22]
  after_results
  rw [Function.update_self]
  rfl

/-- The left operand: the comparison of the row number with the graph numbers, as 0 / 1, padded on
the right with the converted integer zero. -/
theorem onehot_term (c : Dev nD) :
    (Gen.V26 (F := Ideal) m outs c main_v105 : S64x100096.Idx → EReal)
      = pad S64x100096 ![0, 0] ![0, 96] ![0, 0]
          (uitofp (F := Ideal) .bf16 (cmpi .eq (iotaInDim S64x100000 32 0)
            (broadcastInDim S64x100000 ![0, 1] bcast_S1x100000_S64x100000_0_1
              (broadcastInDim S1x100000 ![1] bcast_S100000_S1x100000_1
                (Gen.V22 (F := Ideal) m outs c main_arg12 : S100000.Idx → BitVec 32)))))
          (sitofp (F := Ideal) .bf16 (constantI S_ 32 0#32))
          pads_S64x100000_S64x100096_000_0960 h_S_ := by
  dsimp only [Gen.V26, Gen.V25, Gen.V24, Gen.V23]
  after_results
  rfl

/-! ## Read at an index -/

/-- The padding value: the integer zero converted is the real zero. -/
theorem pad_zero (i : S_.Idx) : (sitofp (F := Ideal) .bf16 (constantI S_ 32 0#32) : S_.Idx → EReal) i = 0 := by
  show ((((0#32 : BitVec 32).toInt : ℤ) : ℝ) : EReal) = 0
  simp

/-- A row vector of graph numbers laid under every row of a 64 × 100000 rectangle reads, at (g, n),
node n's graph number. -/
theorem batch_bcast_apply (b : S100000.Idx → BitVec 32) (g : Fin 64) (n : Fin 100000) :
    broadcastInDim S64x100000 ![0, 1] bcast_S1x100000_S64x100000_0_1
      (broadcastInDim S1x100000 ![1] bcast_S100000_S1x100000_1 b) (ix2 g n) = b (ix1 n) := by
  rw [broadcastInDim_apply ![0, 1] bcast_S1x100000_S64x100000_0_1 _ (ix2 g n) (ix2 (0 : Fin 1) n) (fun a => match a with
      | ⟨0, _⟩ => by show (0 : ℕ) = if (1 : ℕ) = 1 then 0 else g.val; rw [if_pos rfl]
      | ⟨1, _⟩ => by show n.val = if (100000 : ℕ) = 1 then 0 else n.val; rw [if_neg (by decide)]),
    broadcastInDim_apply ![1] bcast_S100000_S1x100000_1 b (ix2 (0 : Fin 1) n) (ix1 n) (fun a => match a with
      | ⟨0, _⟩ => by show n.val = if (100000 : ℕ) = 1 then 0 else n.val; rw [if_neg (by decide)])]

/-- A one-bit answer to "are these two words equal", read as a number, is 1 or 0. -/
theorem eq_bit_toReal (a b : BitVec 32) :
    ((((IntOp.cmpi .eq a b).toNat : ℕ) : ℝ) : EReal) = if a = b then 1 else 0 := by
  by_cases h : a = b
  · rw [if_pos h, Predicate.cmpi_eq_iff.mpr h]
    show (((1 : ℕ) : ℝ) : EReal) = 1
    norm_num
  · rw [if_neg h, eq_zero_of_ne_one (fun h1 => h (Predicate.cmpi_eq_iff.mp h1))]
    show (((0 : ℕ) : ℝ) : EReal) = 0
    norm_num

/-- THE LEFT OPERAND at (g, n): 1 when n is a node whose graph number is the word of g, else 0;
the 96 padding columns are 0. -/
theorem onehot_apply (c : Dev nD) (g : Fin 64) (n : Fin 100096) :
    (Gen.V26 (F := Ideal) m outs c main_v105 : S64x100096.Idx → EReal) (ix2 g n)
      = if h : n.val < 100000 then
          (if BitVec.ofNat 32 g.val = (m ((c : Thread nD τ).loc main_arg12) : S100000.Idx → BitVec 32) (ix1 ⟨n.val, h⟩)
            then (1 : EReal) else 0)
        else 0 := by
  rw [onehot_term, batch_at_pool]
  by_cases h : n.val < 100000
  · rw [dif_pos h, pad_apply_of_inside (s := S64x100000) (t := S64x100096) ![0, 0] ![0, 96] ![0, 0] _ _ pads_S64x100000_S64x100096_000_0960 h_S_
      (ix2 g n) (ix2 g ⟨n.val, h⟩) (fun a => match a with
        | ⟨0, _⟩ => by show g.val = 0 + g.val * (0 + 1); omega
        | ⟨1, _⟩ => by show n.val = 0 + n.val * (0 + 1); omega)]
    show ((((IntOp.cmpi .eq (BitVec.ofNat 32 g.val)
      (broadcastInDim S64x100000 ![0, 1] bcast_S1x100000_S64x100000_0_1
        (broadcastInDim S1x100000 ![1] bcast_S100000_S1x100000_1
          (m ((c : Thread nD τ).loc main_arg12) : S100000.Idx → BitVec 32)) (ix2 g ⟨n.val, h⟩))).toNat : ℕ) : ℝ) : EReal) = _
    rw [batch_bcast_apply, eq_bit_toReal]
  · rw [dif_neg h, pad_apply_of_not_inside (s := S64x100000) (t := S64x100096) ![0, 0] ![0, 96] ![0, 0] _ _ pads_S64x100000_S64x100096_000_0960 h_S_
      (ix2 g n) (1 : Fin 2) (fun hin => h (by
        have h3 : (n.val - 0) / 1 < 100000 := hin.2.2
        rwa [Nat.sub_zero, Nat.div_one] at h3))]
    exact pad_zero _

/-- THE RIGHT OPERAND at (n, j): y at (n, j) for a node n, 0 on the 96 padding rows. -/
theorem rows_apply (c : Dev nD) (n : Fin 100096) (j : Fin 128) :
    (Gen.V26 (F := Ideal) m outs c main_v107 : S100096x128.Idx → EReal) (ix2 n j)
      = (if h : n.val < 100000 then (outs 22 main_v99 c : S100000x128.Idx → EReal) (ix2 ⟨n.val, h⟩ j) else 0 : EReal) := by
  rw [rows_term]
  by_cases h : n.val < 100000
  · rw [dif_pos h, pad_apply_of_inside (s := S100000x128) (t := S100096x128) ![0, 0] ![96, 0] ![0, 0] _ _ pads_S100000x128_S100096x128_0960_000 h_S_
      (ix2 n j) (ix2 ⟨n.val, h⟩ j) (fun a => match a with
        | ⟨0, _⟩ => by show n.val = 0 + n.val * (0 + 1); omega
        | ⟨1, _⟩ => by show j.val = 0 + j.val * (0 + 1); omega)]
    rfl
  · rw [dif_neg h, pad_apply_of_not_inside (s := S100000x128) (t := S100096x128) ![0, 0] ![96, 0] ![0, 0] _ _ pads_S100000x128_S100096x128_0960_000 h_S_
      (ix2 n j) (0 : Fin 2) (fun hin => h (by
        have h3 : (n.val - 0) / 1 < 100000 := hin.2.2
        rwa [Nat.sub_zero, Nat.div_one] at h3))]
    exact pad_zero _

end Cert.KernelIdeal.Val

end
-- ==== Proof.KV.PayPool.lean ====
import proofs.«402750_j37864431681686_1_alg».proof.Proof.Gen.KernelIdeal.Skeleton
import Idealize.ShloMosaic.Lib.ValueIdx
import Idealize.ShloMosaic.Lib.Pipeline.Value
import Idealize.ShloMosaic.PureOps.Ideal.Laws

/-!
# The pooling kernel's two payloads, read at an index

The pooling call keeps a 64 × 128 accumulator.  Its first payload is the zero splat the accumulator
starts from; its second adds to the accumulator the product of a 64 × 5888 block with a
5888 × 128 block.  Read at the extended reals, entry (g, j) of that product is the plain sum over
the 5888 contracted positions.
-/

noncomputable section

namespace Cert.KernelIdeal.Val

open Cert.KernelIdeal Cert.KernelIdeal.Gen
open Idealize.ShloMosaic Idealize.ShloMosaic.ValueIdx
open scoped BigOperators

/-- The accumulator's starting value is zero at every entry. -/
theorem pool_zero_apply (i : S64x128.Idx) : k11_pay1 (F := Ideal) i = (0 : EReal) := by
  unfold k11_pay1
  simp only [shapeCast_self]
  show Ideal.ofBits .f32 0x00000000#32 = 0
  exact Ideal.ofBits_zero_f32

/-! ## The four axis equations of the product's dimension numbers -/

theorem pool_lhs_0 (i : S64x128.Idx) (q : dot_S64x5888_S5888x128_S64x128_1_0_0_1_n_n.contr.Idx) :
    (dot_S64x5888_S5888x128_S64x128_1_0_0_1_n_n.lhsIdx i q 0).val = (i 0).val := by
  unfold DotDims.lhsIdx
  rw [dif_neg (show ¬(0 : Fin S64x5888.rank) ∈ dot_S64x5888_S5888x128_S64x128_1_0_0_1_n_n.lhsBatch by decide),
    dif_pos (show (0 : Fin S64x5888.rank) ∈ dot_S64x5888_S5888x128_S64x128_1_0_0_1_n_n.lhsNonContracting by decide)]
  rfl

theorem pool_lhs_1 (i : S64x128.Idx) (q : dot_S64x5888_S5888x128_S64x128_1_0_0_1_n_n.contr.Idx) :
    (dot_S64x5888_S5888x128_S64x128_1_0_0_1_n_n.lhsIdx i q 1).val = (q ⟨0, by decide⟩).val :=
  dot_S64x5888_S5888x128_S64x128_1_0_0_1_n_n.lhsIdx_val_of_single rfl i q

theorem pool_rhs_0 (i : S64x128.Idx) (q : dot_S64x5888_S5888x128_S64x128_1_0_0_1_n_n.contr.Idx) :
    (dot_S64x5888_S5888x128_S64x128_1_0_0_1_n_n.rhsIdx i q 0).val = (q ⟨0, by decide⟩).val :=
  dot_S64x5888_S5888x128_S64x128_1_0_0_1_n_n.rhsIdx_val_of_single rfl i q

theorem pool_rhs_1 (i : S64x128.Idx) (q : dot_S64x5888_S5888x128_S64x128_1_0_0_1_n_n.contr.Idx) :
    (dot_S64x5888_S5888x128_S64x128_1_0_0_1_n_n.rhsIdx i q 1).val = (i 1).val := by
  unfold DotDims.rhsIdx
  rw [dif_neg (show ¬(1 : Fin S5888x128.rank) ∈ dot_S64x5888_S5888x128_S64x128_1_0_0_1_n_n.rhsBatch by decide),
    dif_pos (show (1 : Fin S5888x128.rank) ∈ dot_S64x5888_S5888x128_S64x128_1_0_0_1_n_n.rhsNonContracting by decide)]
  rfl

/-- One step of the accumulation: entry (g, j) grows by the sum over the block's 5888 contracted
positions of the left block's row g times the right block's column j. -/
theorem pool_step_apply (acc : Vec Ideal S64x128 .f32) (x0 : Vec Ideal S64x5888 .bf16) (x1 : Vec Ideal S5888x128 .bf16)
    (g : Fin 64) (j : Fin 128) :
    k11_pay2 (F := Ideal) acc x0 x1 (ix2 g j)
      = (acc (ix2 g j) : EReal) + ∑ k : Fin 5888, (x0 (ix2 g k) : EReal) * (x1 (ix2 k j) : EReal) := by
  unfold k11_pay2
  simp only [shapeCast_self]
  rw [addf_apply]
  simp only [matmul]
  rw [Ideal.matmul_constant_zero_apply,
    ← Equiv.sum_comp (contrEquiv1 dot_S64x5888_S5888x128_S64x128_1_0_0_1_n_n 5888 rfl rfl).symm]
  refine congrArg (acc (ix2 g j) + ·) (Finset.sum_congr rfl fun k _ => ?_)
  have hk := contrEquiv1_symm_val dot_S64x5888_S5888x128_S64x128_1_0_0_1_n_n 5888 rfl rfl k
  have el : dot_S64x5888_S5888x128_S64x128_1_0_0_1_n_n.lhsIdx (ix2 g j)
      ((contrEquiv1 dot_S64x5888_S5888x128_S64x128_1_0_0_1_n_n 5888 rfl rfl).symm k) = ix2 g k :=
    funext fun a => Fin.ext (by
      match a with
      | ⟨0, _⟩ => exact pool_lhs_0 _ _
      | ⟨1, _⟩ => exact (pool_lhs_1 _ _).trans hk)
  have er : dot_S64x5888_S5888x128_S64x128_1_0_0_1_n_n.rhsIdx (ix2 g j)
      ((contrEquiv1 dot_S64x5888_S5888x128_S64x128_1_0_0_1_n_n 5888 rfl rfl).symm k) = ix2 k j :=
    funext fun a => Fin.ext (by
      match a with
      | ⟨0, _⟩ => exact (pool_rhs_0 _ _).trans hk
      | ⟨1, _⟩ => exact pool_rhs_1 _ _)
  rw [el, er]

end Cert.KernelIdeal.Val

end
-- ==== Proof.KV.PoolSum.lean ====
import Idealize.ShloMosaic.Lib.ValueIdx
import Mathlib.Algebra.BigOperators.Fin

/-!
# The pooling sum, as pure arithmetic on the extended reals

Two facts about finite sums, with no program in them.

* A sum over the first B·m naturals is the sum, block by block, of m blocks of B terms.  An
  accumulator that starts at zero and adds one block per step therefore holds, after the last of its
  seventeen steps, the sum over all 17 · 5888 = 100096 positions.
* A matrix of zeros and ones with a one at (g, n) exactly when node n belongs to graph g, padded
  with zero columns past the last node, times a matrix of node rows padded with zero rows, is at
  (g, j) the sum of the entries (n, j) over the nodes n of graph g: a segment sum.

Addition of extended reals is commutative and associative, and 0 · x = 0, 1 · x = x hold for every
extended real, so no finiteness is needed anywhere.
-/

open scoped BigOperators

namespace Cert.KernelIdeal.Val

open Idealize.ShloMosaic Idealize.ShloMosaic.ValueIdx

section Generic
variable {M : Type*} [AddCommMonoid M]

/-- The first B·m terms, grouped into m consecutive blocks of B. -/
theorem sum_range_blocks (F : ℕ → M) (B : ℕ) :
    ∀ m : ℕ, ∑ n ∈ Finset.range (B * m), F n = ∑ k ∈ Finset.range m, ∑ q ∈ Finset.range B, F (B * k + q)
  | 0 => by simp
  | m + 1 => by
    rw [Nat.mul_succ, Finset.sum_range_add, sum_range_blocks F B m, Finset.sum_range_succ]

/-- An accumulator that starts from zero plus the first block and adds one block per step holds,
after step n, the sum of the blocks 0, …, n. -/
theorem acc_eq_sum_blocks (N : ℕ) (a blk : ℕ → M) (h0 : a 0 = 0 + blk 0)
    (hs : ∀ n, n < N → a (n + 1) = a n + blk (n + 1)) :
    ∀ n, n ≤ N → a n = ∑ k ∈ Finset.range (n + 1), blk k
  | 0, _ => by rw [h0, zero_add, Finset.sum_range_one]
  | n + 1, hn => by
    rw [hs n (by omega), acc_eq_sum_blocks N a blk h0 hs n (by omega), ← Finset.sum_range_succ]

end Generic

/-- Seventeen blocks of 5888 positions: the accumulator's last value at (g, j) is the sum over all
100096 positions n of the left matrix at (g, n) times the right matrix at (n, j). -/
theorem pool_acc_closed (L : (⟨2, ![64, 100096]⟩ : Shape).Idx → EReal) (R : (⟨2, ![100096, 128]⟩ : Shape).Idx → EReal)
    (g : Fin 64) (j : Fin 128) (a blk : ℕ → EReal)
    (h0 : a 0 = 0 + blk 0) (hs : ∀ n, n < 16 → a (n + 1) = a n + blk (n + 1))
    (hblk : ∀ (k : ℕ) (hk : k < 17), blk k = ∑ q : Fin 5888,
      L (ix2 g ⟨5888 * k + q.val, by have := q.isLt; omega⟩) * R (ix2 ⟨5888 * k + q.val, by have := q.isLt; omega⟩ j)) :
    a 16 = ∑ n : Fin 100096, L (ix2 g n) * R (ix2 n j) := by
  obtain ⟨F, hF⟩ : ∃ F : ℕ → EReal, ∀ (n : ℕ) (h : n < 100096), F n = L (ix2 g ⟨n, h⟩) * R (ix2 ⟨n, h⟩ j) :=
    ⟨fun n => if h : n < 100096 then L (ix2 g ⟨n, h⟩) * R (ix2 ⟨n, h⟩ j) else 0, fun n h => dif_pos h⟩
  have hR : ∑ n : Fin 100096, L (ix2 g n) * R (ix2 n j) = ∑ n ∈ Finset.range 100096, F n := by
    rw [Finset.sum_range]
    exact Finset.sum_congr rfl fun n _ => (hF n.val n.isLt).symm
  have hB : ∀ k, k < 17 → blk k = ∑ q ∈ Finset.range 5888, F (5888 * k + q) := by
    intro k hk
    rw [hblk k hk, Finset.sum_range]
    exact Finset.sum_congr rfl fun q _ => (hF _ _).symm
  rw [hR, acc_eq_sum_blocks 16 a blk h0 hs 16 (le_refl _), show (100096 : ℕ) = 5888 * 17 from rfl,
    sum_range_blocks F 5888 17]
  exact Finset.sum_congr rfl fun k hk => hB k (Finset.mem_range.mp hk)

/-- A small non-negative word read signed: the word of g is b exactly when b read signed is g. -/
theorem word_eq_iff_toInt (g : Fin 64) (b : BitVec 32) : BitVec.ofNat 32 g.val = b ↔ b.toInt = (g.val : Int) := by
  have hg := g.isLt
  have hsmall : (BitVec.ofNat 32 g.val).toInt = (g.val : Int) := by
    rw [BitVec.toInt_eq_msb_cond, BitVec.msb_eq_false_iff_two_mul_lt.mpr (by simp [BitVec.toNat_ofNat]; omega)]
    simp [BitVec.toNat_ofNat]; omega
  constructor
  · rintro rfl; exact hsmall
  · intro h; exact BitVec.eq_of_toInt_eq (hsmall.trans h.symm)

/-- The membership matrix times the node rows is the segment sum: the padding columns and rows
contribute zero, and a node outside graph g contributes 0 · x = 0. -/
theorem onehot_mul_sum (batch : (⟨1, ![100000]⟩ : Shape).Idx → BitVec 32)
    (y : (⟨2, ![100000, 128]⟩ : Shape).Idx → EReal)
    (L : (⟨2, ![64, 100096]⟩ : Shape).Idx → EReal) (R : (⟨2, ![100096, 128]⟩ : Shape).Idx → EReal)
    (hL : ∀ (g : Fin 64) (n : Fin 100096), L (ix2 g n) =
      if h : n.val < 100000 then (if BitVec.ofNat 32 g.val = batch (ix1 ⟨n.val, h⟩) then (1 : EReal) else 0) else 0)
    (hR : ∀ (n : Fin 100096) (j : Fin 128), R (ix2 n j) = if h : n.val < 100000 then y (ix2 ⟨n.val, h⟩ j) else 0)
    (g : Fin 64) (j : Fin 128) :
    ∑ n : Fin 100096, L (ix2 g n) * R (ix2 n j)
      = ∑ e ∈ Finset.univ.filter (fun e : Fin 100000 => (batch (ix1 e)).toInt = (g.val : Int)), y (ix2 e j) := by
  obtain ⟨G, hG1, hG0⟩ : ∃ G : ℕ → EReal,
      (∀ (n : ℕ) (h : n < 100000), G n = if (batch (ix1 ⟨n, h⟩)).toInt = (g.val : Int) then y (ix2 ⟨n, h⟩ j) else 0)
      ∧ ∀ n : ℕ, ¬ n < 100000 → G n = 0 :=
    ⟨fun n => if h : n < 100000 then (if (batch (ix1 ⟨n, h⟩)).toInt = (g.val : Int) then y (ix2 ⟨n, h⟩ j) else 0) else 0,
      fun n h => dif_pos h, fun n h => dif_neg h⟩
  have hterm : ∀ n : Fin 100096, L (ix2 g n) * R (ix2 n j) = G n.val := by
    intro n
    rw [hL g n, hR n j]
    by_cases h : n.val < 100000
    · rw [dif_pos h, dif_pos h, hG1 n.val h]
      by_cases hb : (batch (ix1 ⟨n.val, h⟩)).toInt = (g.val : Int)
      · rw [if_pos ((word_eq_iff_toInt g _).mpr hb), if_pos hb, one_mul]
      · rw [if_neg (fun hw => hb ((word_eq_iff_toInt g _).mp hw)), if_neg hb, zero_mul]
    · rw [dif_neg h, dif_neg h, hG0 n.val h, zero_mul]
  rw [Finset.sum_congr rfl fun n _ => hterm n, ← Finset.sum_range G,
    show (100096 : ℕ) = 100000 + 96 from rfl, Finset.sum_range_add,
    Finset.sum_eq_zero (s := Finset.range 96) (f := fun x => G (100000 + x)) (fun x _ => hG0 _ (by omega)),
    add_zero, Finset.sum_range, Finset.sum_filter]
  exact Finset.sum_congr rfl fun e _ => hG1 e.val e.isLt

end Cert.KernelIdeal.Val
-- ==== Proof.KV.Pool.lean ====
import proofs.«402750_j37864431681686_1_alg».proof.Proof.KI.R11
import proofs.«402750_j37864431681686_1_alg».proof.Proof.KV.PayPool
import proofs.«402750_j37864431681686_1_alg».proof.Proof.KV.PoolSum

/-!
# The pooling call computes a matrix product

The pooling call walks seventeen grid points.  At point k it multiplies columns 5888·k … 5888·k + 5887
of its left operand (64 × 100096) with the same rows of its right operand (100096 × 128) and adds the
product to an accumulator that starts at zero; after the last point the accumulator is stored to the
output.  So the output at (g, j) is the sum over all 100096 positions n of left(g, n) · right(n, j).
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The index maps over the grid: the left block moves along the columns and the right block along the
rows, both with the point's number. -/
theorem pool_idx_facts : ∀ t : Fin cfg11.N, win11_0.index t (0 : Fin 2) = 0 ∧ win11_0.index t (1 : Fin 2) = t.val
    ∧ win11_1.index t (0 : Fin 2) = t.val ∧ win11_1.index t (1 : Fin 2) = 0 :=
  (by decide +kernel : ∀ t : Fin grid11.N, _)

theorem pool_point_lt (t : Fin cfg11.N) : t.val < 17 := lt_of_lt_of_eq t.isLt N_11

/-- The left block at point t, entry (g, q), is the left operand at column 5888·t + q. -/
theorem left_block_apply (c : Dev nD) (t : Fin cfg11.N) (g : Fin 64) (q : Fin 5888) :
    (iblk11 V c 0 t : S64x5888.Idx → EReal) (ix2 g q)
      = (V c main_v105 : S64x100096.Idx → EReal)
          (ix2 g ⟨5888 * t.val + q.val, by have := pool_point_lt t; have := q.isLt; omega⟩) := by
  obtain ⟨e0, e1, -, -⟩ := pool_idx_facts t
  show (V c main_v105 : S64x100096.Idx → EReal) (((cfg11.win 0).blk t).view.emb (ix2 g q)) = _
  refine congrArg _ (funext fun a => Fin.ext ?_)
  match a with
  | ⟨0, _⟩ => show win11_0.index t (0 : Fin 2) * 64 + 1 * g.val = g.val; omega
  | ⟨1, _⟩ => show win11_0.index t (1 : Fin 2) * 5888 + 1 * q.val = 5888 * t.val + q.val; omega

/-- The right block at point t, entry (q, j), is the right operand at row 5888·t + q. -/
theorem right_block_apply (c : Dev nD) (t : Fin cfg11.N) (q : Fin 5888) (j : Fin 128) :
    (iblk11 V c 1 t : S5888x128.Idx → EReal) (ix2 q j)
      = (V c main_v107 : S100096x128.Idx → EReal)
          (ix2 ⟨5888 * t.val + q.val, by have := pool_point_lt t; have := q.isLt; omega⟩ j) := by
  obtain ⟨-, -, e2, e3⟩ := pool_idx_facts t
  show (V c main_v107 : S100096x128.Idx → EReal) (((cfg11.win 1).blk t).view.emb (ix2 q j)) = _
  refine congrArg _ (funext fun a => Fin.ext ?_)
  match a with
  | ⟨0, _⟩ => show win11_1.index t (0 : Fin 2) * 5888 + 1 * q.val = 5888 * t.val + q.val; omega
  | ⟨1, _⟩ => show win11_1.index t (1 : Fin 2) * 128 + 1 * j.val = j.val; omega

/-- The two blocks of point k, named at their literal shapes. -/
abbrev lblk (c : Dev nD) (k : ℕ) (h : k < cfg11.N) : Vec Ideal S64x5888 .bf16 := iblk11 V c 0 ⟨k, h⟩
abbrev rblk (c : Dev nD) (k : ℕ) (h : k < cfg11.N) : Vec Ideal S5888x128 .bf16 := iblk11 V c 1 ⟨k, h⟩

/-- The accumulator after the last point is the whole product. -/
theorem pool_acc_apply (c : Dev nD) (L : S64x100096.Idx → EReal) (R : S100096x128.Idx → EReal)
    (hL : ∀ i, (V c main_v105 : S64x100096.Idx → EReal) i = L i)
    (hR : ∀ i, (V c main_v107 : S100096x128.Idx → EReal) i = R i) (g : Fin 64) (j : Fin 128) :
    (acc11 V c 16 lt16_11 : S64x128.Idx → EReal) (ix2 g j) = ∑ n : Fin 100096, L (ix2 g n) * R (ix2 n j) := by
  have hN : cfg11.N = 17 := N_11
  obtain ⟨a, ha⟩ : ∃ a : ℕ → EReal, ∀ (n : ℕ) (h : n < cfg11.N),
      a n = (acc11 V c n h : S64x128.Idx → EReal) (ix2 g j) :=
    ⟨fun n => if h : n < cfg11.N then (acc11 V c n h : S64x128.Idx → EReal) (ix2 g j) else 0, fun n h => dif_pos h⟩
  obtain ⟨blk, hb⟩ : ∃ blk : ℕ → EReal, ∀ (k : ℕ) (h : k < cfg11.N),
      blk k = ∑ q : Fin 5888, (lblk V c k h (ix2 g q) : EReal) * (rblk V c k h (ix2 q j) : EReal) :=
    ⟨fun k => if h : k < cfg11.N then ∑ q : Fin 5888, (lblk V c k h (ix2 g q) : EReal) * (rblk V c k h (ix2 q j) : EReal)
      else 0, fun k h => dif_pos h⟩
  rw [← ha 16 lt16_11]
  refine pool_acc_closed L R g j a blk ?_ ?_ ?_
  · have h : 0 < cfg11.N := by omega
    rw [ha 0 h, hb 0 h, acc11_zero, pool_step_apply, pool_zero_apply]
  · intro n hn
    have h1 : n + 1 < cfg11.N := by omega
    rw [ha (n + 1) h1, ha n (Nat.lt_of_succ_lt h1), hb (n + 1) h1, acc11_succ, pool_step_apply]
  · intro k hk
    have h : k < cfg11.N := by omega
    rw [hb k h]
    exact Finset.sum_congr rfl fun q _ => congrArg₂ (· * ·)
      ((left_block_apply V c ⟨k, h⟩ g q).trans (hL _)) ((right_block_apply V c ⟨k, h⟩ q j).trans (hR _))

/-- THE POOLING CALL'S OUTPUT ARRAY, over any contents the call finds in its two operands:
entry (g, j) is the sum over n of left(g, n) · right(n, j). -/
theorem pool_val (c : Dev nD) (L : S64x100096.Idx → EReal) (R : S100096x128.Idx → EReal)
    (hL : ∀ i, (V c main_v105 : S64x100096.Idx → EReal) i = L i)
    (hR : ∀ i, (V c main_v107 : S100096x128.Idx → EReal) i = R i) (g : Fin 64) (j : Fin 128) :
    ((Hand.dat11 (F := Ideal) V c).arrAt 3 cfg11.N : S64x128.Idx → EReal) (ix2 g j)
      = ∑ n : Fin 100096, L (ix2 g n) * R (ix2 n j) := by
  rw [arrAt11_out_whole]
  exact pool_acc_apply V c L R hL hR g j

end Cert.KernelIdeal.Val

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.KV.PoolVal.lean ====
import proofs.«402750_j37864431681686_1_alg».proof.Proof.RefRead
import proofs.«402750_j37864431681686_1_alg».proof.Proof.LibGatherScatter
import proofs.«402750_j37864431681686_1_alg».proof.Proof.KV.PoolSum

/-!
# The matrix product with the membership matrix is the reference's segment sum

The reference pools the node features y by a scatter-add into a zero table: row g of the result
is the sum of the rows n of y whose graph number, read signed, is g.  The kernel program instead
multiplies y (padded with zero rows) by the membership matrix (padded with zero columns).  The two
agree entry by entry.
-/

noncomputable section

namespace Cert.KernelIdeal.Val

open Cert.ReferenceIdeal
open Idealize.ShloMosaic Idealize.ShloMosaic.ValueIdx
open scoped BigOperators

/-- The column of graph numbers the reference scatters by, read at row e. -/
theorem batch_col_apply (x12 : (⟨S100000, .i32⟩ : BufTy).Contents (Elt Ideal)) (e : Fin 100000) :
    Read.val_main_v168 (F := Ideal) x12 (ix2 e (0 : Fin 1)) = x12 (ix1 e) := by
  rw [Read.val_main_v168_apply]
  exact congrArg x12 (funext fun a => match a with | ⟨0, _⟩ => rfl)

/-- The reference's pooled sums at (g, j): the sum of y(e, j) over the nodes e whose graph number,
read signed, is g (the table the scatter adds into is zero). -/
theorem pool_ref_apply (x12 : (⟨S100000, .i32⟩ : BufTy).Contents (Elt Ideal))
    (y : (⟨S100000x128, .f32⟩ : BufTy).Contents (Elt Ideal)) (g : Fin 64) (j : Fin 128) :
    Host.scatterAdd (F := Ideal) (φ := .f32) scatter_S64x128_S100000x1_S100000x128_1_0_0_1 (Read.val_main_v167 (F := Ideal))
        (Read.val_main_v168 (F := Ideal) x12) y (ix2 g j)
      = ∑ e ∈ Finset.univ.filter (fun e : Fin 100000 => (x12 (ix1 e)).toInt = (g.val : Int)), (y (ix2 e j) : EReal) := by
  rw [Cert.Bridge.GS.scatterAdd_apply scatter_S64x128_S100000x1_S100000x128_1_0_0_1 rfl rfl rfl rfl,
    Read.val_main_v167_apply, Read.val_main_cst_22_apply]
  show Ideal.ofBits .f32 0x00000000#32 + _ = _
  rw [Ideal.ofBits_zero_f32, zero_add]
  refine Finset.sum_congr (Finset.filter_congr fun e _ => ?_) fun _ _ => rfl
  rw [batch_col_apply]

/-- THE POOLED SUMS AGREE.  If the left matrix is the padded membership matrix of the graph numbers
x12 and the right matrix is the reference's y padded with zero rows, their product at (g, j) is the
reference's scatter-add at (g, j). -/
theorem pool_eq_ref
    (x0 : (⟨S100000x128, .f32⟩ : BufTy).Contents (Elt Ideal)) (x1 : (⟨S800000x128, .f32⟩ : BufTy).Contents (Elt Ideal))
    (x2 : (⟨S128x128, .f32⟩ : BufTy).Contents (Elt Ideal)) (x3 : (⟨S128, .f32⟩ : BufTy).Contents (Elt Ideal))
    (x4 x5 : (⟨S3x128x128, .f32⟩ : BufTy).Contents (Elt Ideal)) (x6 x7 x8 : (⟨S3x128, .f32⟩ : BufTy).Contents (Elt Ideal))
    (x9 : (⟨S128x128, .f32⟩ : BufTy).Contents (Elt Ideal)) (x10 : (⟨S128, .f32⟩ : BufTy).Contents (Elt Ideal))
    (x11 : (⟨S2x800000, .i32⟩ : BufTy).Contents (Elt Ideal)) (x12 : (⟨S100000, .i32⟩ : BufTy).Contents (Elt Ideal))
    (L : (⟨2, ![64, 100096]⟩ : Shape).Idx → EReal) (R : (⟨2, ![100096, 128]⟩ : Shape).Idx → EReal)
    (hL : ∀ (g : Fin 64) (n : Fin 100096), L (ix2 g n) =
      if h : n.val < 100000 then (if BitVec.ofNat 32 g.val = x12 (ix1 ⟨n.val, h⟩) then (1 : EReal) else 0) else 0)
    (hR : ∀ (n : Fin 100096) (j : Fin 128), R (ix2 n j) =
      if h : n.val < 100000 then (Read.val_main_v166 (F := Ideal) x0 x1 x2 x3 x4 x5 x6 x7 x8 x9 x10 x11 (ix2 ⟨n.val, h⟩ j) : EReal) else 0)
    (g : Fin 64) (j : Fin 128) :
    ∑ n : Fin 100096, L (ix2 g n) * R (ix2 n j)
      = (Read.val_main_v169 (F := Ideal) x0 x1 x2 x3 x4 x5 x6 x7 x8 x9 x10 x11 x12 (ix2 g j) : EReal) := by
  rw [onehot_mul_sum x12 (Read.val_main_v166 (F := Ideal) x0 x1 x2 x3 x4 x5 x6 x7 x8 x9 x10 x11) L R hL hR g j]
  unfold Read.val_main_v169
  rw [pool_ref_apply]

end Cert.KernelIdeal.Val

end
-- ==== Proof.KV.Final.lean ====
import proofs.«402750_j37864431681686_1_alg».proof.Proof.Gen.KernelIdeal.Regions
import proofs.«402750_j37864431681686_1_alg».proof.Proof.RefRead
import Idealize.ShloMosaic.Lib.ValueIdx
import Idealize.ShloMosaic.Lib.Pipeline.Value
import Idealize.ShloMosaic.PureOps.Ideal.Laws

/-!
# The closing division

After the pooling call the program counts the nodes of each graph (a scatter-add of ones by graph
number), takes the maximum of each count with one, lays the 64 numbers along the rows of a
64 × 128 rectangle, and divides the pooled sums by it.  The reference does the same with the same
operations, so the divisor is the reference's own term, and the result is the reference's quotient
as soon as the pooled sums agree.
-/

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : Gen.Outs (F := Ideal))

/-- The graph numbers are an argument no operation writes: after the pooling call they are still the
launch contents. -/
theorem batch_at_final (c : Dev nD) :
    Gen.V27 (F := Ideal) m outs c main_arg12 = m ((c : Thread nD τ).loc main_arg12) :=
  (Gen.V27_of m outs c main_arg12 (by decide)).trans <|
    (Gen.V26_of m outs c main_arg12 (by decide)).trans <|
    (Gen.V25_of m outs c main_arg12 (by decide)).trans <|
    (Gen.V24_of m outs c main_arg12 (by decide)).trans <|
    (Gen.V23_of m outs c main_arg12 (by decide)).trans <|
    (Gen.V22_of m outs c main_arg12 (by decide)).trans <|
    (Gen.V21_of m outs c main_arg12 (by decide)).trans <|
    (Gen.V20_of m outs c main_arg12 (by decide)).trans <|
    (Gen.V19_of m outs c main_arg12 (by decide)).trans <|
    (Gen.V18_of m outs c main_arg12 (by decide)).trans <|
    (Gen.V17_of m outs c main_arg12 (by decide)).trans <|
    (Gen.V16_of m outs c main_arg12 (by decide)).trans <|
    (Gen.V15_of m outs c main_arg12 (by decide)).trans <|
    (Gen.V14_of m outs c main_arg12 (by decide)).trans <|
    (Gen.V13_of m outs c main_arg12 (by decide)).trans <|
    (Gen.V12_of m outs c main_arg12 (by decide)).trans <|
    (Gen.V11_of m outs c main_arg12 (by decide)).trans <|
    (Gen.V10_of m outs c main_arg12 (by decide)).trans <|
    (Gen.V9_of m outs c main_arg12 (by decide)).trans <|
    (Gen.V8_of m outs c main_arg12 (by decide)).trans <|
    (Gen.V7_of m outs c main_arg12 (by decide)).trans <|
    (Gen.V6_of m outs c main_arg12 (by decide)).trans <|
    (Gen.V5_of m outs c main_arg12 (by decide)).trans <|
    (Gen.V4_of m outs c main_arg12 (by decide)).trans <|
    (Gen.V3_of m outs c main_arg12 (by decide)).trans <|
    (Gen.V2_of m outs c main_arg12 (by decide)).trans <|
    (Gen.V1_of m c main_arg12 (by decide)).trans rfl

/-- The pooling call's output is what the call left there. -/
theorem sums_at_final (c : Dev nD) : Gen.V27 (F := Ideal) m outs c main_v108 = outs 27 main_v108 c := by
  simp only [Gen.V27, Function.update_self]

/-- The divisor as the kernel program builds it from graph numbers b: per graph the number of its
nodes, at least one, constant along each row. -/
abbrev divisorK (b : S100000.Idx → BitVec 32) : S64x128.Idx → EReal :=
  broadcastInDim S64x128 ![0, 1] bcast_S64x1_S64x128_0_1
    (broadcastInDim S64x1 ![0] bcast_S64_S64x1_0
      (maximumf (F := Ideal)
        (Host.scatterAdd scatter_S64_S100000x1_S100000_n_0_0_1
          (broadcastInDim S64 ![] bcast_S_S64 (constant (F := Ideal) S_ .f32 0x00000000#32))
          (broadcastInDim S100000x1 ![0] bcast_S100000_S100000x1_0 b)
          (broadcastInDim S100000 ![] bcast_S_S100000 (constant (F := Ideal) S_ .f32 0x3F800000#32)))
        (broadcastInDim S64 ![] bcast_S_S64 (constant (F := Ideal) S_ .f32 0x3F800000#32))))

/-- The program's result array as a term: the pooled sums divided by the divisor. -/
theorem final_term (c : Dev nD) :
    (Gen.V28 (F := Ideal) m outs c main_v117 : S64x128.Idx → EReal)
      = Host.divf (F := Ideal) (s := S64x128) (φ := .f32) (outs 27 main_v108 c)
          (divisorK (m ((c : Thread nD τ).loc main_arg12))) := by
  dsimp only [Gen.V28]
  after_results
  rw [sums_at_final, batch_at_final]

/-- The kernel program's divisor is the reference's: the two programs name the same operations with the
same dimension numbers. -/
theorem divisor_eq_ref (b : S100000.Idx → BitVec 32) :
    divisorK b = Cert.ReferenceIdeal.Read.val_main_v177 (F := Ideal) b := rfl

/-- THE RESULT at an index, over whatever the pooling call left: the quotient of the pooled sum by the
reference's divisor. -/
theorem final_apply (c : Dev nD) (S : S64x128.Idx → EReal)
    (hS : ∀ i, (outs 27 main_v108 c : S64x128.Idx → EReal) i = S i) (i : S64x128.Idx) :
    (Gen.V28 (F := Ideal) m outs c main_v117 : S64x128.Idx → EReal) i
      = FloatOps.hostDivf (F := Ideal) (φ := .f32) (S i)
          (Cert.ReferenceIdeal.Read.val_main_v177 (F := Ideal) (m ((c : Thread nD τ).loc main_arg12)) i) := by
  rw [final_term, divisor_eq_ref, ← hS i]
  rfl

end Cert.KernelIdeal.Val

end
-- ==== Proof.KV.PoolAll.lean ====
import proofs.«402750_j37864431681686_1_alg».proof.Proof.KI.Outs
import proofs.«402750_j37864431681686_1_alg».proof.Proof.KV.PoolHost
import proofs.«402750_j37864431681686_1_alg».proof.Proof.KV.Pool
import proofs.«402750_j37864431681686_1_alg».proof.Proof.KV.PoolVal
import proofs.«402750_j37864431681686_1_alg».proof.Proof.KV.Final

/-!
# From the node features to the program's result

The last stage of the program, put together.  Given that the array the pooling stretch starts from
(the node features y, left by the call before) agrees with the reference's y, the program's result
agrees with the reference's result entry by entry: the host code builds the membership matrix and
pads y; the pooling call multiplies them; the product is the reference's segment sum; and the
closing division divides by the reference's own divisor.
-/

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ)

/-- The pooling call's output is the reference's pooled sums, once y agrees. -/
theorem pooled_sums_eq_ref (c : Dev nD)
    (x0 : (⟨Cert.ReferenceIdeal.S100000x128, .f32⟩ : BufTy).Contents (Elt Ideal)) (x1 : (⟨Cert.ReferenceIdeal.S800000x128, .f32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 x5 : (⟨Cert.ReferenceIdeal.S3x128x128, .f32⟩ : BufTy).Contents (Elt Ideal)) (x6 x7 x8 : (⟨Cert.ReferenceIdeal.S3x128, .f32⟩ : BufTy).Contents (Elt Ideal))
    (x9 : (⟨Cert.ReferenceIdeal.S128x128, .f32⟩ : BufTy).Contents (Elt Ideal)) (x10 : (⟨Cert.ReferenceIdeal.S128, .f32⟩ : BufTy).Contents (Elt Ideal))
    (x11 : (⟨Cert.ReferenceIdeal.S2x800000, .i32⟩ : BufTy).Contents (Elt Ideal)) (x12 : (⟨Cert.ReferenceIdeal.S100000, .i32⟩ : BufTy).Contents (Elt Ideal))
    (hb : (m ((c : Thread nD τ).loc main_arg12) : S100000.Idx → BitVec 32) = x12)
    (hy : ∀ i, (Hand.o22 (F := Ideal) m c : S100000x128.Idx → EReal) i
      = Cert.ReferenceIdeal.Read.val_main_v166 (F := Ideal) x0 x1 x2 x3 x4 x5 x6 x7 x8 x9 x10 x11 i)
    (i : S64x128.Idx) :
    (Hand.outs (F := Ideal) m 27 main_v108 c : S64x128.Idx → EReal) i
      = Cert.ReferenceIdeal.Read.val_main_v169 (F := Ideal) x0 x1 x2 x3 x4 x5 x6 x7 x8 x9 x10 x11 x12 i := by
  obtain ⟨g, j, rfl⟩ : ∃ (g : Fin 64) (j : Fin 128), i = ix2 g j := ⟨i 0, i 1, eq_ix2 i⟩
  rw [Hand.outs_27]
  show ((Hand.dat11 (F := Ideal) (Hand.atTc (Hand.U26 m)) c).arrAt 3 cfg11.N : S64x128.Idx → EReal) (ix2 g j) = _
  rw [pool_val (Hand.atTc (Hand.U26 m)) c
    (Gen.V26 (F := Ideal) m (Hand.outs m) c main_v105) (Gen.V26 (F := Ideal) m (Hand.outs m) c main_v107)
    (fun i => by rw [Hand.V_eq_26]) (fun i => by rw [Hand.V_eq_26]) g j]
  refine pool_eq_ref x0 x1 x2 x3 x4 x5 x6 x7 x8 x9 x10 x11 x12 _ _ (fun g n => ?_) (fun n j => ?_) g j
  · rw [onehot_apply, hb]
  · rw [rows_apply]
    refine dite_congr rfl (fun h => ?_) (fun _ => rfl)
    rw [Hand.outs_22]
    exact hy _

/-- THE PROGRAM'S RESULT is the reference's, entry by entry, once y agrees. -/
theorem result_eq_ref (c : Dev nD)
    (x0 : (⟨Cert.ReferenceIdeal.S100000x128, .f32⟩ : BufTy).Contents (Elt Ideal)) (x1 : (⟨Cert.ReferenceIdeal.S800000x128, .f32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 x5 : (⟨Cert.ReferenceIdeal.S3x128x128, .f32⟩ : BufTy).Contents (Elt Ideal)) (x6 x7 x8 : (⟨Cert.ReferenceIdeal.S3x128, .f32⟩ : BufTy).Contents (Elt Ideal))
    (x9 : (⟨Cert.ReferenceIdeal.S128x128, .f32⟩ : BufTy).Contents (Elt Ideal)) (x10 : (⟨Cert.ReferenceIdeal.S128, .f32⟩ : BufTy).Contents (Elt Ideal))
    (x11 : (⟨Cert.ReferenceIdeal.S2x800000, .i32⟩ : BufTy).Contents (Elt Ideal)) (x12 : (⟨Cert.ReferenceIdeal.S100000, .i32⟩ : BufTy).Contents (Elt Ideal))
    (hb : (m ((c : Thread nD τ).loc main_arg12) : S100000.Idx → BitVec 32) = x12)
    (hy : ∀ i, (Hand.o22 (F := Ideal) m c : S100000x128.Idx → EReal) i
      = Cert.ReferenceIdeal.Read.val_main_v166 (F := Ideal) x0 x1 x2 x3 x4 x5 x6 x7 x8 x9 x10 x11 i)
    (i : S64x128.Idx) :
    (Gen.V28 (F := Ideal) m (Hand.outs m) c main_v117 : S64x128.Idx → EReal) i
      = Cert.ReferenceIdeal.Read.val_main_v178 (F := Ideal) x0 x1 x2 x3 x4 x5 x6 x7 x8 x9 x10 x11 x12 i := by
  rw [final_apply m (Hand.outs m) c (Cert.ReferenceIdeal.Read.val_main_v169 (F := Ideal) x0 x1 x2 x3 x4 x5 x6 x7 x8 x9 x10 x11 x12)
    (pooled_sums_eq_ref m c x0 x1 x2 x3 x4 x5 x6 x7 x8 x9 x10 x11 x12 hb hy) i, hb]
  rfl

/-- The same over the launch contents themselves: with every argument of the reference read off the
launch memory, the last valuation of the program holds the reference's result in the result array. -/
theorem pool_all (c : Dev nD)
    (hY : ∀ i, (Hand.o22 (F := Ideal) m c : S100000x128.Idx → EReal) i
      = Cert.ReferenceIdeal.Read.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i)
    (i : S64x128.Idx) :
    (Hand.U28 (F := Ideal) m c main_v117 : S64x128.Idx → EReal) i
      = Cert.ReferenceIdeal.Read.val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i := by
  rw [← Hand.V_eq_28]
  exact result_eq_ref m c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) rfl hY i

end Cert.KernelIdeal.Val

end
-- ==== Proof.KV.Chain4.lean ====
import proofs.«402750_j37864431681686_1_alg».proof.Proof.KV.Chain3
import proofs.«402750_j37864431681686_1_alg».proof.Proof.KV.MM10
import proofs.«402750_j37864431681686_1_alg».proof.Proof.KV.PoolAll

/-! # The whole program: its result is the reference's result

After the third layer the program projects the node features once more (a matrix product with a bias row), pools them
per graph by a matrix product with the membership matrix, and divides by the node counts. The output projection is
named here by the third layer's result; the pooling and the division were joined to it already. Together with the three
layers this gives the program's result array, on every core, as the reference's result of the launch contents of the
argument buffers. -/

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The output projection is the reference's. -/
theorem step_o22 (c : Dev nD) : ∀ i, (Hand.o22 m c : S100000x128.Idx → EReal) i
    = Cert.ReferenceIdeal.Read.val_main_v166 (F := Ideal) (a0 m c) (a1 m c) (a2 m c) (a3 m c) (a4 m c) (a5 m c) (a6 m c) (a7 m c) (a8 m c) (a9 m c) (a10 m c) (a11 m c) i := by
  intro i
  have h := mm10_ref (Hand.atTc (Hand.U21 m)) c (Cert.ReferenceIdeal.Read.val_main_v162 (F := Ideal) (a0 m c) (a1 m c) (a2 m c) (a3 m c) (a4 m c) (a5 m c) (a6 m c) (a7 m c) (a8 m c) (a11 m c)) (a9 m c) (a10 m c)
    (fun i => by
      show (Hand.U21 m c main_v97 : S100000x128.Idx → EReal) i = _
      rw [entry_x21]; exact step_o20 m c i)
    (fun i => congrFun (entry_outProj21 m c) i)
    (fun j => by
      show (Hand.U21 m c main_v98 : S1x128.Idx → EReal) (ix2 (0 : Fin 1) j) = _
      rw [← Hand.V_eq_21]; exact hostW_v98_apply m _ c 0 j) i
  rw [Cert.ReferenceIdeal.Read.val_main_v166_apply]
  unfold Cert.ReferenceIdeal.Read.val_main_v163
  exact h

/-- THE PROGRAM'S RESULT, entry by entry: the reference's result of the launch contents of the argument buffers. -/
theorem chain_apply (c : Dev nD) (i : S64x128.Idx) :
    (Hand.U28 m c main_v117 : S64x128.Idx → EReal) i
      = Cert.ReferenceIdeal.Read.val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i :=
  pool_all m c (step_o22 m c) i

/-- THE PROGRAM'S RESULT as an array. -/
theorem chain (c : Dev nD) :
    (Hand.U28 m c main_v117 : S64x128.Idx → EReal)
      = Cert.ReferenceIdeal.Read.val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  funext (chain_apply m c)

end Cert.KernelIdeal.Val

end
-- ==== Proof.lean ====
/-
  The certificate of a three-layer graph-convolution encoder with per-graph mean pooling.

  Both programs compute, over the extended reals,
      x₀ = A·W_in + b_in,
      for i = 0, 1, 2:   h = x·W_i,   g = E·V_i,   agg[n] = Σ_{e : dst e = n} h[src e] ⊙ g[e],
                         t = max(agg + b_i, 0)  (+ x for i ≥ 1),   x ← ((t − mean t) · rsqrt(var t + ε)) ⊙ s_i + c_i   (row by row),
      y = x·W_out + b_out,   out[k] = (Σ_{n : batch n = k} y[n]) / max(#{n : batch n = k}, 1).
  The kernel program tiles every matrix product over row blocks (one column block of the contraction per grid
  point, a zero accumulator, the bias added after the last block), runs relu, the residual and the row
  normalisation on row blocks, and takes the pooled sums as a product with the 0/1 membership matrix, accumulated
  over seventeen column blocks of a zero-padded node axis; the gathers, scatter-adds, the counts and the final
  quotient are the same host operations in both programs.  Over the extended reals a change of float format is the
  identity, a product into a zero accumulator is the plain sum, 0·x = 0 and 1·x = x for every x, and sums may be
  regrouped, so each stage of the kernel program is the reference's stage: the chain of these equalities is
  `Cert.KernelIdeal.Val.chain`.  Neither law used needs finiteness, so the precondition is never opened.

  The frames: each kernel region runs from its entry contents to its exit contents (the body's triple at every
  grid point, the proof data of each pipeline), the host stretches in between are read as the composition of
  their operations, and no operation writes an argument.  The reference's run is read stage by stage.
-/
import proofs.«402750_j37864431681686_1_alg».proof.Defs
import proofs.«402750_j37864431681686_1_alg».proof.Proof.Gen.Kernel
import proofs.«402750_j37864431681686_1_alg».proof.Proof.Gen.KernelIdeal
import proofs.«402750_j37864431681686_1_alg».proof.Proof.Gen.ReferenceIdeal
import proofs.«402750_j37864431681686_1_alg».proof.Proof.Gen.Pre_finite_inputs
import proofs.«402750_j37864431681686_1_alg».proof.Proof.K.Run
import proofs.«402750_j37864431681686_1_alg».proof.Proof.KI.Run
import proofs.«402750_j37864431681686_1_alg».proof.Proof.RefRun
import proofs.«402750_j37864431681686_1_alg».proof.Proof.KV.Chain4
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end, faults nowhere and leaves its arguments as launched. -/
theorem frame_kernel [Cert.Kernel.Facts] [Cert.Pre_finite_inputs.Facts] : Cert.frame_Kernel :=
  fun m ρ _ => Cert.Kernel.Hand.frame m ρ

/-- The same for the idealized program. -/
theorem frame_kernelIdeal [Cert.KernelIdeal.Facts] [Cert.Pre_finite_inputs.Facts] : Cert.frame_KernelIdeal :=
  fun m ρ _ => Cert.KernelIdeal.Hand.frame m ρ

/-- The reference's run, its result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Hand.ref_run (F := Ideal) m ρ)

/-- From memories agreeing on the arguments both programs end with the same pooled means: the kernel program's
    result buffer is the reference's last stage of the arguments (`chain`), and so is the reference's own. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Hand.ref_run (F := Ideal) m' ρ')
  obtain ⟨h0, h1, h2, h3, h4, h5, h6, h7, h8, h9, h10, h11, h12⟩ := hagree c
  rw [h0, h1, h2, h3, h4, h5, h6, h7, h8, h9, h10, h11, h12]
  exact (Cert.KernelIdeal.Val.chain m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
